-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S128x3x128 : Shape := ⟨3, ![128, 3, 128]⟩
abbrev S128x3x64 : Shape := ⟨3, ![128, 3, 64]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S16x512 : Shape := ⟨2, ![16, 512]⟩
abbrev S2x16x32768 : Shape := ⟨3, ![2, 16, 32768]⟩
abbrev S1x16x32768 : Shape := ⟨3, ![1, 16, 32768]⟩
abbrev S16x32768 : Shape := ⟨2, ![16, 32768]⟩
abbrev S16x512x64 : Shape := ⟨3, ![16, 512, 64]⟩
abbrev S512x16x64 : Shape := ⟨3, ![512, 16, 64]⟩
abbrev S8192x64 : Shape := ⟨2, ![8192, 64]⟩
abbrev S512x16 : Shape := ⟨2, ![512, 16]⟩
abbrev S512x16x1 : Shape := ⟨3, ![512, 16, 1]⟩
abbrev S512x1024 : Shape := ⟨2, ![512, 1024]⟩
abbrev S512x16x195 : Shape := ⟨3, ![512, 16, 195]⟩
abbrev S8192x195 : Shape := ⟨2, ![8192, 195]⟩
abbrev S8192x128 : Shape := ⟨2, ![8192, 128]⟩
abbrev S512x16x384 : Shape := ⟨3, ![512, 16, 384]⟩
abbrev S8192x384 : Shape := ⟨2, ![8192, 384]⟩

abbrev nBuf : Space → Nat
  | .hbm => 92
  | .vmem => 19
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S65x3x128, .bf16⟩
  | .hbm, ⟨15, _⟩ => ⟨S1x3x128, .bf16⟩
  | .hbm, ⟨16, _⟩ => ⟨S3x1x128, .bf16⟩
  | .hbm, ⟨17, _⟩ => ⟨S64x3x128, .bf16⟩
  | .hbm, ⟨18, _⟩ => ⟨S3x64x128, .bf16⟩
  | .hbm, ⟨19, _⟩ => ⟨S65x3x64, .f32⟩
  | .hbm, ⟨20, _⟩ => ⟨S65x3x64, .bf16⟩
  | .hbm, ⟨21, _⟩ => ⟨S1x3x64, .bf16⟩
  | .hbm, ⟨22, _⟩ => ⟨S3x1x64, .bf16⟩
  | .hbm, ⟨23, _⟩ => ⟨S64x3x64, .bf16⟩
  | .hbm, ⟨24, _⟩ => ⟨S3x64x64, .bf16⟩
  | .hbm, ⟨25, _⟩ => ⟨S128x3x128, .f32⟩
  | .hbm, ⟨26, _⟩ => ⟨S128x3x128, .bf16⟩
  | .hbm, ⟨27, _⟩ => ⟨S64x3x128, .bf16⟩
  | .hbm, ⟨28, _⟩ => ⟨S3x64x128, .bf16⟩
  | .hbm, ⟨29, _⟩ => ⟨S64x3x128, .bf16⟩
  | .hbm, ⟨30, _⟩ => ⟨S3x64x128, .bf16⟩
  | .hbm, ⟨31, _⟩ => ⟨S128x3x64, .f32⟩
  | .hbm, ⟨32, _⟩ => ⟨S128x3x64, .bf16⟩
  | .hbm, ⟨33, _⟩ => ⟨S64x3x64, .bf16⟩
  | .hbm, ⟨34, _⟩ => ⟨S3x64x64, .bf16⟩
  | .hbm, ⟨35, _⟩ => ⟨S64x3x64, .bf16⟩
  | .hbm, ⟨36, _⟩ => ⟨S3x64x64, .bf16⟩
  | .hbm, ⟨37, _⟩ => ⟨S1x64x128, .bf16⟩
  | .hbm, ⟨38, _⟩ => ⟨S64x128, .bf16⟩
  | .hbm, ⟨39, _⟩ => ⟨S1x64x128, .bf16⟩
  | .hbm, ⟨40, _⟩ => ⟨S64x128, .bf16⟩
  | .hbm, ⟨41, _⟩ => ⟨S1x64x128, .bf16⟩
  | .hbm, ⟨42, _⟩ => ⟨S64x128, .bf16⟩
  | .hbm, ⟨43, _⟩ => ⟨S1x1x128, .bf16⟩
  | .hbm, ⟨44, _⟩ => ⟨S1x128, .bf16⟩
  | .hbm, ⟨45, _⟩ => ⟨S1x1x128, .bf16⟩
  | .hbm, ⟨46, _⟩ => ⟨S1x128, .bf16⟩
  | .hbm, ⟨47, _⟩ => ⟨S1x1x128, .bf16⟩
  | .hbm, ⟨48, _⟩ => ⟨S1x128, .bf16⟩
  | .hbm, ⟨49, _⟩ => ⟨S195x128, .bf16⟩
  | .hbm, ⟨50, _⟩ => ⟨S1x64x64, .bf16⟩
  | .hbm, ⟨51, _⟩ => ⟨S64x64, .bf16⟩
  | .hbm, ⟨52, _⟩ => ⟨S1x64x64, .bf16⟩
  | .hbm, ⟨53, _⟩ => ⟨S64x64, .bf16⟩
  | .hbm, ⟨54, _⟩ => ⟨S1x64x64, .bf16⟩
  | .hbm, ⟨55, _⟩ => ⟨S64x64, .bf16⟩
  | .hbm, ⟨56, _⟩ => ⟨S1x1x64, .bf16⟩
  | .hbm, ⟨57, _⟩ => ⟨S1x64, .bf16⟩
  | .hbm, ⟨58, _⟩ => ⟨S1x1x64, .bf16⟩
  | .hbm, ⟨59, _⟩ => ⟨S1x64, .bf16⟩
  | .hbm, ⟨60, _⟩ => ⟨S1x1x64, .bf16⟩
  | .hbm, ⟨61, _⟩ => ⟨S1x64, .bf16⟩
  | .hbm, ⟨62, _⟩ => ⟨S195x64, .bf16⟩
  | .hbm, ⟨63, _⟩ => ⟨S1x64x128, .bf16⟩
  | .hbm, ⟨64, _⟩ => ⟨S64x128, .bf16⟩
  | .hbm, ⟨65, _⟩ => ⟨S1x64x128, .bf16⟩
  | .hbm, ⟨66, _⟩ => ⟨S64x128, .bf16⟩
  | .hbm, ⟨67, _⟩ => ⟨S1x64x128, .bf16⟩
  | .hbm, ⟨68, _⟩ => ⟨S64x128, .bf16⟩
  | .hbm, ⟨69, _⟩ => ⟨S1x64x128, .bf16⟩
  | .hbm, ⟨70, _⟩ => ⟨S64x128, .bf16⟩
  | .hbm, ⟨71, _⟩ => ⟨S1x64x128, .bf16⟩
  | .hbm, ⟨72, _⟩ => ⟨S64x128, .bf16⟩
  | .hbm, ⟨73, _⟩ => ⟨S1x64x128, .bf16⟩
  | .hbm, ⟨74, _⟩ => ⟨S64x128, .bf16⟩
  | .hbm, ⟨75, _⟩ => ⟨S384x128, .bf16⟩
  | .hbm, ⟨76, _⟩ => ⟨S1x64x64, .bf16⟩
  | .hbm, ⟨77, _⟩ => ⟨S64x64, .bf16⟩
  | .hbm, ⟨78, _⟩ => ⟨S1x64x64, .bf16⟩
  | .hbm, ⟨79, _⟩ => ⟨S64x64, .bf16⟩
  | .hbm, ⟨80, _⟩ => ⟨S1x64x64, .bf16⟩
  | .hbm, ⟨81, _⟩ => ⟨S64x64, .bf16⟩
  | .hbm, ⟨82, _⟩ => ⟨S1x64x64, .bf16⟩
  | .hbm, ⟨83, _⟩ => ⟨S64x64, .bf16⟩
  | .hbm, ⟨84, _⟩ => ⟨S1x64x64, .bf16⟩
  | .hbm, ⟨85, _⟩ => ⟨S64x64, .bf16⟩
  | .hbm, ⟨86, _⟩ => ⟨S1x64x64, .bf16⟩
  | .hbm, ⟨87, _⟩ => ⟨S64x64, .bf16⟩
  | .hbm, ⟨88, _⟩ => ⟨S384x64, .bf16⟩
  | .hbm, ⟨89, _⟩ => ⟨S1x64, .f32⟩
  | .hbm, ⟨90, _⟩ => ⟨S32x512, .f32⟩
  | .hbm, ⟨91, _⟩ => ⟨S2x32x32768, .f32⟩
  | .local _ .vmem, ⟨0, _⟩ => ⟨S16x512, .f32⟩
  | .local _ .vmem, ⟨1, _⟩ => ⟨S16x512, .f32⟩
  | .local _ .vmem, ⟨2, _⟩ => ⟨S512x512, .f32⟩
  | .local _ .vmem, ⟨3, _⟩ => ⟨S2x16x32768, .f32⟩
  | .local _ .vmem, ⟨4, _⟩ => ⟨S2x16x32768, .f32⟩
  | .local _ .vmem, ⟨5, _⟩ => ⟨S195x128, .bf16⟩
  | .local _ .vmem, ⟨6, _⟩ => ⟨S195x64, .bf16⟩
  | .local _ .vmem, ⟨7, _⟩ => ⟨S128, .f32⟩
  | .local _ .vmem, ⟨8, _⟩ => ⟨S64, .f32⟩
  | .local _ .vmem, ⟨9, _⟩ => ⟨S384x128, .bf16⟩
  | .local _ .vmem, ⟨10, _⟩ => ⟨S384x64, .bf16⟩
  | .local _ .vmem, ⟨11, _⟩ => ⟨S128, .f32⟩
  | .local _ .vmem, ⟨12, _⟩ => ⟨S64, .f32⟩
  | .local _ .vmem, ⟨13, _⟩ => ⟨S1x64, .f32⟩
  | .local _ .vmem, ⟨14, _⟩ => ⟨S1, .f32⟩
  | .local _ .vmem, ⟨15, _⟩ => ⟨S16x512, .f32⟩
  | .local _ .vmem, ⟨16, _⟩ => ⟨S16x512, .f32⟩
  | .local _ .vmem, ⟨17, _⟩ => ⟨S2x16x32768, .f32⟩
  | .local _ .vmem, ⟨18, _⟩ => ⟨S2x16x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77_0 : Ref sig .tc := ⟨.hbm, 90, rfl⟩
abbrev main_v77_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S195x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S195x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x16x32768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S195x128_S65x3x128 : S195x128.ShapeCasts S65x3x128
  bitsLt_bf16_f32 : FTy.bits .bf16 < FTy.bits .f32
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  slices_S3x64x128_S1x64x128_0_0_0 : S3x64x128.Slices ![0, 0, 0] S1x64x128
  shapeCasts_S1x64x128_S64x128 : S1x64x128.ShapeCasts S64x128
  slices_S3x64x128_S1x64x128_1_0_0 : S3x64x128.Slices ![1, 0, 0] S1x64x128
  slices_S3x64x128_S1x64x128_2_0_0 : S3x64x128.Slices ![2, 0, 0] S1x64x128
  slices_S3x1x128_S1x1x128_0_0_0 : S3x1x128.Slices ![0, 0, 0] S1x1x128
  shapeCasts_S1x1x128_S1x128 : S1x1x128.ShapeCasts S1x128
  slices_S3x1x128_S1x1x128_1_0_0 : S3x1x128.Slices ![1, 0, 0] S1x1x128
  slices_S3x1x128_S1x1x128_2_0_0 : S3x1x128.Slices ![2, 0, 0] S1x1x128
  concatenates_S64x128_S64x128_S64x128_S1x128_S1x128_S1x128_S195x128_d0 : Shape.Concatenates [S64x128, S64x128, S64x128, S1x128, S1x128, S1x128] S195x128 0
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  slices_S3x1x64_S1x1x64_0_0_0 : S3x1x64.Slices ![0, 0, 0] S1x1x64
  shapeCasts_S1x1x64_S1x64 : S1x1x64.ShapeCasts S1x64
  slices_S3x1x64_S1x1x64_1_0_0 : S3x1x64.Slices ![1, 0, 0] S1x1x64
  slices_S3x1x64_S1x1x64_2_0_0 : S3x1x64.Slices ![2, 0, 0] S1x1x64
  concatenates_S64x64_S64x64_S64x64_S1x64_S1x64_S1x64_S195x64_d0 : Shape.Concatenates [S64x64, S64x64, S64x64, S1x64, S1x64, S1x64] S195x64 0
  concatenates_S64x128_S64x128_S64x128_S64x128_S64x128_S64x128_S384x128_d0 : Shape.Concatenates [S64x128, S64x128, S64x128, S64x128, S64x128, S64x128] S384x128 0
  concatenates_S64x64_S64x64_S64x64_S64x64_S64x64_S64x64_S384x64_d0 : Shape.Concatenates [S64x64, S64x64, S64x64, S64x64, S64x64, S64x64] S384x64 0
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x16x32768_S1x16x32768_0_0_0 : ∀ a, (![0, 0, 0] : Fin 3 → Nat) a + S1x16x32768.size a ≤ S2x16x32768.size a
  h_S1x16x32768 : 0 < S1x16x32768.numel
  shapeCasts_S1x16x32768_S16x32768 : S1x16x32768.ShapeCasts S16x32768
  shapeCasts_S16x32768_S16x512x64 : S16x32768.ShapeCasts S16x512x64
  transposes_S16x512x64_p1_0_2_S512x16x64 : S16x512x64.Transposes [1, 0, 2] S512x16x64
  shapeCasts_S512x16x64_S8192x64 : S512x16x64.ShapeCasts S8192x64
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  shapeCasts_S512x16_S512x16x1 : S512x16.ShapeCasts S512x16x1
  inb_S195x128_S195x128_0_0 : ∀ a, (![0, 0] : Fin 2 → Nat) a + S195x128.size a ≤ S195x128.size a
  h_S195x128 : 0 < S195x128.numel
  shapeCasts_S195x128_S195x128 : S195x128.ShapeCasts S195x128
  inb_S128_S128_0 : ∀ a, (![0] : Fin 1 → Nat) a + S128.size a ≤ S128.size a
  h_S128 : 0 < S128.numel
  shapeCasts_S8192x64_S512x16x64 : S8192x64.ShapeCasts S512x16x64
  shapeCasts_S512x16x64_S512x1024 : S512x16x64.ShapeCasts S512x1024
  shapeCasts_S512x1024_S512x16x64 : S512x1024.ShapeCasts S512x16x64
  concatenates_S512x16x64_S512x16x64_S512x16x64_S512x16x1_S512x16x1_S512x16x1_S512x16x195_d2 : Shape.Concatenates [S512x16x64, S512x16x64, S512x16x64, S512x16x1, S512x16x1, S512x16x1] S512x16x195 2
  shapeCasts_S512x16x195_S8192x195 : S512x16x195.ShapeCasts S8192x195
  shapeCasts_S128_S1x128 : S128.ShapeCasts S1x128
  broadcasts_S1x128_S8192x128 : S1x128.Broadcasts S8192x128
  slices_S8192x128_o0_0_S8192x64 : S8192x128.Slices ![0, 0] S8192x64
  slices_S8192x128_o0_64_S8192x64 : S8192x128.Slices ![0, 64] S8192x64
  inb_S195x64_S195x64_0_0 : ∀ a, (![0, 0] : Fin 2 → Nat) a + S195x64.size a ≤ S195x64.size a
  h_S195x64 : 0 < S195x64.numel
  shapeCasts_S195x64_S195x64 : S195x64.ShapeCasts S195x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S2x16x32768_S1x16x32768_1_0_0 : ∀ a, (![1, 0, 0] : Fin 3 → Nat) a + S1x16x32768.size a ≤ S2x16x32768.size a
  inb_S384x128_S384x128_0_0 : ∀ a, (![0, 0] : Fin 2 → Nat) a + S384x128.size a ≤ S384x128.size a
  h_S384x128 : 0 < S384x128.numel
  shapeCasts_S384x128_S384x128 : S384x128.ShapeCasts S384x128
  concatenates_S512x16x64_S512x16x64_S512x16x64_S512x16x64_S512x16x64_S512x16x64_S512x16x384_d2 : Shape.Concatenates [S512x16x64, S512x16x64, S512x16x64, S512x16x64, S512x16x64, S512x16x64] S512x16x384 2
  shapeCasts_S512x16x384_S8192x384 : S512x16x384.ShapeCasts S8192x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  transposes_S512x16x64_p1_0_2_S16x512x64 : S512x16x64.Transposes [1, 0, 2] S16x512x64
  shapeCasts_S16x512x64_S16x32768 : S16x512x64.ShapeCasts S16x32768
  shapeCasts_S16x32768_S1x16x32768 : S16x32768.ShapeCasts S1x16x32768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S512x16x64 : S1x1x64.Broadcasts S512x16x64
  reduces_S512x16x64_S512x16 : S512x16x64.Reduces [2] S512x16
  inb_S1_S1_0 : ∀ a, (![0] : Fin 1 → Nat) a + S1.size a ≤ S1.size a
  h_S1 : 0 < S1.numel
  inpos_S1_p0 : ∀ a, (![0] : Fin 1 → Nat) a < S1.size a
  transposes_S512x16_p1_0_S16x512 : S512x16.Transposes [1, 0] S16x512
  dot_S512x512_S512x16_S512x16_1_0_0_1_n_n_wf : DotDims.WF S512x512 S512x16 S512x16 [1] [0] [0] [1] [] []
  dot_S512x512_S512x1024_S512x1024_1_0_0_1_n_n_wf : DotDims.WF S512x512 S512x1024 S512x1024 [1] [0] [0] [1] [] []
  dot_S8192x195_S195x128_S8192x128_1_0_0_1_n_n_wf : DotDims.WF S8192x195 S195x128 S8192x128 [1] [0] [0] [1] [] []
  dot_S8192x195_S195x64_S8192x64_1_0_0_1_n_n_wf : DotDims.WF S8192x195 S195x64 S8192x64 [1] [0] [0] [1] [] []
  dot_S8192x384_S384x128_S8192x128_1_0_0_1_n_n_wf : DotDims.WF S8192x384 S384x128 S8192x128 [1] [0] [0] [1] [] []
  dot_S8192x384_S384x64_S8192x64_1_0_0_1_n_n_wf : DotDims.WF S8192x384 S384x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S32x512.size a
  hwx0_0 : ∀ i : grid0.Coords, EltTy.bits .f32 = 32 ∨ (Rect.block (s := S32x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x32768.size a ≤ S2x32x32768.size a
  hwx0_2 : ∀ i : grid0.Coords, EltTy.bits .f32 = 32 ∨ (Rect.block (s := S2x32x32768) S2x16x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S195x128.size a ≤ S195x128.size a
  hwx0_3 : ∀ i : grid0.Coords, EltTy.bits .bf16 = 32 ∨ (Rect.block (s := S195x128) S195x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S195x64.size a ≤ S195x64.size a
  hwx0_4 : ∀ i : grid0.Coords, EltTy.bits .bf16 = 32 ∨ (Rect.block (s := S195x64) S195x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .bf16 = 32 ∨ (Rect.block (s := S384x128) S384x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x64.size a ≤ S384x64.size a
  hwx0_8 : ∀ i : grid0.Coords, EltTy.bits .bf16 = 32 ∨ (Rect.block (s := S384x64) S384x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x512.size a ≤ S32x512.size a
  hwx0_13 : ∀ i : grid0.Coords, EltTy.bits .f32 = 32 ∨ (Rect.block (s := S32x512) S16x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x16x32768.size a ≤ S2x32x32768.size a
  hwx0_14 : ∀ i : grid0.Coords, EltTy.bits .f32 = 32 ∨ (Rect.block (s := S2x32x32768) S2x16x32768.size (cc0_transform_14 i) (hinb0_14 i)).WholeWords (EltTy.packing .f32)

variable [Facts₀]

def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S8192x195_S195x128_S8192x128_1_0_0_1_n_n : DotDims S8192x195 S195x128 S8192x128 where
  lhsContracting := [1]
  rhsContracting := [0]
  lhsNonContracting := [0]
  rhsNonContracting := [1]
  lhsBatch := []
  rhsBatch := []
  wf := dot_S8192x195_S195x128_S8192x128_1_0_0_1_n_n_wf
def dot_S8192x195_S195x64_S8192x64_1_0_0_1_n_n : DotDims S8192x195 S195x64 S8192x64 where
  lhsContracting := [1]
  rhsContracting := [0]
  lhsNonContracting := [0]
  rhsNonContracting := [1]
  lhsBatch := []
  rhsBatch := []
  wf := dot_S8192x195_S195x64_S8192x64_1_0_0_1_n_n_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf
def dot_S8192x384_S384x64_S8192x64_1_0_0_1_n_n : DotDims S8192x384 S384x64 S8192x64 where
  lhsContracting := [1]
  rhsContracting := [0]
  lhsNonContracting := [0]
  rhsNonContracting := [1]
  lhsBatch := []
  rhsBatch := []
  wf := dot_S8192x384_S384x64_S8192x64_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S195x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S195x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v62) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v75) S384x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v76) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v77_0) S16x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v77_1) S2x16x32768.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KFrame.lean ====
/-
  The frame of the program: its one pipelined region after a stretch of layout-only host operations.

  The host stretch writes fresh tensors only, so every argument array reaches the region as launched. The
  region's body is straight-line: it loads each input window's block whole (the third input's block as its
  two slabs along the leading axis), computes, and stores one whole block into the first output's buffer and
  two slabs tiling the second output's buffer. What each output buffer holds after the body is therefore the
  canonical contents of its stores, a function of the thirteen input blocks alone; the pipeline's proof data
  records that, and the library's frame run gives the final memory, from which the frame statement is read.
-/
import proofs.«108032_g44504451121623_cont_8to1_c_180_30_alg».proof.Proof.Gen.Kernel.Launch
import proofs.«108032_g44504451121623_cont_8to1_c_180_30_alg».proof.Proof.Gen.Kernel.Skeleton
import proofs.«108032_g44504451121623_cont_8to1_c_180_30_alg».proof.Proof.Gen.Kernel.Points
import Idealize.ShloMosaic.Lib.Pipeline.FrameBody
import Idealize.ShloMosaic.Lib.Ring
import Idealize.ShloMosaic.Lib.Tactic

-- membership in a rectangle whose long axis has tens of thousands of coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host stretch. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host stretch writes: its seventy-seven fresh tensors. -/
abbrev hostW : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76]

/-- Each host operation writes one of them. -/
theorem hostOps0_writes : (hostOps0 : List (HloOp τ sig (Elt F))).Forall fun op =>
    op.writes ⊆ (hostW.map (Proc.devRef (τ := τ) .tc)).toFinset := by
  simp only [hostOps0, List.Forall, StableHlo.unary_writes, StableHlo.reshape_writes, StableHlo.nary_writes,
    Finset.singleton_subset_iff, List.mem_toFinset]
  repeat' apply And.intro
  all_goals exact List.mem_map_of_mem (by decide)

/-- No host operation writes argument 0: the region finds it as launched. -/
theorem V_main_arg0 (c : Dev nD) : V m c main_arg0 = m ((c : Thread nD τ).loc main_arg0) :=
  StableHlo.after_of_writes_sub (r := main_arg0) hostOps0 _ hostOps0_writes (by decide)
/-- No host operation writes argument 1: the region finds it as launched. -/
theorem V_main_arg1 (c : Dev nD) : V m c main_arg1 = m ((c : Thread nD τ).loc main_arg1) :=
  StableHlo.after_of_writes_sub (r := main_arg1) hostOps0 _ hostOps0_writes (by decide)
/-- No host operation writes argument 2: the region finds it as launched. -/
theorem V_main_arg2 (c : Dev nD) : V m c main_arg2 = m ((c : Thread nD τ).loc main_arg2) :=
  StableHlo.after_of_writes_sub (r := main_arg2) hostOps0 _ hostOps0_writes (by decide)
/-- No host operation writes argument 3: the region finds it as launched. -/
theorem V_main_arg3 (c : Dev nD) : V m c main_arg3 = m ((c : Thread nD τ).loc main_arg3) :=
  StableHlo.after_of_writes_sub (r := main_arg3) hostOps0 _ hostOps0_writes (by decide)
/-- No host operation writes argument 4: the region finds it as launched. -/
theorem V_main_arg4 (c : Dev nD) : V m c main_arg4 = m ((c : Thread nD τ).loc main_arg4) :=
  StableHlo.after_of_writes_sub (r := main_arg4) hostOps0 _ hostOps0_writes (by decide)
/-- No host operation writes argument 5: the region finds it as launched. -/
theorem V_main_arg5 (c : Dev nD) : V m c main_arg5 = m ((c : Thread nD τ).loc main_arg5) :=
  StableHlo.after_of_writes_sub (r := main_arg5) hostOps0 _ hostOps0_writes (by decide)
/-- No host operation writes argument 6: the region finds it as launched. -/
theorem V_main_arg6 (c : Dev nD) : V m c main_arg6 = m ((c : Thread nD τ).loc main_arg6) :=
  StableHlo.after_of_writes_sub (r := main_arg6) hostOps0 _ hostOps0_writes (by decide)
/-- No host operation writes argument 7: the region finds it as launched. -/
theorem V_main_arg7 (c : Dev nD) : V m c main_arg7 = m ((c : Thread nD τ).loc main_arg7) :=
  StableHlo.after_of_writes_sub (r := main_arg7) hostOps0 _ hostOps0_writes (by decide)
/-- No host operation writes argument 8: the region finds it as launched. -/
theorem V_main_arg8 (c : Dev nD) : V m c main_arg8 = m ((c : Thread nD τ).loc main_arg8) :=
  StableHlo.after_of_writes_sub (r := main_arg8) hostOps0 _ hostOps0_writes (by decide)
/-- No host operation writes argument 9: the region finds it as launched. -/
theorem V_main_arg9 (c : Dev nD) : V m c main_arg9 = m ((c : Thread nD τ).loc main_arg9) :=
  StableHlo.after_of_writes_sub (r := main_arg9) hostOps0 _ hostOps0_writes (by decide)
/-- No host operation writes argument 10: the region finds it as launched. -/
theorem V_main_arg10 (c : Dev nD) : V m c main_arg10 = m ((c : Thread nD τ).loc main_arg10) :=
  StableHlo.after_of_writes_sub (r := main_arg10) hostOps0 _ hostOps0_writes (by decide)
/-- No host operation writes argument 11: the region finds it as launched. -/
theorem V_main_arg11 (c : Dev nD) : V m c main_arg11 = m ((c : Thread nD τ).loc main_arg11) :=
  StableHlo.after_of_writes_sub (r := main_arg11) hostOps0 _ hostOps0_writes (by decide)
/-- No host operation writes argument 12: the region finds it as launched. -/
theorem V_main_arg12 (c : Dev nD) : V m c main_arg12 = m ((c : Thread nD τ).loc main_arg12) :=
  StableHlo.after_of_writes_sub (r := main_arg12) hostOps0 _ hostOps0_writes (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data over the region-entry arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data over the region-entry arrays, a final state with every array of the pipeline at what the
    proof data gives and every other buffer as the region found it has the argument arrays as launched: a staged
    argument is an input window's array, never written back; an argument staged by no window is among the other
    buffers; and no host operation writes an argument. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).1 5).trans (((dats 0 c).arrAt_in 5 rfl _).trans ((hA c 5).trans (V_main_arg4 m c))),
    ((h c).2 main_arg5 (Pipeline.mem_restRefs_of main_arg5 (by decide) (by decide))).trans (V_main_arg5 m c),
    ((h c).1 6).trans (((dats 0 c).arrAt_in 6 rfl _).trans ((hA c 6).trans (V_main_arg6 m c))),
    ((h c).2 main_arg7 (Pipeline.mem_restRefs_of main_arg7 (by decide) (by decide))).trans (V_main_arg7 m c),
    ((h c).1 9).trans (((dats 0 c).arrAt_in 9 rfl _).trans ((hA c 9).trans (V_main_arg8 m c))),
    ((h c).2 main_arg9 (Pipeline.mem_restRefs_of main_arg9 (by decide) (by decide))).trans (V_main_arg9 m c),
    ((h c).1 10).trans (((dats 0 c).arrAt_in 10 rfl _).trans ((hA c 10).trans (V_main_arg10 m c))),
    ((h c).2 main_arg11 (Pipeline.mem_restRefs_of main_arg11 (by decide) (by decide))).trans (V_main_arg11 m c),
    ((h c).1 12).trans (((dats 0 c).arrAt_in 12 rfl _).trans ((hA c 12).trans (V_main_arg12 m c)))⟩

/-- So a run to such final states is a run to the frame statement's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_of m dats hA r h c) h

/-! ## The body's accesses -/

abbrev rS16x512 : Rect S16x512 := Rect.unit (s := S16x512) ![0, 0] S16x512.size inb_S16x512_S16x512_0_0
abbrev rS512x512 : Rect S512x512 := Rect.unit (s := S512x512) ![0, 0] S512x512.size inb_S512x512_S512x512_0_0
abbrev rSlab0 : Rect S2x16x32768 := Rect.unit (s := S2x16x32768) ![0, 0, 0] S1x16x32768.size inb_S2x16x32768_S1x16x32768_0_0_0
abbrev rSlab1 : Rect S2x16x32768 := Rect.unit (s := S2x16x32768) ![1, 0, 0] S1x16x32768.size inb_S2x16x32768_S1x16x32768_1_0_0
abbrev rS195x128 : Rect S195x128 := Rect.unit (s := S195x128) ![0, 0] S195x128.size inb_S195x128_S195x128_0_0
abbrev rS195x64 : Rect S195x64 := Rect.unit (s := S195x64) ![0, 0] S195x64.size inb_S195x64_S195x64_0_0
abbrev rS128 : Rect S128 := Rect.unit (s := S128) ![0] S128.size inb_S128_S128_0
abbrev rS64 : Rect S64 := Rect.unit (s := S64) ![0] S64.size inb_S64_S64_0
abbrev rS384x128 : Rect S384x128 := Rect.unit (s := S384x128) ![0, 0] S384x128.size inb_S384x128_S384x128_0_0
abbrev rS384x64 : Rect S384x64 := Rect.unit (s := S384x64) ![0, 0] S384x64.size inb_S384x64_S384x64_0_0
abbrev rS1x64 : Rect S1x64 := Rect.unit (s := S1x64) ![0, 0] S1x64.size inb_S1x64_S1x64_0_0
abbrev rS1 : Rect S1 := Rect.unit (s := S1) ![0] S1.size inb_S1_S1_0

/-! ## The values the body computes, from the input blocks

    Named as the body names them; each is its payload applied to the loads and the values before it. -/

def val1 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x512 .bf16 :=
  k0_pay5 (View.ld x1 rS512x512)
def val4 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x512 .bf16 :=
  k0_pay6 (View.ld x1 rS512x512)
def val9 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay7 (View.ld x2 rSlab0)
def val18 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay10 (View.ld x0 rS16x512)
def val19 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay11 (View.ld x1 rS512x512) (View.ld x0 rS16x512)
def val20 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay12 (View.ld x1 rS512x512) (View.ld x0 rS16x512)
def val39 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x128 .f32 :=
  k0_pay13 (View.ld x1 rS512x512) (View.ld x2 rSlab0) (View.ld x0 rS16x512) (View.ld x3 rS195x128)
def val41 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x128 .f32 :=
  k0_pay14 (View.ld x5 rS128)
def val74 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay15 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val79 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay16 (View.ld x2 rSlab1)
def val80 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .bf16 :=
  k0_pay17 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val84 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .bf16 :=
  k0_pay18 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val86 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .bf16 :=
  k0_pay19 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val87 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .f32 :=
  k0_pay20 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val90 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay21 (val80 x0 x1 x2 x3 x4 x5 x6 x7 x8 x9 x10 x11 x12)
def val91 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay22 (val86 x0 x1 x2 x3 x4 x5 x6 x7 x8 x9 x10 x11 x12)
def val92 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay23 (val84 x0 x1 x2 x3 x4 x5 x6 x7 x8 x9 x10 x11 x12) (val87 x0 x1 x2 x3 x4 x5 x6 x7 x8 x9 x10 x11 x12)
def val117 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay25 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val121 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S384x64 .bf16 :=
  k0_pay27 (View.ld x8 rS384x64)
def val122 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S64 .f32 :=
  (View.ld x10 rS64)
def val132 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay30 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val133 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay31 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val134 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay32 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)

/-! ## What the body leaves in each output window's buffer -/

/-- The first output's buffer after the body: its one store, of the whole block. -/
def out0_13 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S16x512 .f32 :=
  View.canon [⟨rS16x512, k0_pay4 (val79 x0 x1 x2 x3 x4 x5 x6 x7 x8 x9 x10 x11 x12) (val90 x0 x1 x2 x3 x4 x5 x6 x7 x8 x9 x10 x11 x12) (val91 x0 x1 x2 x3 x4 x5 x6 x7 x8 x9 x10 x11 x12) (val92 x0 x1 x2 x3 x4 x5 x6 x7 x8 x9 x10 x11 x12) (val117 x0 x1 x2 x3 x4 x5 x6 x7 x8 x9 x10 x11 x12) (val121 x0 x1 x2 x3 x4 x5 x6 x7 x8 x9 x10 x11 x12) (val122 x0 x1 x2 x3 x4 x5 x6 x7 x8 x9 x10 x11 x12) (val132 x0 x1 x2 x3 x4 x5 x6 x7 x8 x9 x10 x11 x12) (val133 x0 x1 x2 x3 x4 x5 x6 x7 x8 x9 x10 x11 x12) (val134 x0 x1 x2 x3 x4 x5 x6 x7 x8 x9 x10 x11 x12) (View.ld x11 rS1x64) (View.ld x12 rS1)⟩]

/-- The second output's buffer after the body: its two stores, one slab of the leading axis each, last first. -/
def out0_14 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S2x16x32768 .f32 :=
  View.canon [⟨rSlab1, k0_pay3 (val79 x0 x1 x2 x3 x4 x5 x6 x7 x8 x9 x10 x11 x12) (val90 x0 x1 x2 x3 x4 x5 x6 x7 x8 x9 x10 x11 x12) (val91 x0 x1 x2 x3 x4 x5 x6 x7 x8 x9 x10 x11 x12) (val92 x0 x1 x2 x3 x4 x5 x6 x7 x8 x9 x10 x11 x12) (val117 x0 x1 x2 x3 x4 x5 x6 x7 x8 x9 x10 x11 x12) (val121 x0 x1 x2 x3 x4 x5 x6 x7 x8 x9 x10 x11 x12) (val122 x0 x1 x2 x3 x4 x5 x6 x7 x8 x9 x10 x11 x12) (val132 x0 x1 x2 x3 x4 x5 x6 x7 x8 x9 x10 x11 x12) (val133 x0 x1 x2 x3 x4 x5 x6 x7 x8 x9 x10 x11 x12) (val134 x0 x1 x2 x3 x4 x5 x6 x7 x8 x9 x10 x11 x12)⟩, ⟨rSlab0, k0_pay2 (val74 x0 x1 x2 x3 x4 x5 x6 x7 x8 x9 x10 x11 x12)⟩]

/-- The one store is the whole block. -/
theorem cover0_13 (p0 : Vec F S16x512 .f32) (y : S16x512.Idx) :
    ∃ pc ∈ ([⟨rS16x512, p0⟩] : List (View.Piece (Elt F) S16x512 .f32)), y ∈ pc.1.set :=
  View.cover_of_tiled [⟨rS16x512, p0⟩] S16x512.size (by rfl) y

/-- The two slabs tile the block. -/
theorem cover0_14 (p1 p0 : Vec F S1x16x32768 .f32) (y : S2x16x32768.Idx) :
    ∃ pc ∈ ([⟨rSlab1, p1⟩, ⟨rSlab0, p0⟩] : List (View.Piece (Elt F) S2x16x32768 .f32)), y ∈ pc.1.set :=
  View.cover_of_tiled [⟨rSlab1, p1⟩, ⟨rSlab0, p0⟩] S1x16x32768.size (by rfl) y

/-! ## The body's triple -/

set_option maxHeartbeats 4000000 in
/-- The body on whole staging memrefs, the inputs' at read contents `xW` and the outputs' at anything, runs to
    the continuation holding the inputs' as they were and each output's at its canonical contents. -/
theorem sound_kernel (c : Dev nD) (E : Set ℕ) (i : grid0.Coords) (arg1 : Memref sig .tc .vmem S16x512 .f32) (harg1 : arg1.IsWhole) (arg2 : Memref sig .tc .vmem S512x512 .f32) (harg2 : arg2.IsWhole) (arg3 : Memref sig .tc .vmem S2x16x32768 .f32) (harg3 : arg3.IsWhole) (arg4 : Memref sig .tc .vmem S195x128 .bf16) (harg4 : arg4.IsWhole) (arg5 : Memref sig .tc .vmem S195x64 .bf16) (harg5 : arg5.IsWhole) (arg6 : Memref sig .tc .vmem S128 .f32) (harg6 : arg6.IsWhole) (arg7 : Memref sig .tc .vmem S64 .f32) (harg7 : arg7.IsWhole) (arg8 : Memref sig .tc .vmem S384x128 .bf16) (harg8 : arg8.IsWhole) (arg9 : Memref sig .tc .vmem S384x64 .bf16) (harg9 : arg9.IsWhole) (arg10 : Memref sig .tc .vmem S128 .f32) (harg10 : arg10.IsWhole) (arg11 : Memref sig .tc .vmem S64 .f32) (harg11 : arg11.IsWhole) (arg12 : Memref sig .tc .vmem S1x64 .f32) (harg12 : arg12.IsWhole) (arg13 : Memref sig .tc .vmem S1 .f32) (harg13 : arg13.IsWhole) (arg14 : Memref sig .tc .vmem S16x512 .f32) (harg14 : arg14.IsWhole) (arg15 : Memref sig .tc .vmem S2x16x32768 .f32) (harg15 : arg15.IsWhole)
    (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dcgru_body_eq_skeleton]; unfold cc0__dcgru_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0
  subst hf1
  subst hf2
  subst hf3
  subst hf4
  subst hf5
  subst hf6
  subst hf7
  subst hf8
  subst hf9
  subst hf10
  subst hf11
  subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _ _)

/-! ## The pipeline's proof data -/

/-- The proof data on core `c`: the arrays as the region finds them; after the body at point `t` each input's
    buffer at its block and each output's at its canonical contents over the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and every final state has every array of the pipeline at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every final state of the frame run has the thirteen argument arrays as launched (beside the two result arrays
    at what the proof data gives: the run's post at windows 13 and 14). -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  kept_of m (dats m) (A_eq m) r h c

/-- The frame statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.Kernel.Hand

end
-- ==== Proof.KIFrame.lean ====
/-
  The frame of the program: its one pipelined region after a stretch of layout-only host operations.

  The host stretch writes fresh tensors only, so every argument array reaches the region as launched. The
  region's body is straight-line: it loads each input window's block whole (the third input's block as its
  two slabs along the leading axis), computes, and stores one whole block into the first output's buffer and
  two slabs tiling the second output's buffer. What each output buffer holds after the body is therefore the
  canonical contents of its stores, a function of the thirteen input blocks alone; the pipeline's proof data
  records that, and the library's frame run gives the final memory, from which the frame statement is read.
-/
import proofs.«108032_g44504451121623_cont_8to1_c_180_30_alg».proof.Proof.Gen.KernelIdeal.Launch
import proofs.«108032_g44504451121623_cont_8to1_c_180_30_alg».proof.Proof.Gen.KernelIdeal.Skeleton
import proofs.«108032_g44504451121623_cont_8to1_c_180_30_alg».proof.Proof.Gen.KernelIdeal.Points
import Idealize.ShloMosaic.Lib.Pipeline.FrameBody
import Idealize.ShloMosaic.Lib.Ring
import Idealize.ShloMosaic.Lib.Tactic

-- membership in a rectangle whose long axis has tens of thousands of coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host stretch. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host stretch writes: its seventy-seven fresh tensors. -/
abbrev hostW : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76]

/-- Each host operation writes one of them. -/
theorem hostOps0_writes : (hostOps0 : List (HloOp τ sig (Elt F))).Forall fun op =>
    op.writes ⊆ (hostW.map (Proc.devRef (τ := τ) .tc)).toFinset := by
  simp only [hostOps0, List.Forall, StableHlo.unary_writes, StableHlo.reshape_writes, StableHlo.nary_writes,
    Finset.singleton_subset_iff, List.mem_toFinset]
  repeat' apply And.intro
  all_goals exact List.mem_map_of_mem (by decide)

/-- No host operation writes argument 0: the region finds it as launched. -/
theorem V_main_arg0 (c : Dev nD) : V m c main_arg0 = m ((c : Thread nD τ).loc main_arg0) :=
  StableHlo.after_of_writes_sub (r := main_arg0) hostOps0 _ hostOps0_writes (by decide)
/-- No host operation writes argument 1: the region finds it as launched. -/
theorem V_main_arg1 (c : Dev nD) : V m c main_arg1 = m ((c : Thread nD τ).loc main_arg1) :=
  StableHlo.after_of_writes_sub (r := main_arg1) hostOps0 _ hostOps0_writes (by decide)
/-- No host operation writes argument 2: the region finds it as launched. -/
theorem V_main_arg2 (c : Dev nD) : V m c main_arg2 = m ((c : Thread nD τ).loc main_arg2) :=
  StableHlo.after_of_writes_sub (r := main_arg2) hostOps0 _ hostOps0_writes (by decide)
/-- No host operation writes argument 3: the region finds it as launched. -/
theorem V_main_arg3 (c : Dev nD) : V m c main_arg3 = m ((c : Thread nD τ).loc main_arg3) :=
  StableHlo.after_of_writes_sub (r := main_arg3) hostOps0 _ hostOps0_writes (by decide)
/-- No host operation writes argument 4: the region finds it as launched. -/
theorem V_main_arg4 (c : Dev nD) : V m c main_arg4 = m ((c : Thread nD τ).loc main_arg4) :=
  StableHlo.after_of_writes_sub (r := main_arg4) hostOps0 _ hostOps0_writes (by decide)
/-- No host operation writes argument 5: the region finds it as launched. -/
theorem V_main_arg5 (c : Dev nD) : V m c main_arg5 = m ((c : Thread nD τ).loc main_arg5) :=
  StableHlo.after_of_writes_sub (r := main_arg5) hostOps0 _ hostOps0_writes (by decide)
/-- No host operation writes argument 6: the region finds it as launched. -/
theorem V_main_arg6 (c : Dev nD) : V m c main_arg6 = m ((c : Thread nD τ).loc main_arg6) :=
  StableHlo.after_of_writes_sub (r := main_arg6) hostOps0 _ hostOps0_writes (by decide)
/-- No host operation writes argument 7: the region finds it as launched. -/
theorem V_main_arg7 (c : Dev nD) : V m c main_arg7 = m ((c : Thread nD τ).loc main_arg7) :=
  StableHlo.after_of_writes_sub (r := main_arg7) hostOps0 _ hostOps0_writes (by decide)
/-- No host operation writes argument 8: the region finds it as launched. -/
theorem V_main_arg8 (c : Dev nD) : V m c main_arg8 = m ((c : Thread nD τ).loc main_arg8) :=
  StableHlo.after_of_writes_sub (r := main_arg8) hostOps0 _ hostOps0_writes (by decide)
/-- No host operation writes argument 9: the region finds it as launched. -/
theorem V_main_arg9 (c : Dev nD) : V m c main_arg9 = m ((c : Thread nD τ).loc main_arg9) :=
  StableHlo.after_of_writes_sub (r := main_arg9) hostOps0 _ hostOps0_writes (by decide)
/-- No host operation writes argument 10: the region finds it as launched. -/
theorem V_main_arg10 (c : Dev nD) : V m c main_arg10 = m ((c : Thread nD τ).loc main_arg10) :=
  StableHlo.after_of_writes_sub (r := main_arg10) hostOps0 _ hostOps0_writes (by decide)
/-- No host operation writes argument 11: the region finds it as launched. -/
theorem V_main_arg11 (c : Dev nD) : V m c main_arg11 = m ((c : Thread nD τ).loc main_arg11) :=
  StableHlo.after_of_writes_sub (r := main_arg11) hostOps0 _ hostOps0_writes (by decide)
/-- No host operation writes argument 12: the region finds it as launched. -/
theorem V_main_arg12 (c : Dev nD) : V m c main_arg12 = m ((c : Thread nD τ).loc main_arg12) :=
  StableHlo.after_of_writes_sub (r := main_arg12) hostOps0 _ hostOps0_writes (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data over the region-entry arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data over the region-entry arrays, a final state with every array of the pipeline at what the
    proof data gives and every other buffer as the region found it has the argument arrays as launched: a staged
    argument is an input window's array, never written back; an argument staged by no window is among the other
    buffers; and no host operation writes an argument. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).1 5).trans (((dats 0 c).arrAt_in 5 rfl _).trans ((hA c 5).trans (V_main_arg4 m c))),
    ((h c).2 main_arg5 (Pipeline.mem_restRefs_of main_arg5 (by decide) (by decide))).trans (V_main_arg5 m c),
    ((h c).1 6).trans (((dats 0 c).arrAt_in 6 rfl _).trans ((hA c 6).trans (V_main_arg6 m c))),
    ((h c).2 main_arg7 (Pipeline.mem_restRefs_of main_arg7 (by decide) (by decide))).trans (V_main_arg7 m c),
    ((h c).1 9).trans (((dats 0 c).arrAt_in 9 rfl _).trans ((hA c 9).trans (V_main_arg8 m c))),
    ((h c).2 main_arg9 (Pipeline.mem_restRefs_of main_arg9 (by decide) (by decide))).trans (V_main_arg9 m c),
    ((h c).1 10).trans (((dats 0 c).arrAt_in 10 rfl _).trans ((hA c 10).trans (V_main_arg10 m c))),
    ((h c).2 main_arg11 (Pipeline.mem_restRefs_of main_arg11 (by decide) (by decide))).trans (V_main_arg11 m c),
    ((h c).1 12).trans (((dats 0 c).arrAt_in 12 rfl _).trans ((hA c 12).trans (V_main_arg12 m c)))⟩

/-- So a run to such final states is a run to the frame statement's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_of m dats hA r h c) h

/-! ## The body's accesses -/

abbrev rS16x512 : Rect S16x512 := Rect.unit (s := S16x512) ![0, 0] S16x512.size inb_S16x512_S16x512_0_0
abbrev rS512x512 : Rect S512x512 := Rect.unit (s := S512x512) ![0, 0] S512x512.size inb_S512x512_S512x512_0_0
abbrev rSlab0 : Rect S2x16x32768 := Rect.unit (s := S2x16x32768) ![0, 0, 0] S1x16x32768.size inb_S2x16x32768_S1x16x32768_0_0_0
abbrev rSlab1 : Rect S2x16x32768 := Rect.unit (s := S2x16x32768) ![1, 0, 0] S1x16x32768.size inb_S2x16x32768_S1x16x32768_1_0_0
abbrev rS195x128 : Rect S195x128 := Rect.unit (s := S195x128) ![0, 0] S195x128.size inb_S195x128_S195x128_0_0
abbrev rS195x64 : Rect S195x64 := Rect.unit (s := S195x64) ![0, 0] S195x64.size inb_S195x64_S195x64_0_0
abbrev rS128 : Rect S128 := Rect.unit (s := S128) ![0] S128.size inb_S128_S128_0
abbrev rS64 : Rect S64 := Rect.unit (s := S64) ![0] S64.size inb_S64_S64_0
abbrev rS384x128 : Rect S384x128 := Rect.unit (s := S384x128) ![0, 0] S384x128.size inb_S384x128_S384x128_0_0
abbrev rS384x64 : Rect S384x64 := Rect.unit (s := S384x64) ![0, 0] S384x64.size inb_S384x64_S384x64_0_0
abbrev rS1x64 : Rect S1x64 := Rect.unit (s := S1x64) ![0, 0] S1x64.size inb_S1x64_S1x64_0_0
abbrev rS1 : Rect S1 := Rect.unit (s := S1) ![0] S1.size inb_S1_S1_0

/-! ## The values the body computes, from the input blocks

    Named as the body names them; each is its payload applied to the loads and the values before it. -/

def val1 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x512 .bf16 :=
  k0_pay5 (View.ld x1 rS512x512)
def val4 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x512 .bf16 :=
  k0_pay6 (View.ld x1 rS512x512)
def val9 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay7 (View.ld x2 rSlab0)
def val18 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay10 (View.ld x0 rS16x512)
def val19 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay11 (View.ld x1 rS512x512) (View.ld x0 rS16x512)
def val20 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x1 .bf16 :=
  k0_pay12 (View.ld x1 rS512x512) (View.ld x0 rS16x512)
def val39 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x128 .f32 :=
  k0_pay13 (View.ld x1 rS512x512) (View.ld x2 rSlab0) (View.ld x0 rS16x512) (View.ld x3 rS195x128)
def val41 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x128 .f32 :=
  k0_pay14 (View.ld x5 rS128)
def val74 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay15 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val79 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay16 (View.ld x2 rSlab1)
def val80 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .bf16 :=
  k0_pay17 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val84 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .bf16 :=
  k0_pay18 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val86 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .bf16 :=
  k0_pay19 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val87 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x1024 .f32 :=
  k0_pay20 (val1 x0 x1 x2 x3 x4 x5 x6 x7 x8 x9 x10 x11 x12) (val4 x0 x1 x2 x3 x4 x5 x6 x7 x8 x9 x10 x11 x12) (val9 x0 x1 x2 x3 x4 x5 x6 x7 x8 x9 x10 x11 x12) (val18 x0 x1 x2 x3 x4 x5 x6 x7 x8 x9 x10 x11 x12) (val19 x0 x1 x2 x3 x4 x5 x6 x7 x8 x9 x10 x11 x12) (val20 x0 x1 x2 x3 x4 x5 x6 x7 x8 x9 x10 x11 x12) (val39 x0 x1 x2 x3 x4 x5 x6 x7 x8 x9 x10 x11 x12) (val41 x0 x1 x2 x3 x4 x5 x6 x7 x8 x9 x10 x11 x12) (View.ld x4 rS195x64) (View.ld x6 rS64)
def val90 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay21 (val80 x0 x1 x2 x3 x4 x5 x6 x7 x8 x9 x10 x11 x12)
def val91 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay22 (val86 x0 x1 x2 x3 x4 x5 x6 x7 x8 x9 x10 x11 x12)
def val92 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay23 (val84 x0 x1 x2 x3 x4 x5 x6 x7 x8 x9 x10 x11 x12) (val87 x0 x1 x2 x3 x4 x5 x6 x7 x8 x9 x10 x11 x12)
def val117 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S8192x64 .f32 :=
  k0_pay25 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val121 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S384x64 .bf16 :=
  k0_pay27 (View.ld x8 rS384x64)
def val122 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S64 .f32 :=
  (View.ld x10 rS64)
def val132 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay30 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val133 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay31 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)
def val134 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : FVec F S512x16x64 .bf16 :=
  k0_pay32 (val1 x0 x1 x2 x3 x4 x5 x6 x7 x8 x9 x10 x11 x12) (val4 x0 x1 x2 x3 x4 x5 x6 x7 x8 x9 x10 x11 x12) (val79 x0 x1 x2 x3 x4 x5 x6 x7 x8 x9 x10 x11 x12) (val80 x0 x1 x2 x3 x4 x5 x6 x7 x8 x9 x10 x11 x12) (val84 x0 x1 x2 x3 x4 x5 x6 x7 x8 x9 x10 x11 x12) (val86 x0 x1 x2 x3 x4 x5 x6 x7 x8 x9 x10 x11 x12) (val87 x0 x1 x2 x3 x4 x5 x6 x7 x8 x9 x10 x11 x12) (View.ld x7 rS384x128) (View.ld x9 rS128)

/-! ## What the body leaves in each output window's buffer -/

/-- The first output's buffer after the body: its one store, of the whole block. -/
def out0_13 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S16x512 .f32 :=
  View.canon [⟨rS16x512, k0_pay4 (val79 x0 x1 x2 x3 x4 x5 x6 x7 x8 x9 x10 x11 x12) (val90 x0 x1 x2 x3 x4 x5 x6 x7 x8 x9 x10 x11 x12) (val91 x0 x1 x2 x3 x4 x5 x6 x7 x8 x9 x10 x11 x12) (val92 x0 x1 x2 x3 x4 x5 x6 x7 x8 x9 x10 x11 x12) (val117 x0 x1 x2 x3 x4 x5 x6 x7 x8 x9 x10 x11 x12) (val121 x0 x1 x2 x3 x4 x5 x6 x7 x8 x9 x10 x11 x12) (val122 x0 x1 x2 x3 x4 x5 x6 x7 x8 x9 x10 x11 x12) (val132 x0 x1 x2 x3 x4 x5 x6 x7 x8 x9 x10 x11 x12) (val133 x0 x1 x2 x3 x4 x5 x6 x7 x8 x9 x10 x11 x12) (val134 x0 x1 x2 x3 x4 x5 x6 x7 x8 x9 x10 x11 x12) (View.ld x11 rS1x64) (View.ld x12 rS1)⟩]

/-- The second output's buffer after the body: its two stores, one slab of the leading axis each, last first. -/
def out0_14 (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) : Vec F S2x16x32768 .f32 :=
  View.canon [⟨rSlab1, k0_pay3 (val79 x0 x1 x2 x3 x4 x5 x6 x7 x8 x9 x10 x11 x12) (val90 x0 x1 x2 x3 x4 x5 x6 x7 x8 x9 x10 x11 x12) (val91 x0 x1 x2 x3 x4 x5 x6 x7 x8 x9 x10 x11 x12) (val92 x0 x1 x2 x3 x4 x5 x6 x7 x8 x9 x10 x11 x12) (val117 x0 x1 x2 x3 x4 x5 x6 x7 x8 x9 x10 x11 x12) (val121 x0 x1 x2 x3 x4 x5 x6 x7 x8 x9 x10 x11 x12) (val122 x0 x1 x2 x3 x4 x5 x6 x7 x8 x9 x10 x11 x12) (val132 x0 x1 x2 x3 x4 x5 x6 x7 x8 x9 x10 x11 x12) (val133 x0 x1 x2 x3 x4 x5 x6 x7 x8 x9 x10 x11 x12) (val134 x0 x1 x2 x3 x4 x5 x6 x7 x8 x9 x10 x11 x12)⟩, ⟨rSlab0, k0_pay2 (val74 x0 x1 x2 x3 x4 x5 x6 x7 x8 x9 x10 x11 x12)⟩]

/-- The one store is the whole block. -/
theorem cover0_13 (p0 : Vec F S16x512 .f32) (y : S16x512.Idx) :
    ∃ pc ∈ ([⟨rS16x512, p0⟩] : List (View.Piece (Elt F) S16x512 .f32)), y ∈ pc.1.set :=
  View.cover_of_tiled [⟨rS16x512, p0⟩] S16x512.size (by rfl) y

/-- The two slabs tile the block. -/
theorem cover0_14 (p1 p0 : Vec F S1x16x32768 .f32) (y : S2x16x32768.Idx) :
    ∃ pc ∈ ([⟨rSlab1, p1⟩, ⟨rSlab0, p0⟩] : List (View.Piece (Elt F) S2x16x32768 .f32)), y ∈ pc.1.set :=
  View.cover_of_tiled [⟨rSlab1, p1⟩, ⟨rSlab0, p0⟩] S1x16x32768.size (by rfl) y

/-! ## The body's triple -/

set_option maxHeartbeats 4000000 in
/-- The body on whole staging memrefs, the inputs' at read contents `xW` and the outputs' at anything, runs to
    the continuation holding the inputs' as they were and each output's at its canonical contents. -/
theorem sound_kernel (c : Dev nD) (E : Set ℕ) (i : grid0.Coords) (arg1 : Memref sig .tc .vmem S16x512 .f32) (harg1 : arg1.IsWhole) (arg2 : Memref sig .tc .vmem S512x512 .f32) (harg2 : arg2.IsWhole) (arg3 : Memref sig .tc .vmem S2x16x32768 .f32) (harg3 : arg3.IsWhole) (arg4 : Memref sig .tc .vmem S195x128 .bf16) (harg4 : arg4.IsWhole) (arg5 : Memref sig .tc .vmem S195x64 .bf16) (harg5 : arg5.IsWhole) (arg6 : Memref sig .tc .vmem S128 .f32) (harg6 : arg6.IsWhole) (arg7 : Memref sig .tc .vmem S64 .f32) (harg7 : arg7.IsWhole) (arg8 : Memref sig .tc .vmem S384x128 .bf16) (harg8 : arg8.IsWhole) (arg9 : Memref sig .tc .vmem S384x64 .bf16) (harg9 : arg9.IsWhole) (arg10 : Memref sig .tc .vmem S128 .f32) (harg10 : arg10.IsWhole) (arg11 : Memref sig .tc .vmem S64 .f32) (harg11 : arg11.IsWhole) (arg12 : Memref sig .tc .vmem S1x64 .f32) (harg12 : arg12.IsWhole) (arg13 : Memref sig .tc .vmem S1 .f32) (harg13 : arg13.IsWhole) (arg14 : Memref sig .tc .vmem S16x512 .f32) (harg14 : arg14.IsWhole) (arg15 : Memref sig .tc .vmem S2x16x32768 .f32) (harg15 : arg15.IsWhole)
    (x0 : Vec F S16x512 .f32) (x1 : Vec F S512x512 .f32) (x2 : Vec F S2x16x32768 .f32) (x3 : Vec F S195x128 .bf16) (x4 : Vec F S195x64 .bf16) (x5 : Vec F S128 .f32) (x6 : Vec F S64 .f32) (x7 : Vec F S384x128 .bf16) (x8 : Vec F S384x64 .bf16) (x9 : Vec F S128 .f32) (x10 : Vec F S64 .f32) (x11 : Vec F S1x64 .f32) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dcgru_body_eq_skeleton]; unfold cc0__dcgru_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0
  subst hf1
  subst hf2
  subst hf3
  subst hf4
  subst hf5
  subst hf6
  subst hf7
  subst hf8
  subst hf9
  subst hf10
  subst hf11
  subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _ _)

/-! ## The pipeline's proof data -/

/-- The proof data on core `c`: the arrays as the region finds them; after the body at point `t` each input's
    buffer at its block and each output's at its canonical contents over the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and every final state has every array of the pipeline at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every final state of the frame run has the thirteen argument arrays as launched (beside the two result arrays
    at what the proof data gives: the run's post at windows 13 and 14). -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  kept_of m (dats m) (A_eq m) r h c

/-- The frame statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.KernelIdeal.Hand

end
-- ==== Proof.Spec.lean ====
/-
  The diffusion-convolution GRU decoder step as mathematics on the extended reals, for any batch count `B`.

  A node signal `z : Fin 512 → EReal` has three taps: itself, one diffusion step `(A z) n = ∑ k, A n k * z k`, and the
  second Chebyshev term `2 * (A (A z)) n - z n`. A graph convolution of a batch element concatenates features (for the
  first layer the scalar input then the 64 state units; for the second the 64 units of the first layer's new state then
  the 64 state units), and contracts the table "row `3 * feature + tap`" of all taps of all features against a weight
  matrix, then adds a bias. The gates are the logistic function of such a convolution of the state, the candidate the
  hyperbolic tangent of the convolution of the reset state `r * h`, and the new state `u * h + (1 - u) * c`. The
  output is the second layer's new state contracted with the projection column, plus its bias.
  Every definition is pointwise in the batch element, so a batch chunk's value is the whole batch's at that element.
-/
import Idealize.ShloMosaic.PureOps.Ideal
import Idealize.ShloMosaic.Lib.ValueIdx

noncomputable section

open scoped BigOperators

namespace Cert.Spec

open Idealize.ShloMosaic Idealize.ShloMosaic.ValueIdx

/-- The literals `2.0` and `1.0` as both programs spell them (the same words on both sides: never evaluated). -/
abbrev two : EReal := Ideal.ofBits .f32 0x40000000#32
abbrev one : EReal := Ideal.ofBits .f32 0x3F800000#32

/-- The thirteen argument arrays at batch count `B`. -/
structure Args (B : ℕ) where
  inp : (⟨2, ![B, 512]⟩ : Shape).Idx → EReal
  adj : (⟨2, ![512, 512]⟩ : Shape).Idx → EReal
  hid : (⟨3, ![2, B, 32768]⟩ : Shape).Idx → EReal
  Wg0 : (⟨2, ![195, 128]⟩ : Shape).Idx → EReal
  bg0 : (⟨1, ![128]⟩ : Shape).Idx → EReal
  Wc0 : (⟨2, ![195, 64]⟩ : Shape).Idx → EReal
  bc0 : (⟨1, ![64]⟩ : Shape).Idx → EReal
  Wg1 : (⟨2, ![384, 128]⟩ : Shape).Idx → EReal
  bg1 : (⟨1, ![128]⟩ : Shape).Idx → EReal
  Wc1 : (⟨2, ![384, 64]⟩ : Shape).Idx → EReal
  bc1 : (⟨1, ![64]⟩ : Shape).Idx → EReal
  Wp : (⟨2, ![64, 1]⟩ : Shape).Idx → EReal
  bp : (⟨1, ![1]⟩ : Shape).Idx → EReal

/-! ## Diffusion of a node signal -/

/-- One diffusion step. -/
def d1 (adj : (⟨2, ![512, 512]⟩ : Shape).Idx → EReal) (z : Fin 512 → EReal) (n : Fin 512) : EReal :=
  ∑ k : Fin 512, adj (ix2 n k) * z k

/-- The second Chebyshev term. -/
def d2 (adj : (⟨2, ![512, 512]⟩ : Shape).Idx → EReal) (z : Fin 512 → EReal) (n : Fin 512) : EReal :=
  two * (∑ k : Fin 512, adj (ix2 n k) * d1 adj z k) - z n

/-- Tap `t` (0, 1, anything else) of a node signal. -/
def tap (adj : (⟨2, ![512, 512]⟩ : Shape).Idx → EReal) (t : ℕ) (z : Fin 512 → EReal) : Fin 512 → EReal :=
  if t = 0 then z else if t = 1 then d1 adj z else d2 adj z

/-! ## Graph convolution -/

/-- The convolution before its activation: features `feat b f` (a node signal per feature number), weights `W` of
    `K` rows (row `j` is feature `j / 3`, tap `j % 3`) and `O` columns, bias `bias`. -/
def pre {B K O : ℕ} (adj : (⟨2, ![512, 512]⟩ : Shape).Idx → EReal) (feat : Fin B → ℕ → Fin 512 → EReal)
    (W : (⟨2, ![K, O]⟩ : Shape).Idx → EReal) (bias : (⟨1, ![O]⟩ : Shape).Idx → EReal) (b : Fin B) (n : Fin 512) (o : Fin O) : EReal :=
  (∑ j : Fin K, tap adj (j.val % 3) (feat b (j.val / 3)) n * W (ix2 j o)) + bias (ix1 o)

variable {B : ℕ} (a : Args B)

/-- Layer `l`'s state: unit `u` of node `n` of batch element `b` (zero past the 64 units). -/
def hAt (l : Fin 2) (b : Fin B) (n : Fin 512) (u : ℕ) : EReal :=
  if h : u < 64 then a.hid (ix3 l b ⟨n.val * 64 + u, by have := n.isLt; omega⟩) else 0

/-- First layer's features: the input, then the units of the state `st`. -/
def feat0 (st : Fin B → Fin 512 → ℕ → EReal) (b : Fin B) (f : ℕ) (n : Fin 512) : EReal :=
  if f = 0 then a.inp (ix2 b n) else st b n (f - 1)

/-- Second layer's features: the 64 units of the layer input `x`, then the units of the state `st`. -/
def feat1 (x st : Fin B → Fin 512 → ℕ → EReal) (b : Fin B) (f : ℕ) (n : Fin 512) : EReal :=
  if f < 64 then x b n f else st b n (f - 64)

/-! ## First layer -/

def g0 (b : Fin B) (n : Fin 512) (o : Fin 128) : EReal :=
  Ideal.logistic (pre a.adj (feat0 a (hAt a 0)) a.Wg0 a.bg0 b n o)
def r0 (b : Fin B) (n : Fin 512) (u : ℕ) : EReal := if h : u < 64 then g0 a b n ⟨u, by omega⟩ else 0
def u0 (b : Fin B) (n : Fin 512) (u : ℕ) : EReal := if h : u < 64 then g0 a b n ⟨64 + u, by omega⟩ else 0
def c0 (b : Fin B) (n : Fin 512) (u : ℕ) : EReal :=
  if h : u < 64 then Ideal.tanh (pre a.adj (feat0 a (fun b n u => r0 a b n u * hAt a 0 b n u)) a.Wc0 a.bc0 b n ⟨u, h⟩) else 0
/-- The first layer's new state. -/
def h0n (b : Fin B) (n : Fin 512) (u : ℕ) : EReal := u0 a b n u * hAt a 0 b n u + (one - u0 a b n u) * c0 a b n u

/-! ## Second layer -/

def g1 (b : Fin B) (n : Fin 512) (o : Fin 128) : EReal :=
  Ideal.logistic (pre a.adj (feat1 (h0n a) (hAt a 1)) a.Wg1 a.bg1 b n o)
def r1 (b : Fin B) (n : Fin 512) (u : ℕ) : EReal := if h : u < 64 then g1 a b n ⟨u, by omega⟩ else 0
def u1 (b : Fin B) (n : Fin 512) (u : ℕ) : EReal := if h : u < 64 then g1 a b n ⟨64 + u, by omega⟩ else 0
def c1 (b : Fin B) (n : Fin 512) (u : ℕ) : EReal :=
  if h : u < 64 then Ideal.tanh (pre a.adj (feat1 (h0n a) (fun b n u => r1 a b n u * hAt a 1 b n u)) a.Wc1 a.bc1 b n ⟨u, h⟩) else 0
/-- The second layer's new state. -/
def h1n (b : Fin B) (n : Fin 512) (u : ℕ) : EReal := u1 a b n u * hAt a 1 b n u + (one - u1 a b n u) * c1 a b n u

/-! ## The results -/

/-- The projection of the second layer's new state. -/
def out (b : Fin B) (n : Fin 512) : EReal := (∑ u : Fin 64, h1n a b n u.val * a.Wp (ix2 u 0)) + a.bp (ix1 0)

/-- First result array: `[B, 512]`. -/
def Gout (j : (⟨2, ![B, 512]⟩ : Shape).Idx) : EReal := out a (j 0) (j 1)

/-- Second result array: `[2, B, 32768]`, layer, batch element, `64 * node + unit`. -/
def Ghs (j : (⟨3, ![2, B, 32768]⟩ : Shape).Idx) : EReal :=
  if (j 0).val = 0 then h0n a (j 1) ⟨(j 2).val / 64, by have h : (j 2).val < 32768 := (j 2).isLt; omega⟩ ((j 2).val % 64)
  else h1n a (j 1) ⟨(j 2).val / 64, by have h : (j 2).val < 32768 := (j 2).isLt; omega⟩ ((j 2).val % 64)

end Cert.Spec

end
-- ==== Proof.Forms.lean ====
/-
  Shared vocabulary of the value proof.

  * Row and column numbering. The kernel lays a batch chunk's per-node rows out node-major (row `16 * node + batch`), the
    reference batch-major (row `512 * batch + node`); a state vector's entry is `64 * node + unit`.
  * The two weight-row permutations. The kernel contracts the taps in the order "state tap 0, state tap 1, state tap 2,
    input tap 0, input tap 1, input tap 2" (each a block of consecutive units), the reference in the order
    `3 * feature + tap`; `sigma0` (195 rows) and `sigma1` (384 rows) send a kernel row to the reference row holding the
    same feature and tap. Both are bijections, so a sum over all rows may be taken in either order.
  * Doubling. The kernel doubles the adjacency before its second diffusion product, the reference doubles the product;
    multiplication by the finite positive constant 2 distributes over any finite sum of extended reals.
  * The forms in which the kernel holds a per-batch, per-node, per-unit quantity `f b n u`: as rows, node-major with the
    batch folded into the columns, as a three-axis array, and (for one-unit quantities) as a column.
-/
import proofs.«108032_g44504451121623_cont_8to1_c_180_30_alg».proof.Proof.Spec
import Idealize.ShloMosaic.Lib.IdealHost
import Mathlib.Data.EReal.Operations

noncomputable section

open scoped BigOperators

namespace Cert.Forms

open Idealize.ShloMosaic Idealize.ShloMosaic.ValueIdx Cert.Spec

/-! ## Numbering -/

/-- Kernel row of node `n`, chunk batch element `bb`. -/
def rowK (n : Fin 512) (bb : Fin 16) : Fin 8192 := ⟨n.val * 16 + bb.val, by have := n.isLt; have := bb.isLt; omega⟩
/-- Reference row of batch element `b`, node `n`. -/
def rowR (b : Fin 32) (n : Fin 512) : Fin 16384 := ⟨b.val * 512 + n.val, by have := n.isLt; have := b.isLt; omega⟩
/-- Entry of a state vector: node `n`, unit `u`. -/
def nu (n : Fin 512) (u : Fin 64) : Fin 32768 := ⟨n.val * 64 + u.val, by have := n.isLt; have := u.isLt; omega⟩
/-- Column of the node-major form: chunk batch element `bb`, unit `u`. -/
def colNM (bb : Fin 16) (u : Fin 64) : Fin 1024 := ⟨bb.val * 64 + u.val, by have := bb.isLt; have := u.isLt; omega⟩
/-- Batch element `bb` of chunk `t`. -/
def bOf (t : Fin 2) (bb : Fin 16) : Fin 32 := ⟨t.val * 16 + bb.val, by have := t.isLt; have := bb.isLt; omega⟩

/-! ## The weight-row permutations -/

/-- First layer: kernel row `j` (state tap `j / 64` unit `j % 64` below 192, then input tap `j - 192`) to the
    reference row `3 * feature + tap` (feature 0 the input, feature `1 + u` state unit `u`). -/
def sigma0 (j : Fin 195) : Fin 195 :=
  if h : j.val < 192 then ⟨(1 + j.val % 64) * 3 + j.val / 64, by omega⟩ else ⟨j.val - 192, by have := j.isLt; omega⟩
def tau0 (i : Fin 195) : Fin 195 :=
  if h : i.val / 3 = 0 then ⟨192 + i.val % 3, by omega⟩ else ⟨(i.val % 3) * 64 + (i.val / 3 - 1), by have := i.isLt; omega⟩

/-- Second layer: kernel row `j` (block `j / 64`: 0 to 2 the state's taps, 3 to 5 the layer input's taps; unit `j % 64`)
    to the reference row `3 * feature + tap` (features 0 to 63 the layer input, 64 to 127 the state). -/
def sigma1 (j : Fin 384) : Fin 384 :=
  if h : j.val / 64 < 3 then ⟨(64 + j.val % 64) * 3 + j.val / 64, by omega⟩
  else ⟨(j.val % 64) * 3 + (j.val / 64 - 3), by have := j.isLt; omega⟩
def tau1 (i : Fin 384) : Fin 384 :=
  if h : i.val / 3 < 64 then ⟨(3 + i.val % 3) * 64 + i.val / 3, by omega⟩
  else ⟨(i.val % 3) * 64 + (i.val / 3 - 64), by have := i.isLt; omega⟩

theorem tau0_sigma0 (j : Fin 195) : tau0 (sigma0 j) = j := by
  obtain ⟨j, hj⟩ := j
  unfold tau0 sigma0
  by_cases h : j < 192
  · simp only [dif_pos h]
    have h1 : ¬ ((1 + j % 64) * 3 + j / 64) / 3 = 0 := by omega
    simp only [dif_neg h1]
    exact Fin.ext (by simp only; omega)
  · simp only [dif_neg h]
    have h1 : (j - 192) / 3 = 0 := by omega
    simp only [dif_pos h1]
    exact Fin.ext (by simp only; omega)

theorem sigma0_tau0 (i : Fin 195) : sigma0 (tau0 i) = i := by
  obtain ⟨i, hi⟩ := i
  unfold tau0 sigma0
  by_cases h : i / 3 = 0
  · simp only [dif_pos h]
    have h1 : ¬ (192 + i % 3 < 192) := by omega
    simp only [dif_neg h1]
    exact Fin.ext (by simp only; omega)
  · simp only [dif_neg h]
    have h1 : (i % 3) * 64 + (i / 3 - 1) < 192 := by omega
    simp only [dif_pos h1]
    exact Fin.ext (by simp only; omega)

theorem tau1_sigma1 (j : Fin 384) : tau1 (sigma1 j) = j := by
  obtain ⟨j, hj⟩ := j
  unfold tau1 sigma1
  by_cases h : j / 64 < 3
  · simp only [dif_pos h]
    have h1 : ¬ (((64 + j % 64) * 3 + j / 64) / 3 < 64) := by omega
    simp only [dif_neg h1]
    exact Fin.ext (by simp only; omega)
  · simp only [dif_neg h]
    have h1 : ((j % 64) * 3 + (j / 64 - 3)) / 3 < 64 := by omega
    simp only [dif_pos h1]
    exact Fin.ext (by simp only; omega)

theorem sigma1_tau1 (i : Fin 384) : sigma1 (tau1 i) = i := by
  obtain ⟨i, hi⟩ := i
  unfold tau1 sigma1
  by_cases h : i / 3 < 64
  · simp only [dif_pos h]
    have h1 : ¬ (((3 + i % 3) * 64 + i / 3) / 64 < 3) := by omega
    simp only [dif_neg h1]
    exact Fin.ext (by simp only; omega)
  · simp only [dif_neg h]
    have h1 : ((i % 3) * 64 + (i / 3 - 64)) / 64 < 3 := by omega
    simp only [dif_pos h1]
    exact Fin.ext (by simp only; omega)

def sigma0E : Fin 195 ≃ Fin 195 := ⟨sigma0, tau0, tau0_sigma0, sigma0_tau0⟩
def sigma1E : Fin 384 ≃ Fin 384 := ⟨sigma1, tau1, tau1_sigma1, sigma1_tau1⟩

/-- A sum over the 195 rows in the kernel's order is the sum in the reference's. -/
theorem sum_sigma0 {M : Type*} [AddCommMonoid M] (f : Fin 195 → M) : ∑ j, f (sigma0 j) = ∑ j, f j :=
  Equiv.sum_comp sigma0E f
/-- A sum over the 384 rows in the kernel's order is the sum in the reference's. -/
theorem sum_sigma1 {M : Type*} [AddCommMonoid M] (f : Fin 384 → M) : ∑ j, f (sigma1 j) = ∑ j, f j :=
  Equiv.sum_comp sigma1E f

/-- Feature and tap of the reference row a first-layer kernel row is sent to. -/
theorem sigma0_state (j : Fin 195) (h : j.val < 192) : (sigma0 j).val % 3 = j.val / 64 ∧ (sigma0 j).val / 3 = 1 + j.val % 64 := by
  unfold sigma0; simp only [dif_pos h]; constructor <;> omega
theorem sigma0_input (j : Fin 195) (h : ¬ j.val < 192) : (sigma0 j).val % 3 = j.val - 192 ∧ (sigma0 j).val / 3 = 0 := by
  have := j.isLt
  unfold sigma0; simp only [dif_neg h]; constructor <;> omega
/-- Feature and tap of the reference row a second-layer kernel row is sent to. -/
theorem sigma1_state (j : Fin 384) (h : j.val / 64 < 3) : (sigma1 j).val % 3 = j.val / 64 ∧ (sigma1 j).val / 3 = 64 + j.val % 64 := by
  unfold sigma1; simp only [dif_pos h]; constructor <;> omega
theorem sigma1_input (j : Fin 384) (h : ¬ j.val / 64 < 3) : (sigma1 j).val % 3 = j.val / 64 - 3 ∧ (sigma1 j).val / 3 = j.val % 64 := by
  have := j.isLt
  unfold sigma1; simp only [dif_neg h]; constructor <;> omega

/-! ## Doubling -/

theorem two_eq : two = ((2 : ℝ) : EReal) := by
  simp [two, Ideal.ofBits, Ideal.ieee, -EReal.coe_mul]; norm_num

theorem one_eq : one = 1 := Ideal.ofBits_one_f32

theorem two_nonneg : (0 : EReal) ≤ two := by rw [two_eq]; exact_mod_cast (by norm_num : (0 : ℝ) ≤ 2)
theorem two_ne_top : two ≠ ⊤ := by rw [two_eq]; exact EReal.coe_ne_top 2

/-- Doubling distributes over a finite sum of extended reals. -/
theorem two_mul_sum {ι : Type*} (s : Finset ι) (g : ι → EReal) : two * ∑ k ∈ s, g k = ∑ k ∈ s, two * g k := by
  classical
  induction s using Finset.induction_on with
  | empty => simp
  | insert i s hi ih =>
    rw [Finset.sum_insert hi, Finset.sum_insert hi, EReal.left_distrib_of_nonneg_of_ne_top two_nonneg two_ne_top, ih]

/-- The kernel's second diffusion product (adjacency doubled first) is the reference's (product doubled). -/
theorem sum_doubled (A z : Fin 512 → EReal) : ∑ k, (A k * two) * z k = two * ∑ k, A k * z k := by
  rw [two_mul_sum]
  exact Finset.sum_congr rfl fun k _ => by rw [mul_comm (A k) two, mul_assoc]

/-! ## The forms a per-batch, per-node, per-unit quantity is held in -/

/-- Rows: entry (row of `n`, `bb`; column `u`). -/
def Rows64 (v : (⟨2, ![8192, 64]⟩ : Shape).Idx → EReal) (f : Fin 16 → Fin 512 → ℕ → EReal) : Prop :=
  ∀ (n : Fin 512) (bb : Fin 16) (u : Fin 64), v (ix2 (rowK n bb) u) = f bb n u.val
/-- Rows of 128 columns. -/
def Rows128 (v : (⟨2, ![8192, 128]⟩ : Shape).Idx → EReal) (f : Fin 16 → Fin 512 → Fin 128 → EReal) : Prop :=
  ∀ (n : Fin 512) (bb : Fin 16) (o : Fin 128), v (ix2 (rowK n bb) o) = f bb n o
/-- Node-major: entry (node `n`; column of `bb`, `u`). -/
def NodeMajor (v : (⟨2, ![512, 1024]⟩ : Shape).Idx → EReal) (f : Fin 16 → Fin 512 → ℕ → EReal) : Prop :=
  ∀ (n : Fin 512) (bb : Fin 16) (u : Fin 64), v (ix2 n (colNM bb u)) = f bb n u.val
/-- Three axes: node, batch element, unit. -/
def Split3 (v : (⟨3, ![512, 16, 64]⟩ : Shape).Idx → EReal) (f : Fin 16 → Fin 512 → ℕ → EReal) : Prop :=
  ∀ (n : Fin 512) (bb : Fin 16) (u : Fin 64), v (ix3 n bb u) = f bb n u.val
/-- A one-unit quantity as a column. -/
def Col (v : (⟨3, ![512, 16, 1]⟩ : Shape).Idx → EReal) (f : Fin 16 → Fin 512 → EReal) : Prop :=
  ∀ (n : Fin 512) (bb : Fin 16), v (ix3 n bb 0) = f bb n

/-- The taps of a per-unit quantity, unit by unit. -/
def tapOf (adj : (⟨2, ![512, 512]⟩ : Shape).Idx → EReal) (t : ℕ) (f : Fin 16 → Fin 512 → ℕ → EReal) :
    Fin 16 → Fin 512 → ℕ → EReal := fun bb n u => tap adj t (fun k => f bb k u) n

end Cert.Forms

end
-- ==== Proof.KValA.lean ====
/-
  The first part of the kernel body, read at an index at the ideal values.

  The body first prepares the adjacency (as loaded, and doubled), turns the loaded state slab into rows (row
  `16 * node + batch element`, column the unit), transposes the input to one column per batch element, and forms the
  input's three taps: itself, one diffusion step `A z`, and the second Chebyshev term `(2 A)(A z) - z`. The gate
  convolution then contracts a table of 195 columns against the loaded weights: columns 0 to 63 the state's units,
  64 to 127 one diffusion step of each unit, 128 to 191 the second Chebyshev term of each unit (both computed for all
  batch elements at once, the batch folded into the columns), and 192 to 194 the input's three taps. Column `j` of the
  table is the tap and feature of the reference row `sigma0 j`, the loaded weights hold the reference's rows permuted
  by `sigma0`, so the contraction is the reference's sum taken in another order; doubling the adjacency before the
  second product is doubling the product. The table lemma is generic in the state rows (any rows `s` that hold a
  quantity `f`) and in the two adjacency operands, so that the candidate convolution, which contracts the same table
  of the reset state, reads through it as well.
-/
import proofs.«108032_g44504451121623_cont_8to1_c_180_30_alg».proof.Proof.Gen.KernelIdeal.Skeleton
import proofs.«108032_g44504451121623_cont_8to1_c_180_30_alg».proof.Proof.Spec
import proofs.«108032_g44504451121623_cont_8to1_c_180_30_alg».proof.Proof.Forms
import Idealize.ShloMosaic.Lib.ValueIdx
import Idealize.ShloMosaic.Lib.Pipeline.Value
import Idealize.ShloMosaic.Lib.KernelVsHost
import Idealize.ShloMosaic.Lib.StackMember
import Idealize.ShloMosaic.Lib.IdealHost
import Idealize.ShloMosaic.PureOps.Ideal.Laws

noncomputable section

open scoped BigOperators

namespace Cert.KernelIdeal.ValA

open Idealize.ShloMosaic Idealize.ShloMosaic.ValueIdx Cert.KernelIdeal Cert.KernelIdeal.Gen

/-! ## A plain matrix product into a zero accumulator, entry by entry -/

theorem matmul_plain_apply {M K N : ℕ} {φ₁ φ₂ : FTy} (A : FVec Ideal ⟨2, ![M, K]⟩ φ₁) (B : FVec Ideal ⟨2, ![K, N]⟩ φ₂)
    (p : Fin M) (q : Fin N) :
    matmul (DotDims.plain M K N) none A B (constant (F := Ideal) ⟨2, ![M, N]⟩ .f32 0x00000000#32) (ix2 p q)
      = ∑ k : Fin K, A (ix2 p k) * B (ix2 k q) := by
  rw [matmul_zero_eq_dotGeneral]
  exact StackMember.dotGeneral_plain_apply none A B p q

theorem dotA_eq : dot_S512x512_S512x16_S512x16_1_0_0_1_n_n = DotDims.plain 512 512 16 := rfl
theorem dotB_eq : dot_S512x512_S512x1024_S512x1024_1_0_0_1_n_n = DotDims.plain 512 512 1024 := rfl
theorem dotC_eq : dot_S8192x195_S195x128_S8192x128_1_0_0_1_n_n = DotDims.plain 8192 195 128 := rfl

theorem pay5_apply (v0 : Vec Ideal S512x512 .f32) (i : S512x512.Idx) : k0_pay5 (F := Ideal) v0 i = v0 i := rfl

theorem pay6_apply' (v0 : Vec Ideal S512x512 .f32) (i : S512x512.Idx) :
    k0_pay6 (F := Ideal) v0 i = v0 i * Ideal.ofBits .f32 0x40000000#32 := rfl

theorem pay7_apply (v5 : Vec Ideal S1x16x32768 .f32) (n : Fin 512) (bb : Fin 16) (u : Fin 64)
    (r : Fin 8192) (hr : r.val = n.val * 16 + bb.val) (p : Fin 32768) (hp : p.val = n.val * 64 + u.val) :
    k0_pay7 (F := Ideal) v5 (ix2 r u) = v5 (ix3 0 bb p) := by
  unfold k0_pay7
  refine (shapeCast_apply _ shapeCasts_S512x16x64_S8192x64 (ix2 r u) (ix3 n bb u) ?_).trans ?_
  · rw [Shape.rowMajor_val_three, Shape.rowMajor_val_two]
    show (n.val * 16 + bb.val) * 64 + u.val = r.val * 64 + u.val
    rw [hr]
  refine (transpose_apply [1, 0, 2] _ transposes_S16x512x64_p1_0_2_S512x16x64 (ix3 n bb u) (ix3 bb n u) ?_).trans ?_
  · intro b
    match b with
    | ⟨0, _⟩ => rfl
    | ⟨1, _⟩ => rfl
    | ⟨2, _⟩ => rfl
  refine (shapeCast_apply _ shapeCasts_S16x32768_S16x512x64 (ix3 bb n u) (ix2 bb p) ?_).trans ?_
  · rw [Shape.rowMajor_val_three, Shape.rowMajor_val_two]
    show bb.val * 32768 + p.val = (bb.val * 512 + n.val) * 64 + u.val
    omega
  refine shapeCast_apply _ shapeCasts_S1x16x32768_S16x32768 (ix2 bb p) (ix3 0 bb p) ?_
  rw [Shape.rowMajor_val_three, Shape.rowMajor_val_two]
  show (0 * 16 + bb.val) * 32768 + p.val = bb.val * 32768 + p.val
  omega

theorem pay8_apply (v10 : Vec Ideal S16x512 .f32) (n : Fin 512) (bb : Fin 16) :
    k0_pay8 (F := Ideal) v10 (ix2 n bb) = v10 (ix2 bb n) := by
  unfold k0_pay8
  refine transpose_apply [1, 0] _ transposes_S16x512_p1_0_S512x16 (ix2 n bb) (ix2 bb n) ?_
  intro b
  match b with
  | ⟨0, _⟩ => rfl
  | ⟨1, _⟩ => rfl

theorem pay9_apply (v0 : Vec Ideal S512x512 .f32) (v10 : Vec Ideal S16x512 .f32) (n : Fin 512) (bb : Fin 16) :
    k0_pay9 (F := Ideal) v0 v10 (ix2 n bb) = ∑ k : Fin 512, v0 (ix2 n k) * v10 (ix2 bb k) := by
  unfold k0_pay9
  show matmul dot_S512x512_S512x16_S512x16_1_0_0_1_n_n none (k0_pay5 (F := Ideal) v0) (k0_pay8 (F := Ideal) v10)
      (constant (F := Ideal) S512x16 .f32 0x00000000#32) (ix2 n bb) = _
  rw [dotA_eq, matmul_plain_apply]
  exact Finset.sum_congr rfl fun k _ => by rw [pay5_apply, pay8_apply]

/-- A [512,16] array as a [512,16,1] column. -/
theorem col_apply (x : FVec Ideal S512x16 .bf16) (n : Fin 512) (bb : Fin 16) :
    shapeCast S512x16x1 x shapeCasts_S512x16_S512x16x1 (ix3 n bb 0) = x (ix2 n bb) := by
  refine shapeCast_apply _ shapeCasts_S512x16_S512x16x1 (ix3 n bb 0) (ix2 n bb) ?_
  rw [Shape.rowMajor_val_three, Shape.rowMajor_val_two]
  show n.val * 16 + bb.val = (n.val * 16 + bb.val) * 1 + 0
  omega

/-! ## The table of taps the first layer's convolutions contract -/

section Table
variable {F : FTy → Type} [FloatOps F]

/-- The state rows with the batch folded into the columns: entry (node, 64 * batch + unit). -/
def nm (s : FVec F S8192x64 .bf16) : FVec F S512x1024 .bf16 :=
  shapeCast S512x1024 (addf (shapeCast S512x16x64 s shapeCasts_S8192x64_S512x16x64)
    (broadcast S512x16x64 (Scalar.ofBits .bf16 0x0000#16))) shapeCasts_S512x16x64_S512x1024

/-- One diffusion step of every unit of the state. -/
def diff1 (A : FVec F S512x512 .bf16) (s : FVec F S8192x64 .bf16) : FVec F S512x1024 .bf16 :=
  truncf .bf16 (matmul dot_S512x512_S512x1024_S512x1024_1_0_0_1_n_n none A (nm s)
    (constant S512x1024 .f32 0x00000000#32)) bitsLt_bf16_f32

/-- The second Chebyshev term of every unit of the state (`A2` the doubled adjacency). -/
def diff2 (A A2 : FVec F S512x512 .bf16) (s : FVec F S8192x64 .bf16) : FVec F S512x1024 .bf16 :=
  subf (truncf .bf16 (matmul dot_S512x512_S512x1024_S512x1024_1_0_0_1_n_n none A2 (diff1 A s)
    (constant S512x1024 .f32 0x00000000#32)) bitsLt_bf16_f32) (nm s)

/-- The six blocks: the state's three taps (64 units each), then the input's three taps. -/
def cat0List (A A2 : FVec F S512x512 .bf16) (s : FVec F S8192x64 .bf16) (z0 z1 z2 : FVec F S512x16x1 .bf16) :
    List ((t : Shape) × (t.Idx → F .bf16)) :=
  [⟨S512x16x64, shapeCast S512x16x64 s shapeCasts_S8192x64_S512x16x64⟩,
    ⟨S512x16x64, shapeCast S512x16x64 (diff1 A s) shapeCasts_S512x1024_S512x16x64⟩,
    ⟨S512x16x64, shapeCast S512x16x64 (diff2 A A2 s) shapeCasts_S512x1024_S512x16x64⟩,
    ⟨S512x16x1, z0⟩, ⟨S512x16x1, z1⟩, ⟨S512x16x1, z2⟩]

/-- The six blocks side by side along the last axis. -/
def cat0 (A A2 : FVec F S512x512 .bf16) (s : FVec F S8192x64 .bf16) (z0 z1 z2 : FVec F S512x16x1 .bf16) :
    FVec F S512x16x195 .bf16 :=
  concatenate S512x16x195 2 (cat0List A A2 s z0 z1 z2)
    concatenates_S512x16x64_S512x16x64_S512x16x64_S512x16x1_S512x16x1_S512x16x1_S512x16x195_d2

/-- The table: one row per (node, batch element), 195 columns. -/
def table0 (A A2 : FVec F S512x512 .bf16) (s : FVec F S8192x64 .bf16) (z0 z1 z2 : FVec F S512x16x1 .bf16) :
    FVec F S8192x195 .bf16 :=
  shapeCast S8192x195 (cat0 A A2 s z0 z1 z2) shapeCasts_S512x16x195_S8192x195

/-- The gate convolution's product is the table times the loaded weights. -/
theorem pay13_eq (v0 : Vec F S512x512 .f32) (v5 : Vec F S1x16x32768 .f32) (v10 : Vec F S16x512 .f32) (v22 : Vec F S195x128 .bf16) :
    k0_pay13 v0 v5 v10 v22 = matmul dot_S8192x195_S195x128_S8192x128_1_0_0_1_n_n none
      (table0 (k0_pay5 v0) (k0_pay6 v0) (truncf .bf16 (k0_pay7 v5) bitsLt_bf16_f32) (k0_pay10 v10) (k0_pay11 v0 v10) (k0_pay12 v0 v10))
      (shapeCast S195x128 v22 shapeCasts_S195x128_S195x128) (constant S8192x128 .f32 0x00000000#32) := rfl

end Table

theorem rows_apply (s : FVec Ideal S8192x64 .bf16) (n : Fin 512) (bb : Fin 16) (u : Fin 64) (r : Fin 8192)
    (hr : r.val = n.val * 16 + bb.val) :
    shapeCast S512x16x64 s shapeCasts_S8192x64_S512x16x64 (ix3 n bb u) = s (ix2 r u) := by
  refine shapeCast_apply _ shapeCasts_S8192x64_S512x16x64 (ix3 n bb u) (ix2 r u) ?_
  rw [Shape.rowMajor_val_three, Shape.rowMajor_val_two]
  show r.val * 64 + u.val = (n.val * 16 + bb.val) * 64 + u.val
  rw [hr]

theorem split_apply (x : FVec Ideal S512x1024 .bf16) (n : Fin 512) (bb : Fin 16) (u : Fin 64) (c : Fin 1024)
    (hc : c.val = bb.val * 64 + u.val) :
    shapeCast S512x16x64 x shapeCasts_S512x1024_S512x16x64 (ix3 n bb u) = x (ix2 n c) := by
  refine shapeCast_apply _ shapeCasts_S512x1024_S512x16x64 (ix3 n bb u) (ix2 n c) ?_
  rw [Shape.rowMajor_val_three, Shape.rowMajor_val_two]
  show n.val * 1024 + c.val = (n.val * 16 + bb.val) * 64 + u.val
  omega

theorem nm_apply (s : FVec Ideal S8192x64 .bf16) (k : Fin 512) (bb : Fin 16) (u : Fin 64) (c : Fin 1024)
    (hc : c.val = bb.val * 64 + u.val) (r : Fin 8192) (hr : r.val = k.val * 16 + bb.val) :
    nm s (ix2 k c) = s (ix2 r u) := by
  unfold nm
  refine (shapeCast_apply _ shapeCasts_S512x16x64_S512x1024 (ix2 k c) (ix3 k bb u) ?_).trans ?_
  · rw [Shape.rowMajor_val_three, Shape.rowMajor_val_two]
    show (k.val * 16 + bb.val) * 64 + u.val = k.val * 1024 + c.val
    omega
  show shapeCast S512x16x64 s shapeCasts_S8192x64_S512x16x64 (ix3 k bb u) + Ideal.ofBits .bf16 0x0000#16 = _
  rw [Ideal.ofBits_zero_bf16, add_zero]
  exact rows_apply s k bb u r hr

theorem diff1_apply (A : FVec Ideal S512x512 .bf16) (s : FVec Ideal S8192x64 .bf16) (n : Fin 512) (c : Fin 1024) :
    diff1 A s (ix2 n c) = ∑ k : Fin 512, A (ix2 n k) * nm s (ix2 k c) := by
  unfold diff1
  show matmul dot_S512x512_S512x1024_S512x1024_1_0_0_1_n_n none A (nm s)
      (constant (F := Ideal) S512x1024 .f32 0x00000000#32) (ix2 n c) = _
  rw [dotB_eq, matmul_plain_apply]

theorem diff2_apply (A A2 : FVec Ideal S512x512 .bf16) (s : FVec Ideal S8192x64 .bf16) (n : Fin 512) (c : Fin 1024) :
    diff2 A A2 s (ix2 n c) = (∑ k : Fin 512, A2 (ix2 n k) * diff1 A s (ix2 k c)) - nm s (ix2 n c) := by
  unfold diff2
  show matmul dot_S512x512_S512x1024_S512x1024_1_0_0_1_n_n none A2 (diff1 A s)
      (constant (F := Ideal) S512x1024 .f32 0x00000000#32) (ix2 n c) - nm s (ix2 n c) = _
  rw [dotB_eq, matmul_plain_apply]

theorem table0_rows (A A2 : FVec Ideal S512x512 .bf16) (s : FVec Ideal S8192x64 .bf16) (z0 z1 z2 : FVec Ideal S512x16x1 .bf16)
    (n : Fin 512) (bb : Fin 16) (j : Fin 195) (r : Fin 8192) (hr : r.val = n.val * 16 + bb.val) :
    table0 A A2 s z0 z1 z2 (ix2 r j) = cat0 A A2 s z0 z1 z2 (ix3 n bb j) := by
  unfold table0
  refine shapeCast_apply _ shapeCasts_S512x16x195_S8192x195 (ix2 r j) (ix3 n bb j) ?_
  rw [Shape.rowMajor_val_three, Shape.rowMajor_val_two]
  show (n.val * 16 + bb.val) * 195 + j.val = r.val * 195 + j.val
  rw [hr]

section Pieces
variable (A A2 : FVec Ideal S512x512 .bf16) (s : FVec Ideal S8192x64 .bf16) (z0 z1 z2 : FVec Ideal S512x16x1 .bf16)
variable (n : Fin 512) (bb : Fin 16) (j : Fin 195)

theorem cat0_state0 (u : Fin 64) (hj : j.val = u.val) :
    cat0 A A2 s z0 z1 z2 (ix3 n bb j) = shapeCast S512x16x64 s shapeCasts_S8192x64_S512x16x64 (ix3 n bb u) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 0 (show 0 < 6 by decide) S512x16x64 _ rfl rfl 0 rfl (ix3 n bb u) ?_ ?_
  · intro b
    match b with
    | ⟨0, _⟩ => exact fun _ => rfl
    | ⟨1, _⟩ => exact fun _ => rfl
    | ⟨2, _⟩ => exact fun h => absurd rfl h
  · show 0 + u.val = j.val
    omega

theorem cat0_state1 (u : Fin 64) (hj : j.val = 64 + u.val) :
    cat0 A A2 s z0 z1 z2 (ix3 n bb j) = shapeCast S512x16x64 (diff1 A s) shapeCasts_S512x1024_S512x16x64 (ix3 n bb u) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 1 (show 1 < 6 by decide) S512x16x64 _ rfl rfl 64 rfl (ix3 n bb u) ?_ ?_
  · intro b
    match b with
    | ⟨0, _⟩ => exact fun _ => rfl
    | ⟨1, _⟩ => exact fun _ => rfl
    | ⟨2, _⟩ => exact fun h => absurd rfl h
  · show 64 + u.val = j.val
    omega

theorem cat0_state2 (u : Fin 64) (hj : j.val = 128 + u.val) :
    cat0 A A2 s z0 z1 z2 (ix3 n bb j) = shapeCast S512x16x64 (diff2 A A2 s) shapeCasts_S512x1024_S512x16x64 (ix3 n bb u) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 2 (show 2 < 6 by decide) S512x16x64 _ rfl rfl 128 rfl (ix3 n bb u) ?_ ?_
  · intro b
    match b with
    | ⟨0, _⟩ => exact fun _ => rfl
    | ⟨1, _⟩ => exact fun _ => rfl
    | ⟨2, _⟩ => exact fun h => absurd rfl h
  · show 128 + u.val = j.val
    omega

theorem cat0_in0 (hj : j.val = 192) : cat0 A A2 s z0 z1 z2 (ix3 n bb j) = z0 (ix3 n bb 0) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 3 (show 3 < 6 by decide) S512x16x1 _ rfl rfl 192 rfl (ix3 n bb 0) ?_ ?_
  · intro b
    match b with
    | ⟨0, _⟩ => exact fun _ => rfl
    | ⟨1, _⟩ => exact fun _ => rfl
    | ⟨2, _⟩ => exact fun h => absurd rfl h
  · show 192 + 0 = j.val
    omega

theorem cat0_in1 (hj : j.val = 193) : cat0 A A2 s z0 z1 z2 (ix3 n bb j) = z1 (ix3 n bb 0) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 4 (show 4 < 6 by decide) S512x16x1 _ rfl rfl 193 rfl (ix3 n bb 0) ?_ ?_
  · intro b
    match b with
    | ⟨0, _⟩ => exact fun _ => rfl
    | ⟨1, _⟩ => exact fun _ => rfl
    | ⟨2, _⟩ => exact fun h => absurd rfl h
  · show 193 + 0 = j.val
    omega

theorem cat0_in2 (hj : j.val = 194) : cat0 A A2 s z0 z1 z2 (ix3 n bb j) = z2 (ix3 n bb 0) := by
  unfold cat0
  refine concatenate_apply_piece (t := S512x16x195) (2 : Fin 3) (cat0List A A2 s z0 z1 z2)
    concatenates_S512x16x64_S512x16x64_S512x16x64_S512x16x1_S512x16x1_S512x16x1_S512x16x195_d2 (ix3 n bb j) 5 (show 5 < 6 by decide) S512x16x1 _ rfl rfl 194 rfl (ix3 n bb 0) ?_ ?_
  · intro b
    match b with
    | ⟨0, _⟩ => exact fun _ => rfl
    | ⟨1, _⟩ => exact fun _ => rfl
    | ⟨2, _⟩ => exact fun h => absurd rfl h
  · show 194 + 0 = j.val
    omega

end Pieces

/-! ## The payloads against the mathematics -/

open Cert.Spec Cert.Forms

variable (a : Args 16)

theorem pay6_apply (v0 : Vec Ideal S512x512 .f32) (i : S512x512.Idx) : k0_pay6 (F := Ideal) v0 i = v0 i * two := rfl

/-- The loaded state slab as rows: row (node, batch element), column unit. -/
theorem pay7_rows (v5 : Vec Ideal S1x16x32768 .f32)
    (h5 : ∀ (bb : Fin 16) (p : Fin 32768), v5 (ix3 0 bb p) = a.hid (ix3 0 bb p)) :
    Rows64 (k0_pay7 (F := Ideal) v5) (hAt a 0) := by
  intro n bb u
  rw [pay7_apply v5 n bb u (rowK n bb) rfl (nu n u) rfl, h5]
  unfold hAt
  rw [dif_pos u.isLt]
  rfl

/-- The input as a column. -/
theorem pay10_col (v10 : Vec Ideal S16x512 .f32) (h10 : ∀ i, v10 i = a.inp i) :
    Col (k0_pay10 (F := Ideal) v10) (fun bb n => a.inp (ix2 bb n)) := by
  intro n bb
  show k0_pay10 (F := Ideal) v10 (ix3 n bb 0) = a.inp (ix2 bb n)
  unfold k0_pay10
  refine (col_apply _ n bb).trans ?_
  rw [pay8_apply, h10]

/-- One diffusion step of the input as a column. -/
theorem pay11_col (v0 : Vec Ideal S512x512 .f32) (v10 : Vec Ideal S16x512 .f32) (h0 : ∀ i, v0 i = a.adj i)
    (h10 : ∀ i, v10 i = a.inp i) :
    Col (k0_pay11 (F := Ideal) v0 v10) (fun bb n => d1 a.adj (fun k => a.inp (ix2 bb k)) n) := by
  intro n bb
  show k0_pay11 (F := Ideal) v0 v10 (ix3 n bb 0) = d1 a.adj (fun k => a.inp (ix2 bb k)) n
  unfold k0_pay11
  refine (col_apply _ n bb).trans ?_
  rw [pay9_apply]
  unfold d1
  exact Finset.sum_congr rfl fun k _ => by rw [h0, h10]

/-- The second Chebyshev term of the input as a column: the doubled adjacency times the first step, less the input. -/
theorem pay12_col (v0 : Vec Ideal S512x512 .f32) (v10 : Vec Ideal S16x512 .f32) (h0 : ∀ i, v0 i = a.adj i)
    (h10 : ∀ i, v10 i = a.inp i) :
    Col (k0_pay12 (F := Ideal) v0 v10) (fun bb n => d2 a.adj (fun k => a.inp (ix2 bb k)) n) := by
  intro n bb
  show k0_pay12 (F := Ideal) v0 v10 (ix3 n bb 0) = d2 a.adj (fun k => a.inp (ix2 bb k)) n
  unfold k0_pay12
  refine (col_apply _ n bb).trans ?_
  show matmul dot_S512x512_S512x16_S512x16_1_0_0_1_n_n none (k0_pay6 (F := Ideal) v0) (k0_pay9 (F := Ideal) v0 v10)
      (constant (F := Ideal) S512x16 .f32 0x00000000#32) (ix2 n bb) - k0_pay8 (F := Ideal) v10 (ix2 n bb) = _
  rw [dotA_eq, matmul_plain_apply, pay8_apply, h10]
  show _ = two * (∑ k : Fin 512, a.adj (ix2 n k) * d1 a.adj (fun k => a.inp (ix2 bb k)) k) - a.inp (ix2 bb n)
  rw [← sum_doubled (fun k => a.adj (ix2 n k)) (d1 a.adj fun k => a.inp (ix2 bb k))]
  refine congrArg (· - a.inp (ix2 bb n)) (Finset.sum_congr rfl fun k _ => ?_)
  show k0_pay6 (F := Ideal) v0 (ix2 n k) * k0_pay9 (F := Ideal) v0 v10 (ix2 k bb)
      = (a.adj (ix2 n k) * two) * d1 a.adj (fun k => a.inp (ix2 bb k)) k
  rw [pay6_apply, h0, pay9_apply]
  unfold d1
  exact congrArg _ (Finset.sum_congr rfl fun k' _ => by rw [h0, h10])

/-! ### The table, column by column -/

theorem tap_zero (z : Fin 512 → EReal) : tap a.adj 0 z = z := by unfold tap; rw [if_pos rfl]
theorem tap_one (z : Fin 512 → EReal) : tap a.adj 1 z = d1 a.adj z := by
  unfold tap; rw [if_neg (by decide), if_pos rfl]
theorem tap_two (z : Fin 512 → EReal) : tap a.adj 2 z = d2 a.adj z := by
  unfold tap; rw [if_neg (by decide), if_neg (by decide)]

/-- Feature `1 + u` of the first layer is unit `u` of the state. -/
theorem feat0_state (f : Fin 16 → Fin 512 → ℕ → EReal) (bb : Fin 16) (u : ℕ) : feat0 a f bb (1 + u) = fun k => f bb k u := by
  funext k
  show (if 1 + u = 0 then a.inp (ix2 bb k) else f bb k (1 + u - 1)) = f bb k u
  rw [if_neg (by omega), Nat.add_sub_cancel_left]
/-- Feature `0` of the first layer is the input. -/
theorem feat0_input (f : Fin 16 → Fin 512 → ℕ → EReal) (bb : Fin 16) : feat0 a f bb 0 = fun k => a.inp (ix2 bb k) := by
  funext k
  show (if 0 = 0 then a.inp (ix2 bb k) else f bb k (0 - 1)) = _
  rw [if_pos rfl]

section TableCols
variable (A A2 : FVec Ideal S512x512 .bf16) (s : FVec Ideal S8192x64 .bf16) (f : Fin 16 → Fin 512 → ℕ → EReal)
variable (hA : ∀ i, A i = a.adj i) (hA2 : ∀ i, A2 i = a.adj i * two) (hs : Rows64 s f)
include hA hs

/-- One diffusion step of unit `u` of the state. -/
theorem diff1_state (n : Fin 512) (bb : Fin 16) (u : Fin 64) :
    diff1 A s (ix2 n (colNM bb u)) = d1 a.adj (fun k => f bb k u.val) n := by
  rw [diff1_apply]
  unfold d1
  exact Finset.sum_congr rfl fun k _ => by rw [hA, nm_apply s k bb u (colNM bb u) rfl (rowK k bb) rfl, hs k bb u]

include hA2
/-- The second Chebyshev term of unit `u` of the state. -/
theorem diff2_state (n : Fin 512) (bb : Fin 16) (u : Fin 64) :
    diff2 A A2 s (ix2 n (colNM bb u)) = d2 a.adj (fun k => f bb k u.val) n := by
  rw [diff2_apply, nm_apply s n bb u (colNM bb u) rfl (rowK n bb) rfl, hs n bb u]
  show _ = two * (∑ k : Fin 512, a.adj (ix2 n k) * d1 a.adj (fun k => f bb k u.val) k) - f bb n u.val
  rw [← sum_doubled (fun k => a.adj (ix2 n k)) (d1 a.adj fun k => f bb k u.val)]
  refine congrArg (· - f bb n u.val) (Finset.sum_congr rfl fun k _ => ?_)
  show A2 (ix2 n k) * diff1 A s (ix2 k (colNM bb u)) = (a.adj (ix2 n k) * two) * d1 a.adj (fun k => f bb k u.val) k
  rw [hA2, diff1_state a A s f hA hs k bb u]

/-- THE TABLE AT (row of `n`, `bb`; column `j`): the tap and feature of the reference row the weights' row `j` holds. -/
theorem table0_apply (z0 z1 z2 : FVec Ideal S512x16x1 .bf16)
    (hz0 : Col z0 (fun bb n => a.inp (ix2 bb n)))
    (hz1 : Col z1 (fun bb n => d1 a.adj (fun k => a.inp (ix2 bb k)) n))
    (hz2 : Col z2 (fun bb n => d2 a.adj (fun k => a.inp (ix2 bb k)) n))
    (n : Fin 512) (bb : Fin 16) (j : Fin 195) :
    table0 A A2 s z0 z1 z2 (ix2 (rowK n bb) j)
      = tap a.adj ((sigma0 j).val % 3) (feat0 a f bb ((sigma0 j).val / 3)) n := by
  rw [table0_rows A A2 s z0 z1 z2 n bb j (rowK n bb) rfl]
  have hj := j.isLt
  by_cases h : j.val < 192
  · obtain ⟨ht, hf⟩ := sigma0_state j h
    rw [ht, hf, feat0_state]
    have hu : j.val % 64 < 64 := Nat.mod_lt _ (by decide)
    rcases (by omega : j.val / 64 = 0 ∨ j.val / 64 = 1 ∨ j.val / 64 = 2) with h0 | h1 | h2
    · rw [h0, tap_zero, cat0_state0 A A2 s z0 z1 z2 n bb j ⟨j.val % 64, hu⟩ (by show j.val = j.val % 64; omega),
        rows_apply s n bb _ (rowK n bb) rfl]
      exact hs n bb ⟨j.val % 64, hu⟩
    · rw [h1, tap_one, cat0_state1 A A2 s z0 z1 z2 n bb j ⟨j.val % 64, hu⟩ (by show j.val = 64 + j.val % 64; omega),
        split_apply _ n bb _ (colNM bb ⟨j.val % 64, hu⟩) rfl]
      exact diff1_state a A s f hA hs n bb ⟨j.val % 64, hu⟩
    · rw [h2, tap_two, cat0_state2 A A2 s z0 z1 z2 n bb j ⟨j.val % 64, hu⟩ (by show j.val = 128 + j.val % 64; omega),
        split_apply _ n bb _ (colNM bb ⟨j.val % 64, hu⟩) rfl]
      exact diff2_state a A A2 s f hA hA2 hs n bb ⟨j.val % 64, hu⟩
  · obtain ⟨ht, hf⟩ := sigma0_input j h
    rw [ht, hf, feat0_input]
    rcases (by omega : j.val = 192 ∨ j.val = 193 ∨ j.val = 194) with h0 | h1 | h2
    · rw [show j.val - 192 = 0 by omega, tap_zero, cat0_in0 A A2 s z0 z1 z2 n bb j h0]
      exact hz0 n bb
    · rw [show j.val - 192 = 1 by omega, tap_one, cat0_in1 A A2 s z0 z1 z2 n bb j h1]
      exact hz1 n bb
    · rw [show j.val - 192 = 2 by omega, tap_two, cat0_in2 A A2 s z0 z1 z2 n bb j h2]
      exact hz2 n bb

end TableCols

/-! ### The gate convolution before its activation -/

/-- The bias along every row. -/
theorem pay14_apply (v24 : Vec Ideal S128 .f32) (r : Fin 8192) (o : Fin 128) :
    k0_pay14 (F := Ideal) v24 (ix2 r o) = v24 (ix1 o) := by
  unfold k0_pay14
  refine (broadcastTo_apply _ broadcasts_S1x128_S8192x128 (ix2 r o) (ix2 0 o) ?_).trans ?_
  · intro b
    match b with
    | ⟨0, _⟩ => rfl
    | ⟨1, _⟩ => rfl
  refine shapeCast_apply _ shapeCasts_S128_S1x128 (ix2 0 o) (ix1 o) ?_
  rw [Shape.rowMajor_val_two, Shape.rowMajor_val_one]
  show o.val = 0 * 128 + o.val
  omega

/-- The first layer's gate convolution, bias added: the reference's, row by row. -/
theorem pre_g0 (v0 : Vec Ideal S512x512 .f32) (v5 : Vec Ideal S1x16x32768 .f32) (v10 : Vec Ideal S16x512 .f32)
    (v22 : Vec Ideal S195x128 .bf16) (v24 : Vec Ideal S128 .f32)
    (h0 : ∀ i, v0 i = a.adj i)
    (h5 : ∀ (bb : Fin 16) (p : Fin 32768), v5 (ix3 0 bb p) = a.hid (ix3 0 bb p))
    (h10 : ∀ i, v10 i = a.inp i)
    (h22 : ∀ (j : Fin 195) (o : Fin 128), v22 (ix2 j o) = a.Wg0 (ix2 (sigma0 j) o))
    (h24 : ∀ i, v24 i = a.bg0 i) :
    Rows128 (addf (k0_pay13 (F := Ideal) v0 v5 v10 v22) (k0_pay14 (F := Ideal) v24))
      (fun bb n o => pre a.adj (feat0 a (hAt a 0)) a.Wg0 a.bg0 bb n o) := by
  intro n bb o
  show k0_pay13 (F := Ideal) v0 v5 v10 v22 (ix2 (rowK n bb) o) + k0_pay14 (F := Ideal) v24 (ix2 (rowK n bb) o)
      = pre a.adj (feat0 a (hAt a 0)) a.Wg0 a.bg0 bb n o
  rw [pay14_apply, h24, pay13_eq, dotC_eq, matmul_plain_apply]
  unfold pre
  refine congrArg (· + a.bg0 (ix1 o)) ?_
  rw [← sum_sigma0 (fun j : Fin 195 => tap a.adj (j.val % 3) (feat0 a (hAt a 0) bb (j.val / 3)) n * a.Wg0 (ix2 j o))]
  refine Finset.sum_congr rfl fun j _ => ?_
  rw [shapeCast_self, h22]
  refine congrArg (· * a.Wg0 (ix2 (sigma0 j) o)) ?_
  exact table0_apply a _ _ _ (hAt a 0) (fun i => (pay5_apply v0 i).trans (h0 i))
    (fun i => by rw [pay6_apply, h0]) (pay7_rows a v5 h5) _ _ _ (pay10_col a v10 h10) (pay11_col a v0 v10 h0 h10)
    (pay12_col a v0 v10 h0 h10) n bb j

/-! ### The candidate convolution contracts the same table, of the reset state -/

section Candidate
variable {F : FTy → Type} [FloatOps F]

theorem dotD_eq : dot_S8192x195_S195x64_S8192x64_1_0_0_1_n_n = DotDims.plain 8192 195 64 := rfl

/-- The first layer's new state as the body spells it: gates `g`, reset `r` and update `u` halves, the reset state
    `s`, and the candidate's product of `table0` of `s` with the loaded candidate weights. -/
theorem pay15_eq (v1 v4 : FVec F S512x512 .bf16) (v9 : FVec F S8192x64 .f32) (v18 v19 v20 : FVec F S512x16x1 .bf16)
    (v39 v41 : FVec F S8192x128 .f32) (v48 : Vec F S195x64 .bf16) (v50 : Vec F S64 .f32) :
    k0_pay15 v1 v4 v9 v18 v19 v20 v39 v41 v48 v50 =
      (let g : FVec F S8192x128 .f32 := logistic (addf v39 v41)
       let r : FVec F S8192x64 .f32 := extractStridedSlice S8192x64 ![0, 0] g slices_S8192x128_o0_0_S8192x64
       let u : FVec F S8192x64 .f32 := extractStridedSlice S8192x64 ![0, 64] g slices_S8192x128_o0_64_S8192x64
       let s : FVec F S8192x64 .bf16 := truncf .bf16 (mulf r v9) bitsLt_bf16_f32
       addf (mulf u v9) (mulf (subf (broadcast S8192x64 (Scalar.ofBits .f32 0x3F800000#32)) u)
         (tanh (addf (matmul dot_S8192x195_S195x64_S8192x64_1_0_0_1_n_n none (table0 v1 v4 s v18 v19 v20)
           (shapeCast S195x64 v48 shapeCasts_S195x64_S195x64) (constant S8192x64 .f32 0x00000000#32))
           (broadcastTo S8192x64 (shapeCast S1x64 v50 shapeCasts_S64_S1x64) broadcasts_S1x64_S8192x64))))) := rfl

end Candidate

end Cert.KernelIdeal.ValA

end
-- ==== Proof.KValB.lean ====
/-
  The second part of the recurrent cell's body, read at the extended reals: the first layer's candidate and new state,
  the second layer's state as rows, and the new state's first two diffusion products in node-major form.

  Every array is read at one index. A row of a per-node array is "node, batch element" (row 16 * node + batch element);
  the node-major form folds the batch element into the column (column 64 * batch element + unit). The two layout changes
  between them keep the row-major position, so they move an entry and never change it. A product with the adjacency is the
  sum over the 512 nodes; the product with the 195 weight rows is re-indexed by the row permutation to the reference's
  order "3 * feature + tap".
-/
import proofs.«108032_g44504451121623_cont_8to1_c_180_30_alg».proof.Proof.Gen.KernelIdeal.Skeleton
import proofs.«108032_g44504451121623_cont_8to1_c_180_30_alg».proof.Proof.Spec
import proofs.«108032_g44504451121623_cont_8to1_c_180_30_alg».proof.Proof.Forms
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.ValB

open Idealize.ShloMosaic Idealize.ShloMosaic.ValueIdx Idealize.SL.Sem
open Cert.Spec Cert.Forms Cert.KernelIdeal Cert.KernelIdeal.Gen

/-! ## Layout changes at an index -/

section Layout
variable {α : Type}

/-- Rows to the three-axis form: the row-major position is kept. -/
theorem cast_rows_split (x : S8192x64.Idx → α) (n : Fin 512) (bb : Fin 16) (u : Fin 64) :
    shapeCast S512x16x64 x shapeCasts_S8192x64_S512x16x64 (ix3 n bb u) = x (ix2 (rowK n bb) u) := by
  refine shapeCast_apply x _ (ix3 n bb u) (ix2 (rowK n bb) u) ?_
  rw [Shape.rowMajor_val_two, Shape.rowMajor_val_three]
  show (n.val * 16 + bb.val) * 64 + u.val = (n.val * 16 + bb.val) * 64 + u.val
  rfl

/-- The three-axis form back to rows. -/
theorem cast_split_rows (x : S512x16x64.Idx → α) (n : Fin 512) (bb : Fin 16) (u : Fin 64) :
    shapeCast S8192x64 x shapeCasts_S512x16x64_S8192x64 (ix2 (rowK n bb) u) = x (ix3 n bb u) := by
  refine shapeCast_apply x _ (ix2 (rowK n bb) u) (ix3 n bb u) ?_
  rw [Shape.rowMajor_val_two, Shape.rowMajor_val_three]
  show (n.val * 16 + bb.val) * 64 + u.val = (n.val * 16 + bb.val) * 64 + u.val
  rfl

/-- The three-axis form to node-major: batch element and unit merge into one column. -/
theorem cast_split_nm (x : S512x16x64.Idx → α) (n : Fin 512) (bb : Fin 16) (u : Fin 64) :
    shapeCast S512x1024 x shapeCasts_S512x16x64_S512x1024 (ix2 n (colNM bb u)) = x (ix3 n bb u) := by
  refine shapeCast_apply x _ (ix2 n (colNM bb u)) (ix3 n bb u) ?_
  rw [Shape.rowMajor_val_two, Shape.rowMajor_val_three]
  show (n.val * 16 + bb.val) * 64 + u.val = n.val * 1024 + (bb.val * 64 + u.val)
  omega

/-- Node-major back to the three-axis form. -/
theorem cast_nm_split (x : S512x1024.Idx → α) (n : Fin 512) (bb : Fin 16) (u : Fin 64) :
    shapeCast S512x16x64 x shapeCasts_S512x1024_S512x16x64 (ix3 n bb u) = x (ix2 n (colNM bb u)) := by
  refine shapeCast_apply x _ (ix3 n bb u) (ix2 n (colNM bb u)) ?_
  rw [Shape.rowMajor_val_two, Shape.rowMajor_val_three]
  show n.val * 1024 + (bb.val * 64 + u.val) = (n.val * 16 + bb.val) * 64 + u.val
  omega

/-- The table of the 195 taps, three axes to rows. -/
theorem cast_split195_rows (x : S512x16x195.Idx → α) (n : Fin 512) (bb : Fin 16) (j : Fin 195) :
    shapeCast S8192x195 x shapeCasts_S512x16x195_S8192x195 (ix2 (rowK n bb) j) = x (ix3 n bb j) := by
  refine shapeCast_apply x _ (ix2 (rowK n bb) j) (ix3 n bb j) ?_
  rw [Shape.rowMajor_val_two, Shape.rowMajor_val_three]
  show (n.val * 16 + bb.val) * 195 + j.val = (n.val * 16 + bb.val) * 195 + j.val
  rfl

/-- The reset half of the gate rows: columns 0 to 63. -/
theorem slice_lo (x : S8192x128.Idx → α) (r : Fin 8192) (u : Fin 64) :
    extractStridedSlice S8192x64 ![0, 0] x slices_S8192x128_o0_0_S8192x64 (ix2 r u)
      = x (ix2 r ⟨u.val, by have := u.isLt; omega⟩) :=
  slice2_axis1_apply 0 x _ r u ⟨u.val, by have := u.isLt; omega⟩ (Nat.zero_add _).symm

/-- The update half of the gate rows: columns 64 to 127. -/
theorem slice_hi (x : S8192x128.Idx → α) (r : Fin 8192) (u : Fin 64) :
    extractStridedSlice S8192x64 ![0, 64] x slices_S8192x128_o0_64_S8192x64 (ix2 r u)
      = x (ix2 r ⟨64 + u.val, by have := u.isLt; omega⟩) :=
  slice2_axis1_apply 64 x _ r u ⟨64 + u.val, by have := u.isLt; omega⟩ rfl

/-- A bias vector laid along every row. -/
theorem bias_row (v : S64.Idx → α) (r : Fin 8192) (o : Fin 64) :
    broadcastTo S8192x64 (shapeCast S1x64 v shapeCasts_S64_S1x64) broadcasts_S1x64_S8192x64 (ix2 r o) = v (ix1 o) :=
  (broadcastTo_1b_ab_apply _ _ r o).trans (shapeCast_a_1a_apply v _ 0 o)

end Layout

/-! ## The two products at an index -/

/-- A product with a 512 × 512 matrix on the left, into a zero accumulator: the sum over the 512 nodes. -/
theorem mm512_apply (x : FVec Ideal S512x512 .bf16) (y : FVec Ideal S512x1024 .bf16) (n : Fin 512) (c : Fin 1024) :
    matmul dot_S512x512_S512x1024_S512x1024_1_0_0_1_n_n none x y (constant S512x1024 .f32 0x00000000#32) (ix2 n c)
      = ∑ k : Fin 512, x (ix2 n k) * y (ix2 k c) := by
  refine (Ideal.matmul_constant_zero_apply dot_S512x512_S512x1024_S512x1024_1_0_0_1_n_n none x y (ix2 n c)).trans ?_
  rw [← Equiv.sum_comp (contrEquiv1 dot_S512x512_S512x1024_S512x1024_1_0_0_1_n_n 512 rfl rfl).symm]
  refine Finset.sum_congr rfl fun k _ => ?_
  have c2 := contrEquiv1_symm_val dot_S512x512_S512x1024_S512x1024_1_0_0_1_n_n 512 rfl rfl k
  have l2 : dot_S512x512_S512x1024_S512x1024_1_0_0_1_n_n.lhsIdx (ix2 n c)
      ((contrEquiv1 dot_S512x512_S512x1024_S512x1024_1_0_0_1_n_n 512 rfl rfl).symm k) = ix2 n k := by
    funext ax; apply Fin.ext
    match ax with
    | ⟨0, _⟩ => rfl
    | ⟨1, _⟩ => exact c2
  have r2 : dot_S512x512_S512x1024_S512x1024_1_0_0_1_n_n.rhsIdx (ix2 n c)
      ((contrEquiv1 dot_S512x512_S512x1024_S512x1024_1_0_0_1_n_n 512 rfl rfl).symm k) = ix2 k c := by
    funext ax; apply Fin.ext
    match ax with
    | ⟨0, _⟩ => exact c2
    | ⟨1, _⟩ => rfl
  rw [l2, r2]

/-- The product of the table's rows with the 195 weight rows, into a zero accumulator. -/
theorem mm195_apply (x : FVec Ideal S8192x195 .bf16) (w : FVec Ideal S195x64 .bf16) (r : Fin 8192) (o : Fin 64) :
    matmul dot_S8192x195_S195x64_S8192x64_1_0_0_1_n_n none x w (constant S8192x64 .f32 0x00000000#32) (ix2 r o)
      = ∑ j : Fin 195, x (ix2 r j) * w (ix2 j o) := by
  refine (Ideal.matmul_constant_zero_apply dot_S8192x195_S195x64_S8192x64_1_0_0_1_n_n none x w (ix2 r o)).trans ?_
  rw [← Equiv.sum_comp (contrEquiv1 dot_S8192x195_S195x64_S8192x64_1_0_0_1_n_n 195 rfl rfl).symm]
  refine Finset.sum_congr rfl fun k _ => ?_
  have c2 := contrEquiv1_symm_val dot_S8192x195_S195x64_S8192x64_1_0_0_1_n_n 195 rfl rfl k
  have l2 : dot_S8192x195_S195x64_S8192x64_1_0_0_1_n_n.lhsIdx (ix2 r o)
      ((contrEquiv1 dot_S8192x195_S195x64_S8192x64_1_0_0_1_n_n 195 rfl rfl).symm k) = ix2 r k := by
    funext ax; apply Fin.ext
    match ax with
    | ⟨0, _⟩ => rfl
    | ⟨1, _⟩ => exact c2
  have r2 : dot_S8192x195_S195x64_S8192x64_1_0_0_1_n_n.rhsIdx (ix2 r o)
      ((contrEquiv1 dot_S8192x195_S195x64_S8192x64_1_0_0_1_n_n 195 rfl rfl).symm k) = ix2 k o := by
    funext ax; apply Fin.ext
    match ax with
    | ⟨0, _⟩ => exact c2
    | ⟨1, _⟩ => rfl
  rw [l2, r2]

/-! ## The table of taps at a column

The table lays, along its last axis, three blocks of 64 columns (the state's taps 0, 1, 2) and then three single
columns (the input's taps 0, 1, 2). -/

section Table
variable {α : Type} (p0 p1 p2 : S512x16x64.Idx → α) (q0 q1 q2 : S512x16x1.Idx → α)

/-- Columns 0 to 63: the first block. -/
theorem table_p0 (n : Fin 512) (bb : Fin 16) (j : Fin 195) (u : Fin 64) (hj : j.val = u.val) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = p0 (ix3 n bb u) :=
  concatenate_apply_piece 2 _ _ (ix3 n bb j) 0 (by show (0 : ℕ) < 6; omega) S512x16x64 p0 rfl rfl 0 rfl (ix3 n bb u)
    (fun b => match b with
      | ⟨0, _⟩ => fun _ => rfl
      | ⟨1, _⟩ => fun _ => rfl
      | ⟨2, _⟩ => fun h => absurd (Fin.ext rfl) h)
    (by show 0 + u.val = j.val; omega)

/-- Columns 64 to 127: the second block. -/
theorem table_p1 (n : Fin 512) (bb : Fin 16) (j : Fin 195) (u : Fin 64) (hj : j.val = 64 + u.val) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = p1 (ix3 n bb u) :=
  concatenate_apply_piece 2 _ _ (ix3 n bb j) 1 (by show (1 : ℕ) < 6; omega) S512x16x64 p1 rfl rfl 64 rfl (ix3 n bb u)
    (fun b => match b with
      | ⟨0, _⟩ => fun _ => rfl
      | ⟨1, _⟩ => fun _ => rfl
      | ⟨2, _⟩ => fun h => absurd (Fin.ext rfl) h)
    (by show 64 + u.val = j.val; omega)

/-- Columns 128 to 191: the third block. -/
theorem table_p2 (n : Fin 512) (bb : Fin 16) (j : Fin 195) (u : Fin 64) (hj : j.val = 128 + u.val) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = p2 (ix3 n bb u) :=
  concatenate_apply_piece 2 _ _ (ix3 n bb j) 2 (by show (2 : ℕ) < 6; omega) S512x16x64 p2 rfl rfl 128 rfl (ix3 n bb u)
    (fun b => match b with
      | ⟨0, _⟩ => fun _ => rfl
      | ⟨1, _⟩ => fun _ => rfl
      | ⟨2, _⟩ => fun h => absurd (Fin.ext rfl) h)
    (by show 128 + u.val = j.val; omega)

/-- Column 192: the input. -/
theorem table_q0 (n : Fin 512) (bb : Fin 16) (j : Fin 195) (hj : j.val = 192) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = q0 (ix3 n bb 0) :=
  concatenate_apply_piece 2 _ _ (ix3 n bb j) 3 (by show (3 : ℕ) < 6; omega) S512x16x1 q0 rfl rfl 192 rfl (ix3 n bb 0)
    (fun b => match b with
      | ⟨0, _⟩ => fun _ => rfl
      | ⟨1, _⟩ => fun _ => rfl
      | ⟨2, _⟩ => fun h => absurd (Fin.ext rfl) h)
    (by show 192 + 0 = j.val; omega)

/-- Column 193: the input's first diffusion step. -/
theorem table_q1 (n : Fin 512) (bb : Fin 16) (j : Fin 195) (hj : j.val = 193) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = q1 (ix3 n bb 0) :=
  concatenate_apply_piece 2 _ _ (ix3 n bb j) 4 (by show (4 : ℕ) < 6; omega) S512x16x1 q1 rfl rfl 193 rfl (ix3 n bb 0)
    (fun b => match b with
      | ⟨0, _⟩ => fun _ => rfl
      | ⟨1, _⟩ => fun _ => rfl
      | ⟨2, _⟩ => fun h => absurd (Fin.ext rfl) h)
    (by show 193 + 0 = j.val; omega)

/-- Column 194: the input's second Chebyshev term. -/
theorem table_q2 (n : Fin 512) (bb : Fin 16) (j : Fin 195) (hj : j.val = 194) :
    concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2 (ix3 n bb j) = q2 (ix3 n bb 0) :=
  concatenate_apply_piece 2 _ _ (ix3 n bb j) 5 (by show (5 : ℕ) < 6; omega) S512x16x1 q2 rfl rfl 194 rfl (ix3 n bb 0)
    (fun b => match b with
      | ⟨0, _⟩ => fun _ => rfl
      | ⟨1, _⟩ => fun _ => rfl
      | ⟨2, _⟩ => fun h => absurd (Fin.ext rfl) h)
    (by show 194 + 0 = j.val; omega)

end Table

/-! ## Taps -/

theorem tap_zero (adj : S512x512.Idx → EReal) (z : Fin 512 → EReal) : tap adj 0 z = z := by
  unfold tap; rw [if_pos rfl]
theorem tap_one (adj : S512x512.Idx → EReal) (z : Fin 512 → EReal) : tap adj 1 z = d1 adj z := by
  unfold tap; rw [if_neg (by omega), if_pos rfl]
theorem tap_two (adj : S512x512.Idx → EReal) (z : Fin 512 → EReal) : tap adj 2 z = d2 adj z := by
  unfold tap; rw [if_neg (by omega), if_neg (by omega)]

/-! ## Forms carried through the layout changes and the diffusion products -/

section FormLemmas
variable (adj : S512x512.Idx → EReal)

/-- Rows to node-major: split the rows, add the zero array, merge batch element and unit. -/
theorem rows_to_nm (x : FVec Ideal S8192x64 .bf16) (f : Fin 16 → Fin 512 → ℕ → EReal) (hx : Rows64 x f) :
    NodeMajor (shapeCast S512x1024 (addf (shapeCast S512x16x64 x shapeCasts_S8192x64_S512x16x64)
      (broadcast S512x16x64 (Scalar.ofBits (F := Ideal) .bf16 0x0000#16))) shapeCasts_S512x16x64_S512x1024) f := by
  intro n bb u
  refine (cast_split_nm _ n bb u).trans ?_
  show shapeCast S512x16x64 x shapeCasts_S8192x64_S512x16x64 (ix3 n bb u) + Ideal.ofBits .bf16 0x0000#16 = _
  rw [cast_rows_split, Ideal.ofBits_zero_bf16, add_zero, hx]

/-- Rows to the three-axis form. -/
theorem rows_to_split (x : FVec Ideal S8192x64 .bf16) (f : Fin 16 → Fin 512 → ℕ → EReal) (hx : Rows64 x f) :
    Split3 (shapeCast S512x16x64 x shapeCasts_S8192x64_S512x16x64) f :=
  fun n bb u => (cast_rows_split x n bb u).trans (hx n bb u)

/-- Node-major to the three-axis form. -/
theorem nm_to_split (x : FVec Ideal S512x1024 .bf16) (f : Fin 16 → Fin 512 → ℕ → EReal) (hx : NodeMajor x f) :
    Split3 (shapeCast S512x16x64 x shapeCasts_S512x1024_S512x16x64) f :=
  fun n bb u => (cast_nm_split x n bb u).trans (hx n bb u)

/-- One diffusion step of a node-major array: the adjacency times it, unit by unit. -/
theorem nm_diffuse (v1 : FVec Ideal S512x512 .bf16) (h1 : ∀ i, v1 i = adj i) (y : FVec Ideal S512x1024 .bf16)
    (f : Fin 16 → Fin 512 → ℕ → EReal) (hy : NodeMajor y f) :
    NodeMajor (truncf .bf16 (matmul dot_S512x512_S512x1024_S512x1024_1_0_0_1_n_n none v1 y (constant S512x1024 .f32 0x00000000#32)) bitsLt_bf16_f32)
      (tapOf adj 1 f) := by
  intro n bb u
  refine (mm512_apply v1 y n (colNM bb u)).trans ?_
  show _ = tap adj 1 (fun k => f bb k u.val) n
  rw [tap_one]
  unfold d1
  exact Finset.sum_congr rfl fun k _ => by rw [h1, hy]

/-- The doubled adjacency times a node-major array: the raw second product. -/
theorem nm_double (v4 : FVec Ideal S512x512 .bf16) (h4 : ∀ i, v4 i = adj i * two) (y : FVec Ideal S512x1024 .bf16)
    (g : Fin 16 → Fin 512 → ℕ → EReal) (hy : NodeMajor y g) :
    NodeMajor (matmul dot_S512x512_S512x1024_S512x1024_1_0_0_1_n_n none v4 y (constant S512x1024 .f32 0x00000000#32))
      (fun bb n u => ∑ k : Fin 512, (adj (ix2 n k) * two) * g bb k u) := by
  intro n bb u
  refine (mm512_apply v4 y n (colNM bb u)).trans ?_
  exact Finset.sum_congr rfl fun k _ => by rw [h4, hy]

/-- The second Chebyshev term of a node-major array: the doubled adjacency times the first diffusion step, less the
    array itself; doubling the adjacency first or the product afterwards is the same. -/
theorem nm_cheb (v4 : FVec Ideal S512x512 .bf16) (h4 : ∀ i, v4 i = adj i * two) (y0 y1 : FVec Ideal S512x1024 .bf16)
    (f : Fin 16 → Fin 512 → ℕ → EReal) (hy0 : NodeMajor y0 f) (hy1 : NodeMajor y1 (tapOf adj 1 f)) :
    NodeMajor (subf (truncf .bf16 (matmul dot_S512x512_S512x1024_S512x1024_1_0_0_1_n_n none v4 y1 (constant S512x1024 .f32 0x00000000#32)) bitsLt_bf16_f32) y0)
      (tapOf adj 2 f) := by
  intro n bb u
  show matmul dot_S512x512_S512x1024_S512x1024_1_0_0_1_n_n none v4 y1 (constant S512x1024 .f32 0x00000000#32) (ix2 n (colNM bb u)) - y0 (ix2 n (colNM bb u))
    = tap adj 2 (fun k => f bb k u.val) n
  rw [mm512_apply, hy0, tap_two]
  unfold d2
  rw [← sum_doubled (fun k => adj (ix2 n k)) (d1 adj (fun k' => f bb k' u.val))]
  refine congrArg (· - f bb n u.val) (Finset.sum_congr rfl fun k _ => ?_)
  rw [h4, hy1, ← tap_one]
  rfl

end FormLemmas

/-! ## The table's rows, and the convolution they give -/

section Conv
variable (a : Args 16)

/-- Entry `j` of the table's row of node `n`, batch element `bb`, for a state `f`: the state's tap `j / 64` at
    unit `j % 64` below 192, then the input's tap `j - 192`. -/
def tabEntry (f : Fin 16 → Fin 512 → ℕ → EReal) (bb : Fin 16) (n : Fin 512) (j : Fin 195) : EReal :=
  if j.val < 192 then tap a.adj (j.val / 64) (fun k => f bb k (j.val % 64)) n
  else tap a.adj (j.val - 192) (fun k => a.inp (ix2 bb k)) n

/-- The table, as rows, from the three-axis forms of the state's taps and the columns of the input's taps. -/
theorem table_rows (p0 p1 p2 : FVec Ideal S512x16x64 .bf16) (q0 q1 q2 : FVec Ideal S512x16x1 .bf16)
    (f : Fin 16 → Fin 512 → ℕ → EReal)
    (hp0 : Split3 p0 f) (hp1 : Split3 p1 (tapOf a.adj 1 f)) (hp2 : Split3 p2 (tapOf a.adj 2 f))
    (hq0 : Col q0 (fun bb n => a.inp (ix2 bb n)))
    (hq1 : Col q1 (fun bb n => d1 a.adj (fun k => a.inp (ix2 bb k)) n))
    (hq2 : Col q2 (fun bb n => d2 a.adj (fun k => a.inp (ix2 bb k)) n))
    (n : Fin 512) (bb : Fin 16) (j : Fin 195) :
    shapeCast S8192x195 (concatenate S512x16x195 2 [⟨S512x16x64, p0⟩, ⟨S512x16x64, p1⟩, ⟨S512x16x64, p2⟩, ⟨S512x16x1, q0⟩, ⟨S512x16x1, q1⟩, ⟨S512x16x1, q2⟩]
      concatenates_S512x16x64_S512x16x64_S512x16x64_S512x16x1_S512x16x1_S512x16x1_S512x16x195_d2) shapeCasts_S512x16x195_S8192x195 (ix2 (rowK n bb) j) = tabEntry a f bb n j := by
  have hj := j.isLt
  refine (cast_split195_rows _ n bb j).trans ?_
  unfold tabEntry
  by_cases h0 : j.val < 64
  · rw [table_p0 p0 p1 p2 q0 q1 q2 n bb j ⟨j.val, h0⟩ rfl, hp0, if_pos (by omega),
      show j.val / 64 = 0 by omega, show j.val % 64 = j.val by omega, tap_zero]
  by_cases h1 : j.val < 128
  · rw [table_p1 p0 p1 p2 q0 q1 q2 n bb j ⟨j.val - 64, by omega⟩ (by show j.val = 64 + (j.val - 64); omega), hp1,
      if_pos (by omega), show j.val / 64 = 1 by omega, show j.val % 64 = j.val - 64 by omega]
    rfl
  by_cases h2 : j.val < 192
  · rw [table_p2 p0 p1 p2 q0 q1 q2 n bb j ⟨j.val - 128, by omega⟩ (by show j.val = 128 + (j.val - 128); omega), hp2,
      if_pos h2, show j.val / 64 = 2 by omega, show j.val % 64 = j.val - 128 by omega]
    rfl
  by_cases h3 : j.val = 192
  · rw [table_q0 p0 p1 p2 q0 q1 q2 n bb j h3, hq0, if_neg h2, show j.val - 192 = 0 by omega, tap_zero]
  by_cases h4 : j.val = 193
  · rw [table_q1 p0 p1 p2 q0 q1 q2 n bb j h4, hq1, if_neg h2, show j.val - 192 = 1 by omega, tap_one]
  · rw [table_q2 p0 p1 p2 q0 q1 q2 n bb j (by omega), hq2, if_neg h2, show j.val - 192 = 2 by omega, tap_two]

/-- A table entry is the reference's tap of the reference's feature at the image row of the permutation. -/
theorem tabEntry_sigma0 (f : Fin 16 → Fin 512 → ℕ → EReal) (bb : Fin 16) (n : Fin 512) (j : Fin 195) :
    tabEntry a f bb n j = tap a.adj ((sigma0 j).val % 3) (feat0 a f bb ((sigma0 j).val / 3)) n := by
  unfold tabEntry
  by_cases h : j.val < 192
  · obtain ⟨e1, e2⟩ := sigma0_state j h
    have hf : feat0 a f bb (1 + j.val % 64) = fun k => f bb k (j.val % 64) := by
      funext k
      unfold feat0
      rw [if_neg (by omega), show 1 + j.val % 64 - 1 = j.val % 64 by omega]
    rw [if_pos h, e1, e2, hf]
  · obtain ⟨e1, e2⟩ := sigma0_input j h
    have hf : feat0 a f bb 0 = fun k => a.inp (ix2 bb k) := by
      funext k
      unfold feat0
      rw [if_pos rfl]
    rw [if_neg h, e1, e2, hf]

/-- The table's rows times the permuted weight rows, plus the bias: the reference's convolution before its activation. -/
theorem conv_rows (tbl : FVec Ideal S8192x195 .bf16) (w : Vec Ideal S195x64 .bf16) (bv : Vec Ideal S64 .f32)
    (f : Fin 16 → Fin 512 → ℕ → EReal) (W : S195x64.Idx → EReal) (bias : S64.Idx → EReal)
    (htbl : ∀ (n : Fin 512) (bb : Fin 16) (j : Fin 195), tbl (ix2 (rowK n bb) j) = tabEntry a f bb n j)
    (hw : ∀ (j : Fin 195) (o : Fin 64), w (ix2 j o) = W (ix2 (sigma0 j) o)) (hb : ∀ i, bv i = bias i)
    (n : Fin 512) (bb : Fin 16) (o : Fin 64) :
    addf (matmul dot_S8192x195_S195x64_S8192x64_1_0_0_1_n_n none tbl (shapeCast S195x64 w shapeCasts_S195x64_S195x64 : FVec Ideal S195x64 .bf16) (constant S8192x64 .f32 0x00000000#32))
        (broadcastTo S8192x64 (shapeCast S1x64 bv shapeCasts_S64_S1x64) broadcasts_S1x64_S8192x64) (ix2 (rowK n bb) o)
      = pre a.adj (feat0 a f) W bias bb n o := by
  show matmul dot_S8192x195_S195x64_S8192x64_1_0_0_1_n_n none tbl (shapeCast S195x64 w shapeCasts_S195x64_S195x64 : FVec Ideal S195x64 .bf16) (constant S8192x64 .f32 0x00000000#32) (ix2 (rowK n bb) o)
      + broadcastTo S8192x64 (shapeCast S1x64 bv shapeCasts_S64_S1x64) broadcasts_S1x64_S8192x64 (ix2 (rowK n bb) o) = _
  rw [mm195_apply, bias_row, hb, shapeCast_self]
  unfold pre
  refine congrArg (· + bias (ix1 o)) ?_
  rw [← sum_sigma0 (fun j => tap a.adj (j.val % 3) (feat0 a f bb (j.val / 3)) n * W (ix2 j o))]
  exact Finset.sum_congr rfl fun j _ => by rw [htbl, hw, tabEntry_sigma0]

end Conv

/-! ## The payloads -/

section Payloads
variable (a : Args 16)

/-- The second layer's state slab as rows: the slab's entry `64 * node + unit` of batch element `bb` sits at row
    "node, batch element", column "unit". -/
theorem pay16_rows (v75 : Vec Ideal S1x16x32768 .f32)
    (h75 : ∀ (bb : Fin 16) (p : Fin 32768), v75 (ix3 0 bb p) = a.hid (ix3 1 bb p)) :
    Rows64 (k0_pay16 (F := Ideal) v75) (hAt a 1) := by
  intro n bb u
  unfold k0_pay16
  refine (cast_split_rows _ n bb u).trans ?_
  refine (transpose_apply _ _ _ (ix3 n bb u) (ix3 bb n u)
    (fun b => match b with | ⟨0, _⟩ => rfl | ⟨1, _⟩ => rfl | ⟨2, _⟩ => rfl)).trans ?_
  refine (shapeCast_apply _ _ (ix3 bb n u) (ix2 bb (nu n u)) (by
    rw [Shape.rowMajor_val_two, Shape.rowMajor_val_three]
    show bb.val * 32768 + (n.val * 64 + u.val) = (bb.val * 512 + n.val) * 64 + u.val
    omega)).trans ?_
  refine (shapeCast_1ab_ab_apply _ _ bb (nu n u)).trans ?_
  rw [h75]
  unfold hAt
  rw [dif_pos u.isLt]
  rfl

/-- The gates: the logistic function of the gate convolution. -/
theorem gates_rows (v39 v41 : FVec Ideal S8192x128 .f32) (hpre : Rows128 (addf v39 v41) (fun bb n o => pre a.adj (feat0 a (hAt a 0)) a.Wg0 a.bg0 bb n o)) :
    Rows128 (logistic (addf v39 v41)) (g0 a) := by
  intro n bb o
  show Ideal.logistic (addf v39 v41 (ix2 (rowK n bb) o)) = g0 a bb n o
  rw [hpre]
  rfl

/-- The reset gate: the gates' columns 0 to 63. -/
theorem reset_rows (v39 v41 : FVec Ideal S8192x128 .f32) (hpre : Rows128 (addf v39 v41) (fun bb n o => pre a.adj (feat0 a (hAt a 0)) a.Wg0 a.bg0 bb n o)) :
    Rows64 (extractStridedSlice S8192x64 ![0, 0] (logistic (addf v39 v41)) slices_S8192x128_o0_0_S8192x64) (r0 a) := by
  intro n bb u
  rw [slice_lo, gates_rows a v39 v41 hpre]
  unfold r0
  rw [dif_pos u.isLt]

/-- The update gate: the gates' columns 64 to 127. -/
theorem update_rows (v39 v41 : FVec Ideal S8192x128 .f32) (hpre : Rows128 (addf v39 v41) (fun bb n o => pre a.adj (feat0 a (hAt a 0)) a.Wg0 a.bg0 bb n o)) :
    Rows64 (extractStridedSlice S8192x64 ![0, 64] (logistic (addf v39 v41)) slices_S8192x128_o0_64_S8192x64) (u0 a) := by
  intro n bb u
  rw [slice_hi, gates_rows a v39 v41 hpre]
  unfold u0
  rw [dif_pos u.isLt]

/-- The reset state `r * h`. -/
def rh : Fin 16 → Fin 512 → ℕ → EReal := fun b n u => r0 a b n u * hAt a 0 b n u

/-- The reset state as rows. -/
theorem rstate_rows (v9 : FVec Ideal S8192x64 .f32) (v39 v41 : FVec Ideal S8192x128 .f32) (h9 : Rows64 v9 (hAt a 0))
    (hpre : Rows128 (addf v39 v41) (fun bb n o => pre a.adj (feat0 a (hAt a 0)) a.Wg0 a.bg0 bb n o)) :
    Rows64 (truncf .bf16 (mulf (extractStridedSlice S8192x64 ![0, 0] (logistic (addf v39 v41)) slices_S8192x128_o0_0_S8192x64) v9)
      bitsLt_bf16_f32) (rh a) := by
  intro n bb u
  show extractStridedSlice S8192x64 ![0, 0] (logistic (addf v39 v41)) slices_S8192x128_o0_0_S8192x64 (ix2 (rowK n bb) u)
    * v9 (ix2 (rowK n bb) u) = _
  rw [reset_rows a v39 v41 hpre, h9]
  rfl

/-- The candidate: the hyperbolic tangent of the convolution of the reset state. -/
theorem cand_of_conv (X : FVec Ideal S8192x64 .f32)
    (hX : ∀ (n : Fin 512) (bb : Fin 16) (o : Fin 64), X (ix2 (rowK n bb) o) = pre a.adj (feat0 a (rh a)) a.Wc0 a.bc0 bb n o) :
    Rows64 (tanh X) (c0 a) := by
  intro n bb u
  show Ideal.tanh (X (ix2 (rowK n bb) u)) = c0 a bb n u.val
  rw [hX]
  unfold c0
  rw [dif_pos u.isLt]
  rfl

/-- The new state from the update gate, the state and the candidate: `u * h + (1 - u) * c`. -/
theorem newstate_rows (U H C : FVec Ideal S8192x64 .f32) (fu fh fc : Fin 16 → Fin 512 → ℕ → EReal)
    (hU : Rows64 U fu) (hH : Rows64 H fh) (hC : Rows64 C fc) :
    Rows64 (addf (mulf U H) (mulf (subf (broadcast S8192x64 (Scalar.ofBits (F := Ideal) .f32 0x3F800000#32)) U) C))
      (fun bb n u => fu bb n u * fh bb n u + (one - fu bb n u) * fc bb n u) := by
  intro n bb u
  show U (ix2 (rowK n bb) u) * H (ix2 (rowK n bb) u)
    + (Ideal.ofBits .f32 0x3F800000#32 - U (ix2 (rowK n bb) u)) * C (ix2 (rowK n bb) u) = _
  rw [hU, hH, hC]

/-- The first layer's new state as rows. -/
theorem pay15_rows (v1 v4 : FVec Ideal S512x512 .bf16) (v9 : FVec Ideal S8192x64 .f32)
    (v18 v19 v20 : FVec Ideal S512x16x1 .bf16) (v39 v41 : FVec Ideal S8192x128 .f32) (v48 : Vec Ideal S195x64 .bf16)
    (v50 : Vec Ideal S64 .f32)
    (h1 : ∀ i, v1 i = a.adj i) (h4 : ∀ i, v4 i = a.adj i * two) (h9 : Rows64 v9 (hAt a 0))
    (h18 : Col v18 (fun bb n => a.inp (ix2 bb n)))
    (h19 : Col v19 (fun bb n => d1 a.adj (fun k => a.inp (ix2 bb k)) n))
    (h20 : Col v20 (fun bb n => d2 a.adj (fun k => a.inp (ix2 bb k)) n))
    (hpre : Rows128 (addf v39 v41) (fun bb n o => pre a.adj (feat0 a (hAt a 0)) a.Wg0 a.bg0 bb n o))
    (h48 : ∀ (j : Fin 195) (o : Fin 64), v48 (ix2 j o) = a.Wc0 (ix2 (sigma0 j) o)) (h50 : ∀ i, v50 i = a.bc0 i) :
    Rows64 (k0_pay15 (F := Ideal) v1 v4 v9 v18 v19 v20 v39 v41 v48 v50) (h0n a) := by
  have hR := rstate_rows a v9 v39 v41 h9 hpre
  have hNM := rows_to_nm _ (rh a) hR
  have hD1 := nm_diffuse a.adj v1 h1 _ (rh a) hNM
  have hD2 := nm_cheb a.adj v4 h4 _ _ (rh a) hNM hD1
  have hT := table_rows a _ _ _ v18 v19 v20 (rh a) (rows_to_split _ _ hR) (nm_to_split _ _ hD1) (nm_to_split _ _ hD2)
    h18 h19 h20
  have hC := cand_of_conv a _ (conv_rows a _ v48 v50 (rh a) a.Wc0 a.bc0 hT h48 h50)
  unfold k0_pay15
  exact newstate_rows _ _ _ (u0 a) (hAt a 0) (c0 a) (update_rows a v39 v41 hpre) h9 hC

/-- The same after the format change. -/
theorem pay17_rows (v1 v4 : FVec Ideal S512x512 .bf16) (v9 : FVec Ideal S8192x64 .f32)
    (v18 v19 v20 : FVec Ideal S512x16x1 .bf16) (v39 v41 : FVec Ideal S8192x128 .f32) (v48 : Vec Ideal S195x64 .bf16)
    (v50 : Vec Ideal S64 .f32)
    (h1 : ∀ i, v1 i = a.adj i) (h4 : ∀ i, v4 i = a.adj i * two) (h9 : Rows64 v9 (hAt a 0))
    (h18 : Col v18 (fun bb n => a.inp (ix2 bb n)))
    (h19 : Col v19 (fun bb n => d1 a.adj (fun k => a.inp (ix2 bb k)) n))
    (h20 : Col v20 (fun bb n => d2 a.adj (fun k => a.inp (ix2 bb k)) n))
    (hpre : Rows128 (addf v39 v41) (fun bb n o => pre a.adj (feat0 a (hAt a 0)) a.Wg0 a.bg0 bb n o))
    (h48 : ∀ (j : Fin 195) (o : Fin 64), v48 (ix2 j o) = a.Wc0 (ix2 (sigma0 j) o)) (h50 : ∀ i, v50 i = a.bc0 i) :
    Rows64 (k0_pay17 (F := Ideal) v1 v4 v9 v18 v19 v20 v39 v41 v48 v50) (h0n a) := by
  intro n bb u
  unfold k0_pay17
  exact pay15_rows a v1 v4 v9 v18 v19 v20 v39 v41 v48 v50 h1 h4 h9 h18 h19 h20 hpre h48 h50 n bb u

/-- The first layer's new state in node-major form. -/
theorem pay18_nm (v1 v4 : FVec Ideal S512x512 .bf16) (v9 : FVec Ideal S8192x64 .f32)
    (v18 v19 v20 : FVec Ideal S512x16x1 .bf16) (v39 v41 : FVec Ideal S8192x128 .f32) (v48 : Vec Ideal S195x64 .bf16)
    (v50 : Vec Ideal S64 .f32)
    (h1 : ∀ i, v1 i = a.adj i) (h4 : ∀ i, v4 i = a.adj i * two) (h9 : Rows64 v9 (hAt a 0))
    (h18 : Col v18 (fun bb n => a.inp (ix2 bb n)))
    (h19 : Col v19 (fun bb n => d1 a.adj (fun k => a.inp (ix2 bb k)) n))
    (h20 : Col v20 (fun bb n => d2 a.adj (fun k => a.inp (ix2 bb k)) n))
    (hpre : Rows128 (addf v39 v41) (fun bb n o => pre a.adj (feat0 a (hAt a 0)) a.Wg0 a.bg0 bb n o))
    (h48 : ∀ (j : Fin 195) (o : Fin 64), v48 (ix2 j o) = a.Wc0 (ix2 (sigma0 j) o)) (h50 : ∀ i, v50 i = a.bc0 i) :
    NodeMajor (k0_pay18 (F := Ideal) v1 v4 v9 v18 v19 v20 v39 v41 v48 v50) (h0n a) := by
  unfold k0_pay18
  exact rows_to_nm _ (h0n a) (pay17_rows a v1 v4 v9 v18 v19 v20 v39 v41 v48 v50 h1 h4 h9 h18 h19 h20 hpre h48 h50)

/-- Its first diffusion step. -/
theorem pay19_nm (v1 v4 : FVec Ideal S512x512 .bf16) (v9 : FVec Ideal S8192x64 .f32)
    (v18 v19 v20 : FVec Ideal S512x16x1 .bf16) (v39 v41 : FVec Ideal S8192x128 .f32) (v48 : Vec Ideal S195x64 .bf16)
    (v50 : Vec Ideal S64 .f32)
    (h1 : ∀ i, v1 i = a.adj i) (h4 : ∀ i, v4 i = a.adj i * two) (h9 : Rows64 v9 (hAt a 0))
    (h18 : Col v18 (fun bb n => a.inp (ix2 bb n)))
    (h19 : Col v19 (fun bb n => d1 a.adj (fun k => a.inp (ix2 bb k)) n))
    (h20 : Col v20 (fun bb n => d2 a.adj (fun k => a.inp (ix2 bb k)) n))
    (hpre : Rows128 (addf v39 v41) (fun bb n o => pre a.adj (feat0 a (hAt a 0)) a.Wg0 a.bg0 bb n o))
    (h48 : ∀ (j : Fin 195) (o : Fin 64), v48 (ix2 j o) = a.Wc0 (ix2 (sigma0 j) o)) (h50 : ∀ i, v50 i = a.bc0 i) :
    NodeMajor (k0_pay19 (F := Ideal) v1 v4 v9 v18 v19 v20 v39 v41 v48 v50) (tapOf a.adj 1 (h0n a)) := by
  unfold k0_pay19
  exact nm_diffuse a.adj v1 h1 _ (h0n a) (pay18_nm a v1 v4 v9 v18 v19 v20 v39 v41 v48 v50 h1 h4 h9 h18 h19 h20 hpre h48 h50)

/-- The doubled adjacency times the first diffusion step: the raw second product. -/
theorem pay20_nm (v1 v4 : FVec Ideal S512x512 .bf16) (v9 : FVec Ideal S8192x64 .f32)
    (v18 v19 v20 : FVec Ideal S512x16x1 .bf16) (v39 v41 : FVec Ideal S8192x128 .f32) (v48 : Vec Ideal S195x64 .bf16)
    (v50 : Vec Ideal S64 .f32)
    (h1 : ∀ i, v1 i = a.adj i) (h4 : ∀ i, v4 i = a.adj i * two) (h9 : Rows64 v9 (hAt a 0))
    (h18 : Col v18 (fun bb n => a.inp (ix2 bb n)))
    (h19 : Col v19 (fun bb n => d1 a.adj (fun k => a.inp (ix2 bb k)) n))
    (h20 : Col v20 (fun bb n => d2 a.adj (fun k => a.inp (ix2 bb k)) n))
    (hpre : Rows128 (addf v39 v41) (fun bb n o => pre a.adj (feat0 a (hAt a 0)) a.Wg0 a.bg0 bb n o))
    (h48 : ∀ (j : Fin 195) (o : Fin 64), v48 (ix2 j o) = a.Wc0 (ix2 (sigma0 j) o)) (h50 : ∀ i, v50 i = a.bc0 i) :
    NodeMajor (k0_pay20 (F := Ideal) v1 v4 v9 v18 v19 v20 v39 v41 v48 v50)
      (fun bb n u => ∑ k : Fin 512, (a.adj (ix2 n k) * two) * d1 a.adj (fun k' => h0n a bb k' u) k) := by
  intro n bb u
  unfold k0_pay20
  refine (nm_double a.adj v4 h4 _ _ (pay19_nm a v1 v4 v9 v18 v19 v20 v39 v41 v48 v50 h1 h4 h9 h18 h19 h20 hpre h48 h50) n bb u).trans ?_
  refine Finset.sum_congr rfl fun k _ => ?_
  show _ * tap a.adj 1 (fun k' => h0n a bb k' u.val) k = _
  rw [tap_one]

end Payloads

end Cert.KernelIdeal.ValB

end
-- ==== Proof.KValC.lean ====
/-
  The second layer's gate of the kernel body, read at the extended reals.

  The layer input is the first layer's new state. The body holds it as a three-axis array, takes one diffusion step of
  it and its second Chebyshev term, and lays the six column blocks "state tap 0, 1, 2, input tap 0, 1, 2" side by side
  in one table of 384 columns. The gate is the logistic function of that table times the weights (whose rows are the
  reference's rows in the table's order) plus the bias; its first 64 columns are the reset gate and its last 64 the
  update gate. The reset state, reset gate times state, is then put through the same three taps.
-/
import proofs.«108032_g44504451121623_cont_8to1_c_180_30_alg».proof.Proof.Gen.KernelIdeal.Skeleton
import proofs.«108032_g44504451121623_cont_8to1_c_180_30_alg».proof.Proof.Spec
import proofs.«108032_g44504451121623_cont_8to1_c_180_30_alg».proof.Proof.Forms
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.ValC

open Idealize.ShloMosaic Idealize.ShloMosaic.ValueIdx Cert.KernelIdeal Cert.KernelIdeal.Gen Cert.Spec Cert.Forms

/-! ## Changes of form at an index -/

/-- Rows to three axes: entry (node, batch element, unit) is the row's entry. -/
theorem rows_to_split {φ : FTy} (x : FVec Ideal S8192x64 φ) (h : S8192x64.ShapeCasts S512x16x64)
    (n : Fin 512) (bb : Fin 16) (u : Fin 64) :
    shapeCast S512x16x64 x h (ix3 n bb u) = x (ix2 (rowK n bb) u) := by
  refine shapeCast_apply x h (ix3 n bb u) (ix2 (rowK n bb) u) ?_
  rw [Shape.rowMajor_val_two, Shape.rowMajor_val_three]
  show (n.val * 16 + bb.val) * 64 + u.val = (n.val * 16 + bb.val) * 64 + u.val
  rfl

/-- Node-major to three axes. -/
theorem nm_to_split {φ : FTy} (x : FVec Ideal S512x1024 φ) (h : S512x1024.ShapeCasts S512x16x64)
    (n : Fin 512) (bb : Fin 16) (u : Fin 64) :
    shapeCast S512x16x64 x h (ix3 n bb u) = x (ix2 n (colNM bb u)) := by
  refine shapeCast_apply x h (ix3 n bb u) (ix2 n (colNM bb u)) ?_
  rw [Shape.rowMajor_val_two, Shape.rowMajor_val_three]
  show n.val * 1024 + (bb.val * 64 + u.val) = (n.val * 16 + bb.val) * 64 + u.val
  omega

/-- Three axes to node-major. -/
theorem split_to_nm {φ : FTy} (x : FVec Ideal S512x16x64 φ) (h : S512x16x64.ShapeCasts S512x1024)
    (n : Fin 512) (bb : Fin 16) (u : Fin 64) :
    shapeCast S512x1024 x h (ix2 n (colNM bb u)) = x (ix3 n bb u) := by
  refine shapeCast_apply x h (ix2 n (colNM bb u)) (ix3 n bb u) ?_
  rw [Shape.rowMajor_val_two, Shape.rowMajor_val_three]
  show (n.val * 16 + bb.val) * 64 + u.val = n.val * 1024 + (bb.val * 64 + u.val)
  omega

/-- The table of 384 columns as rows. -/
theorem table_to_rows {φ : FTy} (x : FVec Ideal S512x16x384 φ) (h : S512x16x384.ShapeCasts S8192x384)
    (n : Fin 512) (bb : Fin 16) (j : Fin 384) :
    shapeCast S8192x384 x h (ix2 (rowK n bb) j) = x (ix3 n bb j) := by
  refine shapeCast_apply x h (ix2 (rowK n bb) j) (ix3 n bb j) ?_
  rw [Shape.rowMajor_val_two, Shape.rowMajor_val_three]
  show (n.val * 16 + bb.val) * 384 + j.val = (n.val * 16 + bb.val) * 384 + j.val
  rfl

/-! ## The two products at an index -/

/-- The diffusion product: entry (node, column) is the sum over the source nodes. -/
theorem adj_lhs_0 (j : S512x1024.Idx) (k : dot_S512x512_S512x1024_S512x1024_1_0_0_1_n_n.contr.Idx) :
    (dot_S512x512_S512x1024_S512x1024_1_0_0_1_n_n.lhsIdx j k 0).val = (j 0).val := by
  unfold DotDims.lhsIdx
  rw [dif_neg (show ¬ (0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

theorem adj_lhs_1 (j : S512x1024.Idx) (k : dot_S512x512_S512x1024_S512x1024_1_0_0_1_n_n.contr.Idx) :
    (dot_S512x512_S512x1024_S512x1024_1_0_0_1_n_n.lhsIdx j k 1).val = (k ⟨0, by decide⟩).val :=
  dot_S512x512_S512x1024_S512x1024_1_0_0_1_n_n.lhsIdx_val_of_single (cl := 1) rfl j k

theorem adj_rhs_0 (j : S512x1024.Idx) (k : dot_S512x512_S512x1024_S512x1024_1_0_0_1_n_n.contr.Idx) :
    (dot_S512x512_S512x1024_S512x1024_1_0_0_1_n_n.rhsIdx j k 0).val = (k ⟨0, by decide⟩).val :=
  dot_S512x512_S512x1024_S512x1024_1_0_0_1_n_n.rhsIdx_val_of_single (cr := 0) rfl j k

theorem adj_rhs_1 (j : S512x1024.Idx) (k : dot_S512x512_S512x1024_S512x1024_1_0_0_1_n_n.contr.Idx) :
    (dot_S512x512_S512x1024_S512x1024_1_0_0_1_n_n.rhsIdx j k 1).val = (j 1).val := by
  unfold DotDims.rhsIdx
  rw [dif_neg (show ¬ (1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

theorem adj_matmul (A : FVec Ideal S512x512 .bf16) (X : FVec Ideal S512x1024 .bf16) (n : Fin 512) (c : Fin 1024) :
    matmul dot_S512x512_S512x1024_S512x1024_1_0_0_1_n_n none A X (constant (F := Ideal) S512x1024 .f32 0x00000000#32) (ix2 n c)
      = ∑ k : Fin 512, A (ix2 n k) * X (ix2 k c) := by
  refine (Ideal.matmul_constant_zero_apply dot_S512x512_S512x1024_S512x1024_1_0_0_1_n_n none A X (ix2 n c)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have hl : dot_S512x512_S512x1024_S512x1024_1_0_0_1_n_n.lhsIdx (ix2 n c)
      ((contrEquiv1 dot_S512x512_S512x1024_S512x1024_1_0_0_1_n_n 512 rfl rfl).symm k) = ix2 n k := by
    funext ax; apply Fin.ext
    match ax with
    | ⟨0, _⟩ => exact adj_lhs_0 _ _
    | ⟨1, _⟩ => exact (adj_lhs_1 _ _).trans hk
  have hr : dot_S512x512_S512x1024_S512x1024_1_0_0_1_n_n.rhsIdx (ix2 n c)
      ((contrEquiv1 dot_S512x512_S512x1024_S512x1024_1_0_0_1_n_n 512 rfl rfl).symm k) = ix2 k c := by
    funext ax; apply Fin.ext
    match ax with
    | ⟨0, _⟩ => exact (adj_rhs_0 _ _).trans hk
    | ⟨1, _⟩ => exact adj_rhs_1 _ _
  rw [hl, hr]

/-- The gate's product: entry (row, column) is the sum over the table's 384 columns. -/
theorem gate_lhs_0 (j : S8192x128.Idx) (k : dot_S8192x384_S384x128_S8192x128_1_0_0_1_n_n.contr.Idx) :
    (dot_S8192x384_S384x128_S8192x128_1_0_0_1_n_n.lhsIdx j k 0).val = (j 0).val := by
  unfold DotDims.lhsIdx
  rw [dif_neg (show ¬ (0 : Fin S8192x384.rank) ∈ dot_S8192x384_S384x128_S8192x128_1_0_0_1_n_n.lhsBatch by decide),
    dif_pos (show (0 : Fin S8192x384.rank) ∈ dot_S8192x384_S384x128_S8192x128_1_0_0_1_n_n.lhsNonContracting by decide)]
  rfl

theorem gate_lhs_1 (j : S8192x128.Idx) (k : dot_S8192x384_S384x128_S8192x128_1_0_0_1_n_n.contr.Idx) :
    (dot_S8192x384_S384x128_S8192x128_1_0_0_1_n_n.lhsIdx j k 1).val = (k ⟨0, by decide⟩).val :=
  dot_S8192x384_S384x128_S8192x128_1_0_0_1_n_n.lhsIdx_val_of_single (cl := 1) rfl j k

theorem gate_rhs_0 (j : S8192x128.Idx) (k : dot_S8192x384_S384x128_S8192x128_1_0_0_1_n_n.contr.Idx) :
    (dot_S8192x384_S384x128_S8192x128_1_0_0_1_n_n.rhsIdx j k 0).val = (k ⟨0, by decide⟩).val :=
  dot_S8192x384_S384x128_S8192x128_1_0_0_1_n_n.rhsIdx_val_of_single (cr := 0) rfl j k

theorem gate_rhs_1 (j : S8192x128.Idx) (k : dot_S8192x384_S384x128_S8192x128_1_0_0_1_n_n.contr.Idx) :
    (dot_S8192x384_S384x128_S8192x128_1_0_0_1_n_n.rhsIdx j k 1).val = (j 1).val := by
  unfold DotDims.rhsIdx
  rw [dif_neg (show ¬ (1 : Fin S384x128.rank) ∈ dot_S8192x384_S384x128_S8192x128_1_0_0_1_n_n.rhsBatch by decide),
    dif_pos (show (1 : Fin S384x128.rank) ∈ dot_S8192x384_S384x128_S8192x128_1_0_0_1_n_n.rhsNonContracting by decide)]
  rfl

theorem gate_matmul (T : FVec Ideal S8192x384 .bf16) (W : FVec Ideal S384x128 .bf16) (r : Fin 8192) (o : Fin 128) :
    matmul dot_S8192x384_S384x128_S8192x128_1_0_0_1_n_n none T W (constant (F := Ideal) S8192x128 .f32 0x00000000#32) (ix2 r o)
      = ∑ j : Fin 384, T (ix2 r j) * W (ix2 j o) := by
  refine (Ideal.matmul_constant_zero_apply dot_S8192x384_S384x128_S8192x128_1_0_0_1_n_n none T W (ix2 r o)).trans ?_
  rw [← Equiv.sum_comp (contrEquiv1 dot_S8192x384_S384x128_S8192x128_1_0_0_1_n_n 384 rfl rfl).symm]
  refine Finset.sum_congr rfl fun k _ => ?_
  have hk := contrEquiv1_symm_val dot_S8192x384_S384x128_S8192x128_1_0_0_1_n_n 384 rfl rfl k
  have hl : dot_S8192x384_S384x128_S8192x128_1_0_0_1_n_n.lhsIdx (ix2 r o)
      ((contrEquiv1 dot_S8192x384_S384x128_S8192x128_1_0_0_1_n_n 384 rfl rfl).symm k) = ix2 r k := by
    funext ax; apply Fin.ext
    match ax with
    | ⟨0, _⟩ => exact gate_lhs_0 _ _
    | ⟨1, _⟩ => exact (gate_lhs_1 _ _).trans hk
  have hr : dot_S8192x384_S384x128_S8192x128_1_0_0_1_n_n.rhsIdx (ix2 r o)
      ((contrEquiv1 dot_S8192x384_S384x128_S8192x128_1_0_0_1_n_n 384 rfl rfl).symm k) = ix2 k o := by
    funext ax; apply Fin.ext
    match ax with
    | ⟨0, _⟩ => exact (gate_rhs_0 _ _).trans hk
    | ⟨1, _⟩ => exact gate_rhs_1 _ _
  rw [hl, hr]

/-! ## The taps, and the features of the second layer -/

theorem tap_zero (adj : (⟨2, ![512, 512]⟩ : Shape).Idx → EReal) (z : Fin 512 → EReal) : tap adj 0 z = z := by
  unfold tap; rw [if_pos rfl]
theorem tap_one (adj : (⟨2, ![512, 512]⟩ : Shape).Idx → EReal) (z : Fin 512 → EReal) : tap adj 1 z = d1 adj z := by
  unfold tap; rw [if_neg (by decide), if_pos rfl]
theorem tap_two (adj : (⟨2, ![512, 512]⟩ : Shape).Idx → EReal) (z : Fin 512 → EReal) : tap adj 2 z = d2 adj z := by
  unfold tap; rw [if_neg (by decide), if_neg (by decide)]

/-- The doubled-adjacency product less the signal is the second Chebyshev term. -/
theorem cheb_eq (adj : (⟨2, ![512, 512]⟩ : Shape).Idx → EReal) (z : Fin 512 → EReal) (n : Fin 512) :
    (∑ k : Fin 512, (adj (ix2 n k) * two) * d1 adj z k) - z n = tap adj 2 z n := by
  rw [tap_two, sum_doubled (fun k => adj (ix2 n k)) (d1 adj z)]
  rfl

/-- A state unit's feature number is 64 more than the unit; -/
theorem feat1_state (g f : Fin 16 → Fin 512 → ℕ → EReal) (bb : Fin 16) (u : ℕ) :
    feat1 g f bb (64 + u) = fun k => f bb k u := by
  funext k
  unfold feat1
  rw [if_neg (by omega), Nat.add_sub_cancel_left]
/-- a layer-input unit's is the unit. -/
theorem feat1_input (g f : Fin 16 → Fin 512 → ℕ → EReal) (bb : Fin 16) (u : ℕ) (hu : u < 64) :
    feat1 g f bb u = fun k => g bb k u := by
  funext k
  unfold feat1
  rw [if_pos hu]

/-! ## The table of 384 columns -/

/-- Six blocks of 64 units side by side: column `j` is unit `j % 64` of block `j / 64`. -/
theorem concat6_at {φ : FTy} (p0 p1 p2 p3 p4 p5 : FVec Ideal S512x16x64 φ)
    (hc : Shape.Concatenates [S512x16x64, S512x16x64, S512x16x64, S512x16x64, S512x16x64, S512x16x64] S512x16x384 2)
    (n : Fin 512) (bb : Fin 16) (j : Fin 384) (k : ℕ) (hk : k < 6) (x : FVec Ideal S512x16x64 φ)
    (hx : ([⟨S512x16x64, p0⟩, ⟨S512x16x64, p1⟩, ⟨S512x16x64, p2⟩, ⟨S512x16x64, p3⟩, ⟨S512x16x64, p4⟩, ⟨S512x16x64, p5⟩] :
      List ((s : Shape) × (s.Idx → Ideal φ)))[k]'hk = ⟨S512x16x64, x⟩)
    (hj : j.val / 64 = k) :
    concatenate S512x16x384 2 [⟨S512x16x64, p0⟩, ⟨S512x16x64, p1⟩, ⟨S512x16x64, p2⟩, ⟨S512x16x64, p3⟩, ⟨S512x16x64, p4⟩, ⟨S512x16x64, p5⟩] hc
      (ix3 n bb j) = x (ix3 n bb ⟨j.val % 64, Nat.mod_lt _ (by decide)⟩) := by
  refine concatenate_apply_piece (t := S512x16x384) (2 : Fin 3)
    ([⟨S512x16x64, p0⟩, ⟨S512x16x64, p1⟩, ⟨S512x16x64, p2⟩, ⟨S512x16x64, p3⟩, ⟨S512x16x64, p4⟩, ⟨S512x16x64, p5⟩] :
      List ((s : Shape) × (s.Idx → Ideal φ))) hc (ix3 n bb j) k hk S512x16x64 x hx rfl (64 * k) ?_
    (ix3 n bb ⟨j.val % 64, Nat.mod_lt _ (by decide)⟩) ?_ ?_
  · interval_cases k <;> rfl
  · intro b hb
    match b with
    | ⟨0, _⟩ => rfl
    | ⟨1, _⟩ => rfl
    | ⟨2, _⟩ => exact absurd rfl hb
  · show 64 * k + j.val % 64 = j.val
    omega

variable (a : Args 16)

/-- **The table at an index.** With the state's three taps and the layer input's three taps as its six blocks, the
    table's entry (row of `n`, `bb`; column `j`) is the tap and feature of the reference row `sigma1 j`. -/
theorem table1_apply (f g : Fin 16 → Fin 512 → ℕ → EReal) (s s1 s2 x0 x1 x2 : FVec Ideal S512x16x64 .bf16)
    (hs : Split3 s f) (hs1 : Split3 s1 (tapOf a.adj 1 f)) (hs2 : Split3 s2 (tapOf a.adj 2 f))
    (hx0 : Split3 x0 g) (hx1 : Split3 x1 (tapOf a.adj 1 g)) (hx2 : Split3 x2 (tapOf a.adj 2 g))
    (hc : Shape.Concatenates [S512x16x64, S512x16x64, S512x16x64, S512x16x64, S512x16x64, S512x16x64] S512x16x384 2)
    (hsc : S512x16x384.ShapeCasts S8192x384) (n : Fin 512) (bb : Fin 16) (j : Fin 384) :
    shapeCast S8192x384 (concatenate S512x16x384 2 [⟨S512x16x64, s⟩, ⟨S512x16x64, s1⟩, ⟨S512x16x64, s2⟩,
        ⟨S512x16x64, x0⟩, ⟨S512x16x64, x1⟩, ⟨S512x16x64, x2⟩] hc) hsc (ix2 (rowK n bb) j)
      = tap a.adj ((sigma1 j).val % 3) (feat1 g f bb ((sigma1 j).val / 3)) n := by
  refine (table_to_rows _ hsc n bb j).trans ?_
  have hj : j.val < 384 := j.isLt
  have hu : j.val % 64 < 64 := Nat.mod_lt _ (by decide)
  by_cases h3 : j.val / 64 < 3
  · obtain ⟨ht, hf⟩ := sigma1_state j h3
    rw [ht, hf, feat1_state]
    rcases (show j.val / 64 = 0 ∨ j.val / 64 = 1 ∨ j.val / 64 = 2 by omega) with h | h | h
    · rw [h, tap_zero]
      exact (concat6_at s s1 s2 x0 x1 x2 hc n bb j 0 (by decide) s rfl h).trans (hs n bb ⟨j.val % 64, hu⟩)
    · rw [h]
      exact (concat6_at s s1 s2 x0 x1 x2 hc n bb j 1 (by decide) s1 rfl h).trans (hs1 n bb ⟨j.val % 64, hu⟩)
    · rw [h]
      exact (concat6_at s s1 s2 x0 x1 x2 hc n bb j 2 (by decide) s2 rfl h).trans (hs2 n bb ⟨j.val % 64, hu⟩)
  · obtain ⟨ht, hf⟩ := sigma1_input j h3
    rw [ht, hf, feat1_input g f bb _ hu]
    rcases (show j.val / 64 = 3 ∨ j.val / 64 = 4 ∨ j.val / 64 = 5 by omega) with h | h | h
    · rw [h, show 3 - 3 = 0 from rfl, tap_zero]
      exact (concat6_at s s1 s2 x0 x1 x2 hc n bb j 3 (by decide) x0 rfl h).trans (hx0 n bb ⟨j.val % 64, hu⟩)
    · rw [h]
      exact (concat6_at s s1 s2 x0 x1 x2 hc n bb j 4 (by decide) x1 rfl h).trans (hx1 n bb ⟨j.val % 64, hu⟩)
    · rw [h]
      exact (concat6_at s s1 s2 x0 x1 x2 hc n bb j 5 (by decide) x2 rfl h).trans (hx2 n bb ⟨j.val % 64, hu⟩)

/-! ## Diffusion in node-major form -/

/-- One diffusion step of a quantity held node-major is its first tap, node-major. -/
theorem diffuse_nm (v1 : FVec Ideal S512x512 .bf16) (h1 : ∀ i, v1 i = a.adj i) (X : FVec Ideal S512x1024 .bf16)
    (f : Fin 16 → Fin 512 → ℕ → EReal) (hX : NodeMajor X f) :
    NodeMajor (truncf .bf16 (matmul dot_S512x512_S512x1024_S512x1024_1_0_0_1_n_n none v1 X
      (constant (F := Ideal) S512x1024 .f32 0x00000000#32)) bitsLt_bf16_f32) (tapOf a.adj 1 f) := by
  intro n bb u
  refine (adj_matmul v1 X n (colNM bb u)).trans ?_
  show _ = tap a.adj 1 (fun k => f bb k u.val) n
  rw [tap_one]
  unfold d1
  exact Finset.sum_congr rfl fun k _ => by rw [h1, hX k bb u]

/-- The product of the doubled adjacency with the first tap, less the quantity, is its second tap, node-major. -/
theorem cheb_nm (v4 : FVec Ideal S512x512 .bf16) (h4 : ∀ i, v4 i = a.adj i * two) (X1 X0 : FVec Ideal S512x1024 .bf16)
    (f : Fin 16 → Fin 512 → ℕ → EReal) (hX1 : NodeMajor X1 (tapOf a.adj 1 f)) (hX0 : NodeMajor X0 f) :
    NodeMajor (subf (truncf .bf16 (matmul dot_S512x512_S512x1024_S512x1024_1_0_0_1_n_n none v4 X1
      (constant (F := Ideal) S512x1024 .f32 0x00000000#32)) bitsLt_bf16_f32) X0) (tapOf a.adj 2 f) := by
  intro n bb u
  refine Eq.trans ?_ (cheb_eq a.adj (fun k => f bb k u.val) n)
  refine congrArg₂ (· - ·) ?_ (hX0 n bb u)
  refine (adj_matmul v4 X1 n (colNM bb u)).trans ?_
  refine Finset.sum_congr rfl fun k _ => ?_
  rw [h4, hX1 k bb u]
  show _ = a.adj (ix2 n k) * two * d1 a.adj (fun k' => f bb k' u.val) k
  rw [← tap_one]
  rfl

/-- Three axes to node-major keeps a quantity (the added zero changes nothing). -/
theorem split_plus_zero_nm (x : FVec Ideal S512x16x64 .bf16) (h : S512x16x64.ShapeCasts S512x1024)
    (f : Fin 16 → Fin 512 → ℕ → EReal) (hx : Split3 x f) :
    NodeMajor (shapeCast S512x1024 (addf x (broadcast S512x16x64 (Scalar.ofBits (F := Ideal) .bf16 0x0000#16))) h) f := by
  intro n bb u
  refine (split_to_nm _ h n bb u).trans ?_
  show x (ix3 n bb u) + Ideal.ofBits .bf16 0x0000#16 = _
  rw [Ideal.ofBits_zero_bf16, add_zero]
  exact hx n bb u

/-- Node-major to three axes keeps a quantity. -/
theorem nm_split (x : FVec Ideal S512x1024 .bf16) (h : S512x1024.ShapeCasts S512x16x64)
    (f : Fin 16 → Fin 512 → ℕ → EReal) (hx : NodeMajor x f) : Split3 (shapeCast S512x16x64 x h) f :=
  fun n bb u => (nm_to_split x h n bb u).trans (hx n bb u)

/-- Rows to three axes keeps a quantity. -/
theorem rows_split {φ : FTy} (x : FVec Ideal S8192x64 φ) (h : S8192x64.ShapeCasts S512x16x64)
    (f : Fin 16 → Fin 512 → ℕ → EReal) (hx : Rows64 x f) : Split3 (shapeCast S512x16x64 x h) f :=
  fun n bb u => (rows_to_split x h n bb u).trans (hx n bb u)

/-! ## The layer input's three taps as three-axis arrays -/

theorem pay21_split (v80 : FVec Ideal S8192x64 .bf16) (h80 : Rows64 v80 (h0n a)) :
    Split3 (k0_pay21 (F := Ideal) v80) (h0n a) := by
  intro n bb u
  unfold k0_pay21
  exact (rows_to_split v80 _ n bb u).trans (h80 n bb u)

theorem pay22_split (v86 : FVec Ideal S512x1024 .bf16) (h86 : NodeMajor v86 (tapOf a.adj 1 (h0n a))) :
    Split3 (k0_pay22 (F := Ideal) v86) (tapOf a.adj 1 (h0n a)) := by
  intro n bb u
  unfold k0_pay22
  exact (nm_to_split v86 _ n bb u).trans (h86 n bb u)

theorem pay23_split (v84 : FVec Ideal S512x1024 .bf16) (v87 : FVec Ideal S512x1024 .f32)
    (h84 : NodeMajor v84 (h0n a))
    (h87 : NodeMajor v87 (fun bb n u => ∑ k : Fin 512, (a.adj (ix2 n k) * two) * d1 a.adj (fun k' => h0n a bb k' u) k)) :
    Split3 (k0_pay23 (F := Ideal) v84 v87) (tapOf a.adj 2 (h0n a)) := by
  unfold k0_pay23
  refine nm_split _ _ _ ?_
  intro n bb u
  refine Eq.trans ?_ (cheb_eq a.adj (fun k => h0n a bb k u.val) n)
  exact congrArg₂ (· - ·) (h87 n bb u) (h84 n bb u)

/-! ## The gate -/

theorem logistic_apply {s : Shape} (x : FVec Ideal s .f32) (i : s.Idx) : logistic x i = Ideal.logistic (x i) := rfl

/-- The bias row read at any row of the table. -/
theorem bias_apply (v96 : Vec Ideal S128 .f32) (hc : S128.ShapeCasts S1x128) (hb : S1x128.Broadcasts S8192x128)
    (r : Fin 8192) (o : Fin 128) :
    broadcastTo S8192x128 (shapeCast S1x128 v96 hc) hb (ix2 r o) = v96 (ix1 o) :=
  (broadcastTo_1b_ab_apply _ hb r o).trans (shapeCast_a_1a_apply v96 hc 0 o)

section Gate

variable (v1 v4 : FVec Ideal S512x512 .bf16) (v79 : FVec Ideal S8192x64 .f32) (v80 : FVec Ideal S8192x64 .bf16)
  (v84 v86 : FVec Ideal S512x1024 .bf16) (v87 : FVec Ideal S512x1024 .f32) (v94 : Vec Ideal S384x128 .bf16)
  (v96 : Vec Ideal S128 .f32)

theorem pay24_rows (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Rows128 (k0_pay24 (F := Ideal) v1 v4 v79 v80 v84 v86 v87 v94 v96) (g1 a) := by
  intro n bb o
  unfold k0_pay24
  refine (logistic_apply _ _).trans ?_
  unfold g1 pre
  refine congrArg Ideal.logistic ?_
  refine (addf_apply _ _ _).trans ?_
  refine congrArg₂ (· + ·) ?_ ((bias_apply v96 _ _ (rowK n bb) o).trans (h96 _))
  refine (gate_matmul _ _ (rowK n bb) o).trans ?_
  rw [← sum_sigma1 (fun j => tap a.adj (j.val % 3) (feat1 (h0n a) (hAt a 1) bb (j.val / 3)) n * a.Wg1 (ix2 j o))]
  refine Finset.sum_congr rfl fun j _ => ?_
  refine congrArg₂ (· * ·) ?_ ?_
  · -- the state's three taps, then the layer input's
    have hst : NodeMajor (shapeCast S512x1024 (addf (shapeCast S512x16x64 (truncf .bf16 v79 bitsLt_bf16_f32)
        shapeCasts_S8192x64_S512x16x64) (broadcast S512x16x64 (Scalar.ofBits (F := Ideal) .bf16 0x0000#16)))
        shapeCasts_S512x16x64_S512x1024) (hAt a 1) :=
      split_plus_zero_nm _ _ _ (rows_split (truncf .bf16 v79 bitsLt_bf16_f32) _ _ h79)
    have hst1 := diffuse_nm a v1 h1 _ _ hst
    have hst2 := cheb_nm a v4 h4 _ _ _ hst1 hst
    exact table1_apply a (hAt a 1) (h0n a) _ _ _ _ _ _
      (rows_split (truncf .bf16 v79 bitsLt_bf16_f32) _ _ h79) (nm_split _ _ _ hst1) (nm_split _ _ _ hst2)
      (pay21_split a v80 h80) (pay22_split a v86 h86) (pay23_split a v84 v87 h84 h87) _ _ n bb j
  · rw [shapeCast_self]
    exact h94 j o

theorem pay25_rows (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Rows64 (k0_pay25 (F := Ideal) v1 v4 v79 v80 v84 v86 v87 v94 v96) (u1 a) := by
  intro n bb u
  unfold k0_pay25
  refine (slice2_axis1_apply 64 _ _ (rowK n bb) u (⟨64 + u.val, by have := u.isLt; omega⟩ : Fin 128) rfl).trans ?_
  refine (pay24_rows a v1 v4 v79 v80 v84 v86 v87 v94 v96 h1 h4 h79 h80 h84 h86 h87 h94 h96 n bb _).trans ?_
  unfold u1
  rw [dif_pos u.isLt]

theorem pay26_rows (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Rows64 (k0_pay26 (F := Ideal) v1 v4 v79 v80 v84 v86 v87 v94 v96) (fun bb n u => r1 a bb n u * hAt a 1 bb n u) := by
  intro n bb u
  show _ = r1 a bb n u.val * hAt a 1 bb n u.val
  unfold k0_pay26
  show extractStridedSlice S8192x64 ![0, 0] (k0_pay24 (F := Ideal) v1 v4 v79 v80 v84 v86 v87 v94 v96) slices_S8192x128_o0_0_S8192x64
      (ix2 (rowK n bb) u) * v79 (ix2 (rowK n bb) u) = _
  refine congrArg₂ (· * ·) ?_ (h79 n bb u)
  refine (slice2_axis1_apply 0 _ _ (rowK n bb) u (⟨u.val, by have := u.isLt; omega⟩ : Fin 128) (Nat.zero_add _).symm).trans ?_
  refine (pay24_rows a v1 v4 v79 v80 v84 v86 v87 v94 v96 h1 h4 h79 h80 h84 h86 h87 h94 h96 n bb _).trans ?_
  unfold r1
  rw [dif_pos u.isLt]

/-- The reset state, node-major, -/
theorem pay28_nm (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    NodeMajor (k0_pay28 (F := Ideal) v1 v4 v79 v80 v84 v86 v87 v94 v96) (fun bb n u => r1 a bb n u * hAt a 1 bb n u) := by
  unfold k0_pay28
  exact split_plus_zero_nm _ _ _ (rows_split _ _ _ (pay26_rows a v1 v4 v79 v80 v84 v86 v87 v94 v96 h1 h4 h79 h80 h84 h86 h87 h94 h96))

/-- and one diffusion step of it. -/
theorem pay29_nm (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    NodeMajor (k0_pay29 (F := Ideal) v1 v4 v79 v80 v84 v86 v87 v94 v96) (tapOf a.adj 1 (fun bb n u => r1 a bb n u * hAt a 1 bb n u)) := by
  unfold k0_pay29
  exact diffuse_nm a v1 h1 _ _ (pay28_nm a v1 v4 v79 v80 v84 v86 v87 v94 v96 h1 h4 h79 h80 h84 h86 h87 h94 h96)

theorem pay30_split (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Split3 (k0_pay30 (F := Ideal) v1 v4 v79 v80 v84 v86 v87 v94 v96) (fun bb n u => r1 a bb n u * hAt a 1 bb n u) := by
  unfold k0_pay30
  exact rows_split _ _ _ (pay26_rows a v1 v4 v79 v80 v84 v86 v87 v94 v96 h1 h4 h79 h80 h84 h86 h87 h94 h96)

theorem pay31_split (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Split3 (k0_pay31 (F := Ideal) v1 v4 v79 v80 v84 v86 v87 v94 v96) (tapOf a.adj 1 (fun bb n u => r1 a bb n u * hAt a 1 bb n u)) := by
  unfold k0_pay31
  exact nm_split _ _ _ (pay29_nm a v1 v4 v79 v80 v84 v86 v87 v94 v96 h1 h4 h79 h80 h84 h86 h87 h94 h96)

theorem pay32_split (h1 : ∀ i, v1 i = a.adj i) (h4 : ∀ i, v4 i = a.adj i * two) (h79 : Rows64 v79 (hAt a 1))
    (h80 : Rows64 v80 (h0n a)) (h84 : NodeMajor v84 (h0n a)) (h86 : NodeMajor v86 (tapOf a.adj 1 (h0n a)))
    (h87 : NodeMajor v87 (fun bb n u => ∑ k : Fin 512, (a.adj (ix2 n k) * two) * d1 a.adj (fun k' => h0n a bb k' u) k))
    (h94 : ∀ (j : Fin 384) (o : Fin 128), v94 (ix2 j o) = a.Wg1 (ix2 (sigma1 j) o)) (h96 : ∀ i, v96 i = a.bg1 i) :
    Split3 (k0_pay32 (F := Ideal) v1 v4 v79 v80 v84 v86 v87 v94 v96) (tapOf a.adj 2 (fun bb n u => r1 a bb n u * hAt a 1 bb n u)) := by
  unfold k0_pay32
  exact nm_split _ _ _ (cheb_nm a v4 h4 _ _ _ (pay29_nm a v1 v4 v79 v80 v84 v86 v87 v94 v96 h1 h4 h79 h80 h84 h86 h87 h94 h96) (pay28_nm a v1 v4 v79 v80 v84 v86 v87 v94 v96 h1 h4 h79 h80 h84 h86 h87 h94 h96))

end Gate

end Cert.KernelIdeal.ValC

end
-- ==== Proof.KValD.lean ====
/-
  The tail of the kernel's body, read entry by entry on the extended reals.

  * The second layer's candidate and new state. The table of taps has one row per (node, batch element), row
    `16 * node + batch element`, and 384 columns: block `k / 64` of column `k` is one of the reset state's three taps and
    then the layer input's three taps, `k % 64` the unit. Its product with the weights is a plain sum over the 384
    columns; the kernel's weight rows are the reference's permuted by `sigma1`, and column `k` of the table is exactly the
    tap and feature of reference row `sigma1 k`, so the sum is the reference's convolution. Bias, hyperbolic tangent and
    the convex combination with the update gate then give the new state `h1n`.
  * The slab layout: a rows-form quantity regrouped as (node, batch element, unit), the batch axis moved to the front and
    node and unit merged, holds at `[0, batch element, 64 * node + unit]` the entry of row `16 * node + batch element`,
    column unit.
  * The projection: the sum over the 64 units of the new state's row times the projection row, plus the bias word, with
    the node and batch axes exchanged.
-/
import proofs.«108032_g44504451121623_cont_8to1_c_180_30_alg».proof.Proof.Gen.KernelIdeal.Skeleton
import proofs.«108032_g44504451121623_cont_8to1_c_180_30_alg».proof.Proof.Spec
import proofs.«108032_g44504451121623_cont_8to1_c_180_30_alg».proof.Proof.Forms
import Idealize.ShloMosaic.Lib.ValueIdx
import Idealize.ShloMosaic.Lib.Pipeline.Value
import Idealize.ShloMosaic.PureOps.Ideal.Laws

noncomputable section

open scoped BigOperators

namespace Cert.KernelIdeal.ValD

open Idealize.ShloMosaic Idealize.ShloMosaic.ValueIdx Cert.KernelIdeal Cert.KernelIdeal.Gen Cert.Spec Cert.Forms

/-! ## The weights as loaded, and the slab layout -/

/-- The candidate's weights pass through unchanged. -/
theorem pay27_apply (v120 : Vec Ideal S384x64 .bf16) (i : S384x64.Idx) : k0_pay27 (F := Ideal) v120 i = v120 i := by
  unfold k0_pay27
  rw [shapeCast_self]

/-- Rows regrouped as three axes: entry (node, batch element, unit) is row `16 * node + batch element`, column unit. -/
theorem rows_split {α : Type} (v : S8192x64.Idx → α) (h : S8192x64.ShapeCasts S512x16x64) (n : Fin 512) (bb : Fin 16) (u : Fin 64) :
    shapeCast S512x16x64 v h (ix3 n bb u) = v (ix2 (rowK n bb) u) := by
  refine shapeCast_apply v h _ _ ?_
  rw [Shape.rowMajor_val_two, Shape.rowMajor_val_three]
  show (n.val * 16 + bb.val) * 64 + u.val = (n.val * 16 + bb.val) * 64 + u.val
  rfl

/-- The slab layout: entry `[0, batch element, 64 * node + unit]` of the rows regrouped, batch axis moved to the front and the
    node and unit axes merged, is row `16 * node + batch element`, column unit. -/
theorem slab_apply {α : Type} (v : S8192x64.Idx → α) (h1 : S8192x64.ShapeCasts S512x16x64)
    (h2 : S512x16x64.Transposes [1, 0, 2] S16x512x64) (h3 : S16x512x64.ShapeCasts S16x32768) (h4 : S16x32768.ShapeCasts S1x16x32768)
    (n : Fin 512) (bb : Fin 16) (u : Fin 64) :
    shapeCast S1x16x32768 (shapeCast S16x32768 (transpose S16x512x64 [1, 0, 2] (shapeCast S512x16x64 v h1) h2) h3) h4
        (ix3 (0 : Fin 1) bb (nu n u))
      = v (ix2 (rowK n bb) u) := by
  refine (shapeCast_apply _ h4 _ (ix2 bb (nu n u)) (by
    rw [Shape.rowMajor_val_two, Shape.rowMajor_val_three]
    show bb.val * 32768 + (n.val * 64 + u.val) = (0 * 16 + bb.val) * 32768 + (n.val * 64 + u.val)
    omega)).trans ?_
  refine (shapeCast_apply _ h3 _ (ix3 bb n u) (by
    rw [Shape.rowMajor_val_three, Shape.rowMajor_val_two]
    show (bb.val * 512 + n.val) * 64 + u.val = bb.val * 32768 + (n.val * 64 + u.val)
    omega)).trans ?_
  refine (transpose_apply _ _ h2 _ (ix3 n bb u) (fun b => match b with | ⟨0, _⟩ => rfl | ⟨1, _⟩ => rfl | ⟨2, _⟩ => rfl)).trans ?_
  exact rows_split v h1 n bb u

/-! ## The product of the table with the weights, entry by entry -/

/-- The contraction of the table's 384 columns with the weights' 384 rows. -/
abbrev dotD : DotDims S8192x384 S384x64 S8192x64 := dot_S8192x384_S384x64_S8192x64_1_0_0_1_n_n

/-- Into a zero accumulator the product is the plain sum over the 384 columns. -/
theorem mm_apply (A : FVec Ideal S8192x384 .bf16) (W : FVec Ideal S384x64 .bf16) (r : Fin 8192) (o : Fin 64) :
    matmul dot_S8192x384_S384x64_S8192x64_1_0_0_1_n_n none A W (constant (F := Ideal) S8192x64 .f32 0x00000000#32) (ix2 r o)
      = ∑ k : Fin 384, A (ix2 r k) * W (ix2 k o) := by
  show FloatOps.matmul dotD none A W _ (ix2 r o) = _
  rw [Ideal.matmul_constant_zero_apply, ← Equiv.sum_comp (contrEquiv1 dotD 384 rfl rfl).symm]
  refine Finset.sum_congr rfl fun c _ => ?_
  have c2 := contrEquiv1_symm_val dotD 384 rfl rfl c
  have l2 : dotD.lhsIdx (ix2 r o) ((contrEquiv1 dotD 384 rfl rfl).symm c) = ix2 r c := by
    funext ax; apply Fin.ext
    match ax with
    | ⟨0, _⟩ => simp [DotDims.lhsIdx, dotD, dot_S8192x384_S384x64_S8192x64_1_0_0_1_n_n]; rfl
    | ⟨1, _⟩ => simp [DotDims.lhsIdx, dotD, dot_S8192x384_S384x64_S8192x64_1_0_0_1_n_n]; exact c2
  have r2 : dotD.rhsIdx (ix2 r o) ((contrEquiv1 dotD 384 rfl rfl).symm c) = ix2 c o := by
    funext ax; apply Fin.ext
    match ax with
    | ⟨0, _⟩ => simp [DotDims.rhsIdx, dotD, dot_S8192x384_S384x64_S8192x64_1_0_0_1_n_n]; exact c2
    | ⟨1, _⟩ => simp [DotDims.rhsIdx, dotD, dot_S8192x384_S384x64_S8192x64_1_0_0_1_n_n]; rfl
  rw [l2, r2]

/-! ## The table of taps: six blocks of 64 columns side by side, regrouped as rows -/

/-- Column `k` of row `16 * node + batch element` of the table is column `k % 64` of block `k / 64`. -/
theorem table_piece {α : Type} (xs : List ((s : Shape) × (s.Idx → α))) (hc : Shape.Concatenates (xs.map (·.1)) S512x16x384 2)
    (hs : S512x16x384.ShapeCasts S8192x384) (n : Fin 512) (bb : Fin 16) (k : Fin 384)
    (c : ℕ) (hcl : c < xs.length) (p : S512x16x64.Idx → α) (hxc : xs[c] = ⟨S512x16x64, p⟩)
    (hpre : (((xs.take c).map (·.1)).map fun s => if h : s.rank = S512x16x384.rank then s.size ((2 : Fin S512x16x384.rank).cast h.symm) else 0).sum = 64 * c)
    (hk : k.val / 64 = c) :
    shapeCast S8192x384 (concatenate S512x16x384 2 xs hc) hs
        (ix2 (rowK n bb) k)
      = p (ix3 n bb (⟨k.val % 64, Nat.mod_lt _ (by decide)⟩ : Fin 64)) := by
  refine (shapeCast_apply _ hs _ (ix3 n bb k) (by
    rw [Shape.rowMajor_val_three, Shape.rowMajor_val_two]
    show (n.val * 16 + bb.val) * 384 + k.val = (n.val * 16 + bb.val) * 384 + k.val
    rfl)).trans ?_
  refine concatenate_apply_piece 2 xs hc (ix3 n bb k) c hcl S512x16x64 p hxc rfl (64 * c) hpre
    (ix3 n bb (⟨k.val % 64, Nat.mod_lt _ (by decide)⟩ : Fin 64)) ?_ ?_
  · intro b
    match b with
    | ⟨0, _⟩ => exact fun _ => rfl
    | ⟨1, _⟩ => exact fun _ => rfl
    | ⟨2, _⟩ => exact fun h => absurd rfl h
  · show 64 * c + k.val % 64 = k.val
    omega

/-- One of six by its number. -/
def pick6 {β : Type} (c : ℕ) (x0 x1 x2 x3 x4 x5 : β) : β :=
  if c = 0 then x0 else if c = 1 then x1 else if c = 2 then x2 else if c = 3 then x3 else if c = 4 then x4 else x5

/-- Column `k` of a table row, with its block chosen by `k / 64`. -/
theorem table_apply {α : Type} (p0 p1 p2 p3 p4 p5 : S512x16x64.Idx → α)
    (hc : Shape.Concatenates (([⟨S512x16x64, p0⟩, ⟨S512x16x64, p1⟩, ⟨S512x16x64, p2⟩, ⟨S512x16x64, p3⟩, ⟨S512x16x64, p4⟩, ⟨S512x16x64, p5⟩] :
      List ((s : Shape) × (s.Idx → α))).map (·.1)) S512x16x384 2)
    (hs : S512x16x384.ShapeCasts S8192x384) (n : Fin 512) (bb : Fin 16) (k : Fin 384) :
    shapeCast S8192x384 (concatenate S512x16x384 2 [⟨S512x16x64, p0⟩, ⟨S512x16x64, p1⟩, ⟨S512x16x64, p2⟩, ⟨S512x16x64, p3⟩, ⟨S512x16x64, p4⟩, ⟨S512x16x64, p5⟩] hc) hs
        (ix2 (rowK n bb) k)
      = pick6 (k.val / 64)
          (p0 (ix3 n bb (⟨k.val % 64, Nat.mod_lt _ (by decide)⟩ : Fin 64))) (p1 (ix3 n bb (⟨k.val % 64, Nat.mod_lt _ (by decide)⟩ : Fin 64)))
          (p2 (ix3 n bb (⟨k.val % 64, Nat.mod_lt _ (by decide)⟩ : Fin 64))) (p3 (ix3 n bb (⟨k.val % 64, Nat.mod_lt _ (by decide)⟩ : Fin 64)))
          (p4 (ix3 n bb (⟨k.val % 64, Nat.mod_lt _ (by decide)⟩ : Fin 64))) (p5 (ix3 n bb (⟨k.val % 64, Nat.mod_lt _ (by decide)⟩ : Fin 64))) := by
  have hk : k.val < 384 := k.isLt
  have h6 : k.val / 64 = 0 ∨ k.val / 64 = 1 ∨ k.val / 64 = 2 ∨ k.val / 64 = 3 ∨ k.val / 64 = 4 ∨ k.val / 64 = 5 := by omega
  rcases h6 with h | h | h | h | h | h
  · rw [h]; exact table_piece _ hc hs n bb k 0 (by show 0 < 6; omega) p0 rfl rfl h
  · rw [h]; exact table_piece _ hc hs n bb k 1 (by show 1 < 6; omega) p1 rfl rfl h
  · rw [h]; exact table_piece _ hc hs n bb k 2 (by show 2 < 6; omega) p2 rfl rfl h
  · rw [h]; exact table_piece _ hc hs n bb k 3 (by show 3 < 6; omega) p3 rfl rfl h
  · rw [h]; exact table_piece _ hc hs n bb k 4 (by show 4 < 6; omega) p4 rfl rfl h
  · rw [h]; exact table_piece _ hc hs n bb k 5 (by show 5 < 6; omega) p5 rfl rfl h

/-! ## The bias row, the candidate, the new state: one entry -/

/-- The bias as a row repeated down the rows. -/
theorem bias_apply {α : Type} (b : S64.Idx → α) (h1 : S64.ShapeCasts S1x64) (h2 : S1x64.Broadcasts S8192x64) (r : Fin 8192) (u : Fin 64) :
    broadcastTo S8192x64 (shapeCast S1x64 b h1) h2 (ix2 r u) = b (ix1 u) := by
  refine (broadcastTo_apply _ h2 _ (ix2 (0 : Fin 1) u) (fun a => match a with | ⟨0, _⟩ => rfl | ⟨1, _⟩ => rfl)).trans ?_
  refine shapeCast_apply b h1 _ (ix1 u) ?_
  rw [Shape.rowMajor_val_one, Shape.rowMajor_val_two]
  show u.val = 0 * 64 + u.val
  omega

/-- Entry (row of `n`, `bb`; unit `u`) of the new state, with the table's columns named block by block. -/
theorem pay1_at (v79 : FVec Ideal S8192x64 .f32) (v90 v91 v92 : FVec Ideal S512x16x64 .bf16) (v117 : FVec Ideal S8192x64 .f32)
    (v121 : FVec Ideal S384x64 .bf16) (v122 : Vec Ideal S64 .f32) (v132 v133 v134 : FVec Ideal S512x16x64 .bf16)
    (n : Fin 512) (bb : Fin 16) (u : Fin 64) :
    k0_pay1 (F := Ideal) v79 v90 v91 v92 v117 v121 v122 v132 v133 v134 (ix2 (rowK n bb) u)
      = v117 (ix2 (rowK n bb) u) * v79 (ix2 (rowK n bb) u) + (one - v117 (ix2 (rowK n bb) u)) *
          Ideal.tanh ((∑ k : Fin 384,
            pick6 (k.val / 64)
              (v132 (ix3 n bb (⟨k.val % 64, Nat.mod_lt _ (by decide)⟩ : Fin 64))) (v133 (ix3 n bb (⟨k.val % 64, Nat.mod_lt _ (by decide)⟩ : Fin 64)))
              (v134 (ix3 n bb (⟨k.val % 64, Nat.mod_lt _ (by decide)⟩ : Fin 64))) (v90 (ix3 n bb (⟨k.val % 64, Nat.mod_lt _ (by decide)⟩ : Fin 64)))
              (v91 (ix3 n bb (⟨k.val % 64, Nat.mod_lt _ (by decide)⟩ : Fin 64))) (v92 (ix3 n bb (⟨k.val % 64, Nat.mod_lt _ (by decide)⟩ : Fin 64)))
              * v121 (ix2 k u)) + v122 (ix1 u)) := by
  unfold k0_pay1
  show v117 (ix2 (rowK n bb) u) * v79 (ix2 (rowK n bb) u) + (one - v117 (ix2 (rowK n bb) u)) *
      Ideal.tanh (matmul dot_S8192x384_S384x64_S8192x64_1_0_0_1_n_n none
          (shapeCast S8192x384 (concatenate S512x16x384 2 [⟨S512x16x64, v132⟩, ⟨S512x16x64, v133⟩, ⟨S512x16x64, v134⟩, ⟨S512x16x64, v90⟩, ⟨S512x16x64, v91⟩, ⟨S512x16x64, v92⟩] _) _)
          v121 (constant (F := Ideal) S8192x64 .f32 0x00000000#32) (ix2 (rowK n bb) u)
        + broadcastTo S8192x64 (shapeCast S1x64 v122 _) _ (ix2 (rowK n bb) u)) = _
  rw [mm_apply, bias_apply]
  refine congrArg (fun z => v117 (ix2 (rowK n bb) u) * v79 (ix2 (rowK n bb) u) + (one - v117 (ix2 (rowK n bb) u)) * Ideal.tanh (z + v122 (ix1 u))) ?_
  refine Finset.sum_congr rfl fun k _ => ?_
  exact congrArg (· * v121 (ix2 k u)) (table_apply v132 v133 v134 v90 v91 v92 _ _ n bb k)

/-! ## The table's entry is the tap the reference's row asks for -/

theorem pick6_0 {β : Type} (x0 x1 x2 x3 x4 x5 : β) : pick6 0 x0 x1 x2 x3 x4 x5 = x0 := rfl
theorem pick6_1 {β : Type} (x0 x1 x2 x3 x4 x5 : β) : pick6 1 x0 x1 x2 x3 x4 x5 = x1 := rfl
theorem pick6_2 {β : Type} (x0 x1 x2 x3 x4 x5 : β) : pick6 2 x0 x1 x2 x3 x4 x5 = x2 := rfl
theorem pick6_3 {β : Type} (x0 x1 x2 x3 x4 x5 : β) : pick6 3 x0 x1 x2 x3 x4 x5 = x3 := rfl
theorem pick6_4 {β : Type} (x0 x1 x2 x3 x4 x5 : β) : pick6 4 x0 x1 x2 x3 x4 x5 = x4 := rfl
theorem pick6_5 {β : Type} (x0 x1 x2 x3 x4 x5 : β) : pick6 5 x0 x1 x2 x3 x4 x5 = x5 := rfl

/-- Past the 64 layer-input features the second layer's features are the state's units. -/
theorem feat1_of_state (x st : Fin 16 → Fin 512 → ℕ → EReal) (bb : Fin 16) (w : ℕ) :
    feat1 x st bb (64 + w) = fun m => st bb m w := by
  funext m
  unfold feat1
  rw [if_neg (by omega), Nat.add_sub_cancel_left]

/-- The first 64 features are the layer input's units. -/
theorem feat1_of_input (x st : Fin 16 → Fin 512 → ℕ → EReal) (bb : Fin 16) (w : ℕ) (hw : w < 64) :
    feat1 x st bb w = fun m => x bb m w := by
  funext m
  unfold feat1
  rw [if_pos hw]

theorem tap_self (adj : (⟨2, ![512, 512]⟩ : Shape).Idx → EReal) (z : Fin 512 → EReal) : tap adj 0 z = z := rfl

/-- Column `k` of the table (block `k / 64`: the state's three taps, then the layer input's three taps; unit `k % 64`) is
    the tap and feature of the reference row `sigma1 k`. -/
theorem table_entry (adj : (⟨2, ![512, 512]⟩ : Shape).Idx → EReal) (x st : Fin 16 → Fin 512 → ℕ → EReal)
    (s0 s1 s2 x0 x1 x2 : (⟨3, ![512, 16, 64]⟩ : Shape).Idx → EReal)
    (hs0 : Split3 s0 st) (hs1 : Split3 s1 (tapOf adj 1 st)) (hs2 : Split3 s2 (tapOf adj 2 st))
    (hx0 : Split3 x0 x) (hx1 : Split3 x1 (tapOf adj 1 x)) (hx2 : Split3 x2 (tapOf adj 2 x))
    (n : Fin 512) (bb : Fin 16) (k : Fin 384) :
    pick6 (k.val / 64)
        (s0 (ix3 n bb (⟨k.val % 64, Nat.mod_lt _ (by decide)⟩ : Fin 64))) (s1 (ix3 n bb (⟨k.val % 64, Nat.mod_lt _ (by decide)⟩ : Fin 64)))
        (s2 (ix3 n bb (⟨k.val % 64, Nat.mod_lt _ (by decide)⟩ : Fin 64))) (x0 (ix3 n bb (⟨k.val % 64, Nat.mod_lt _ (by decide)⟩ : Fin 64)))
        (x1 (ix3 n bb (⟨k.val % 64, Nat.mod_lt _ (by decide)⟩ : Fin 64))) (x2 (ix3 n bb (⟨k.val % 64, Nat.mod_lt _ (by decide)⟩ : Fin 64)))
      = tap adj ((sigma1 k).val % 3) (feat1 x st bb ((sigma1 k).val / 3)) n := by
  have hk : k.val < 384 := k.isLt
  have hm : k.val % 64 < 64 := Nat.mod_lt _ (by decide)
  by_cases h3 : k.val / 64 < 3
  · obtain ⟨e1, e2⟩ := sigma1_state k h3
    rw [e1, e2, feat1_of_state]
    have h6 : k.val / 64 = 0 ∨ k.val / 64 = 1 ∨ k.val / 64 = 2 := by omega
    rcases h6 with h | h | h
    · rw [h, pick6_0, tap_self]; exact hs0 n bb ⟨k.val % 64, hm⟩
    · rw [h, pick6_1]; exact hs1 n bb ⟨k.val % 64, hm⟩
    · rw [h, pick6_2]; exact hs2 n bb ⟨k.val % 64, hm⟩
  · obtain ⟨e1, e2⟩ := sigma1_input k h3
    rw [e1, e2, feat1_of_input x st bb _ hm]
    have h6 : k.val / 64 = 3 ∨ k.val / 64 = 4 ∨ k.val / 64 = 5 := by omega
    rcases h6 with h | h | h
    · rw [h, pick6_3]; exact hx0 n bb ⟨k.val % 64, hm⟩
    · rw [h, pick6_4]; exact hx1 n bb ⟨k.val % 64, hm⟩
    · rw [h, pick6_5]; exact hx2 n bb ⟨k.val % 64, hm⟩

variable (a : Args 16)

/-- The second layer's new state, as rows. -/
theorem pay1_rows (v79 : FVec Ideal S8192x64 .f32) (v90 v91 v92 : FVec Ideal S512x16x64 .bf16) (v117 : FVec Ideal S8192x64 .f32)
    (v121 : FVec Ideal S384x64 .bf16) (v122 : Vec Ideal S64 .f32) (v132 v133 v134 : FVec Ideal S512x16x64 .bf16)
    (h79 : Rows64 v79 (hAt a 1)) (h90 : Split3 v90 (h0n a)) (h91 : Split3 v91 (tapOf a.adj 1 (h0n a)))
    (h92 : Split3 v92 (tapOf a.adj 2 (h0n a))) (h117 : Rows64 v117 (u1 a))
    (h121 : ∀ (j : Fin 384) (o : Fin 64), v121 (ix2 j o) = a.Wc1 (ix2 (sigma1 j) o)) (h122 : ∀ i, v122 i = a.bc1 i)
    (h132 : Split3 v132 (fun bb n u => r1 a bb n u * hAt a 1 bb n u))
    (h133 : Split3 v133 (tapOf a.adj 1 (fun bb n u => r1 a bb n u * hAt a 1 bb n u)))
    (h134 : Split3 v134 (tapOf a.adj 2 (fun bb n u => r1 a bb n u * hAt a 1 bb n u))) :
    Rows64 (k0_pay1 (F := Ideal) v79 v90 v91 v92 v117 v121 v122 v132 v133 v134) (h1n a) := by
  intro n bb u
  rw [pay1_at, h117 n bb u, h79 n bb u]
  have hsum : (∑ k : Fin 384,
        pick6 (k.val / 64)
          (v132 (ix3 n bb (⟨k.val % 64, Nat.mod_lt _ (by decide)⟩ : Fin 64))) (v133 (ix3 n bb (⟨k.val % 64, Nat.mod_lt _ (by decide)⟩ : Fin 64)))
          (v134 (ix3 n bb (⟨k.val % 64, Nat.mod_lt _ (by decide)⟩ : Fin 64))) (v90 (ix3 n bb (⟨k.val % 64, Nat.mod_lt _ (by decide)⟩ : Fin 64)))
          (v91 (ix3 n bb (⟨k.val % 64, Nat.mod_lt _ (by decide)⟩ : Fin 64))) (v92 (ix3 n bb (⟨k.val % 64, Nat.mod_lt _ (by decide)⟩ : Fin 64)))
          * v121 (ix2 k u))
      = ∑ j : Fin 384, tap a.adj (j.val % 3) (feat1 (h0n a) (fun bb n u => r1 a bb n u * hAt a 1 bb n u) bb (j.val / 3)) n * a.Wc1 (ix2 j u) := by
    rw [← sum_sigma1 (fun j : Fin 384 =>
      tap a.adj (j.val % 3) (feat1 (h0n a) (fun bb n u => r1 a bb n u * hAt a 1 bb n u) bb (j.val / 3)) n * a.Wc1 (ix2 j u))]
    refine Finset.sum_congr rfl fun k _ => ?_
    rw [h121 k u, table_entry a.adj (h0n a) (fun bb n u => r1 a bb n u * hAt a 1 bb n u) v132 v133 v134 v90 v91 v92
      h132 h133 h134 h90 h91 h92 n bb k]
  have hc : Ideal.tanh ((∑ k : Fin 384,
        pick6 (k.val / 64)
          (v132 (ix3 n bb (⟨k.val % 64, Nat.mod_lt _ (by decide)⟩ : Fin 64))) (v133 (ix3 n bb (⟨k.val % 64, Nat.mod_lt _ (by decide)⟩ : Fin 64)))
          (v134 (ix3 n bb (⟨k.val % 64, Nat.mod_lt _ (by decide)⟩ : Fin 64))) (v90 (ix3 n bb (⟨k.val % 64, Nat.mod_lt _ (by decide)⟩ : Fin 64)))
          (v91 (ix3 n bb (⟨k.val % 64, Nat.mod_lt _ (by decide)⟩ : Fin 64))) (v92 (ix3 n bb (⟨k.val % 64, Nat.mod_lt _ (by decide)⟩ : Fin 64)))
          * v121 (ix2 k u)) + v122 (ix1 u)) = c1 a bb n u.val := by
    rw [hsum, h122 (ix1 u)]
    unfold c1
    rw [dif_pos u.isLt]
    rfl
  rw [hc]
  rfl

/-! ## The two state slabs -/

/-- A rows-form quantity laid out as a slab. -/
theorem pay2_apply (v74 : FVec Ideal S8192x64 .f32) (f : Fin 16 → Fin 512 → ℕ → EReal) (h74 : Rows64 v74 f)
    (bb : Fin 16) (n : Fin 512) (u : Fin 64) : k0_pay2 (F := Ideal) v74 (ix3 0 bb (nu n u)) = f bb n u.val := by
  unfold k0_pay2
  exact (slab_apply v74 _ _ _ _ n bb u).trans (h74 n bb u)

/-- The second layer's new state laid out as a slab. -/
theorem pay3_apply (v79 : FVec Ideal S8192x64 .f32) (v90 v91 v92 : FVec Ideal S512x16x64 .bf16) (v117 : FVec Ideal S8192x64 .f32)
    (v121 : FVec Ideal S384x64 .bf16) (v122 : Vec Ideal S64 .f32) (v132 v133 v134 : FVec Ideal S512x16x64 .bf16)
    (h79 : Rows64 v79 (hAt a 1)) (h90 : Split3 v90 (h0n a)) (h91 : Split3 v91 (tapOf a.adj 1 (h0n a)))
    (h92 : Split3 v92 (tapOf a.adj 2 (h0n a))) (h117 : Rows64 v117 (u1 a))
    (h121 : ∀ (j : Fin 384) (o : Fin 64), v121 (ix2 j o) = a.Wc1 (ix2 (sigma1 j) o)) (h122 : ∀ i, v122 i = a.bc1 i)
    (h132 : Split3 v132 (fun bb n u => r1 a bb n u * hAt a 1 bb n u))
    (h133 : Split3 v133 (tapOf a.adj 1 (fun bb n u => r1 a bb n u * hAt a 1 bb n u)))
    (h134 : Split3 v134 (tapOf a.adj 2 (fun bb n u => r1 a bb n u * hAt a 1 bb n u)))
    (bb : Fin 16) (n : Fin 512) (u : Fin 64) :
    k0_pay3 (F := Ideal) v79 v90 v91 v92 v117 v121 v122 v132 v133 v134 (ix3 0 bb (nu n u)) = h1n a bb n u.val := by
  unfold k0_pay3
  exact (slab_apply (k0_pay1 (F := Ideal) v79 v90 v91 v92 v117 v121 v122 v132 v133 v134) _ _ _ _ n bb u).trans
    (pay1_rows a v79 v90 v91 v92 v117 v121 v122 v132 v133 v134 h79 h90 h91 h92 h117 h121 h122 h132 h133 h134 n bb u)

/-! ## The projection -/

/-- The sum over the 64 units of a three-axis quantity. -/
theorem lane_sum (X : FVec Ideal S512x16x64 .f32) (h : S512x16x64.Reduces [2] S512x16) (hφ : FKind.Formats .f32)
    (hacc : (0x00000000#32 : BitVec 32) = FKind.add.neutral .f32 hφ) (n : Fin 512) (bb : Fin 16) :
    multiReduction .add [2] S512x16 X 0x00000000#32 h hφ hacc (ix2 n bb) = ∑ u : Fin 64, X (ix3 n bb u) := by
  refine (Ideal.multiReduction_add_single X 0x00000000#32 h hφ hacc (ix2 n bb)).trans ?_
  show ∑ u : Fin 64, X (h.lift (ix2 n bb) u) = _
  refine Finset.sum_congr rfl fun u _ => congrArg X ?_
  funext c
  match c with
  | ⟨0, _⟩ => rfl
  | ⟨1, _⟩ => rfl
  | ⟨2, _⟩ => rfl

/-- The projection row repeated over nodes and batch elements. -/
theorem proj_apply {α : Type} (w : S1x64.Idx → α) (h1 : S1x64.ShapeCasts S1x64) (h2 : S1x64.ShapeCasts S1x1x64)
    (h3 : S1x1x64.Broadcasts S512x16x64) (n : Fin 512) (bb : Fin 16) (u : Fin 64) :
    broadcastTo S512x16x64 (shapeCast S1x1x64 (shapeCast S1x64 w h1) h2) h3 (ix3 n bb u) = w (ix2 (0 : Fin 1) u) := by
  refine (broadcastTo_apply _ h3 _ (ix3 (0 : Fin 1) (0 : Fin 1) u)
    (fun a => match a with | ⟨0, _⟩ => rfl | ⟨1, _⟩ => rfl | ⟨2, _⟩ => rfl)).trans ?_
  refine (shapeCast_apply _ h2 _ (ix2 (0 : Fin 1) u) (by
    rw [Shape.rowMajor_val_two, Shape.rowMajor_val_three]
    show 0 * 64 + u.val = (0 * 1 + 0) * 64 + u.val
    omega)).trans ?_
  rw [shapeCast_self]

/-- The bias word. -/
theorem word_apply {α : Type} (b : S1.Idx → α) (h : ∀ c, (![0] : Fin 1 → ℕ) c < S1.size c) : extractAt ![0] b h = b (ix1 (0 : Fin 1)) := by
  unfold extractAt
  refine congrArg b ?_
  funext c
  match c with
  | ⟨0, _⟩ => rfl

/-- The projection of the second layer's new state. -/
theorem pay4_apply (v79 : FVec Ideal S8192x64 .f32) (v90 v91 v92 : FVec Ideal S512x16x64 .bf16) (v117 : FVec Ideal S8192x64 .f32)
    (v121 : FVec Ideal S384x64 .bf16) (v122 : Vec Ideal S64 .f32) (v132 v133 v134 : FVec Ideal S512x16x64 .bf16)
    (h79 : Rows64 v79 (hAt a 1)) (h90 : Split3 v90 (h0n a)) (h91 : Split3 v91 (tapOf a.adj 1 (h0n a)))
    (h92 : Split3 v92 (tapOf a.adj 2 (h0n a))) (h117 : Rows64 v117 (u1 a))
    (h121 : ∀ (j : Fin 384) (o : Fin 64), v121 (ix2 j o) = a.Wc1 (ix2 (sigma1 j) o)) (h122 : ∀ i, v122 i = a.bc1 i)
    (h132 : Split3 v132 (fun bb n u => r1 a bb n u * hAt a 1 bb n u))
    (h133 : Split3 v133 (tapOf a.adj 1 (fun bb n u => r1 a bb n u * hAt a 1 bb n u)))
    (h134 : Split3 v134 (tapOf a.adj 2 (fun bb n u => r1 a bb n u * hAt a 1 bb n u)))
    (v160 : Vec Ideal S1x64 .f32) (v166 : Vec Ideal S1 .f32) (h160 : ∀ u : Fin 64, v160 (ix2 0 u) = a.Wp (ix2 u 0))
    (h166 : ∀ i, v166 i = a.bp i) (bb : Fin 16) (n : Fin 512) :
    k0_pay4 (F := Ideal) v79 v90 v91 v92 v117 v121 v122 v132 v133 v134 v160 v166 (ix2 bb n) = out a bb n := by
  unfold k0_pay4
  refine (transpose_apply _ _ _ _ (ix2 n bb) (fun b => match b with | ⟨0, _⟩ => rfl | ⟨1, _⟩ => rfl)).trans ?_
  show multiReduction (F := Ideal) .add [2] S512x16 _ 0x00000000#32 _ _ _ (ix2 n bb) + extractAt ![0] v166 _ = _
  refine (congrArg₂ (· + ·) (lane_sum _ _ _ _ n bb) (word_apply v166 _)).trans ?_
  unfold out
  rw [h166 (ix1 0)]
  refine congrArg (· + a.bp (ix1 0)) (Finset.sum_congr rfl fun u _ => ?_)
  show shapeCast S512x16x64 (k0_pay1 (F := Ideal) v79 v90 v91 v92 v117 v121 v122 v132 v133 v134) _ (ix3 n bb u)
      * broadcastTo S512x16x64 (shapeCast S1x1x64 (shapeCast S1x64 v160 _) _) _ (ix3 n bb u) = _
  rw [rows_split, proj_apply, pay1_rows a v79 v90 v91 v92 v117 v121 v122 v132 v133 v134 h79 h90 h91 h92 h117 h121 h122 h132 h133 h134 n bb u, h160 u]

end Cert.KernelIdeal.ValD

end
-- ==== Proof.KVal.lean ====
/-
  The kernel body's two stored blocks as the specification's quantities of a 16-element batch chunk.

  The body's values are threaded from the thirteen input blocks through its four stretches. Each stretch's reading
  (modules KValA to KValD) says: if the values coming in hold the chunk's quantities in their forms, so do the values
  going out. Here the stretches are chained, starting from what the blocks hold: the input, adjacency and state blocks
  the chunk's arrays, the four weight blocks the reference's weight rows permuted into the kernel's order, the
  projection row the projection column. The first output block is then the chunk's projected output, and the second's
  two slabs the two layers' new states.
-/
import proofs.«108032_g44504451121623_cont_8to1_c_180_30_alg».proof.Proof.KIFrame
import proofs.«108032_g44504451121623_cont_8to1_c_180_30_alg».proof.Proof.KValA
import proofs.«108032_g44504451121623_cont_8to1_c_180_30_alg».proof.Proof.KValB
import proofs.«108032_g44504451121623_cont_8to1_c_180_30_alg».proof.Proof.KValC
import proofs.«108032_g44504451121623_cont_8to1_c_180_30_alg».proof.Proof.KValD
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.ValueIdx Cert.KernelIdeal Cert.KernelIdeal.Gen Cert.KernelIdeal.Hand Cert.Spec Cert.Forms

/-- What the thirteen input blocks hold, against a chunk's argument record. -/
structure Holds (a : Args 16) (x0 : Vec Ideal S16x512 .f32) (x1 : Vec Ideal S512x512 .f32) (x2 : Vec Ideal S2x16x32768 .f32) (x3 : Vec Ideal S195x128 .bf16) (x4 : Vec Ideal S195x64 .bf16) (x5 : Vec Ideal S128 .f32) (x6 : Vec Ideal S64 .f32) (x7 : Vec Ideal S384x128 .bf16) (x8 : Vec Ideal S384x64 .bf16) (x9 : Vec Ideal S128 .f32) (x10 : Vec Ideal S64 .f32) (x11 : Vec Ideal S1x64 .f32) (x12 : Vec Ideal S1 .f32) : Prop where
  h0 : ∀ i, x0 i = a.inp i
  h1 : ∀ i, x1 i = a.adj i
  h2 : ∀ i, x2 i = a.hid i
  h3 : ∀ (j : Fin 195) (o : Fin 128), x3 (ix2 j o) = a.Wg0 (ix2 (sigma0 j) o)
  h4 : ∀ (j : Fin 195) (o : Fin 64), x4 (ix2 j o) = a.Wc0 (ix2 (sigma0 j) o)
  h5 : ∀ i, x5 i = a.bg0 i
  h6 : ∀ i, x6 i = a.bc0 i
  h7 : ∀ (j : Fin 384) (o : Fin 128), x7 (ix2 j o) = a.Wg1 (ix2 (sigma1 j) o)
  h8 : ∀ (j : Fin 384) (o : Fin 64), x8 (ix2 j o) = a.Wc1 (ix2 (sigma1 j) o)
  h9 : ∀ i, x9 i = a.bg1 i
  h10 : ∀ i, x10 i = a.bc1 i
  h11 : ∀ u : Fin 64, x11 (ix2 0 u) = a.Wp (ix2 u 0)
  h12 : ∀ i, x12 i = a.bp i

theorem hz1 : (![0] : Fin 1 → Nat) = fun _ => 0 := funext fun a => by fin_cases a; rfl
theorem hz2 : (![0, 0] : Fin 2 → Nat) = fun _ => 0 := funext fun a => by fin_cases a <;> rfl

/-! ## Loads -/

/-- A load of one slab of the leading axis reads that slab. -/
theorem ld_slab0 (x2 : Vec Ideal S2x16x32768 .f32) (bb : Fin 16) (p : Fin 32768) :
    View.ld x2 rSlab0 (ix3 0 bb p) = x2 (ix3 0 bb p) := by
  show x2 (rSlab0.emb (ix3 0 bb p)) = _
  refine congrArg x2 (funext fun a => Fin.ext ?_)
  match a with
  | ⟨0, _⟩ => rfl
  | ⟨1, _⟩ => show 0 + 1 * bb.val = bb.val; omega
  | ⟨2, _⟩ => show 0 + 1 * p.val = p.val; omega

theorem ld_slab1 (x2 : Vec Ideal S2x16x32768 .f32) (bb : Fin 16) (p : Fin 32768) :
    View.ld x2 rSlab1 (ix3 0 bb p) = x2 (ix3 1 bb p) := by
  show x2 (rSlab1.emb (ix3 0 bb p)) = _
  refine congrArg x2 (funext fun a => Fin.ext ?_)
  match a with
  | ⟨0, _⟩ => rfl
  | ⟨1, _⟩ => show 0 + 1 * bb.val = bb.val; omega
  | ⟨2, _⟩ => show 0 + 1 * p.val = p.val; omega

/-- Where a slab rectangle's entry sits in the block. -/
theorem emb_slab0 (bb : Fin 16) (p : Fin 32768) : rSlab0.emb (ix3 0 bb p) = (ix3 0 bb p : S2x16x32768.Idx) := by
  funext d; apply Fin.ext
  match d with
  | ⟨0, _⟩ => rfl
  | ⟨1, _⟩ => show 0 + 1 * bb.val = bb.val; omega
  | ⟨2, _⟩ => show 0 + 1 * p.val = p.val; omega

theorem emb_slab1 (bb : Fin 16) (p : Fin 32768) : rSlab1.emb (ix3 0 bb p) = (ix3 1 bb p : S2x16x32768.Idx) := by
  funext d; apply Fin.ext
  match d with
  | ⟨0, _⟩ => rfl
  | ⟨1, _⟩ => show 0 + 1 * bb.val = bb.val; omega
  | ⟨2, _⟩ => show 0 + 1 * p.val = p.val; omega

/-- Two stores, one per slab of the leading axis: an entry of the second slab holds the later store's payload, -/
theorem canon_slabs1 (p3 p2 : Vec Ideal S1x16x32768 .f32) (bb : Fin 16) (p : Fin 32768) :
    View.canon ([⟨rSlab1, p3⟩, ⟨rSlab0, p2⟩] : List (View.Piece (Elt Ideal) S2x16x32768 .f32)) (ix3 1 bb p) = p3 (ix3 0 bb p) := by
  rw [← emb_slab1]
  exact View.canon_cons_emb rSlab1 p3 _ (ix3 0 bb p)

/-- and an entry of the first slab, which the later store does not touch, the earlier store's. -/
theorem canon_slabs0 (p3 p2 : Vec Ideal S1x16x32768 .f32) (bb : Fin 16) (p : Fin 32768) :
    View.canon ([⟨rSlab1, p3⟩, ⟨rSlab0, p2⟩] : List (View.Piece (Elt Ideal) S2x16x32768 .f32)) (ix3 0 bb p) = p2 (ix3 0 bb p) := by
  have hnot : (ix3 0 bb p : S2x16x32768.Idx) ∉ (rSlab1 : Rect S2x16x32768).set := by
    rw [Rect.mem_set_unit]; intro h; have h1 : (1 : ℕ) ≤ 0 := (h 0).1; omega
  refine (View.canon_cons_of_not_mem (⟨rSlab1, p3⟩ : View.Piece (Elt Ideal) S2x16x32768 .f32) [⟨rSlab0, p2⟩] hnot).trans ?_
  rw [← emb_slab0]
  exact View.canon_cons_emb rSlab0 p2 _ (ix3 0 bb p)

variable (a : Args 16) (x0 : Vec Ideal S16x512 .f32) (x1 : Vec Ideal S512x512 .f32) (x2 : Vec Ideal S2x16x32768 .f32) (x3 : Vec Ideal S195x128 .bf16) (x4 : Vec Ideal S195x64 .bf16) (x5 : Vec Ideal S128 .f32) (x6 : Vec Ideal S64 .f32) (x7 : Vec Ideal S384x128 .bf16) (x8 : Vec Ideal S384x64 .bf16) (x9 : Vec Ideal S128 .f32) (x10 : Vec Ideal S64 .f32) (x11 : Vec Ideal S1x64 .f32) (x12 : Vec Ideal S1 .f32) (H : Holds a x0 x1 x2 x3 x4 x5 x6 x7 x8 x9 x10 x11 x12)
include H

/-! ## First stretch -/

theorem v1_eq : ∀ i, val1 x0 x1 x2 x3 x4 x5 x6 x7 x8 x9 x10 x11 x12 i = a.adj i := fun i => by
  unfold val1; rw [View.ld_unit_zero hz2, ValA.pay5_apply]; exact H.h1 i

theorem v4_eq : ∀ i, val4 x0 x1 x2 x3 x4 x5 x6 x7 x8 x9 x10 x11 x12 i = a.adj i * two := fun i => by
  unfold val4; rw [View.ld_unit_zero hz2, ValA.pay6_apply, H.h1]

theorem v9_rows : Rows64 (val9 x0 x1 x2 x3 x4 x5 x6 x7 x8 x9 x10 x11 x12) (hAt a 0) := by
  unfold val9
  exact ValA.pay7_rows a _ fun bb p => (ld_slab0 x2 bb p).trans (H.h2 _)

theorem v18_col : Col (val18 x0 x1 x2 x3 x4 x5 x6 x7 x8 x9 x10 x11 x12) (fun bb n => a.inp (ix2 bb n)) := by
  unfold val18; rw [View.ld_unit_zero hz2]; exact ValA.pay10_col a x0 H.h0

theorem v19_col : Col (val19 x0 x1 x2 x3 x4 x5 x6 x7 x8 x9 x10 x11 x12) (fun bb n => d1 a.adj (fun k => a.inp (ix2 bb k)) n) := by
  unfold val19; rw [View.ld_unit_zero hz2, View.ld_unit_zero hz2]; exact ValA.pay11_col a x1 x0 H.h1 H.h0

theorem v20_col : Col (val20 x0 x1 x2 x3 x4 x5 x6 x7 x8 x9 x10 x11 x12) (fun bb n => d2 a.adj (fun k => a.inp (ix2 bb k)) n) := by
  unfold val20; rw [View.ld_unit_zero hz2, View.ld_unit_zero hz2]; exact ValA.pay12_col a x1 x0 H.h1 H.h0

theorem pre0_rows : Rows128 (addf (val39 x0 x1 x2 x3 x4 x5 x6 x7 x8 x9 x10 x11 x12) (val41 x0 x1 x2 x3 x4 x5 x6 x7 x8 x9 x10 x11 x12))
    (fun bb n o => pre a.adj (feat0 a (hAt a 0)) a.Wg0 a.bg0 bb n o) := by
  unfold val39 val41
  rw [View.ld_unit_zero hz2, View.ld_unit_zero hz2, View.ld_unit_zero hz2, View.ld_unit_zero hz1]
  exact ValA.pre_g0 a x1 (View.ld x2 rSlab0) x0 x3 x5 H.h1 (fun bb p => (ld_slab0 x2 bb p).trans (H.h2 _)) H.h0 H.h3 H.h5

/-! ## Second stretch -/

theorem v74_rows : Rows64 (val74 x0 x1 x2 x3 x4 x5 x6 x7 x8 x9 x10 x11 x12) (h0n a) := by
  unfold val74; rw [View.ld_unit_zero hz2, View.ld_unit_zero hz1]
  exact ValB.pay15_rows a _ _ _ _ _ _ _ _ x4 x6 (v1_eq a x0 x1 x2 x3 x4 x5 x6 x7 x8 x9 x10 x11 x12 H) (v4_eq a x0 x1 x2 x3 x4 x5 x6 x7 x8 x9 x10 x11 x12 H) (v9_rows a x0 x1 x2 x3 x4 x5 x6 x7 x8 x9 x10 x11 x12 H)
    (v18_col a x0 x1 x2 x3 x4 x5 x6 x7 x8 x9 x10 x11 x12 H) (v19_col a x0 x1 x2 x3 x4 x5 x6 x7 x8 x9 x10 x11 x12 H) (v20_col a x0 x1 x2 x3 x4 x5 x6 x7 x8 x9 x10 x11 x12 H) (pre0_rows a x0 x1 x2 x3 x4 x5 x6 x7 x8 x9 x10 x11 x12 H) H.h4 H.h6

theorem v79_rows : Rows64 (val79 x0 x1 x2 x3 x4 x5 x6 x7 x8 x9 x10 x11 x12) (hAt a 1) := by
  unfold val79
  exact ValB.pay16_rows a _ fun bb p => (ld_slab1 x2 bb p).trans (H.h2 _)

theorem v80_rows : Rows64 (val80 x0 x1 x2 x3 x4 x5 x6 x7 x8 x9 x10 x11 x12) (h0n a) := by
  unfold val80; rw [View.ld_unit_zero hz2, View.ld_unit_zero hz1]
  exact ValB.pay17_rows a _ _ _ _ _ _ _ _ x4 x6 (v1_eq a x0 x1 x2 x3 x4 x5 x6 x7 x8 x9 x10 x11 x12 H) (v4_eq a x0 x1 x2 x3 x4 x5 x6 x7 x8 x9 x10 x11 x12 H) (v9_rows a x0 x1 x2 x3 x4 x5 x6 x7 x8 x9 x10 x11 x12 H)
    (v18_col a x0 x1 x2 x3 x4 x5 x6 x7 x8 x9 x10 x11 x12 H) (v19_col a x0 x1 x2 x3 x4 x5 x6 x7 x8 x9 x10 x11 x12 H) (v20_col a x0 x1 x2 x3 x4 x5 x6 x7 x8 x9 x10 x11 x12 H) (pre0_rows a x0 x1 x2 x3 x4 x5 x6 x7 x8 x9 x10 x11 x12 H) H.h4 H.h6

theorem v84_nm : NodeMajor (val84 x0 x1 x2 x3 x4 x5 x6 x7 x8 x9 x10 x11 x12) (h0n a) := by
  unfold val84; rw [View.ld_unit_zero hz2, View.ld_unit_zero hz1]
  exact ValB.pay18_nm a _ _ _ _ _ _ _ _ x4 x6 (v1_eq a x0 x1 x2 x3 x4 x5 x6 x7 x8 x9 x10 x11 x12 H) (v4_eq a x0 x1 x2 x3 x4 x5 x6 x7 x8 x9 x10 x11 x12 H) (v9_rows a x0 x1 x2 x3 x4 x5 x6 x7 x8 x9 x10 x11 x12 H)
    (v18_col a x0 x1 x2 x3 x4 x5 x6 x7 x8 x9 x10 x11 x12 H) (v19_col a x0 x1 x2 x3 x4 x5 x6 x7 x8 x9 x10 x11 x12 H) (v20_col a x0 x1 x2 x3 x4 x5 x6 x7 x8 x9 x10 x11 x12 H) (pre0_rows a x0 x1 x2 x3 x4 x5 x6 x7 x8 x9 x10 x11 x12 H) H.h4 H.h6

theorem v86_nm : NodeMajor (val86 x0 x1 x2 x3 x4 x5 x6 x7 x8 x9 x10 x11 x12) (tapOf a.adj 1 (h0n a)) := by
  unfold val86; rw [View.ld_unit_zero hz2, View.ld_unit_zero hz1]
  exact ValB.pay19_nm a _ _ _ _ _ _ _ _ x4 x6 (v1_eq a x0 x1 x2 x3 x4 x5 x6 x7 x8 x9 x10 x11 x12 H) (v4_eq a x0 x1 x2 x3 x4 x5 x6 x7 x8 x9 x10 x11 x12 H) (v9_rows a x0 x1 x2 x3 x4 x5 x6 x7 x8 x9 x10 x11 x12 H)
    (v18_col a x0 x1 x2 x3 x4 x5 x6 x7 x8 x9 x10 x11 x12 H) (v19_col a x0 x1 x2 x3 x4 x5 x6 x7 x8 x9 x10 x11 x12 H) (v20_col a x0 x1 x2 x3 x4 x5 x6 x7 x8 x9 x10 x11 x12 H) (pre0_rows a x0 x1 x2 x3 x4 x5 x6 x7 x8 x9 x10 x11 x12 H) H.h4 H.h6

theorem v87_nm : NodeMajor (val87 x0 x1 x2 x3 x4 x5 x6 x7 x8 x9 x10 x11 x12)
    (fun bb n u => ∑ k : Fin 512, (a.adj (ix2 n k) * two) * d1 a.adj (fun k' => h0n a bb k' u) k) := by
  unfold val87; rw [View.ld_unit_zero hz2, View.ld_unit_zero hz1]
  exact ValB.pay20_nm a _ _ _ _ _ _ _ _ x4 x6 (v1_eq a x0 x1 x2 x3 x4 x5 x6 x7 x8 x9 x10 x11 x12 H) (v4_eq a x0 x1 x2 x3 x4 x5 x6 x7 x8 x9 x10 x11 x12 H) (v9_rows a x0 x1 x2 x3 x4 x5 x6 x7 x8 x9 x10 x11 x12 H)
    (v18_col a x0 x1 x2 x3 x4 x5 x6 x7 x8 x9 x10 x11 x12 H) (v19_col a x0 x1 x2 x3 x4 x5 x6 x7 x8 x9 x10 x11 x12 H) (v20_col a x0 x1 x2 x3 x4 x5 x6 x7 x8 x9 x10 x11 x12 H) (pre0_rows a x0 x1 x2 x3 x4 x5 x6 x7 x8 x9 x10 x11 x12 H) H.h4 H.h6

/-! ## Third stretch -/

theorem v90_split : Split3 (val90 x0 x1 x2 x3 x4 x5 x6 x7 x8 x9 x10 x11 x12) (h0n a) := by
  unfold val90; exact ValC.pay21_split a _ (v80_rows a x0 x1 x2 x3 x4 x5 x6 x7 x8 x9 x10 x11 x12 H)

theorem v91_split : Split3 (val91 x0 x1 x2 x3 x4 x5 x6 x7 x8 x9 x10 x11 x12) (tapOf a.adj 1 (h0n a)) := by
  unfold val91; exact ValC.pay22_split a _ (v86_nm a x0 x1 x2 x3 x4 x5 x6 x7 x8 x9 x10 x11 x12 H)

theorem v92_split : Split3 (val92 x0 x1 x2 x3 x4 x5 x6 x7 x8 x9 x10 x11 x12) (tapOf a.adj 2 (h0n a)) := by
  unfold val92; exact ValC.pay23_split a _ _ (v84_nm a x0 x1 x2 x3 x4 x5 x6 x7 x8 x9 x10 x11 x12 H) (v87_nm a x0 x1 x2 x3 x4 x5 x6 x7 x8 x9 x10 x11 x12 H)

theorem v117_rows : Rows64 (val117 x0 x1 x2 x3 x4 x5 x6 x7 x8 x9 x10 x11 x12) (u1 a) := by
  unfold val117; rw [View.ld_unit_zero hz2, View.ld_unit_zero hz1]
  exact ValC.pay25_rows a _ _ _ _ _ _ _ x7 x9 (v1_eq a x0 x1 x2 x3 x4 x5 x6 x7 x8 x9 x10 x11 x12 H) (v4_eq a x0 x1 x2 x3 x4 x5 x6 x7 x8 x9 x10 x11 x12 H) (v79_rows a x0 x1 x2 x3 x4 x5 x6 x7 x8 x9 x10 x11 x12 H) (v80_rows a x0 x1 x2 x3 x4 x5 x6 x7 x8 x9 x10 x11 x12 H)
    (v84_nm a x0 x1 x2 x3 x4 x5 x6 x7 x8 x9 x10 x11 x12 H) (v86_nm a x0 x1 x2 x3 x4 x5 x6 x7 x8 x9 x10 x11 x12 H) (v87_nm a x0 x1 x2 x3 x4 x5 x6 x7 x8 x9 x10 x11 x12 H) H.h7 H.h9

theorem v121_eq : ∀ (j : Fin 384) (o : Fin 64), val121 x0 x1 x2 x3 x4 x5 x6 x7 x8 x9 x10 x11 x12 (ix2 j o) = a.Wc1 (ix2 (sigma1 j) o) := fun j o => by
  unfold val121; rw [View.ld_unit_zero hz2, ValD.pay27_apply]; exact H.h8 j o

theorem v122_eq : ∀ i, val122 x0 x1 x2 x3 x4 x5 x6 x7 x8 x9 x10 x11 x12 i = a.bc1 i := fun i => by
  unfold val122; rw [View.ld_unit_zero hz1]; exact H.h10 i

theorem v132_split : Split3 (val132 x0 x1 x2 x3 x4 x5 x6 x7 x8 x9 x10 x11 x12) (fun bb n u => r1 a bb n u * hAt a 1 bb n u) := by
  unfold val132; rw [View.ld_unit_zero hz2, View.ld_unit_zero hz1]
  exact ValC.pay30_split a _ _ _ _ _ _ _ x7 x9 (v1_eq a x0 x1 x2 x3 x4 x5 x6 x7 x8 x9 x10 x11 x12 H) (v4_eq a x0 x1 x2 x3 x4 x5 x6 x7 x8 x9 x10 x11 x12 H) (v79_rows a x0 x1 x2 x3 x4 x5 x6 x7 x8 x9 x10 x11 x12 H) (v80_rows a x0 x1 x2 x3 x4 x5 x6 x7 x8 x9 x10 x11 x12 H)
    (v84_nm a x0 x1 x2 x3 x4 x5 x6 x7 x8 x9 x10 x11 x12 H) (v86_nm a x0 x1 x2 x3 x4 x5 x6 x7 x8 x9 x10 x11 x12 H) (v87_nm a x0 x1 x2 x3 x4 x5 x6 x7 x8 x9 x10 x11 x12 H) H.h7 H.h9

theorem v133_split : Split3 (val133 x0 x1 x2 x3 x4 x5 x6 x7 x8 x9 x10 x11 x12) (tapOf a.adj 1 (fun bb n u => r1 a bb n u * hAt a 1 bb n u)) := by
  unfold val133; rw [View.ld_unit_zero hz2, View.ld_unit_zero hz1]
  exact ValC.pay31_split a _ _ _ _ _ _ _ x7 x9 (v1_eq a x0 x1 x2 x3 x4 x5 x6 x7 x8 x9 x10 x11 x12 H) (v4_eq a x0 x1 x2 x3 x4 x5 x6 x7 x8 x9 x10 x11 x12 H) (v79_rows a x0 x1 x2 x3 x4 x5 x6 x7 x8 x9 x10 x11 x12 H) (v80_rows a x0 x1 x2 x3 x4 x5 x6 x7 x8 x9 x10 x11 x12 H)
    (v84_nm a x0 x1 x2 x3 x4 x5 x6 x7 x8 x9 x10 x11 x12 H) (v86_nm a x0 x1 x2 x3 x4 x5 x6 x7 x8 x9 x10 x11 x12 H) (v87_nm a x0 x1 x2 x3 x4 x5 x6 x7 x8 x9 x10 x11 x12 H) H.h7 H.h9

theorem v134_split : Split3 (val134 x0 x1 x2 x3 x4 x5 x6 x7 x8 x9 x10 x11 x12) (tapOf a.adj 2 (fun bb n u => r1 a bb n u * hAt a 1 bb n u)) := by
  unfold val134; rw [View.ld_unit_zero hz2, View.ld_unit_zero hz1]
  exact ValC.pay32_split a _ _ _ _ _ _ _ x7 x9 (v1_eq a x0 x1 x2 x3 x4 x5 x6 x7 x8 x9 x10 x11 x12 H) (v4_eq a x0 x1 x2 x3 x4 x5 x6 x7 x8 x9 x10 x11 x12 H) (v79_rows a x0 x1 x2 x3 x4 x5 x6 x7 x8 x9 x10 x11 x12 H) (v80_rows a x0 x1 x2 x3 x4 x5 x6 x7 x8 x9 x10 x11 x12 H)
    (v84_nm a x0 x1 x2 x3 x4 x5 x6 x7 x8 x9 x10 x11 x12 H) (v86_nm a x0 x1 x2 x3 x4 x5 x6 x7 x8 x9 x10 x11 x12 H) (v87_nm a x0 x1 x2 x3 x4 x5 x6 x7 x8 x9 x10 x11 x12 H) H.h7 H.h9

/-! ## The stored blocks -/

/-- The first output block: the chunk's projected output. -/
theorem out13_apply (bb : Fin 16) (n : Fin 512) : out0_13 x0 x1 x2 x3 x4 x5 x6 x7 x8 x9 x10 x11 x12 (ix2 bb n) = out a bb n := by
  unfold out0_13
  rw [View.canon_unit_zero hz2, View.ld_unit_zero hz2, View.ld_unit_zero hz1]
  exact ValD.pay4_apply a _ _ _ _ _ _ _ _ _ _ (v79_rows a x0 x1 x2 x3 x4 x5 x6 x7 x8 x9 x10 x11 x12 H) (v90_split a x0 x1 x2 x3 x4 x5 x6 x7 x8 x9 x10 x11 x12 H) (v91_split a x0 x1 x2 x3 x4 x5 x6 x7 x8 x9 x10 x11 x12 H) (v92_split a x0 x1 x2 x3 x4 x5 x6 x7 x8 x9 x10 x11 x12 H)
    (v117_rows a x0 x1 x2 x3 x4 x5 x6 x7 x8 x9 x10 x11 x12 H) (v121_eq a x0 x1 x2 x3 x4 x5 x6 x7 x8 x9 x10 x11 x12 H) (v122_eq a x0 x1 x2 x3 x4 x5 x6 x7 x8 x9 x10 x11 x12 H) (v132_split a x0 x1 x2 x3 x4 x5 x6 x7 x8 x9 x10 x11 x12 H) (v133_split a x0 x1 x2 x3 x4 x5 x6 x7 x8 x9 x10 x11 x12 H) (v134_split a x0 x1 x2 x3 x4 x5 x6 x7 x8 x9 x10 x11 x12 H)
    x11 x12 H.h11 H.h12 bb n

/-- The second output block, first slab: the first layer's new state. -/
theorem out14_apply0 (bb : Fin 16) (n : Fin 512) (u : Fin 64) : out0_14 x0 x1 x2 x3 x4 x5 x6 x7 x8 x9 x10 x11 x12 (ix3 0 bb (nu n u)) = h0n a bb n u.val := by
  unfold out0_14
  refine (canon_slabs0 _ _ bb (nu n u)).trans ?_
  exact ValD.pay2_apply _ _ (v74_rows a x0 x1 x2 x3 x4 x5 x6 x7 x8 x9 x10 x11 x12 H) bb n u

/-- The second output block, second slab: the second layer's new state. -/
theorem out14_apply1 (bb : Fin 16) (n : Fin 512) (u : Fin 64) : out0_14 x0 x1 x2 x3 x4 x5 x6 x7 x8 x9 x10 x11 x12 (ix3 1 bb (nu n u)) = h1n a bb n u.val := by
  unfold out0_14
  refine (canon_slabs1 _ _ bb (nu n u)).trans ?_
  exact ValD.pay3_apply a _ _ _ _ _ _ _ _ _ _ (v79_rows a x0 x1 x2 x3 x4 x5 x6 x7 x8 x9 x10 x11 x12 H) (v90_split a x0 x1 x2 x3 x4 x5 x6 x7 x8 x9 x10 x11 x12 H) (v91_split a x0 x1 x2 x3 x4 x5 x6 x7 x8 x9 x10 x11 x12 H) (v92_split a x0 x1 x2 x3 x4 x5 x6 x7 x8 x9 x10 x11 x12 H)
    (v117_rows a x0 x1 x2 x3 x4 x5 x6 x7 x8 x9 x10 x11 x12 H) (v121_eq a x0 x1 x2 x3 x4 x5 x6 x7 x8 x9 x10 x11 x12 H) (v122_eq a x0 x1 x2 x3 x4 x5 x6 x7 x8 x9 x10 x11 x12 H) (v132_split a x0 x1 x2 x3 x4 x5 x6 x7 x8 x9 x10 x11 x12 H) (v133_split a x0 x1 x2 x3 x4 x5 x6 x7 x8 x9 x10 x11 x12 H) (v134_split a x0 x1 x2 x3 x4 x5 x6 x7 x8 x9 x10 x11 x12 H) bb n u

end Cert.KernelIdeal.Val

end
-- ==== Proof.KValH.lean ====
/-
  What the kernel is handed for its weights.

  Before the kernel runs, the program rearranges each of the four weight arrays of the two recurrent layers. An
  array's row `3 * feature + tap` is first addressed as the pair (feature, tap); a run of consecutive features is
  cut out, the taps are brought to the front, one tap is cut out, and six such blocks of rows — the three taps of
  the state's features, then the three taps of the layer input's features — are stacked. Row `j` of the stack is
  therefore row `sigma0 j` (first layer, 195 rows) or `sigma1 j` (second layer, 384 rows) of the array, entry by
  entry: every step only moves entries, and the change of number format in between is the identity on extended
  reals. The output projection's weight column is handed over as a row.

  Each array is read in two steps: first the stack as a term of the array (what the list of operations leaves in
  its buffer), then that term at an entry, block by block.
-/
import proofs.«108032_g44504451121623_cont_8to1_c_180_30_alg».proof.Proof.Gen.KernelIdeal.Launch
import proofs.«108032_g44504451121623_cont_8to1_c_180_30_alg».proof.Proof.Spec
import proofs.«108032_g44504451121623_cont_8to1_c_180_30_alg».proof.Proof.Forms
import Idealize.ShloMosaic.Lib.StableHlo.Run
import Idealize.ShloMosaic.Lib.ValueIdx
import Idealize.ShloMosaic.Lib.Pipeline.Value

noncomputable section

namespace Cert.KernelIdeal.ValH

open Idealize.ShloMosaic Idealize.ShloMosaic.ValueIdx Idealize.ShloMosaic.StableHlo Idealize.ShloMosaic.TcCoe
open Cert.KernelIdeal Cert.KernelIdeal.Gen Cert.Spec Cert.Forms

/-! ## An operation over six operands -/

section Six
variable {τ : Topo} {sig : RefSig} {Val : EltTy → Type}
variable {x0 x1 x2 x3 x4 x5 y : Ref sig .tc}

/-- An operation over a literal family of six operands leaves at its result the function of the six contents, each
    read at its own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same statement, in the form that applies at any literal result reference. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Six

/-- What one buffer holds after a list of one-operand operations, reshapes and six-operand operations: each
    operation's result at its own buffer is its function of its operands' contents, and any other buffer keeps what
    it held. -/
macro "host_results" : tactic =>
  `(tactic| (simp (disch := decide) only [after_cons, after_nil, unary_result', reshape_result', nary6_result',
      unary_result_ne', reshape_result_ne', nary_result_ne']))

/-! ## One block of rows -/

section Piece
variable {R O : Nat}

/-- One tap of a run of features of a weight array `W` with `3 * Fn` rows: the rows addressed as (feature, tap),
    the run of `n` features from `f0` cut out, the taps brought to the front, tap `t` cut out and its unit axis
    dropped. -/
abbrev tapPiece (Fn n f0 t : Nat) (W : (⟨2, ![R, O]⟩ : Shape).Idx → EReal)
    (h1 : (⟨2, ![R, O]⟩ : Shape).ShapeCasts ⟨3, ![Fn, 3, O]⟩)
    (hb : FTy.bits .bf16 < FTy.bits .f32)
    (h2 : (⟨3, ![Fn, 3, O]⟩ : Shape).Slices ![f0, 0, 0] ⟨3, ![n, 3, O]⟩)
    (h3 : (⟨3, ![n, 3, O]⟩ : Shape).Transposes [1, 0, 2] ⟨3, ![3, n, O]⟩)
    (h4 : (⟨3, ![3, n, O]⟩ : Shape).Slices ![t, 0, 0] ⟨3, ![1, n, O]⟩)
    (h5 : (⟨3, ![1, n, O]⟩ : Shape).ShapeCasts ⟨2, ![n, O]⟩) : (⟨2, ![n, O]⟩ : Shape).Idx → EReal :=
  shapeCast (⟨2, ![n, O]⟩ : Shape)
    (extractStridedSlice (⟨3, ![1, n, O]⟩ : Shape) ![t, 0, 0]
      (transpose (⟨3, ![3, n, O]⟩ : Shape) [1, 0, 2]
        (extractStridedSlice (⟨3, ![n, 3, O]⟩ : Shape) ![f0, 0, 0]
          (truncf (F := Ideal) .bf16 (shapeCast (⟨3, ![Fn, 3, O]⟩ : Shape) W h1 : FVec Ideal _ .f32) hb) h2) h3) h4) h5

/-- Row `i` of the block is the array's row `3 * (f0 + i) + t`. -/
theorem tapPiece_apply {Fn n : Nat} (f0 t : Nat) (W : (⟨2, ![R, O]⟩ : Shape).Idx → EReal)
    (h1 : (⟨2, ![R, O]⟩ : Shape).ShapeCasts ⟨3, ![Fn, 3, O]⟩)
    (hb : FTy.bits .bf16 < FTy.bits .f32)
    (h2 : (⟨3, ![Fn, 3, O]⟩ : Shape).Slices ![f0, 0, 0] ⟨3, ![n, 3, O]⟩)
    (h3 : (⟨3, ![n, 3, O]⟩ : Shape).Transposes [1, 0, 2] ⟨3, ![3, n, O]⟩)
    (h4 : (⟨3, ![3, n, O]⟩ : Shape).Slices ![t, 0, 0] ⟨3, ![1, n, O]⟩)
    (h5 : (⟨3, ![1, n, O]⟩ : Shape).ShapeCasts ⟨2, ![n, O]⟩)
    (i : Fin n) (o : Fin O) (r : Fin R) (hr : r.val = (f0 + i.val) * 3 + t) :
    tapPiece Fn n f0 t W h1 hb h2 h3 h4 h5 (ix2 i o) = W (ix2 r o) := by
  have ht : t < 3 := by
    have e : t + 1 ≤ 3 := h4.2 (0 : Fin 3)
    omega
  have hf : f0 + i.val < Fn := by
    have e : f0 + n ≤ Fn := h2.2 (0 : Fin 3)
    have hi := i.isLt
    omega
  -- dropping the unit axis: (i, o) reads (0, i, o)
  refine (shapeCast_apply _ _ (ix2 i o) (ix3 (⟨0, Nat.one_pos⟩ : Fin 1) i o) (by
    rw [Shape.rowMajor_val_two, Shape.rowMajor_val_three]
    show ((0 : Nat) * n + i.val) * O + o.val = i.val * O + o.val
    rw [Nat.zero_mul, Nat.zero_add])).trans ?_
  -- the tap's slice: (0, i, o) reads (t, i, o)
  refine (extractStridedSlice_apply _ _ _ _ (ix3 (⟨t, ht⟩ : Fin 3) i o) (fun a => match a with
    | ⟨0, _⟩ => by show t = t + 0; omega
    | ⟨1, _⟩ => by show i.val = 0 + i.val; omega
    | ⟨2, _⟩ => by show o.val = 0 + o.val; omega)).trans ?_
  -- the taps brought to the front: (t, i, o) reads (i, t, o)
  refine (transpose_apply _ _ _ _ (ix3 i (⟨t, ht⟩ : Fin 3) o) (fun b => match b with
    | ⟨0, _⟩ => rfl | ⟨1, _⟩ => rfl | ⟨2, _⟩ => rfl)).trans ?_
  -- the run of features: (i, t, o) reads (f0 + i, t, o)
  refine (extractStridedSlice_apply _ _ _ _ (ix3 (⟨f0 + i.val, hf⟩ : Fin Fn) (⟨t, ht⟩ : Fin 3) o) (fun a => match a with
    | ⟨0, _⟩ => by show f0 + i.val = f0 + i.val; rfl
    | ⟨1, _⟩ => by show t = 0 + t; omega
    | ⟨2, _⟩ => by show o.val = 0 + o.val; omega)).trans ?_
  -- the change of format is the identity on extended reals; the rows as pairs: (f, t, o) reads (3 f + t, o)
  show shapeCast (⟨3, ![Fn, 3, O]⟩ : Shape) W h1 (ix3 (⟨f0 + i.val, hf⟩ : Fin Fn) (⟨t, ht⟩ : Fin 3) o) = _
  exact shapeCast_apply _ _ _ (ix2 r o) (by
    rw [Shape.rowMajor_val_two, Shape.rowMajor_val_three]
    show r.val * O + o.val = ((f0 + i.val) * 3 + t) * O + o.val
    rw [hr])

end Piece

/-- A stack of blocks of rows read at a row: block `k`, whose rows start at row `pre`, at the row less `pre`. -/
theorem concatRows_apply {N O : Nat} (xs : List ((s : Shape) × (s.Idx → EReal)))
    (h : Shape.Concatenates (xs.map (·.1)) (⟨2, ![N, O]⟩ : Shape) 0) (j : Fin N) (o : Fin O)
    (k : Nat) (hk : k < xs.length) (n : Nat) (x : (⟨2, ![n, O]⟩ : Shape).Idx → EReal)
    (hxk : xs[k] = ⟨(⟨2, ![n, O]⟩ : Shape), x⟩) (pre : Nat)
    (hpre : (((xs.take k).map (·.1)).map fun s : Shape =>
      if h : s.rank = (⟨2, ![N, O]⟩ : Shape).rank then s.size ((0 : Fin 2).cast h.symm) else 0).sum = pre)
    (i : Fin n) (hi : pre + i.val = j.val) :
    concatenate (⟨2, ![N, O]⟩ : Shape) 0 xs h (ix2 j o) = x (ix2 i o) :=
  concatenate_apply_piece (0 : Fin 2) xs h (ix2 j o) k hk _ x hxk rfl pre hpre (ix2 i o)
    (fun b => match b with
      | ⟨0, _⟩ => fun hb => absurd rfl hb
      | ⟨1, _⟩ => fun _ => rfl)
    hi

/-! ## The five arrays -/

variable (m : (ℓ : Loc nD τ sig) → Buf (Elt Ideal) ℓ) (c : Dev nD)

/-- Core `c`'s buffers when the kernel is entered: the launch memory after the rearrangements. -/
abbrev Vh (b : Ref sig .tc) : Buf (Elt Ideal) ((c : Thread nD τ).loc b) :=
  StableHlo.after (hostOps0 (F := Ideal)) (fun b => m (c, b)) b

/-- The weight arguments as launched. -/
abbrev A3 : S195x128.Idx → EReal := m ((c : Thread nD τ).loc main_arg3)
abbrev A5 : S195x64.Idx → EReal := m ((c : Thread nD τ).loc main_arg5)
abbrev A7 : S384x128.Idx → EReal := m ((c : Thread nD τ).loc main_arg7)
abbrev A9 : S384x64.Idx → EReal := m ((c : Thread nD τ).loc main_arg9)
abbrev A11 : S64x1.Idx → EReal := m ((c : Thread nD τ).loc main_arg11)

/-! ### The stacks as terms of the arrays -/

set_option maxRecDepth 8000 in
set_option maxHeartbeats 8000000 in
/-- The first layer's gate weights as the kernel is handed them: the three taps of the sixty-four state features, then the
    three taps of the input feature. -/
theorem v36_term : (Vh m c main_v36 : S195x128.Idx → EReal)
    = concatenate S195x128 0
      [
       ⟨S64x128, tapPiece 65 64 1 0 (A3 m c) shapeCasts_S195x128_S65x3x128 bitsLt_bf16_f32 slices_S65x3x128_S64x3x128_1_0_0 transposes_S64x3x128_S3x64x128_1_0_2 slices_S3x64x128_S1x64x128_0_0_0 shapeCasts_S1x64x128_S64x128⟩,
       ⟨S64x128, tapPiece 65 64 1 1 (A3 m c) shapeCasts_S195x128_S65x3x128 bitsLt_bf16_f32 slices_S65x3x128_S64x3x128_1_0_0 transposes_S64x3x128_S3x64x128_1_0_2 slices_S3x64x128_S1x64x128_1_0_0 shapeCasts_S1x64x128_S64x128⟩,
       ⟨S64x128, tapPiece 65 64 1 2 (A3 m c) shapeCasts_S195x128_S65x3x128 bitsLt_bf16_f32 slices_S65x3x128_S64x3x128_1_0_0 transposes_S64x3x128_S3x64x128_1_0_2 slices_S3x64x128_S1x64x128_2_0_0 shapeCasts_S1x64x128_S64x128⟩,
       ⟨S1x128, tapPiece 65 1 0 0 (A3 m c) shapeCasts_S195x128_S65x3x128 bitsLt_bf16_f32 slices_S65x3x128_S1x3x128_0_0_0 transposes_S1x3x128_S3x1x128_1_0_2 slices_S3x1x128_S1x1x128_0_0_0 shapeCasts_S1x1x128_S1x128⟩,
       ⟨S1x128, tapPiece 65 1 0 1 (A3 m c) shapeCasts_S195x128_S65x3x128 bitsLt_bf16_f32 slices_S65x3x128_S1x3x128_0_0_0 transposes_S1x3x128_S3x1x128_1_0_2 slices_S3x1x128_S1x1x128_1_0_0 shapeCasts_S1x1x128_S1x128⟩,
       ⟨S1x128, tapPiece 65 1 0 2 (A3 m c) shapeCasts_S195x128_S65x3x128 bitsLt_bf16_f32 slices_S65x3x128_S1x3x128_0_0_0 transposes_S1x3x128_S3x1x128_1_0_2 slices_S3x1x128_S1x1x128_2_0_0 shapeCasts_S1x1x128_S1x128⟩]
      concatenates_S64x128_S64x128_S64x128_S1x128_S1x128_S1x128_S195x128_d0 := by
  show StableHlo.after (hostOps0 (F := Ideal)) (fun b => m (c, b)) (Proc.devRef .tc main_v36) = _
  delta hostOps0
  host_results <;> rfl

set_option maxRecDepth 8000 in
set_option maxHeartbeats 8000000 in
/-- The first layer's candidate weights, stacked the same way. -/
theorem v49_term : (Vh m c main_v49 : S195x64.Idx → EReal)
    = concatenate S195x64 0
      [
       ⟨S64x64, tapPiece 65 64 1 0 (A5 m c) shapeCasts_S195x64_S65x3x64 bitsLt_bf16_f32 slices_S65x3x64_S64x3x64_1_0_0 transposes_S64x3x64_S3x64x64_1_0_2 slices_S3x64x64_S1x64x64_0_0_0 shapeCasts_S1x64x64_S64x64⟩,
       ⟨S64x64, tapPiece 65 64 1 1 (A5 m c) shapeCasts_S195x64_S65x3x64 bitsLt_bf16_f32 slices_S65x3x64_S64x3x64_1_0_0 transposes_S64x3x64_S3x64x64_1_0_2 slices_S3x64x64_S1x64x64_1_0_0 shapeCasts_S1x64x64_S64x64⟩,
       ⟨S64x64, tapPiece 65 64 1 2 (A5 m c) shapeCasts_S195x64_S65x3x64 bitsLt_bf16_f32 slices_S65x3x64_S64x3x64_1_0_0 transposes_S64x3x64_S3x64x64_1_0_2 slices_S3x64x64_S1x64x64_2_0_0 shapeCasts_S1x64x64_S64x64⟩,
       ⟨S1x64, tapPiece 65 1 0 0 (A5 m c) shapeCasts_S195x64_S65x3x64 bitsLt_bf16_f32 slices_S65x3x64_S1x3x64_0_0_0 transposes_S1x3x64_S3x1x64_1_0_2 slices_S3x1x64_S1x1x64_0_0_0 shapeCasts_S1x1x64_S1x64⟩,
       ⟨S1x64, tapPiece 65 1 0 1 (A5 m c) shapeCasts_S195x64_S65x3x64 bitsLt_bf16_f32 slices_S65x3x64_S1x3x64_0_0_0 transposes_S1x3x64_S3x1x64_1_0_2 slices_S3x1x64_S1x1x64_1_0_0 shapeCasts_S1x1x64_S1x64⟩,
       ⟨S1x64, tapPiece 65 1 0 2 (A5 m c) shapeCasts_S195x64_S65x3x64 bitsLt_bf16_f32 slices_S65x3x64_S1x3x64_0_0_0 transposes_S1x3x64_S3x1x64_1_0_2 slices_S3x1x64_S1x1x64_2_0_0 shapeCasts_S1x1x64_S1x64⟩]
      concatenates_S64x64_S64x64_S64x64_S1x64_S1x64_S1x64_S195x64_d0 := by
  show StableHlo.after (hostOps0 (F := Ideal)) (fun b => m (c, b)) (Proc.devRef .tc main_v49) = _
  delta hostOps0
  host_results <;> rfl

set_option maxRecDepth 8000 in
set_option maxHeartbeats 8000000 in
/-- The second layer's gate weights as the kernel is handed them: the three taps of the state features (64 to 127), then
    the three taps of the layer-input features (0 to 63). -/
theorem v62_term : (Vh m c main_v62 : S384x128.Idx → EReal)
    = concatenate S384x128 0
      [
       ⟨S64x128, tapPiece 128 64 64 0 (A7 m c) shapeCasts_S384x128_S128x3x128 bitsLt_bf16_f32 slices_S128x3x128_S64x3x128_64_0_0 transposes_S64x3x128_S3x64x128_1_0_2 slices_S3x64x128_S1x64x128_0_0_0 shapeCasts_S1x64x128_S64x128⟩,
       ⟨S64x128, tapPiece 128 64 64 1 (A7 m c) shapeCasts_S384x128_S128x3x128 bitsLt_bf16_f32 slices_S128x3x128_S64x3x128_64_0_0 transposes_S64x3x128_S3x64x128_1_0_2 slices_S3x64x128_S1x64x128_1_0_0 shapeCasts_S1x64x128_S64x128⟩,
       ⟨S64x128, tapPiece 128 64 64 2 (A7 m c) shapeCasts_S384x128_S128x3x128 bitsLt_bf16_f32 slices_S128x3x128_S64x3x128_64_0_0 transposes_S64x3x128_S3x64x128_1_0_2 slices_S3x64x128_S1x64x128_2_0_0 shapeCasts_S1x64x128_S64x128⟩,
       ⟨S64x128, tapPiece 128 64 0 0 (A7 m c) shapeCasts_S384x128_S128x3x128 bitsLt_bf16_f32 slices_S128x3x128_S64x3x128_0_0_0 transposes_S64x3x128_S3x64x128_1_0_2 slices_S3x64x128_S1x64x128_0_0_0 shapeCasts_S1x64x128_S64x128⟩,
       ⟨S64x128, tapPiece 128 64 0 1 (A7 m c) shapeCasts_S384x128_S128x3x128 bitsLt_bf16_f32 slices_S128x3x128_S64x3x128_0_0_0 transposes_S64x3x128_S3x64x128_1_0_2 slices_S3x64x128_S1x64x128_1_0_0 shapeCasts_S1x64x128_S64x128⟩,
       ⟨S64x128, tapPiece 128 64 0 2 (A7 m c) shapeCasts_S384x128_S128x3x128 bitsLt_bf16_f32 slices_S128x3x128_S64x3x128_0_0_0 transposes_S64x3x128_S3x64x128_1_0_2 slices_S3x64x128_S1x64x128_2_0_0 shapeCasts_S1x64x128_S64x128⟩]
      concatenates_S64x128_S64x128_S64x128_S64x128_S64x128_S64x128_S384x128_d0 := by
  show StableHlo.after (hostOps0 (F := Ideal)) (fun b => m (c, b)) (Proc.devRef .tc main_v62) = _
  delta hostOps0
  host_results <;> rfl

set_option maxRecDepth 8000 in
set_option maxHeartbeats 8000000 in
/-- The second layer's candidate weights, stacked the same way. -/
theorem v75_term : (Vh m c main_v75 : S384x64.Idx → EReal)
    = concatenate S384x64 0
      [
       ⟨S64x64, tapPiece 128 64 64 0 (A9 m c) shapeCasts_S384x64_S128x3x64 bitsLt_bf16_f32 slices_S128x3x64_S64x3x64_64_0_0 transposes_S64x3x64_S3x64x64_1_0_2 slices_S3x64x64_S1x64x64_0_0_0 shapeCasts_S1x64x64_S64x64⟩,
       ⟨S64x64, tapPiece 128 64 64 1 (A9 m c) shapeCasts_S384x64_S128x3x64 bitsLt_bf16_f32 slices_S128x3x64_S64x3x64_64_0_0 transposes_S64x3x64_S3x64x64_1_0_2 slices_S3x64x64_S1x64x64_1_0_0 shapeCasts_S1x64x64_S64x64⟩,
       ⟨S64x64, tapPiece 128 64 64 2 (A9 m c) shapeCasts_S384x64_S128x3x64 bitsLt_bf16_f32 slices_S128x3x64_S64x3x64_64_0_0 transposes_S64x3x64_S3x64x64_1_0_2 slices_S3x64x64_S1x64x64_2_0_0 shapeCasts_S1x64x64_S64x64⟩,
       ⟨S64x64, tapPiece 128 64 0 0 (A9 m c) shapeCasts_S384x64_S128x3x64 bitsLt_bf16_f32 slices_S128x3x64_S64x3x64_0_0_0 transposes_S64x3x64_S3x64x64_1_0_2 slices_S3x64x64_S1x64x64_0_0_0 shapeCasts_S1x64x64_S64x64⟩,
       ⟨S64x64, tapPiece 128 64 0 1 (A9 m c) shapeCasts_S384x64_S128x3x64 bitsLt_bf16_f32 slices_S128x3x64_S64x3x64_0_0_0 transposes_S64x3x64_S3x64x64_1_0_2 slices_S3x64x64_S1x64x64_1_0_0 shapeCasts_S1x64x64_S64x64⟩,
       ⟨S64x64, tapPiece 128 64 0 2 (A9 m c) shapeCasts_S384x64_S128x3x64 bitsLt_bf16_f32 slices_S128x3x64_S64x3x64_0_0_0 transposes_S64x3x64_S3x64x64_1_0_2 slices_S3x64x64_S1x64x64_2_0_0 shapeCasts_S1x64x64_S64x64⟩]
      concatenates_S64x64_S64x64_S64x64_S64x64_S64x64_S64x64_S384x64_d0 := by
  show StableHlo.after (hostOps0 (F := Ideal)) (fun b => m (c, b)) (Proc.devRef .tc main_v75) = _
  delta hostOps0
  host_results <;> rfl

set_option maxRecDepth 8000 in
set_option maxHeartbeats 8000000 in
/-- The output projection's weights: the column as a row. -/
theorem v76_term : (Vh m c main_v76 : S1x64.Idx → EReal)
    = transpose S1x64 [1, 0] (A11 m c) transposes_S64x1_S1x64_1_0 := by
  show StableHlo.after (hostOps0 (F := Ideal)) (fun b => m (c, b)) (Proc.devRef .tc main_v76) = _
  delta hostOps0
  host_results <;> rfl

/-! ### The stacks entry by entry -/

theorem v36_apply (j : Fin 195) (o : Fin 128) :
    (Vh m c main_v36 : S195x128.Idx → EReal) (ix2 j o)
      = (m ((c : Thread nD τ).loc main_arg3) : S195x128.Idx → EReal) (ix2 (sigma0 j) o) := by
  have hj := j.isLt
  refine (congrFun (v36_term m c) (ix2 j o)).trans ?_
  by_cases h : j.val < 192
  · obtain ⟨hs1, hs2⟩ := sigma0_state j h
    by_cases h0 : j.val < 64
    · refine (concatRows_apply _ _ j o 0 (by show (0 : Nat) < 6; omega) 64 _ rfl 0 rfl ⟨j.val - 0, by omega⟩
          (by show 0 + (j.val - 0) = j.val; omega)).trans ?_
      exact tapPiece_apply 1 0 _ _ _ _ _ _ _ _ _ (sigma0 j)
          (by show (sigma0 j).val = (1 + (j.val - 0)) * 3 + 0; omega)
    by_cases h1 : j.val < 128
    · refine (concatRows_apply _ _ j o 1 (by show (1 : Nat) < 6; omega) 64 _ rfl 64 rfl ⟨j.val - 64, by omega⟩
          (by show 64 + (j.val - 64) = j.val; omega)).trans ?_
      exact tapPiece_apply 1 1 _ _ _ _ _ _ _ _ _ (sigma0 j)
          (by show (sigma0 j).val = (1 + (j.val - 64)) * 3 + 1; omega)
    · refine (concatRows_apply _ _ j o 2 (by show (2 : Nat) < 6; omega) 64 _ rfl 128 rfl ⟨j.val - 128, by omega⟩
          (by show 128 + (j.val - 128) = j.val; omega)).trans ?_
      exact tapPiece_apply 1 2 _ _ _ _ _ _ _ _ _ (sigma0 j)
          (by show (sigma0 j).val = (1 + (j.val - 128)) * 3 + 2; omega)
  · obtain ⟨hs1, hs2⟩ := sigma0_input j h
    by_cases h0 : j.val < 193
    · refine (concatRows_apply _ _ j o 3 (by show (3 : Nat) < 6; omega) 1 _ rfl 192 rfl ⟨j.val - 192, by omega⟩
          (by show 192 + (j.val - 192) = j.val; omega)).trans ?_
      exact tapPiece_apply 0 0 _ _ _ _ _ _ _ _ _ (sigma0 j)
          (by show (sigma0 j).val = (0 + (j.val - 192)) * 3 + 0; omega)
    by_cases h1 : j.val < 194
    · refine (concatRows_apply _ _ j o 4 (by show (4 : Nat) < 6; omega) 1 _ rfl 193 rfl ⟨j.val - 193, by omega⟩
          (by show 193 + (j.val - 193) = j.val; omega)).trans ?_
      exact tapPiece_apply 0 1 _ _ _ _ _ _ _ _ _ (sigma0 j)
          (by show (sigma0 j).val = (0 + (j.val - 193)) * 3 + 1; omega)
    · refine (concatRows_apply _ _ j o 5 (by show (5 : Nat) < 6; omega) 1 _ rfl 194 rfl ⟨j.val - 194, by omega⟩
          (by show 194 + (j.val - 194) = j.val; omega)).trans ?_
      exact tapPiece_apply 0 2 _ _ _ _ _ _ _ _ _ (sigma0 j)
          (by show (sigma0 j).val = (0 + (j.val - 194)) * 3 + 2; omega)

theorem v49_apply (j : Fin 195) (o : Fin 64) :
    (Vh m c main_v49 : S195x64.Idx → EReal) (ix2 j o)
      = (m ((c : Thread nD τ).loc main_arg5) : S195x64.Idx → EReal) (ix2 (sigma0 j) o) := by
  have hj := j.isLt
  refine (congrFun (v49_term m c) (ix2 j o)).trans ?_
  by_cases h : j.val < 192
  · obtain ⟨hs1, hs2⟩ := sigma0_state j h
    by_cases h0 : j.val < 64
    · refine (concatRows_apply _ _ j o 0 (by show (0 : Nat) < 6; omega) 64 _ rfl 0 rfl ⟨j.val - 0, by omega⟩
          (by show 0 + (j.val - 0) = j.val; omega)).trans ?_
      exact tapPiece_apply 1 0 _ _ _ _ _ _ _ _ _ (sigma0 j)
          (by show (sigma0 j).val = (1 + (j.val - 0)) * 3 + 0; omega)
    by_cases h1 : j.val < 128
    · refine (concatRows_apply _ _ j o 1 (by show (1 : Nat) < 6; omega) 64 _ rfl 64 rfl ⟨j.val - 64, by omega⟩
          (by show 64 + (j.val - 64) = j.val; omega)).trans ?_
      exact tapPiece_apply 1 1 _ _ _ _ _ _ _ _ _ (sigma0 j)
          (by show (sigma0 j).val = (1 + (j.val - 64)) * 3 + 1; omega)
    · refine (concatRows_apply _ _ j o 2 (by show (2 : Nat) < 6; omega) 64 _ rfl 128 rfl ⟨j.val - 128, by omega⟩
          (by show 128 + (j.val - 128) = j.val; omega)).trans ?_
      exact tapPiece_apply 1 2 _ _ _ _ _ _ _ _ _ (sigma0 j)
          (by show (sigma0 j).val = (1 + (j.val - 128)) * 3 + 2; omega)
  · obtain ⟨hs1, hs2⟩ := sigma0_input j h
    by_cases h0 : j.val < 193
    · refine (concatRows_apply _ _ j o 3 (by show (3 : Nat) < 6; omega) 1 _ rfl 192 rfl ⟨j.val - 192, by omega⟩
          (by show 192 + (j.val - 192) = j.val; omega)).trans ?_
      exact tapPiece_apply 0 0 _ _ _ _ _ _ _ _ _ (sigma0 j)
          (by show (sigma0 j).val = (0 + (j.val - 192)) * 3 + 0; omega)
    by_cases h1 : j.val < 194
    · refine (concatRows_apply _ _ j o 4 (by show (4 : Nat) < 6; omega) 1 _ rfl 193 rfl ⟨j.val - 193, by omega⟩
          (by show 193 + (j.val - 193) = j.val; omega)).trans ?_
      exact tapPiece_apply 0 1 _ _ _ _ _ _ _ _ _ (sigma0 j)
          (by show (sigma0 j).val = (0 + (j.val - 193)) * 3 + 1; omega)
    · refine (concatRows_apply _ _ j o 5 (by show (5 : Nat) < 6; omega) 1 _ rfl 194 rfl ⟨j.val - 194, by omega⟩
          (by show 194 + (j.val - 194) = j.val; omega)).trans ?_
      exact tapPiece_apply 0 2 _ _ _ _ _ _ _ _ _ (sigma0 j)
          (by show (sigma0 j).val = (0 + (j.val - 194)) * 3 + 2; omega)

theorem v62_apply (j : Fin 384) (o : Fin 128) :
    (Vh m c main_v62 : S384x128.Idx → EReal) (ix2 j o)
      = (m ((c : Thread nD τ).loc main_arg7) : S384x128.Idx → EReal) (ix2 (sigma1 j) o) := by
  have hj := j.isLt
  refine (congrFun (v62_term m c) (ix2 j o)).trans ?_
  by_cases h : j.val / 64 < 3
  · obtain ⟨hs1, hs2⟩ := sigma1_state j h
    by_cases h0 : j.val < 64
    · refine (concatRows_apply _ _ j o 0 (by show (0 : Nat) < 6; omega) 64 _ rfl 0 rfl ⟨j.val - 0, by omega⟩
          (by show 0 + (j.val - 0) = j.val; omega)).trans ?_
      exact tapPiece_apply 64 0 _ _ _ _ _ _ _ _ _ (sigma1 j)
          (by show (sigma1 j).val = (64 + (j.val - 0)) * 3 + 0; omega)
    by_cases h1 : j.val < 128
    · refine (concatRows_apply _ _ j o 1 (by show (1 : Nat) < 6; omega) 64 _ rfl 64 rfl ⟨j.val - 64, by omega⟩
          (by show 64 + (j.val - 64) = j.val; omega)).trans ?_
      exact tapPiece_apply 64 1 _ _ _ _ _ _ _ _ _ (sigma1 j)
          (by show (sigma1 j).val = (64 + (j.val - 64)) * 3 + 1; omega)
    · refine (concatRows_apply _ _ j o 2 (by show (2 : Nat) < 6; omega) 64 _ rfl 128 rfl ⟨j.val - 128, by omega⟩
          (by show 128 + (j.val - 128) = j.val; omega)).trans ?_
      exact tapPiece_apply 64 2 _ _ _ _ _ _ _ _ _ (sigma1 j)
          (by show (sigma1 j).val = (64 + (j.val - 128)) * 3 + 2; omega)
  · obtain ⟨hs1, hs2⟩ := sigma1_input j h
    by_cases h0 : j.val < 256
    · refine (concatRows_apply _ _ j o 3 (by show (3 : Nat) < 6; omega) 64 _ rfl 192 rfl ⟨j.val - 192, by omega⟩
          (by show 192 + (j.val - 192) = j.val; omega)).trans ?_
      exact tapPiece_apply 0 0 _ _ _ _ _ _ _ _ _ (sigma1 j)
          (by show (sigma1 j).val = (0 + (j.val - 192)) * 3 + 0; omega)
    by_cases h1 : j.val < 320
    · refine (concatRows_apply _ _ j o 4 (by show (4 : Nat) < 6; omega) 64 _ rfl 256 rfl ⟨j.val - 256, by omega⟩
          (by show 256 + (j.val - 256) = j.val; omega)).trans ?_
      exact tapPiece_apply 0 1 _ _ _ _ _ _ _ _ _ (sigma1 j)
          (by show (sigma1 j).val = (0 + (j.val - 256)) * 3 + 1; omega)
    · refine (concatRows_apply _ _ j o 5 (by show (5 : Nat) < 6; omega) 64 _ rfl 320 rfl ⟨j.val - 320, by omega⟩
          (by show 320 + (j.val - 320) = j.val; omega)).trans ?_
      exact tapPiece_apply 0 2 _ _ _ _ _ _ _ _ _ (sigma1 j)
          (by show (sigma1 j).val = (0 + (j.val - 320)) * 3 + 2; omega)

theorem v75_apply (j : Fin 384) (o : Fin 64) :
    (Vh m c main_v75 : S384x64.Idx → EReal) (ix2 j o)
      = (m ((c : Thread nD τ).loc main_arg9) : S384x64.Idx → EReal) (ix2 (sigma1 j) o) := by
  have hj := j.isLt
  refine (congrFun (v75_term m c) (ix2 j o)).trans ?_
  by_cases h : j.val / 64 < 3
  · obtain ⟨hs1, hs2⟩ := sigma1_state j h
    by_cases h0 : j.val < 64
    · refine (concatRows_apply _ _ j o 0 (by show (0 : Nat) < 6; omega) 64 _ rfl 0 rfl ⟨j.val - 0, by omega⟩
          (by show 0 + (j.val - 0) = j.val; omega)).trans ?_
      exact tapPiece_apply 64 0 _ _ _ _ _ _ _ _ _ (sigma1 j)
          (by show (sigma1 j).val = (64 + (j.val - 0)) * 3 + 0; omega)
    by_cases h1 : j.val < 128
    · refine (concatRows_apply _ _ j o 1 (by show (1 : Nat) < 6; omega) 64 _ rfl 64 rfl ⟨j.val - 64, by omega⟩
          (by show 64 + (j.val - 64) = j.val; omega)).trans ?_
      exact tapPiece_apply 64 1 _ _ _ _ _ _ _ _ _ (sigma1 j)
          (by show (sigma1 j).val = (64 + (j.val - 64)) * 3 + 1; omega)
    · refine (concatRows_apply _ _ j o 2 (by show (2 : Nat) < 6; omega) 64 _ rfl 128 rfl ⟨j.val - 128, by omega⟩
          (by show 128 + (j.val - 128) = j.val; omega)).trans ?_
      exact tapPiece_apply 64 2 _ _ _ _ _ _ _ _ _ (sigma1 j)
          (by show (sigma1 j).val = (64 + (j.val - 128)) * 3 + 2; omega)
  · obtain ⟨hs1, hs2⟩ := sigma1_input j h
    by_cases h0 : j.val < 256
    · refine (concatRows_apply _ _ j o 3 (by show (3 : Nat) < 6; omega) 64 _ rfl 192 rfl ⟨j.val - 192, by omega⟩
          (by show 192 + (j.val - 192) = j.val; omega)).trans ?_
      exact tapPiece_apply 0 0 _ _ _ _ _ _ _ _ _ (sigma1 j)
          (by show (sigma1 j).val = (0 + (j.val - 192)) * 3 + 0; omega)
    by_cases h1 : j.val < 320
    · refine (concatRows_apply _ _ j o 4 (by show (4 : Nat) < 6; omega) 64 _ rfl 256 rfl ⟨j.val - 256, by omega⟩
          (by show 256 + (j.val - 256) = j.val; omega)).trans ?_
      exact tapPiece_apply 0 1 _ _ _ _ _ _ _ _ _ (sigma1 j)
          (by show (sigma1 j).val = (0 + (j.val - 256)) * 3 + 1; omega)
    · refine (concatRows_apply _ _ j o 5 (by show (5 : Nat) < 6; omega) 64 _ rfl 320 rfl ⟨j.val - 320, by omega⟩
          (by show 320 + (j.val - 320) = j.val; omega)).trans ?_
      exact tapPiece_apply 0 2 _ _ _ _ _ _ _ _ _ (sigma1 j)
          (by show (sigma1 j).val = (0 + (j.val - 320)) * 3 + 2; omega)

theorem v76_apply (u : Fin 64) :
    (Vh m c main_v76 : S1x64.Idx → EReal) (ix2 0 u)
      = (m ((c : Thread nD τ).loc main_arg11) : S64x1.Idx → EReal) (ix2 u 0) := by
  refine (congrFun (v76_term m c) (ix2 0 u)).trans ?_
  exact transpose_apply _ _ _ _ (ix2 u 0) (fun b => match b with | ⟨0, _⟩ => rfl | ⟨1, _⟩ => rfl)

end Cert.KernelIdeal.ValH

end
-- ==== Proof.KBlocks.lean ====
/-
  The pallas_call's windows on its grid of two batch chunks.

  Chunk `t` fetches rows `16 * t` to `16 * t + 15` of the input and of both state layers, and writes back the same rows
  of the two results; the adjacency, the weight and bias arrays are fetched whole (their block index is zero on every
  axis). So an entry of a moving window's block is the array's entry with `16 * t` added to its batch coordinate, an
  entry of a whole window's block is the array's entry, and the two results' blocks cover their arrays: batch element
  `b` lies in chunk `b / 16`.
-/
import proofs.«108032_g44504451121623_cont_8to1_c_180_30_alg».proof.Proof.Gen.KernelIdeal.Launch
import proofs.«108032_g44504451121623_cont_8to1_c_180_30_alg».proof.Proof.Gen.KernelIdeal.Points
import proofs.«108032_g44504451121623_cont_8to1_c_180_30_alg».proof.Proof.Forms
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Spec Cert.Forms

/-- The chunk number of a grid point. -/
def tOf (t : Fin cfg0.N) : Fin 2 := ⟨t.val, by have h : cfg0.N = 2 := N_0; have := t.isLt; omega⟩

/-- The printed index maps of the moving windows, decided over the grid. -/
theorem idx_facts : ∀ t : Fin cfg0.N, win0_0.index t (0 : Fin 2) = t.val
    ∧ win0_0.index t (1 : Fin 2) = 0
    ∧ win0_2.index t (0 : Fin 3) = 0
    ∧ win0_2.index t (1 : Fin 3) = t.val
    ∧ win0_2.index t (2 : Fin 3) = 0
    ∧ win0_13.index t (0 : Fin 2) = t.val
    ∧ win0_13.index t (1 : Fin 2) = 0
    ∧ win0_14.index t (0 : Fin 3) = 0
    ∧ win0_14.index t (1 : Fin 3) = t.val
    ∧ win0_14.index t (2 : Fin 3) = 0 :=
  (by decide +kernel : ∀ t : Fin grid0.N, _)

/-- The printed index maps of the whole windows are zero, decided over the grid. -/
theorem zero_facts : ∀ t : Fin cfg0.N, win0_1.index t (0 : Fin 2) = 0
    ∧ win0_1.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 2) = 0
    ∧ win0_11.index t (1 : Fin 2) = 0
    ∧ win0_12.index t (0 : Fin 1) = 0 :=
  (by decide +kernel : ∀ t : Fin grid0.N, _)

/-! ## Where a block's entry sits in its array -/

theorem emb_0 (t : Fin cfg0.N) (bb : Fin 16) (n : Fin 512) :
    ((cfg0.win 0).blk t).view.emb (ix2 bb n) = (ix2 (bOf (tOf t) bb) n : S32x512.Idx) := by
  obtain ⟨e0, e1, -⟩ := idx_facts t
  funext d; apply Fin.ext
  match d with
  | ⟨0, _⟩ => show win0_0.index t (0 : Fin 2) * 16 + 1 * bb.val = t.val * 16 + bb.val; rw [e0]; omega
  | ⟨1, _⟩ => show win0_0.index t (1 : Fin 2) * 512 + 1 * n.val = n.val; rw [e1]; omega

theorem emb_13 (t : Fin cfg0.N) (bb : Fin 16) (n : Fin 512) :
    ((cfg0.win 13).blk t).view.emb (ix2 bb n) = (ix2 (bOf (tOf t) bb) n : S32x512.Idx) := by
  obtain ⟨-, -, -, -, -, e0, e1, -⟩ := idx_facts t
  funext d; apply Fin.ext
  match d with
  | ⟨0, _⟩ => show win0_13.index t (0 : Fin 2) * 16 + 1 * bb.val = t.val * 16 + bb.val; rw [e0]; omega
  | ⟨1, _⟩ => show win0_13.index t (1 : Fin 2) * 512 + 1 * n.val = n.val; rw [e1]; omega

theorem emb_2 (t : Fin cfg0.N) (l : Fin 2) (bb : Fin 16) (p : Fin 32768) :
    ((cfg0.win 2).blk t).view.emb (ix3 l bb p) = (ix3 l (bOf (tOf t) bb) p : S2x32x32768.Idx) := by
  obtain ⟨-, -, e0, e1, e2, -⟩ := idx_facts t
  funext d; apply Fin.ext
  match d with
  | ⟨0, _⟩ => show win0_2.index t (0 : Fin 3) * 2 + 1 * l.val = l.val; rw [e0]; omega
  | ⟨1, _⟩ => show win0_2.index t (1 : Fin 3) * 16 + 1 * bb.val = t.val * 16 + bb.val; rw [e1]; omega
  | ⟨2, _⟩ => show win0_2.index t (2 : Fin 3) * 32768 + 1 * p.val = p.val; rw [e2]; omega

theorem emb_14 (t : Fin cfg0.N) (l : Fin 2) (bb : Fin 16) (p : Fin 32768) :
    ((cfg0.win 14).blk t).view.emb (ix3 l bb p) = (ix3 l (bOf (tOf t) bb) p : S2x32x32768.Idx) := by
  obtain ⟨-, -, -, -, -, -, -, e0, e1, e2⟩ := idx_facts t
  funext d; apply Fin.ext
  match d with
  | ⟨0, _⟩ => show win0_14.index t (0 : Fin 3) * 2 + 1 * l.val = l.val; rw [e0]; omega
  | ⟨1, _⟩ => show win0_14.index t (1 : Fin 3) * 16 + 1 * bb.val = t.val * 16 + bb.val; rw [e1]; omega
  | ⟨2, _⟩ => show win0_14.index t (2 : Fin 3) * 32768 + 1 * p.val = p.val; rw [e2]; omega

theorem emb_1 (t : Fin cfg0.N) (j : S512x512.Idx) : ((cfg0.win 1).blk t).view.emb j = j := by
  obtain ⟨z0, z1, z2, z3, z4, z5, z6, z7, z8, z9, z10, z11, z12, z13, z14, z15, z16⟩ := zero_facts t
  funext d; apply Fin.ext
  match d with
  | ⟨0, _⟩ => show win0_1.index t (0 : Fin 2) * 512 + 1 * (j 0).val = (j 0).val; rw [z0]; omega
  | ⟨1, _⟩ => show win0_1.index t (1 : Fin 2) * 512 + 1 * (j 1).val = (j 1).val; rw [z1]; omega

theorem emb_3 (t : Fin cfg0.N) (j : S195x128.Idx) : ((cfg0.win 3).blk t).view.emb j = j := by
  obtain ⟨z0, z1, z2, z3, z4, z5, z6, z7, z8, z9, z10, z11, z12, z13, z14, z15, z16⟩ := zero_facts t
  funext d; apply Fin.ext
  match d with
  | ⟨0, _⟩ => show win0_3.index t (0 : Fin 2) * 195 + 1 * (j 0).val = (j 0).val; rw [z2]; omega
  | ⟨1, _⟩ => show win0_3.index t (1 : Fin 2) * 128 + 1 * (j 1).val = (j 1).val; rw [z3]; omega

theorem emb_4 (t : Fin cfg0.N) (j : S195x64.Idx) : ((cfg0.win 4).blk t).view.emb j = j := by
  obtain ⟨z0, z1, z2, z3, z4, z5, z6, z7, z8, z9, z10, z11, z12, z13, z14, z15, z16⟩ := zero_facts t
  funext d; apply Fin.ext
  match d with
  | ⟨0, _⟩ => show win0_4.index t (0 : Fin 2) * 195 + 1 * (j 0).val = (j 0).val; rw [z4]; omega
  | ⟨1, _⟩ => show win0_4.index t (1 : Fin 2) * 64 + 1 * (j 1).val = (j 1).val; rw [z5]; omega

theorem emb_5 (t : Fin cfg0.N) (j : S128.Idx) : ((cfg0.win 5).blk t).view.emb j = j := by
  obtain ⟨z0, z1, z2, z3, z4, z5, z6, z7, z8, z9, z10, z11, z12, z13, z14, z15, z16⟩ := zero_facts t
  funext d; apply Fin.ext
  match d with
  | ⟨0, _⟩ => show win0_5.index t (0 : Fin 1) * 128 + 1 * (j 0).val = (j 0).val; rw [z6]; omega

theorem emb_6 (t : Fin cfg0.N) (j : S64.Idx) : ((cfg0.win 6).blk t).view.emb j = j := by
  obtain ⟨z0, z1, z2, z3, z4, z5, z6, z7, z8, z9, z10, z11, z12, z13, z14, z15, z16⟩ := zero_facts t
  funext d; apply Fin.ext
  match d with
  | ⟨0, _⟩ => show win0_6.index t (0 : Fin 1) * 64 + 1 * (j 0).val = (j 0).val; rw [z7]; omega

theorem emb_7 (t : Fin cfg0.N) (j : S384x128.Idx) : ((cfg0.win 7).blk t).view.emb j = j := by
  obtain ⟨z0, z1, z2, z3, z4, z5, z6, z7, z8, z9, z10, z11, z12, z13, z14, z15, z16⟩ := zero_facts t
  funext d; apply Fin.ext
  match d with
  | ⟨0, _⟩ => show win0_7.index t (0 : Fin 2) * 384 + 1 * (j 0).val = (j 0).val; rw [z8]; omega
  | ⟨1, _⟩ => show win0_7.index t (1 : Fin 2) * 128 + 1 * (j 1).val = (j 1).val; rw [z9]; omega

theorem emb_8 (t : Fin cfg0.N) (j : S384x64.Idx) : ((cfg0.win 8).blk t).view.emb j = j := by
  obtain ⟨z0, z1, z2, z3, z4, z5, z6, z7, z8, z9, z10, z11, z12, z13, z14, z15, z16⟩ := zero_facts t
  funext d; apply Fin.ext
  match d with
  | ⟨0, _⟩ => show win0_8.index t (0 : Fin 2) * 384 + 1 * (j 0).val = (j 0).val; rw [z10]; omega
  | ⟨1, _⟩ => show win0_8.index t (1 : Fin 2) * 64 + 1 * (j 1).val = (j 1).val; rw [z11]; omega

theorem emb_9 (t : Fin cfg0.N) (j : S128.Idx) : ((cfg0.win 9).blk t).view.emb j = j := by
  obtain ⟨z0, z1, z2, z3, z4, z5, z6, z7, z8, z9, z10, z11, z12, z13, z14, z15, z16⟩ := zero_facts t
  funext d; apply Fin.ext
  match d with
  | ⟨0, _⟩ => show win0_9.index t (0 : Fin 1) * 128 + 1 * (j 0).val = (j 0).val; rw [z12]; omega

theorem emb_10 (t : Fin cfg0.N) (j : S64.Idx) : ((cfg0.win 10).blk t).view.emb j = j := by
  obtain ⟨z0, z1, z2, z3, z4, z5, z6, z7, z8, z9, z10, z11, z12, z13, z14, z15, z16⟩ := zero_facts t
  funext d; apply Fin.ext
  match d with
  | ⟨0, _⟩ => show win0_10.index t (0 : Fin 1) * 64 + 1 * (j 0).val = (j 0).val; rw [z13]; omega

theorem emb_11 (t : Fin cfg0.N) (j : S1x64.Idx) : ((cfg0.win 11).blk t).view.emb j = j := by
  obtain ⟨z0, z1, z2, z3, z4, z5, z6, z7, z8, z9, z10, z11, z12, z13, z14, z15, z16⟩ := zero_facts t
  funext d; apply Fin.ext
  match d with
  | ⟨0, _⟩ => show win0_11.index t (0 : Fin 2) * 1 + 1 * (j 0).val = (j 0).val; rw [z14]; omega
  | ⟨1, _⟩ => show win0_11.index t (1 : Fin 2) * 64 + 1 * (j 1).val = (j 1).val; rw [z15]; omega

theorem emb_12 (t : Fin cfg0.N) (j : S1.Idx) : ((cfg0.win 12).blk t).view.emb j = j := by
  obtain ⟨z0, z1, z2, z3, z4, z5, z6, z7, z8, z9, z10, z11, z12, z13, z14, z15, z16⟩ := zero_facts t
  funext d; apply Fin.ext
  match d with
  | ⟨0, _⟩ => show win0_12.index t (0 : Fin 1) * 1 + 1 * (j 0).val = (j 0).val; rw [z16]; omega

/-! ## The results' blocks cover their arrays -/

theorem mem_blk13 (t : Fin cfg0.N) (i : S32x512.Idx) :
    i ∈ ((cfg0.win 13).blk t).view.set ↔ ∀ d : Fin 2, win0_13.index t d * S16x512.size d ≤ (i d).val ∧ (i d).val < win0_13.index t d * S16x512.size d + S16x512.size d := by
  show i ∈ ((View.whole main_v77_0).slice (win0_13.rect t)).set ↔ _
  rw [View.set_slice_whole, Rect.mem_set_unit]
  exact Iff.rfl

theorem mem_blk14 (t : Fin cfg0.N) (i : S2x32x32768.Idx) :
    i ∈ ((cfg0.win 14).blk t).view.set ↔ ∀ d : Fin 3, win0_14.index t d * S2x16x32768.size d ≤ (i d).val ∧ (i d).val < win0_14.index t d * S2x16x32768.size d + S2x16x32768.size d := by
  show i ∈ ((View.whole main_v77_1).slice (win0_14.rect t)).set ↔ _
  rw [View.set_slice_whole, Rect.mem_set_unit]
  exact Iff.rfl

/-- Batch element `b` of the first result lies in chunk `b / 16`'s block. -/
theorem cover13 (i : S32x512.Idx) : ∃ t : Fin cfg0.N, (cfg0.win 13).flush t = true ∧ i ∈ ((cfg0.win 13).blk t).view.set := by
  have hi0 : (i 0).val < 32 := (i 0).isLt
  have hi1 : (i 1).val < 512 := (i 1).isLt
  have hN : cfg0.N = 2 := N_0
  let t : Fin cfg0.N := ⟨(i 0).val / 16, by omega⟩
  obtain ⟨-, -, -, -, -, e0, e1, -⟩ := idx_facts t
  refine ⟨t, flush0_13 t, ?_⟩
  rw [mem_blk13]
  intro d
  match d with
  | ⟨0, _⟩ => show win0_13.index t (0 : Fin 2) * 16 ≤ (i 0).val ∧ (i 0).val < win0_13.index t (0 : Fin 2) * 16 + 16; rw [e0]; show (i 0).val / 16 * 16 ≤ (i 0).val ∧ (i 0).val < (i 0).val / 16 * 16 + 16; omega
  | ⟨1, _⟩ => show win0_13.index t (1 : Fin 2) * 512 ≤ (i 1).val ∧ (i 1).val < win0_13.index t (1 : Fin 2) * 512 + 512; rw [e1]; omega

/-- Batch element `b` of the second result lies in chunk `b / 16`'s block. -/
theorem cover14 (i : S2x32x32768.Idx) : ∃ t : Fin cfg0.N, (cfg0.win 14).flush t = true ∧ i ∈ ((cfg0.win 14).blk t).view.set := by
  have hi0 : (i 0).val < 2 := (i 0).isLt
  have hi1 : (i 1).val < 32 := (i 1).isLt
  have hi2 : (i 2).val < 32768 := (i 2).isLt
  have hN : cfg0.N = 2 := N_0
  let t : Fin cfg0.N := ⟨(i 1).val / 16, by omega⟩
  obtain ⟨-, -, -, -, -, -, -, e0, e1, e2⟩ := idx_facts t
  refine ⟨t, flush0_14 t, ?_⟩
  rw [mem_blk14]
  intro d
  match d with
  | ⟨0, _⟩ => show win0_14.index t (0 : Fin 3) * 2 ≤ (i 0).val ∧ (i 0).val < win0_14.index t (0 : Fin 3) * 2 + 2; rw [e0]; omega
  | ⟨1, _⟩ => show win0_14.index t (1 : Fin 3) * 16 ≤ (i 1).val ∧ (i 1).val < win0_14.index t (1 : Fin 3) * 16 + 16; rw [e1]; show (i 1).val / 16 * 16 ≤ (i 1).val ∧ (i 1).val < (i 1).val / 16 * 16 + 16; omega
  | ⟨2, _⟩ => show win0_14.index t (2 : Fin 3) * 32768 ≤ (i 2).val ∧ (i 2).val < win0_14.index t (2 : Fin 3) * 32768 + 32768; rw [e2]; omega

end Cert.KernelIdeal.Blocks

end
-- ==== Proof.SpecChunk.lean ====
/-
  A batch chunk's value is the whole batch's.

  Every quantity of the specification is pointwise in the batch element: it reads the input row, the state rows and the
  shared adjacency, weights and biases, and nothing of another batch element. So if a 16-element record's input and state
  are rows `16 * t + bb` of a 32-element record's and the shared arrays agree, every quantity at `bb` is the whole
  batch's at `16 * t + bb`.
-/
import proofs.«108032_g44504451121623_cont_8to1_c_180_30_alg».proof.Proof.Forms

noncomputable section

open scoped BigOperators

namespace Cert.Spec

open Idealize.ShloMosaic Idealize.ShloMosaic.ValueIdx Cert.Forms

/-- Chunk `t` of the arrays: rows `16 * t + bb` of the input and of both state layers, the shared arrays as they are. -/
def Args.chunk (A : Args 32) (t : Fin 2) : Args 16 where
  inp := fun j => A.inp (ix2 (bOf t (j 0)) (j 1))
  adj := A.adj
  hid := fun j => A.hid (ix3 (j 0) (bOf t (j 1)) (j 2))
  Wg0 := A.Wg0
  bg0 := A.bg0
  Wc0 := A.Wc0
  bc0 := A.bc0
  Wg1 := A.Wg1
  bg1 := A.bg1
  Wc1 := A.Wc1
  bc1 := A.bc1
  Wp := A.Wp
  bp := A.bp

variable (A : Args 32) (t : Fin 2)

theorem hAt_chunk (l : Fin 2) (bb : Fin 16) (n : Fin 512) (u : ℕ) : hAt (A.chunk t) l bb n u = hAt A l (bOf t bb) n u := by
  unfold hAt
  by_cases h : u < 64
  · simp only [dif_pos h]; rfl
  · simp only [dif_neg h]

theorem feat0_chunk (st : Fin 16 → Fin 512 → ℕ → EReal) (st' : Fin 32 → Fin 512 → ℕ → EReal)
    (hst : ∀ bb n u, st bb n u = st' (bOf t bb) n u) (bb : Fin 16) (f : ℕ) (n : Fin 512) :
    feat0 (A.chunk t) st bb f n = feat0 A st' (bOf t bb) f n := by
  unfold feat0
  by_cases h : f = 0
  · simp only [if_pos h]; rfl
  · simp only [if_neg h]; exact hst _ _ _

theorem feat1_chunk (x st : Fin 16 → Fin 512 → ℕ → EReal) (x' st' : Fin 32 → Fin 512 → ℕ → EReal)
    (hx : ∀ bb n u, x bb n u = x' (bOf t bb) n u) (hst : ∀ bb n u, st bb n u = st' (bOf t bb) n u)
    (bb : Fin 16) (f : ℕ) (n : Fin 512) : feat1 x st bb f n = feat1 x' st' (bOf t bb) f n := by
  unfold feat1
  by_cases h : f < 64
  · simp only [if_pos h]; exact hx _ _ _
  · simp only [if_neg h]; exact hst _ _ _

theorem pre_chunk {K O : ℕ} (adj : (⟨2, ![512, 512]⟩ : Shape).Idx → EReal) (feat : Fin 16 → ℕ → Fin 512 → EReal)
    (feat' : Fin 32 → ℕ → Fin 512 → EReal) (hf : ∀ bb f n, feat bb f n = feat' (bOf t bb) f n)
    (W : (⟨2, ![K, O]⟩ : Shape).Idx → EReal) (bias : (⟨1, ![O]⟩ : Shape).Idx → EReal) (bb : Fin 16) (n : Fin 512) (o : Fin O) :
    pre adj feat W bias bb n o = pre adj feat' W bias (bOf t bb) n o := by
  unfold pre
  have e : feat bb = feat' (bOf t bb) := funext fun f => funext fun n => hf bb f n
  rw [e]

theorem g0_chunk (bb : Fin 16) (n : Fin 512) (o : Fin 128) : g0 (A.chunk t) bb n o = g0 A (bOf t bb) n o := by
  unfold g0
  exact congrArg Ideal.logistic (pre_chunk t A.adj _ _ (fun bb f n => feat0_chunk A t _ _ (fun bb n u => hAt_chunk A t 0 bb n u) bb f n) A.Wg0 A.bg0 bb n o)

theorem r0_chunk (bb : Fin 16) (n : Fin 512) (u : ℕ) : r0 (A.chunk t) bb n u = r0 A (bOf t bb) n u := by
  unfold r0
  by_cases h : u < 64
  · simp only [dif_pos h]; exact g0_chunk A t bb n _
  · simp only [dif_neg h]

theorem u0_chunk (bb : Fin 16) (n : Fin 512) (u : ℕ) : u0 (A.chunk t) bb n u = u0 A (bOf t bb) n u := by
  unfold u0
  by_cases h : u < 64
  · simp only [dif_pos h]; exact g0_chunk A t bb n _
  · simp only [dif_neg h]

theorem c0_chunk (bb : Fin 16) (n : Fin 512) (u : ℕ) : c0 (A.chunk t) bb n u = c0 A (bOf t bb) n u := by
  unfold c0
  by_cases h : u < 64
  · simp only [dif_pos h]
    exact congrArg Ideal.tanh (pre_chunk t A.adj _ _ (fun bb f n => feat0_chunk A t _ _
      (fun bb n u => by rw [r0_chunk, hAt_chunk]) bb f n) A.Wc0 A.bc0 bb n _)
  · simp only [dif_neg h]

theorem h0n_chunk (bb : Fin 16) (n : Fin 512) (u : ℕ) : h0n (A.chunk t) bb n u = h0n A (bOf t bb) n u := by
  unfold h0n
  rw [u0_chunk, hAt_chunk, c0_chunk]

theorem g1_chunk (bb : Fin 16) (n : Fin 512) (o : Fin 128) : g1 (A.chunk t) bb n o = g1 A (bOf t bb) n o := by
  unfold g1
  exact congrArg Ideal.logistic (pre_chunk t A.adj _ _ (fun bb f n => feat1_chunk t _ _ _ _
    (fun bb n u => h0n_chunk A t bb n u) (fun bb n u => hAt_chunk A t 1 bb n u) bb f n) A.Wg1 A.bg1 bb n o)

theorem r1_chunk (bb : Fin 16) (n : Fin 512) (u : ℕ) : r1 (A.chunk t) bb n u = r1 A (bOf t bb) n u := by
  unfold r1
  by_cases h : u < 64
  · simp only [dif_pos h]; exact g1_chunk A t bb n _
  · simp only [dif_neg h]

theorem u1_chunk (bb : Fin 16) (n : Fin 512) (u : ℕ) : u1 (A.chunk t) bb n u = u1 A (bOf t bb) n u := by
  unfold u1
  by_cases h : u < 64
  · simp only [dif_pos h]; exact g1_chunk A t bb n _
  · simp only [dif_neg h]

theorem c1_chunk (bb : Fin 16) (n : Fin 512) (u : ℕ) : c1 (A.chunk t) bb n u = c1 A (bOf t bb) n u := by
  unfold c1
  by_cases h : u < 64
  · simp only [dif_pos h]
    exact congrArg Ideal.tanh (pre_chunk t A.adj _ _ (fun bb f n => feat1_chunk t _ _ _ _
      (fun bb n u => h0n_chunk A t bb n u) (fun bb n u => by rw [r1_chunk, hAt_chunk]) bb f n) A.Wc1 A.bc1 bb n _)
  · simp only [dif_neg h]

theorem h1n_chunk (bb : Fin 16) (n : Fin 512) (u : ℕ) : h1n (A.chunk t) bb n u = h1n A (bOf t bb) n u := by
  unfold h1n
  rw [u1_chunk, hAt_chunk, c1_chunk]

theorem out_chunk (bb : Fin 16) (n : Fin 512) : out (A.chunk t) bb n = out A (bOf t bb) n := by
  unfold out
  simp only [h1n_chunk]
  rfl

end Cert.Spec

end
-- ==== Proof.KFinal.lean ====
/-
  The kernel program's two result arrays as the specification's arrays of the launch memory.

  At chunk `t` the thirteen input blocks hold chunk `t` of the launch arrays (the weight blocks: the arrays the host
  operations re-laid, whose row `j` is the argument's row `sigma j`), so the body's stored blocks are the chunk's
  projected output and new states; a chunk's quantities are the whole batch's at the chunk's batch elements; so what
  chunk `t` writes back is block `t` of the specification's result arrays, and the blocks cover the arrays.
-/
import proofs.«108032_g44504451121623_cont_8to1_c_180_30_alg».proof.Proof.KVal
import proofs.«108032_g44504451121623_cont_8to1_c_180_30_alg».proof.Proof.KValH
import proofs.«108032_g44504451121623_cont_8to1_c_180_30_alg».proof.Proof.KBlocks
import proofs.«108032_g44504451121623_cont_8to1_c_180_30_alg».proof.Proof.SpecChunk

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Hand Cert.KernelIdeal.Val Cert.KernelIdeal.Blocks Cert.Spec Cert.Forms

variable (m : (ℓ : Loc nD τ sig) → Buf (Elt Ideal) ℓ) (ρ : Dev nD → PrngReg)

/-- The thirteen argument arrays as launched on core `c`. -/
def argsK (c : Dev nD) : Args 32 where
  inp := m ((c : Thread nD τ).loc main_arg0)
  adj := m ((c : Thread nD τ).loc main_arg1)
  hid := m ((c : Thread nD τ).loc main_arg2)
  Wg0 := m ((c : Thread nD τ).loc main_arg3)
  bg0 := m ((c : Thread nD τ).loc main_arg4)
  Wc0 := m ((c : Thread nD τ).loc main_arg5)
  bc0 := m ((c : Thread nD τ).loc main_arg6)
  Wg1 := m ((c : Thread nD τ).loc main_arg7)
  bg1 := m ((c : Thread nD τ).loc main_arg8)
  Wc1 := m ((c : Thread nD τ).loc main_arg9)
  bc1 := m ((c : Thread nD τ).loc main_arg10)
  Wp := m ((c : Thread nD τ).loc main_arg11)
  bp := m ((c : Thread nD τ).loc main_arg12)

/-! ## What the input blocks hold -/

theorem blk0_eq (c : Dev nD) (t : Fin cfg0.N) (bb : Fin 16) (n : Fin 512) :
    iblk m c 0 t (ix2 bb n) = (m ((c : Thread nD τ).loc main_arg0) : S32x512.Idx → EReal) (ix2 (bOf (tOf t) bb) n) := by
  have e : V m c (Pipeline.arrRef spec0 0) = m ((c : Thread nD τ).loc main_arg0) := V_main_arg0 m c
  show ((cfg0.win 0).blk t).view.read (Elt Ideal) (V m c (Pipeline.arrRef spec0 0)) (ix2 bb n) = _
  rw [View.read_apply, emb_0, e]
  rfl

theorem blk1_eq (c : Dev nD) (t : Fin cfg0.N) (i : S512x512.Idx) : iblk m c 1 t i = m ((c : Thread nD τ).loc main_arg1) i := by
  have e : V m c (Pipeline.arrRef spec0 1) = m ((c : Thread nD τ).loc main_arg1) := V_main_arg1 m c
  show ((cfg0.win 1).blk t).view.read (Elt Ideal) (V m c (Pipeline.arrRef spec0 1)) i = _
  rw [View.read_apply, emb_1, e]
  rfl

theorem blk2_eq (c : Dev nD) (t : Fin cfg0.N) (l : Fin 2) (bb : Fin 16) (p : Fin 32768) :
    iblk m c 2 t (ix3 l bb p) = (m ((c : Thread nD τ).loc main_arg2) : S2x32x32768.Idx → EReal) (ix3 l (bOf (tOf t) bb) p) := by
  have e : V m c (Pipeline.arrRef spec0 2) = m ((c : Thread nD τ).loc main_arg2) := V_main_arg2 m c
  show ((cfg0.win 2).blk t).view.read (Elt Ideal) (V m c (Pipeline.arrRef spec0 2)) (ix3 l bb p) = _
  rw [View.read_apply, emb_2, e]
  rfl

theorem blk3_eq (c : Dev nD) (t : Fin cfg0.N) (j : Fin 195) (o : Fin 128) :
    iblk m c 3 t (ix2 j o) = (m ((c : Thread nD τ).loc main_arg3) : S195x128.Idx → EReal) (ix2 (sigma0 j) o) := by
  show ((cfg0.win 3).blk t).view.read (Elt Ideal) (V m c (Pipeline.arrRef spec0 3)) (ix2 j o) = _
  rw [View.read_apply, emb_3]
  exact ValH.v36_apply m c j o

theorem blk4_eq (c : Dev nD) (t : Fin cfg0.N) (j : Fin 195) (o : Fin 64) :
    iblk m c 4 t (ix2 j o) = (m ((c : Thread nD τ).loc main_arg5) : S195x64.Idx → EReal) (ix2 (sigma0 j) o) := by
  show ((cfg0.win 4).blk t).view.read (Elt Ideal) (V m c (Pipeline.arrRef spec0 4)) (ix2 j o) = _
  rw [View.read_apply, emb_4]
  exact ValH.v49_apply m c j o

theorem blk5_eq (c : Dev nD) (t : Fin cfg0.N) (i : S128.Idx) : iblk m c 5 t i = m ((c : Thread nD τ).loc main_arg4) i := by
  have e : V m c (Pipeline.arrRef spec0 5) = m ((c : Thread nD τ).loc main_arg4) := V_main_arg4 m c
  show ((cfg0.win 5).blk t).view.read (Elt Ideal) (V m c (Pipeline.arrRef spec0 5)) i = _
  rw [View.read_apply, emb_5, e]
  rfl

theorem blk6_eq (c : Dev nD) (t : Fin cfg0.N) (i : S64.Idx) : iblk m c 6 t i = m ((c : Thread nD τ).loc main_arg6) i := by
  have e : V m c (Pipeline.arrRef spec0 6) = m ((c : Thread nD τ).loc main_arg6) := V_main_arg6 m c
  show ((cfg0.win 6).blk t).view.read (Elt Ideal) (V m c (Pipeline.arrRef spec0 6)) i = _
  rw [View.read_apply, emb_6, e]
  rfl

theorem blk7_eq (c : Dev nD) (t : Fin cfg0.N) (j : Fin 384) (o : Fin 128) :
    iblk m c 7 t (ix2 j o) = (m ((c : Thread nD τ).loc main_arg7) : S384x128.Idx → EReal) (ix2 (sigma1 j) o) := by
  show ((cfg0.win 7).blk t).view.read (Elt Ideal) (V m c (Pipeline.arrRef spec0 7)) (ix2 j o) = _
  rw [View.read_apply, emb_7]
  exact ValH.v62_apply m c j o

theorem blk8_eq (c : Dev nD) (t : Fin cfg0.N) (j : Fin 384) (o : Fin 64) :
    iblk m c 8 t (ix2 j o) = (m ((c : Thread nD τ).loc main_arg9) : S384x64.Idx → EReal) (ix2 (sigma1 j) o) := by
  show ((cfg0.win 8).blk t).view.read (Elt Ideal) (V m c (Pipeline.arrRef spec0 8)) (ix2 j o) = _
  rw [View.read_apply, emb_8]
  exact ValH.v75_apply m c j o

theorem blk9_eq (c : Dev nD) (t : Fin cfg0.N) (i : S128.Idx) : iblk m c 9 t i = m ((c : Thread nD τ).loc main_arg8) i := by
  have e : V m c (Pipeline.arrRef spec0 9) = m ((c : Thread nD τ).loc main_arg8) := V_main_arg8 m c
  show ((cfg0.win 9).blk t).view.read (Elt Ideal) (V m c (Pipeline.arrRef spec0 9)) i = _
  rw [View.read_apply, emb_9, e]
  rfl

theorem blk10_eq (c : Dev nD) (t : Fin cfg0.N) (i : S64.Idx) : iblk m c 10 t i = m ((c : Thread nD τ).loc main_arg10) i := by
  have e : V m c (Pipeline.arrRef spec0 10) = m ((c : Thread nD τ).loc main_arg10) := V_main_arg10 m c
  show ((cfg0.win 10).blk t).view.read (Elt Ideal) (V m c (Pipeline.arrRef spec0 10)) i = _
  rw [View.read_apply, emb_10, e]
  rfl

theorem blk11_eq (c : Dev nD) (t : Fin cfg0.N) (u : Fin 64) :
    iblk m c 11 t (ix2 0 u) = (m ((c : Thread nD τ).loc main_arg11) : S64x1.Idx → EReal) (ix2 u 0) := by
  show ((cfg0.win 11).blk t).view.read (Elt Ideal) (V m c (Pipeline.arrRef spec0 11)) (ix2 0 u) = _
  rw [View.read_apply, emb_11]
  exact ValH.v76_apply m c u

theorem blk12_eq (c : Dev nD) (t : Fin cfg0.N) (i : S1.Idx) : iblk m c 12 t i = m ((c : Thread nD τ).loc main_arg12) i := by
  have e : V m c (Pipeline.arrRef spec0 12) = m ((c : Thread nD τ).loc main_arg12) := V_main_arg12 m c
  show ((cfg0.win 12).blk t).view.read (Elt Ideal) (V m c (Pipeline.arrRef spec0 12)) i = _
  rw [View.read_apply, emb_12, e]
  rfl

theorem holds (c : Dev nD) (t : Fin cfg0.N) : Holds ((argsK m c).chunk (tOf t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h0 := fun i => by
    obtain ⟨bb, n, rfl⟩ : ∃ (bb : Fin 16) (n : Fin 512), i = ix2 bb n := ⟨i 0, i 1, eq_ix2 i⟩
    exact blk0_eq m c t bb n
  h1 := fun i => blk1_eq m c t i
  h2 := fun i => by
    obtain ⟨l, bb, p, rfl⟩ : ∃ (l : Fin 2) (bb : Fin 16) (p : Fin 32768), i = ix3 l bb p := ⟨i 0, i 1, i 2, eq_ix3 i⟩
    exact blk2_eq m c t l bb p
  h3 := fun j o => blk3_eq m c t j o
  h4 := fun j o => blk4_eq m c t j o
  h5 := fun i => blk5_eq m c t i
  h6 := fun i => blk6_eq m c t i
  h7 := fun j o => blk7_eq m c t j o
  h8 := fun j o => blk8_eq m c t j o
  h9 := fun i => blk9_eq m c t i
  h10 := fun i => blk10_eq m c t i
  h11 := fun u => blk11_eq m c t u
  h12 := fun i => blk12_eq m c t i

/-! ## The stacked states, read at an entry -/

theorem nu_div (n : Fin 512) (u : Fin 64) : (nu n u).val / 64 = n.val := by
  show (n.val * 64 + u.val) / 64 = n.val; have := u.isLt; omega
theorem nu_mod (n : Fin 512) (u : Fin 64) : (nu n u).val % 64 = u.val := by
  show (n.val * 64 + u.val) % 64 = u.val; have := u.isLt; omega

theorem Ghs_apply0 {B : ℕ} (a : Args B) (b : Fin B) (n : Fin 512) (u : Fin 64) : Ghs a (ix3 0 b (nu n u)) = h0n a b n u.val := by
  unfold Ghs
  rw [if_pos (show ((ix3 (0 : Fin 2) b (nu n u) : (⟨3, ![2, B, 32768]⟩ : Shape).Idx) 0).val = 0 from rfl)]
  exact congr (congrArg (h0n a b) (Fin.ext (nu_div n u))) (nu_mod n u)

theorem Ghs_apply1 {B : ℕ} (a : Args B) (b : Fin B) (n : Fin 512) (u : Fin 64) : Ghs a (ix3 1 b (nu n u)) = h1n a b n u.val := by
  unfold Ghs
  rw [if_neg (show ¬ ((ix3 (1 : Fin 2) b (nu n u) : (⟨3, ![2, B, 32768]⟩ : Shape).Idx) 0).val = 0 from by
    show ¬ ((1 : Fin 2).val = 0); decide)]
  exact congr (congrArg (h1n a b) (Fin.ext (nu_div n u))) (nu_mod n u)

/-! ## What each chunk writes back -/

/-- Chunk `t` writes back block `t` of the projected output. -/
theorem flushed13_eq (c : Dev nD) (t : Fin cfg0.N) :
    (dats m 0 c).flushed 13 t = ((cfg0.win 13).blk t).view.read (Elt Ideal) (Gout (argsK m c)) := by
  show (cfg0.win 13).cut (grid0.coords t) ((dats m 0 c).after 13 t) = _
  rw [after0_13]
  funext i
  obtain ⟨bb, n, rfl⟩ : ∃ (bb : Fin 16) (n : Fin 512), i = ix2 bb n := ⟨i 0, i 1, eq_ix2 i⟩
  rw [View.read_apply, emb_13]
  refine (out13_apply _ _ _ _ _ _ _ _ _ _ _ _ _ _ (holds m c t) bb n).trans ?_
  rw [out_chunk]
  rfl

/-- Chunk `t` writes back block `t` of the two layers' new states. -/
theorem flushed14_eq (c : Dev nD) (t : Fin cfg0.N) :
    (dats m 0 c).flushed 14 t = ((cfg0.win 14).blk t).view.read (Elt Ideal) (Ghs (argsK m c)) := by
  show (cfg0.win 14).cut (grid0.coords t) ((dats m 0 c).after 14 t) = _
  rw [after0_14]
  funext i
  obtain ⟨l, bb, p, rfl⟩ : ∃ (l : Fin 2) (bb : Fin 16) (p : Fin 32768), i = ix3 l bb p := ⟨i 0, i 1, i 2, eq_ix3 i⟩
  rw [View.read_apply, emb_14]
  have hp : p.val < 32768 := p.isLt
  obtain ⟨n, u, rfl⟩ : ∃ (n : Fin 512) (u : Fin 64), p = nu n u :=
    ⟨⟨p.val / 64, by omega⟩, ⟨p.val % 64, by omega⟩, Fin.ext (by show p.val = p.val / 64 * 64 + p.val % 64; omega)⟩
  match l with
  | 0 =>
    refine (out14_apply0 _ _ _ _ _ _ _ _ _ _ _ _ _ _ (holds m c t) bb n u).trans ?_
    rw [h0n_chunk]
    exact (Ghs_apply0 (argsK m c) (bOf (tOf t) bb) n u).symm
  | 1 =>
    refine (out14_apply1 _ _ _ _ _ _ _ _ _ _ _ _ _ _ (holds m c t) bb n u).trans ?_
    rw [h1n_chunk]
    exact (Ghs_apply1 (argsK m c) (bOf (tOf t) bb) n u).symm

/-! ## The result arrays after the run -/

theorem final13 (c : Dev nD) : (dats m 0 c).arrAt 13 cfg0.N = Gout (argsK m c) :=
  (dats m 0 c).arrAt_eq_of_cover 13 (Gout (argsK m c)) (fun t _ => flushed13_eq m c t) cover13

theorem final14 (c : Dev nD) : (dats m 0 c).arrAt 14 cfg0.N = Ghs (argsK m c) :=
  (dats m 0 c).arrAt_eq_of_cover 14 (Ghs (argsK m c)) (fun t _ => flushed14_eq m c t) cover14

/-- The kernel program's run: the two results at the specification's arrays of the launch memory, the arguments unchanged. -/
theorem run : θ_run defs (onTc (τ := τ) (main (F := Ideal))) ⟨m, fun _ => 0, ρ⟩ fun r => ∀ c : Dev nD,
      r.2.mem ((c.tc : Thread nD τ).loc main_v77_0) = Gout (argsK m c)
      ∧ r.2.mem ((c.tc : Thread nD τ).loc main_v77_1) = Ghs (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 13).trans (final13 m c), ((h c).1 14).trans (final14 m c), kept m r h c⟩)
    (run_main m ρ)

end Cert.KernelIdeal.Final

end
-- ==== Proof.RRunHand.lean ====
/-
  The reference program's run, stretch by stretch.

  The reference is a straight line of host operations, so its run ends with every buffer at the fold of the operations
  over the launch contents. The line is cut into stretches between which only named intermediate buffers are carried.
  After each stretch, each named buffer it computes holds its term of the launch contents: the stretch's own reading
  gives the term over the buffers it reads, those buffers were left alone by every stretch since the one that computed
  them, and for them the statement is already known. The two results are read the same way after the last stretch, and
  no stretch writes an argument.
-/
import proofs.«108032_g44504451121623_cont_8to1_c_180_30_alg».proof.Proof.RStages
import Idealize.ShloMosaic.Lib.Pipeline.Frame

set_option maxRecDepth 8192

noncomputable section

namespace Cert.ReferenceIdeal.ValueP

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The buffers' contents before any stretch has run. -/
def T0 (V0 : Valuation τ sig (Elt F)) : Valuation τ sig (Elt F) := V0
/-- The contents after stretch 0. -/
def T1 (V0 : Valuation τ sig (Elt F)) : Valuation τ sig (Elt F) := after c0 (T0 V0)
/-- The contents after stretch 1. -/
def T2 (V0 : Valuation τ sig (Elt F)) : Valuation τ sig (Elt F) := after c1 (T1 V0)
/-- The contents after stretch 2. -/
def T3 (V0 : Valuation τ sig (Elt F)) : Valuation τ sig (Elt F) := after c2 (T2 V0)
/-- The contents after stretch 3. -/
def T4 (V0 : Valuation τ sig (Elt F)) : Valuation τ sig (Elt F) := after c3 (T3 V0)
/-- The contents after stretch 4. -/
def T5 (V0 : Valuation τ sig (Elt F)) : Valuation τ sig (Elt F) := after c4 (T4 V0)
/-- The contents after stretch 5. -/
def T6 (V0 : Valuation τ sig (Elt F)) : Valuation τ sig (Elt F) := after c5 (T5 V0)
/-- The contents after stretch 6. -/
def T7 (V0 : Valuation τ sig (Elt F)) : Valuation τ sig (Elt F) := after c6 (T6 V0)
/-- The contents after stretch 7. -/
def T8 (V0 : Valuation τ sig (Elt F)) : Valuation τ sig (Elt F) := after c7 (T7 V0)
/-- The contents after stretch 8. -/
def T9 (V0 : Valuation τ sig (Elt F)) : Valuation τ sig (Elt F) := after c8 (T8 V0)
/-- The contents after stretch 9. -/
def T10 (V0 : Valuation τ sig (Elt F)) : Valuation τ sig (Elt F) := after c9 (T9 V0)
/-- The contents after stretch 10. -/
def T11 (V0 : Valuation τ sig (Elt F)) : Valuation τ sig (Elt F) := after c10 (T10 V0)
/-- The contents after stretch 11. -/
def T12 (V0 : Valuation τ sig (Elt F)) : Valuation τ sig (Elt F) := after c11 (T11 V0)
/-- The contents after stretch 12. -/
def T13 (V0 : Valuation τ sig (Elt F)) : Valuation τ sig (Elt F) := after c12 (T12 V0)
/-- The contents after stretch 13. -/
def T14 (V0 : Valuation τ sig (Elt F)) : Valuation τ sig (Elt F) := after c13 (T13 V0)
/-- The contents after stretch 14. -/
def T15 (V0 : Valuation τ sig (Elt F)) : Valuation τ sig (Elt F) := after c14 (T14 V0)

theorem T0_eq (V0 : Valuation τ sig (Elt F)) (b : DevRef τ sig) : T0 V0 b = V0 b := rfl
theorem T1_eq (V0 : Valuation τ sig (Elt F)) : T1 V0 = after c0 (T0 V0) := rfl
theorem T2_eq (V0 : Valuation τ sig (Elt F)) : T2 V0 = after c1 (T1 V0) := rfl
theorem T3_eq (V0 : Valuation τ sig (Elt F)) : T3 V0 = after c2 (T2 V0) := rfl
theorem T4_eq (V0 : Valuation τ sig (Elt F)) : T4 V0 = after c3 (T3 V0) := rfl
theorem T5_eq (V0 : Valuation τ sig (Elt F)) : T5 V0 = after c4 (T4 V0) := rfl
theorem T6_eq (V0 : Valuation τ sig (Elt F)) : T6 V0 = after c5 (T5 V0) := rfl
theorem T7_eq (V0 : Valuation τ sig (Elt F)) : T7 V0 = after c6 (T6 V0) := rfl
theorem T8_eq (V0 : Valuation τ sig (Elt F)) : T8 V0 = after c7 (T7 V0) := rfl
theorem T9_eq (V0 : Valuation τ sig (Elt F)) : T9 V0 = after c8 (T8 V0) := rfl
theorem T10_eq (V0 : Valuation τ sig (Elt F)) : T10 V0 = after c9 (T9 V0) := rfl
theorem T11_eq (V0 : Valuation τ sig (Elt F)) : T11 V0 = after c10 (T10 V0) := rfl
theorem T12_eq (V0 : Valuation τ sig (Elt F)) : T12 V0 = after c11 (T11 V0) := rfl
theorem T13_eq (V0 : Valuation τ sig (Elt F)) : T13 V0 = after c12 (T12 V0) := rfl
theorem T14_eq (V0 : Valuation τ sig (Elt F)) : T14 V0 = after c13 (T13 V0) := rfl
theorem T15_eq (V0 : Valuation τ sig (Elt F)) : T15 V0 = after c14 (T14 V0) := rfl

/-- The whole line run from the launch contents is the last of these. -/
theorem after_ops (V0 : Valuation τ sig (Elt F)) : after (ops (F := F)) V0 = T15 V0 := by
  rw [ops_eq]
  simp only [StableHlo.after_append]
  rfl

/-! ## A stretch leaves alone what it does not write -/

theorem keepT1 (V0 : Valuation τ sig (Elt F)) {r : Ref sig .tc} (h : r ∉ wl0) : T1 V0 (Proc.devRef .tc r) = T0 V0 (Proc.devRef .tc r) := keep0 (T0 V0) h
theorem keepT2 (V0 : Valuation τ sig (Elt F)) {r : Ref sig .tc} (h : r ∉ wl1) : T2 V0 (Proc.devRef .tc r) = T1 V0 (Proc.devRef .tc r) := keep1 (T1 V0) h
theorem keepT3 (V0 : Valuation τ sig (Elt F)) {r : Ref sig .tc} (h : r ∉ wl2) : T3 V0 (Proc.devRef .tc r) = T2 V0 (Proc.devRef .tc r) := keep2 (T2 V0) h
theorem keepT4 (V0 : Valuation τ sig (Elt F)) {r : Ref sig .tc} (h : r ∉ wl3) : T4 V0 (Proc.devRef .tc r) = T3 V0 (Proc.devRef .tc r) := keep3 (T3 V0) h
theorem keepT5 (V0 : Valuation τ sig (Elt F)) {r : Ref sig .tc} (h : r ∉ wl4) : T5 V0 (Proc.devRef .tc r) = T4 V0 (Proc.devRef .tc r) := keep4 (T4 V0) h
theorem keepT6 (V0 : Valuation τ sig (Elt F)) {r : Ref sig .tc} (h : r ∉ wl5) : T6 V0 (Proc.devRef .tc r) = T5 V0 (Proc.devRef .tc r) := keep5 (T5 V0) h
theorem keepT7 (V0 : Valuation τ sig (Elt F)) {r : Ref sig .tc} (h : r ∉ wl6) : T7 V0 (Proc.devRef .tc r) = T6 V0 (Proc.devRef .tc r) := keep6 (T6 V0) h
theorem keepT8 (V0 : Valuation τ sig (Elt F)) {r : Ref sig .tc} (h : r ∉ wl7) : T8 V0 (Proc.devRef .tc r) = T7 V0 (Proc.devRef .tc r) := keep7 (T7 V0) h
theorem keepT9 (V0 : Valuation τ sig (Elt F)) {r : Ref sig .tc} (h : r ∉ wl8) : T9 V0 (Proc.devRef .tc r) = T8 V0 (Proc.devRef .tc r) := keep8 (T8 V0) h
theorem keepT10 (V0 : Valuation τ sig (Elt F)) {r : Ref sig .tc} (h : r ∉ wl9) : T10 V0 (Proc.devRef .tc r) = T9 V0 (Proc.devRef .tc r) := keep9 (T9 V0) h
theorem keepT11 (V0 : Valuation τ sig (Elt F)) {r : Ref sig .tc} (h : r ∉ wl10) : T11 V0 (Proc.devRef .tc r) = T10 V0 (Proc.devRef .tc r) := keep10 (T10 V0) h
theorem keepT12 (V0 : Valuation τ sig (Elt F)) {r : Ref sig .tc} (h : r ∉ wl11) : T12 V0 (Proc.devRef .tc r) = T11 V0 (Proc.devRef .tc r) := keep11 (T11 V0) h
theorem keepT13 (V0 : Valuation τ sig (Elt F)) {r : Ref sig .tc} (h : r ∉ wl12) : T13 V0 (Proc.devRef .tc r) = T12 V0 (Proc.devRef .tc r) := keep12 (T12 V0) h
theorem keepT14 (V0 : Valuation τ sig (Elt F)) {r : Ref sig .tc} (h : r ∉ wl13) : T14 V0 (Proc.devRef .tc r) = T13 V0 (Proc.devRef .tc r) := keep13 (T13 V0) h
theorem keepT15 (V0 : Valuation τ sig (Elt F)) {r : Ref sig .tc} (h : r ∉ wl14) : T15 V0 (Proc.devRef .tc r) = T14 V0 (Proc.devRef .tc r) := keep14 (T14 V0) h

attribute [local irreducible] T0 T1 T2 T3 T4 T5 T6 T7 T8 T9 T10 T11 T12 T13 T14 T15

/-! ## Each named buffer holds its term once its stretch has run -/

theorem named_v1 (V0 : Valuation τ sig (Elt F)) : T1 V0 (Proc.devRef .tc main_v1) = res_main_v1 V0 := by
  rw [T1_eq, stage_v1]
  repeat (first
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v6 (V0 : Valuation τ sig (Elt F)) : T2 V0 (Proc.devRef .tc main_v6) = res_main_v6 V0 := by
  rw [T2_eq, stage_v6]
  repeat (first
    | rw [named_v1]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v7 (V0 : Valuation τ sig (Elt F)) : T3 V0 (Proc.devRef .tc main_v7) = res_main_v7 V0 := by
  rw [T3_eq, stage_v7]
  repeat (first
    | rw [named_v1]
    | rw [named_v6]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v30 (V0 : Valuation τ sig (Elt F)) : T4 V0 (Proc.devRef .tc main_v30) = res_main_v30 V0 := by
  rw [T4_eq, stage_v30]
  repeat (first
    | rw [named_v1]
    | rw [named_v6]
    | rw [named_v7]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v34 (V0 : Valuation τ sig (Elt F)) : T5 V0 (Proc.devRef .tc main_v34) = res_main_v34 V0 := by
  rw [T5_eq, stage_v34]
  repeat (first
    | rw [named_v1]
    | rw [named_v6]
    | rw [named_v7]
    | rw [named_v30]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v40 (V0 : Valuation τ sig (Elt F)) : T5 V0 (Proc.devRef .tc main_v40) = res_main_v40 V0 := by
  rw [T5_eq, stage_v40]
  repeat (first
    | rw [named_v1]
    | rw [named_v6]
    | rw [named_v7]
    | rw [named_v30]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v41 (V0 : Valuation τ sig (Elt F)) : T6 V0 (Proc.devRef .tc main_v41) = res_main_v41 V0 := by
  rw [T6_eq, stage_v41]
  repeat (first
    | rw [named_v1]
    | rw [named_v6]
    | rw [named_v7]
    | rw [named_v30]
    | rw [named_v34]
    | rw [named_v40]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v63 (V0 : Valuation τ sig (Elt F)) : T7 V0 (Proc.devRef .tc main_v63) = res_main_v63 V0 := by
  rw [T7_eq, stage_v63]
  repeat (first
    | rw [named_v1]
    | rw [named_v6]
    | rw [named_v7]
    | rw [named_v30]
    | rw [named_v34]
    | rw [named_v40]
    | rw [named_v41]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v65 (V0 : Valuation τ sig (Elt F)) : T8 V0 (Proc.devRef .tc main_v65) = res_main_v65 V0 := by
  rw [T8_eq, stage_v65]
  repeat (first
    | rw [named_v1]
    | rw [named_v6]
    | rw [named_v7]
    | rw [named_v30]
    | rw [named_v34]
    | rw [named_v40]
    | rw [named_v41]
    | rw [named_v63]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v70 (V0 : Valuation τ sig (Elt F)) : T9 V0 (Proc.devRef .tc main_v70) = res_main_v70 V0 := by
  rw [T9_eq, stage_v70]
  repeat (first
    | rw [named_v1]
    | rw [named_v6]
    | rw [named_v7]
    | rw [named_v30]
    | rw [named_v34]
    | rw [named_v40]
    | rw [named_v41]
    | rw [named_v63]
    | rw [named_v65]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v71 (V0 : Valuation τ sig (Elt F)) : T10 V0 (Proc.devRef .tc main_v71) = res_main_v71 V0 := by
  rw [T10_eq, stage_v71]
  repeat (first
    | rw [named_v1]
    | rw [named_v6]
    | rw [named_v7]
    | rw [named_v30]
    | rw [named_v34]
    | rw [named_v40]
    | rw [named_v41]
    | rw [named_v63]
    | rw [named_v65]
    | rw [named_v70]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v94 (V0 : Valuation τ sig (Elt F)) : T11 V0 (Proc.devRef .tc main_v94) = res_main_v94 V0 := by
  rw [T11_eq, stage_v94]
  repeat (first
    | rw [named_v1]
    | rw [named_v6]
    | rw [named_v7]
    | rw [named_v30]
    | rw [named_v34]
    | rw [named_v40]
    | rw [named_v41]
    | rw [named_v63]
    | rw [named_v65]
    | rw [named_v70]
    | rw [named_v71]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v98 (V0 : Valuation τ sig (Elt F)) : T12 V0 (Proc.devRef .tc main_v98) = res_main_v98 V0 := by
  rw [T12_eq, stage_v98]
  repeat (first
    | rw [named_v1]
    | rw [named_v6]
    | rw [named_v7]
    | rw [named_v30]
    | rw [named_v34]
    | rw [named_v40]
    | rw [named_v41]
    | rw [named_v63]
    | rw [named_v65]
    | rw [named_v70]
    | rw [named_v71]
    | rw [named_v94]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v104 (V0 : Valuation τ sig (Elt F)) : T12 V0 (Proc.devRef .tc main_v104) = res_main_v104 V0 := by
  rw [T12_eq, stage_v104]
  repeat (first
    | rw [named_v1]
    | rw [named_v6]
    | rw [named_v7]
    | rw [named_v30]
    | rw [named_v34]
    | rw [named_v40]
    | rw [named_v41]
    | rw [named_v63]
    | rw [named_v65]
    | rw [named_v70]
    | rw [named_v71]
    | rw [named_v94]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v105 (V0 : Valuation τ sig (Elt F)) : T13 V0 (Proc.devRef .tc main_v105) = res_main_v105 V0 := by
  rw [T13_eq, stage_v105]
  repeat (first
    | rw [named_v1]
    | rw [named_v6]
    | rw [named_v7]
    | rw [named_v30]
    | rw [named_v34]
    | rw [named_v40]
    | rw [named_v41]
    | rw [named_v63]
    | rw [named_v65]
    | rw [named_v70]
    | rw [named_v71]
    | rw [named_v94]
    | rw [named_v98]
    | rw [named_v104]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl
theorem named_v127 (V0 : Valuation τ sig (Elt F)) : T14 V0 (Proc.devRef .tc main_v127) = res_main_v127 V0 := by
  rw [T14_eq, stage_v127]
  repeat (first
    | rw [named_v1]
    | rw [named_v6]
    | rw [named_v7]
    | rw [named_v30]
    | rw [named_v34]
    | rw [named_v40]
    | rw [named_v41]
    | rw [named_v63]
    | rw [named_v65]
    | rw [named_v70]
    | rw [named_v71]
    | rw [named_v94]
    | rw [named_v98]
    | rw [named_v104]
    | rw [named_v105]
    | rw [T0_eq]
    | (rw [keepT1]; rotate_left; decide)
    | (rw [keepT2]; rotate_left; decide)
    | (rw [keepT3]; rotate_left; decide)
    | (rw [keepT4]; rotate_left; decide)
    | (rw [keepT5]; rotate_left; decide)
    | (rw [keepT6]; rotate_left; decide)
    | (rw [keepT7]; rotate_left; decide)
    | (rw [keepT8]; rotate_left; decide)
    | (rw [keepT9]; rotate_left; decide)
    | (rw [keepT10]; rotate_left; decide)
    | (rw [keepT11]; rotate_left; decide)
    | (rw [keepT12]; rotate_left; decide)
    | (rw [keepT13]; rotate_left; decide)
    | (rw [keepT14]; rotate_left; decide)
    | (rw [keepT15]; rotate_left; decide))
  rfl

/-! ## The run -/

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = shapeCast _ (addf (Host.dotGeneral dot_S16384x64_S64x1_S16384x1_1_0_0_1_n_n none (shapeCast _ (res_main_v127 (launchContents m c)) shapeCasts_S32x32768_S16384x64) ((launchContents m c) (Proc.devRef .tc main_arg11))) (broadcastInDim S16384x1 ![0, 1] bcast_S1x1_S16384x1_0_1 (broadcastInDim S1x1 ![1] bcast_S1_S1x1_1 ((launchContents m c) (Proc.devRef .tc main_arg12))))) shapeCasts_S16384x1_S32x512
      ∧ r.2.mem ((c.tc : Thread nD τ).loc main_v136) = concatenate S2x32x32768 0 [⟨S1x32x32768, (broadcastInDim S1x32x32768 ![1, 2] bcast_S32x32768_S1x32x32768_1_2 (res_main_v63 (launchContents m c)))⟩, ⟨S1x32x32768, (broadcastInDim S1x32x32768 ![1, 2] bcast_S32x32768_S1x32x32768_1_2 (res_main_v127 (launchContents m c)))⟩] concatenates_S1x32x32768_S1x32x32768_S2x32x32768_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v133).trans (by
        rw [after_ops, T15_eq, stage_v133]
        repeat (first
          | rw [named_v1]
          | rw [named_v6]
          | rw [named_v7]
          | rw [named_v30]
          | rw [named_v34]
          | rw [named_v40]
          | rw [named_v41]
          | rw [named_v63]
          | rw [named_v65]
          | rw [named_v70]
          | rw [named_v71]
          | rw [named_v94]
          | rw [named_v98]
          | rw [named_v104]
          | rw [named_v105]
          | rw [named_v127]
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_v136).trans (by
        rw [after_ops, T15_eq, stage_v136]
        repeat (first
          | rw [named_v1]
          | rw [named_v6]
          | rw [named_v7]
          | rw [named_v30]
          | rw [named_v34]
          | rw [named_v40]
          | rw [named_v41]
          | rw [named_v63]
          | rw [named_v65]
          | rw [named_v70]
          | rw [named_v71]
          | rw [named_v94]
          | rw [named_v98]
          | rw [named_v104]
          | rw [named_v105]
          | rw [named_v127]
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg0).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg1).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg2).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg3).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg4).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg5).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg6).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg7).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg8).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg9).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg10).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg11).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide))),
      (h c main_arg12).trans (by
        rw [after_ops]
        repeat (first
          | rw [T0_eq]
          | (rw [keepT1]; rotate_left; decide)
          | (rw [keepT2]; rotate_left; decide)
          | (rw [keepT3]; rotate_left; decide)
          | (rw [keepT4]; rotate_left; decide)
          | (rw [keepT5]; rotate_left; decide)
          | (rw [keepT6]; rotate_left; decide)
          | (rw [keepT7]; rotate_left; decide)
          | (rw [keepT8]; rotate_left; decide)
          | (rw [keepT9]; rotate_left; decide)
          | (rw [keepT10]; rotate_left; decide)
          | (rw [keepT11]; rotate_left; decide)
          | (rw [keepT12]; rotate_left; decide)
          | (rw [keepT13]; rotate_left; decide)
          | (rw [keepT14]; rotate_left; decide)
          | (rw [keepT15]; rotate_left; decide)))⟩)
    (run_seq scopedRefs_eq scopedSems_eq defs main (fun _ => ops) main_eq (fun _ => ops_sub) m ρ)

end Cert.ReferenceIdeal.ValueP

end
-- ==== Proof.RArgs.lean ====
/-
  The reference's thirteen argument arrays, as the specification's argument record at the full batch of 32.
-/
import proofs.«108032_g44504451121623_cont_8to1_c_180_30_alg».proof.Proof.Gen.ReferenceIdeal
import proofs.«108032_g44504451121623_cont_8to1_c_180_30_alg».proof.Proof.Spec
import Idealize.ShloMosaic.Lib.StableHlo.Run

noncomputable section

namespace Cert.ReferenceIdeal.ValR

open Idealize.ShloMosaic Idealize.ShloMosaic.StableHlo Cert.ReferenceIdeal Cert.Spec

/-- The argument arrays read off a valuation of the reference's buffers. -/
def argsOf (V0 : Valuation τ sig (Elt Ideal)) : Args 32 where
  inp := V0 (Proc.devRef .tc main_arg0)
  adj := V0 (Proc.devRef .tc main_arg1)
  hid := V0 (Proc.devRef .tc main_arg2)
  Wg0 := V0 (Proc.devRef .tc main_arg3)
  bg0 := V0 (Proc.devRef .tc main_arg4)
  Wc0 := V0 (Proc.devRef .tc main_arg5)
  bc0 := V0 (Proc.devRef .tc main_arg6)
  Wg1 := V0 (Proc.devRef .tc main_arg7)
  bg1 := V0 (Proc.devRef .tc main_arg8)
  Wc1 := V0 (Proc.devRef .tc main_arg9)
  bc1 := V0 (Proc.devRef .tc main_arg10)
  Wp := V0 (Proc.devRef .tc main_arg11)
  bp := V0 (Proc.devRef .tc main_arg12)

end Cert.ReferenceIdeal.ValR

end
-- ==== Proof.RVal1.lean ====
/-
  The reference's first layer, read at an index.

  The reference holds the features of all batch elements as one table of 512 rows (the nodes) and 65 * 32 columns
  (column `32 * feature + batch element`; feature 0 is the input, feature `1 + u` the state's unit `u`), multiplies it
  by the adjacency once and twice for the diffusion taps, stacks the three taps, and re-lays the stack out as rows
  `512 * batch element + node` of 195 columns `3 * feature + tap`, which it contracts with the weights. This module
  reads each of these arrays at an index as the specification's quantity: the table as `feat0`, its products as the
  taps, the gate's activation as `g0`, and the new state as `h0n`.
-/
import proofs.«108032_g44504451121623_cont_8to1_c_180_30_alg».proof.Proof.RefRun
import proofs.«108032_g44504451121623_cont_8to1_c_180_30_alg».proof.Proof.RArgs
import proofs.«108032_g44504451121623_cont_8to1_c_180_30_alg».proof.Proof.Spec
import proofs.«108032_g44504451121623_cont_8to1_c_180_30_alg».proof.Proof.Forms
import Idealize.ShloMosaic.Lib.ValueIdx
import Idealize.ShloMosaic.Lib.Pipeline.Value
import Idealize.ShloMosaic.Lib.StackMember
import Idealize.ShloMosaic.Lib.IdealHost
import Idealize.ShloMosaic.PureOps.Ideal.Laws

noncomputable section

open scoped BigOperators

namespace Cert.ReferenceIdeal.ValR

open Idealize.ShloMosaic Idealize.ShloMosaic.ValueIdx Idealize.ShloMosaic.StableHlo Cert.ReferenceIdeal Cert.ReferenceIdeal.Gen
  Cert.ReferenceIdeal.ValueP Cert.Spec Cert.Forms

/-! ## The matrix products -/

/-- A product of an m×k by a k×n matrix whose dimension numbers are the plain ones, read at an index: the sum over
    the contracted coordinate. -/
theorem dot_plain_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

theorem dotA_eq : dot_S512x512_S512x2080_S512x2080_1_0_0_1_n_n = DotDims.plain 512 512 2080 := rfl
theorem dotG_eq : dot_S16384x195_S195x128_S16384x128_1_0_0_1_n_n = DotDims.plain 16384 195 128 := rfl
theorem dotC_eq : dot_S16384x195_S195x64_S16384x64_1_0_0_1_n_n = DotDims.plain 16384 195 64 := rfl

/-! ## Layout operations at an index -/

/-- The feature table: column `32 * feature + batch element` of the transposed concatenation of the input (one
    feature) and the 64 state units. -/
theorem featTable_apply (X : S32x512x1.Idx → EReal) (Y : S32x512x64.Idx → EReal) (n : Fin 512) (f : Fin 65) (b : Fin 32) :
    shapeCast S512x2080 (transpose S512x65x32 [1, 2, 0] (concatenate S32x512x65 2 [⟨S32x512x1, X⟩, ⟨S32x512x64, Y⟩]
        concatenates_S32x512x1_S32x512x64_S32x512x65_d2) transposes_S32x512x65_S512x65x32_1_2_0)
        shapeCasts_S512x65x32_S512x2080 (ix2 n ⟨f.val * 32 + b.val, by omega⟩)
      = if h : f.val = 0 then X (ix3 b n 0) else Y (ix3 b n ⟨f.val - 1, by omega⟩) := by
  have hn : n.val < 512 := n.isLt
  have hf : f.val < 65 := f.isLt
  have hb : b.val < 32 := b.isLt
  -- the cast to [512, 2080] reads [512, 65, 32] at (n, f, b)
  refine (shapeCast_apply _ _ _ (ix3 n f b)
    (by rw [Shape.rowMajor_val_two, Shape.rowMajor_val_three]
        show (n.val * 65 + f.val) * 32 + b.val = n.val * 2080 + (f.val * 32 + b.val)
        omega)).trans ?_
  -- the transpose reads [32, 512, 65] at (b, n, f)
  refine (transpose_apply _ _ _ _ (ix3 b n f)
    (fun a => match a with | ⟨0, _⟩ => rfl | ⟨1, _⟩ => rfl | ⟨2, _⟩ => rfl)).trans ?_
  by_cases h : f.val = 0
  · rw [dif_pos h]
    exact concatenate_pair_apply_left 2 X Y _ (ix3 b n f) rfl (ix3 b n 0)
      (fun a => match a with | ⟨0, _⟩ => rfl | ⟨1, _⟩ => rfl | ⟨2, _⟩ => by show 0 = f.val; omega)
  · rw [dif_neg h]
    exact concatenate_pair_apply_right 2 X Y _ (ix3 b n f) rfl rfl (ix3 b n ⟨f.val - 1, by omega⟩)
      (fun a => match a with | ⟨0, _⟩ => fun _ => rfl | ⟨1, _⟩ => fun _ => rfl | ⟨2, _⟩ => fun hne => absurd rfl hne)
      (by show f.val - 1 + 1 = f.val; omega)

/-- A [512, 2080] array under a new leading unit axis, read at `(0, n, c)`. -/
theorem bcast_lead_apply (T : S512x2080.Idx → EReal) (n : Fin 512) (c : Fin 2080) :
    broadcastInDim S1x512x2080 ![1, 2] bcast_S512x2080_S1x512x2080_1_2 T (ix3 0 n c) = T (ix2 n c) :=
  broadcastInDim_apply _ _ T _ (ix2 n c) (fun a => match a with | ⟨0, _⟩ => rfl | ⟨1, _⟩ => rfl)

/-- The stack of the three tap arrays, read at `(t, n, c)`: tap array `t` at `(n, c)`. -/
theorem stack3_apply (T0 T1 T2 : S512x2080.Idx → EReal) (t : Fin 3) (n : Fin 512) (c : Fin 2080) :
    concatenate S3x512x2080 0
        [⟨S1x512x2080, broadcastInDim S1x512x2080 ![1, 2] bcast_S512x2080_S1x512x2080_1_2 T0⟩,
         ⟨S1x512x2080, broadcastInDim S1x512x2080 ![1, 2] bcast_S512x2080_S1x512x2080_1_2 T1⟩,
         ⟨S1x512x2080, broadcastInDim S1x512x2080 ![1, 2] bcast_S512x2080_S1x512x2080_1_2 T2⟩]
        concatenates_S1x512x2080_S1x512x2080_S1x512x2080_S3x512x2080_d0 (ix3 t n c)
      = (if t.val = 0 then T0 else if t.val = 1 then T1 else T2) (ix2 n c) := by
  obtain ⟨t, ht⟩ := t
  match t, ht with
  | 0, _ =>
    refine (concatenate_apply_piece 0 _ _ (ix3 (⟨0, by omega⟩ : Fin 3) n c) 0 (by show 0 < 3; omega) S1x512x2080 _ rfl rfl 0 rfl (ix3 0 n c)
      (fun a => match a with | ⟨0, _⟩ => fun hne => absurd rfl hne | ⟨1, _⟩ => fun _ => rfl | ⟨2, _⟩ => fun _ => rfl) rfl).trans ?_
    exact bcast_lead_apply T0 n c
  | 1, _ =>
    refine (concatenate_apply_piece 0 _ _ (ix3 (⟨1, by omega⟩ : Fin 3) n c) 1 (by show 1 < 3; omega) S1x512x2080 _ rfl rfl 1 rfl (ix3 0 n c)
      (fun a => match a with | ⟨0, _⟩ => fun hne => absurd rfl hne | ⟨1, _⟩ => fun _ => rfl | ⟨2, _⟩ => fun _ => rfl) rfl).trans ?_
    exact bcast_lead_apply T1 n c
  | 2, _ =>
    refine (concatenate_apply_piece 0 _ _ (ix3 (⟨2, by omega⟩ : Fin 3) n c) 2 (by show 2 < 3; omega) S1x512x2080 _ rfl rfl 2 rfl (ix3 0 n c)
      (fun a => match a with | ⟨0, _⟩ => fun hne => absurd rfl hne | ⟨1, _⟩ => fun _ => rfl | ⟨2, _⟩ => fun _ => rfl) rfl).trans ?_
    exact bcast_lead_apply T2 n c

/-- The rows table: row `512 * b + n`, column `j` reads tap array `j % 3` at `(n, 32 * (j / 3) + b)`. -/
theorem rtable_pick (T0 T1 T2 : S512x2080.Idx → EReal) (b : Fin 32) (n : Fin 512) (j : Fin 195) :
    shapeCast S16384x195 (transpose S32x512x65x3 [3, 1, 2, 0] (shapeCast S3x512x65x32 (concatenate S3x512x2080 0
        [⟨S1x512x2080, broadcastInDim S1x512x2080 ![1, 2] bcast_S512x2080_S1x512x2080_1_2 T0⟩,
         ⟨S1x512x2080, broadcastInDim S1x512x2080 ![1, 2] bcast_S512x2080_S1x512x2080_1_2 T1⟩,
         ⟨S1x512x2080, broadcastInDim S1x512x2080 ![1, 2] bcast_S512x2080_S1x512x2080_1_2 T2⟩]
        concatenates_S1x512x2080_S1x512x2080_S1x512x2080_S3x512x2080_d0) shapeCasts_S3x512x2080_S3x512x65x32)
        transposes_S3x512x65x32_S32x512x65x3_3_1_2_0) shapeCasts_S32x512x65x3_S16384x195
        (ix2 (⟨b.val * 512 + n.val, by omega⟩ : Fin 16384) j)
      = (if j.val % 3 = 0 then T0 else if j.val % 3 = 1 then T1 else T2) (ix2 n ⟨j.val / 3 * 32 + b.val, by omega⟩) := by
  have hb : b.val < 32 := b.isLt
  have hn : n.val < 512 := n.isLt
  have hj : j.val < 195 := j.isLt
  -- [16384, 195] at (512 b + n, j) reads [32, 512, 65, 3] at (b, n, j / 3, j % 3)
  refine (shapeCast_apply _ _ _ (ix4 b n (⟨j.val / 3, by omega⟩ : Fin 65) (⟨j.val % 3, by omega⟩ : Fin 3))
    (by rw [Shape.rowMajor_val_four, Shape.rowMajor_val_two]
        show ((b.val * 512 + n.val) * 65 + j.val / 3) * 3 + j.val % 3 = (b.val * 512 + n.val) * 195 + j.val
        omega)).trans ?_
  -- the transpose reads [3, 512, 65, 32] at (j % 3, n, j / 3, b)
  refine (transpose_apply _ _ _ _ (ix4 (⟨j.val % 3, by omega⟩ : Fin 3) n (⟨j.val / 3, by omega⟩ : Fin 65) b)
    (fun a => match a with | ⟨0, _⟩ => rfl | ⟨1, _⟩ => rfl | ⟨2, _⟩ => rfl | ⟨3, _⟩ => rfl)).trans ?_
  -- the cast from [3, 512, 2080] reads at (j % 3, n, 32 (j / 3) + b)
  refine (shapeCast_apply _ _ _ (ix3 (⟨j.val % 3, by omega⟩ : Fin 3) n (⟨j.val / 3 * 32 + b.val, by omega⟩ : Fin 2080))
    (by rw [Shape.rowMajor_val_three, Shape.rowMajor_val_four]
        show (j.val % 3 * 512 + n.val) * 2080 + (j.val / 3 * 32 + b.val)
          = ((j.val % 3 * 512 + n.val) * 65 + j.val / 3) * 32 + b.val
        omega)).trans ?_
  exact stack3_apply T0 T1 T2 _ n _

/-- The second Chebyshev tap array, read at an index. -/
theorem cheb2_apply (A : FVec Ideal S512x512 .f32) (T0 T1 : FVec Ideal S512x2080 .f32) (n : Fin 512) (c : Fin 2080) :
    subf (mulf (broadcastInDim S512x2080 ![] bcast_S_S512x2080 (constant (F := Ideal) S_ .f32 0x40000000#32))
        (Host.dotGeneral dot_S512x512_S512x2080_S512x2080_1_0_0_1_n_n none A T1)) T0 (ix2 n c)
      = Ideal.ofBits .f32 0x40000000#32 * (∑ k : Fin 512, A (ix2 n k) * T1 (ix2 k c)) - T0 (ix2 n c) := by
  rw [subf_apply, mulf_apply, dot_plain_apply _ dotA_eq]
  rfl

/-- The 128-column bias under every row. -/
theorem bias128_apply (bias : S128.Idx → EReal) (r : Fin 16384) (o : Fin 128) :
    broadcastInDim S16384x128 ![0, 1] bcast_S1x128_S16384x128_0_1 (broadcastInDim S1x128 ![1] bcast_S128_S1x128_1 bias) (ix2 r o)
      = bias (ix1 o) := by
  refine (broadcastInDim_apply _ _ _ _ (ix2 0 o) (fun a => match a with | ⟨0, _⟩ => rfl | ⟨1, _⟩ => rfl)).trans ?_
  exact broadcastInDim_apply _ _ _ _ (ix1 o) (fun a => match a with | ⟨0, _⟩ => rfl)

/-- The 64-column bias under every row. -/
theorem bias64_apply (bias : S64.Idx → EReal) (r : Fin 16384) (o : Fin 64) :
    broadcastInDim S16384x64 ![0, 1] bcast_S1x64_S16384x64_0_1 (broadcastInDim S1x64 ![1] bcast_S64_S1x64_1 bias) (ix2 r o)
      = bias (ix1 o) := by
  refine (broadcastInDim_apply _ _ _ _ (ix2 0 o) (fun a => match a with | ⟨0, _⟩ => rfl | ⟨1, _⟩ => rfl)).trans ?_
  exact broadcastInDim_apply _ _ _ _ (ix1 o) (fun a => match a with | ⟨0, _⟩ => rfl)

/-- Rows against the 128-column weights, plus bias, at `(r, o)`. -/
theorem conv128_apply (R : FVec Ideal S16384x195 .f32) (W : FVec Ideal S195x128 .f32) (bias : FVec Ideal S128 .f32)
    (r : Fin 16384) (o : Fin 128) :
    addf (Host.dotGeneral dot_S16384x195_S195x128_S16384x128_1_0_0_1_n_n none R W)
        (broadcastInDim S16384x128 ![0, 1] bcast_S1x128_S16384x128_0_1 (broadcastInDim S1x128 ![1] bcast_S128_S1x128_1 bias)) (ix2 r o)
      = (∑ j : Fin 195, R (ix2 r j) * W (ix2 j o)) + bias (ix1 o) := by
  rw [addf_apply, dot_plain_apply _ dotG_eq, bias128_apply]

/-- Rows against the 64-column weights, plus bias, at `(r, o)`. -/
theorem conv64_apply (R : FVec Ideal S16384x195 .f32) (W : FVec Ideal S195x64 .f32) (bias : FVec Ideal S64 .f32)
    (r : Fin 16384) (o : Fin 64) :
    addf (Host.dotGeneral dot_S16384x195_S195x64_S16384x64_1_0_0_1_n_n none R W)
        (broadcastInDim S16384x64 ![0, 1] bcast_S1x64_S16384x64_0_1 (broadcastInDim S1x64 ![1] bcast_S64_S1x64_1 bias)) (ix2 r o)
      = (∑ j : Fin 195, R (ix2 r j) * W (ix2 j o)) + bias (ix1 o) := by
  rw [addf_apply, dot_plain_apply _ dotC_eq, bias64_apply]

/-- The gate's activation, spelt `1 / (1 + exp (-y))`, of rows laid out batch-major: at `(b, n, o)` the logistic
    function of the row `512 * b + n`'s entry `o`. -/
theorem gate_apply (Y : FVec Ideal S16384x128 .f32) (b : Fin 32) (n : Fin 512) (o : Fin 128) :
    shapeCast S32x512x128 (Host.divf (broadcastInDim S32x65536 ![] bcast_S_S32x65536 (constant (F := Ideal) S_ .f32 0x3F800000#32))
        (addf (broadcastInDim S32x65536 ![] bcast_S_S32x65536 (constant (F := Ideal) S_ .f32 0x3F800000#32))
          (Host.exp (Host.negf (shapeCast S32x65536 Y shapeCasts_S16384x128_S32x65536)))))
        shapeCasts_S32x65536_S32x512x128 (ix3 b n o)
      = Ideal.logistic (Y (ix2 (⟨b.val * 512 + n.val, by omega⟩ : Fin 16384) o)) := by
  have hb : b.val < 32 := b.isLt
  have hn : n.val < 512 := n.isLt
  have ho : o.val < 128 := o.isLt
  refine (shapeCast_apply _ _ _ (ix2 b (⟨n.val * 128 + o.val, by omega⟩ : Fin 65536))
    (by rw [Shape.rowMajor_val_two, Shape.rowMajor_val_three]
        show b.val * 65536 + (n.val * 128 + o.val) = (b.val * 512 + n.val) * 128 + o.val
        omega)).trans ?_
  show Ideal.div (Ideal.ofBits .f32 0x3F800000#32) (Ideal.ofBits .f32 0x3F800000#32
      + Ideal.exp (-(shapeCast S32x65536 Y shapeCasts_S16384x128_S32x65536 (ix2 b (⟨n.val * 128 + o.val, by omega⟩ : Fin 65536))))) = _
  rw [shapeCast_apply Y shapeCasts_S16384x128_S32x65536 (ix2 b (⟨n.val * 128 + o.val, by omega⟩ : Fin 65536))
    (ix2 (⟨b.val * 512 + n.val, by omega⟩ : Fin 16384) o)
    (by rw [Shape.rowMajor_val_two, Shape.rowMajor_val_two]
        show (b.val * 512 + n.val) * 128 + o.val = b.val * 65536 + (n.val * 128 + o.val)
        omega), Ideal.ofBits_one_f32]
  rfl

/-- Rows of 64 columns laid out batch-major as `[32, 64 * n + u]`. -/
theorem rows64_flat_apply (Y : FVec Ideal S16384x64 .f32) (b : Fin 32) (n : Fin 512) (u : Fin 64) :
    shapeCast S32x32768 Y shapeCasts_S16384x64_S32x32768 (ix2 b (⟨n.val * 64 + u.val, by omega⟩ : Fin 32768))
      = Y (ix2 (⟨b.val * 512 + n.val, by omega⟩ : Fin 16384) u) := by
  have hb : b.val < 32 := b.isLt
  have hn : n.val < 512 := n.isLt
  have hu : u.val < 64 := u.isLt
  exact shapeCast_apply _ _ _ _
    (by rw [Shape.rowMajor_val_two, Shape.rowMajor_val_two]
        show (b.val * 512 + n.val) * 64 + u.val = b.val * 32768 + (n.val * 64 + u.val)
        omega)

/-- A [32, 512, 64] array flattened to `[32, 64 * n + u]`. -/
theorem flat64_apply (Y : S32x512x64.Idx → EReal) (b : Fin 32) (n : Fin 512) (u : Fin 64) :
    shapeCast S32x32768 Y shapeCasts_S32x512x64_S32x32768 (ix2 b (⟨n.val * 64 + u.val, by omega⟩ : Fin 32768)) = Y (ix3 b n u) := by
  have hb : b.val < 32 := b.isLt
  have hn : n.val < 512 := n.isLt
  have hu : u.val < 64 := u.isLt
  exact shapeCast_apply _ _ _ _
    (by rw [Shape.rowMajor_val_three, Shape.rowMajor_val_two]
        show (b.val * 512 + n.val) * 64 + u.val = b.val * 32768 + (n.val * 64 + u.val)
        omega)

/-- A `[32, 64 * n + u]` array as [32, 512, 64]. -/
theorem unflat64_apply (Y : S32x32768.Idx → EReal) (b : Fin 32) (n : Fin 512) (u : Fin 64) :
    shapeCast S32x512x64 Y shapeCasts_S32x32768_S32x512x64 (ix3 b n u) = Y (ix2 b (⟨n.val * 64 + u.val, by omega⟩ : Fin 32768)) := by
  have hb : b.val < 32 := b.isLt
  have hn : n.val < 512 := n.isLt
  have hu : u.val < 64 := u.isLt
  exact shapeCast_apply _ _ _ _
    (by rw [Shape.rowMajor_val_two, Shape.rowMajor_val_three]
        show b.val * 32768 + (n.val * 64 + u.val) = (b.val * 512 + n.val) * 64 + u.val
        omega)

/-- The reset half (columns 0 to 63) of a [32, 512, 128] array. -/
theorem sliceLo_apply (G : S32x512x128.Idx → EReal) (b : Fin 32) (n : Fin 512) (u : Fin 64) :
    extractStridedSlice S32x512x64 ![0, 0, 0] G slices_S32x512x128_S32x512x64_0_0_0 (ix3 b n u)
      = G (ix3 b n (⟨u.val, by omega⟩ : Fin 128)) :=
  extractStridedSlice_apply _ _ _ _ _ (fun a => match a with
    | ⟨0, _⟩ => by show b.val = 0 + b.val; omega
    | ⟨1, _⟩ => by show n.val = 0 + n.val; omega
    | ⟨2, _⟩ => by show u.val = 0 + u.val; omega)

/-- The update half (columns 64 to 127) of a [32, 512, 128] array. -/
theorem sliceHi_apply (G : S32x512x128.Idx → EReal) (b : Fin 32) (n : Fin 512) (u : Fin 64) :
    extractStridedSlice S32x512x64 ![0, 0, 64] G slices_S32x512x128_S32x512x64_0_0_64 (ix3 b n u)
      = G (ix3 b n (⟨64 + u.val, by omega⟩ : Fin 128)) :=
  extractStridedSlice_apply _ _ _ _ _ (fun a => match a with
    | ⟨0, _⟩ => by show b.val = 0 + b.val; omega
    | ⟨1, _⟩ => by show n.val = 0 + n.val; omega
    | ⟨2, _⟩ => by show 64 + u.val = 64 + u.val; omega)

/-- The input with a trailing unit axis. -/
theorem inp1_apply (X : S32x512.Idx → EReal) (b : Fin 32) (n : Fin 512) :
    shapeCast S32x512x1 X shapeCasts_S32x512_S32x512x1 (ix3 b n 0) = X (ix2 b n) :=
  shapeCast_apply _ _ _ _
    (by rw [Shape.rowMajor_val_two, Shape.rowMajor_val_three]
        show b.val * 512 + n.val = (b.val * 512 + n.val) * 1 + 0
        omega)

/-- The first layer's slice of the state array, flattened. -/
theorem hid0_apply (H : S2x32x32768.Idx → EReal) (b : Fin 32) (m : Fin 32768) :
    shapeCast S32x32768 (extractStridedSlice S1x32x32768 ![0, 0, 0] H slices_S2x32x32768_S1x32x32768_0_0_0)
        shapeCasts_S1x32x32768_S32x32768 (ix2 b m) = H (ix3 0 b m) := by
  refine (shapeCast_apply _ _ _ (ix3 0 b m)
    (by rw [Shape.rowMajor_val_three, Shape.rowMajor_val_two]
        show (0 * 32 + b.val) * 32768 + m.val = b.val * 32768 + m.val
        omega)).trans ?_
  exact extractStridedSlice_apply _ _ _ _ _ (fun a => match a with
    | ⟨0, _⟩ => by show 0 = 0 + 0; omega
    | ⟨1, _⟩ => by show b.val = 0 + b.val; omega
    | ⟨2, _⟩ => by show m.val = 0 + m.val; omega)

/-! ## The arrays as the specification's quantities -/

/-- The feature table of the input and a state `st`. -/
theorem feat_apply (a : Args 32) (X : S32x512x1.Idx → EReal) (Y : S32x512x64.Idx → EReal) (st : Fin 32 → Fin 512 → ℕ → EReal)
    (hX : ∀ (b : Fin 32) (n : Fin 512), X (ix3 b n 0) = a.inp (ix2 b n))
    (hY : ∀ (b : Fin 32) (n : Fin 512) (u : Fin 64), Y (ix3 b n u) = st b n u.val)
    (n : Fin 512) (f : Fin 65) (b : Fin 32) :
    shapeCast S512x2080 (transpose S512x65x32 [1, 2, 0] (concatenate S32x512x65 2 [⟨S32x512x1, X⟩, ⟨S32x512x64, Y⟩]
        concatenates_S32x512x1_S32x512x64_S32x512x65_d2) transposes_S32x512x65_S512x65x32_1_2_0)
        shapeCasts_S512x65x32_S512x2080 (ix2 n ⟨f.val * 32 + b.val, by omega⟩)
      = feat0 a st b f.val n := by
  refine (featTable_apply X Y n f b).trans ?_
  unfold feat0
  by_cases h : f.val = 0
  · rw [dif_pos h, if_pos h]; exact hX b n
  · rw [dif_neg h, if_neg h]; exact hY b n ⟨f.val - 1, by omega⟩

/-- One diffusion step of a table whose column `c` is the node signal `z`. -/
theorem d1_apply (adj : FVec Ideal S512x512 .f32) (T0 : FVec Ideal S512x2080 .f32) (z : Fin 512 → EReal) (c : Fin 2080)
    (h0 : ∀ n : Fin 512, T0 (ix2 n c) = z n) (n : Fin 512) :
    Host.dotGeneral dot_S512x512_S512x2080_S512x2080_1_0_0_1_n_n none adj T0 (ix2 n c) = d1 adj z n := by
  refine (dot_plain_apply _ dotA_eq adj T0 n c).trans ?_
  unfold d1
  exact Finset.sum_congr rfl fun k _ => congrArg (adj (ix2 n k) * ·) (h0 k)

/-- The second Chebyshev term of a table whose column `c` is the node signal `z`. -/
theorem d2_apply (adj : FVec Ideal S512x512 .f32) (T0 T1 : FVec Ideal S512x2080 .f32) (z : Fin 512 → EReal) (c : Fin 2080)
    (h0 : ∀ n : Fin 512, T0 (ix2 n c) = z n) (h1 : ∀ n : Fin 512, T1 (ix2 n c) = d1 adj z n) (n : Fin 512) :
    subf (mulf (broadcastInDim S512x2080 ![] bcast_S_S512x2080 (constant (F := Ideal) S_ .f32 0x40000000#32))
        (Host.dotGeneral dot_S512x512_S512x2080_S512x2080_1_0_0_1_n_n none adj T1)) T0 (ix2 n c) = d2 adj z n := by
  refine (cheb2_apply adj T0 T1 n c).trans ?_
  unfold d2
  rw [h0 n]
  refine congrArg (fun s => two * s - z n) ?_
  exact Finset.sum_congr rfl fun k _ => congrArg (adj (ix2 n k) * ·) (h1 k)

/-- The rows table: row `512 * b + n`, column `j` is tap `j % 3` of feature `j / 3` of batch element `b` at node `n`,
    given what the three tap arrays are at `(n, 32 * f + b)`. -/
theorem rtable0_apply (adj : (⟨2, ![512, 512]⟩ : Shape).Idx → EReal) (feat : Fin 32 → ℕ → Fin 512 → EReal)
    (T0 T1 T2 : S512x2080.Idx → EReal)
    (h0 : ∀ (n : Fin 512) (f : Fin 65) (b : Fin 32), T0 (ix2 n ⟨f.val * 32 + b.val, by omega⟩) = feat b f.val n)
    (h1 : ∀ (n : Fin 512) (f : Fin 65) (b : Fin 32), T1 (ix2 n ⟨f.val * 32 + b.val, by omega⟩) = d1 adj (feat b f.val) n)
    (h2 : ∀ (n : Fin 512) (f : Fin 65) (b : Fin 32), T2 (ix2 n ⟨f.val * 32 + b.val, by omega⟩) = d2 adj (feat b f.val) n)
    (b : Fin 32) (n : Fin 512) (j : Fin 195) :
    shapeCast S16384x195 (transpose S32x512x65x3 [3, 1, 2, 0] (shapeCast S3x512x65x32 (concatenate S3x512x2080 0
        [⟨S1x512x2080, broadcastInDim S1x512x2080 ![1, 2] bcast_S512x2080_S1x512x2080_1_2 T0⟩,
         ⟨S1x512x2080, broadcastInDim S1x512x2080 ![1, 2] bcast_S512x2080_S1x512x2080_1_2 T1⟩,
         ⟨S1x512x2080, broadcastInDim S1x512x2080 ![1, 2] bcast_S512x2080_S1x512x2080_1_2 T2⟩]
        concatenates_S1x512x2080_S1x512x2080_S1x512x2080_S3x512x2080_d0) shapeCasts_S3x512x2080_S3x512x65x32)
        transposes_S3x512x65x32_S32x512x65x3_3_1_2_0) shapeCasts_S32x512x65x3_S16384x195 (ix2 (rowR b n) j)
      = tap adj (j.val % 3) (feat b (j.val / 3)) n := by
  have hj : j.val < 195 := j.isLt
  refine (rtable_pick T0 T1 T2 b n j).trans ?_
  unfold tap
  by_cases c0 : j.val % 3 = 0
  · simp only [if_pos c0]
    exact h0 n ⟨j.val / 3, by omega⟩ b
  · simp only [if_neg c0]
    by_cases c1 : j.val % 3 = 1
    · simp only [if_pos c1]
      exact h1 n ⟨j.val / 3, by omega⟩ b
    · simp only [if_neg c1]
      exact h2 n ⟨j.val / 3, by omega⟩ b

/-- The convolution before its activation, 128 columns: the rows table of the taps of `feat` against the weights,
    plus the bias. -/
theorem pre128_apply (adj : (⟨2, ![512, 512]⟩ : Shape).Idx → EReal) (feat : Fin 32 → ℕ → Fin 512 → EReal)
    (R : FVec Ideal S16384x195 .f32) (W : FVec Ideal S195x128 .f32) (bias : FVec Ideal S128 .f32)
    (hR : ∀ (b : Fin 32) (n : Fin 512) (j : Fin 195), R (ix2 (rowR b n) j) = tap adj (j.val % 3) (feat b (j.val / 3)) n)
    (b : Fin 32) (n : Fin 512) (o : Fin 128) :
    addf (Host.dotGeneral dot_S16384x195_S195x128_S16384x128_1_0_0_1_n_n none R W)
        (broadcastInDim S16384x128 ![0, 1] bcast_S1x128_S16384x128_0_1 (broadcastInDim S1x128 ![1] bcast_S128_S1x128_1 bias))
        (ix2 (rowR b n) o)
      = pre adj feat W bias b n o := by
  refine (conv128_apply R W bias (rowR b n) o).trans ?_
  unfold pre
  refine congrArg (· + bias (ix1 o)) ?_
  exact Finset.sum_congr rfl fun j _ => congrArg (· * W (ix2 j o)) (hR b n j)

/-- The convolution before its activation, 64 columns. -/
theorem pre64_apply (adj : (⟨2, ![512, 512]⟩ : Shape).Idx → EReal) (feat : Fin 32 → ℕ → Fin 512 → EReal)
    (R : FVec Ideal S16384x195 .f32) (W : FVec Ideal S195x64 .f32) (bias : FVec Ideal S64 .f32)
    (hR : ∀ (b : Fin 32) (n : Fin 512) (j : Fin 195), R (ix2 (rowR b n) j) = tap adj (j.val % 3) (feat b (j.val / 3)) n)
    (b : Fin 32) (n : Fin 512) (o : Fin 64) :
    addf (Host.dotGeneral dot_S16384x195_S195x64_S16384x64_1_0_0_1_n_n none R W)
        (broadcastInDim S16384x64 ![0, 1] bcast_S1x64_S16384x64_0_1 (broadcastInDim S1x64 ![1] bcast_S64_S1x64_1 bias))
        (ix2 (rowR b n) o)
      = pre adj feat W bias b n o := by
  refine (conv64_apply R W bias (rowR b n) o).trans ?_
  unfold pre
  refine congrArg (· + bias (ix1 o)) ?_
  exact Finset.sum_congr rfl fun j _ => congrArg (· * W (ix2 j o)) (hR b n j)

/-- The new state's formula at `(b, 64 * n + u)`, the candidate's rows laid out batch-major. -/
theorem newstate_apply (U H : FVec Ideal S32x32768 .f32) (Y : FVec Ideal S16384x64 .f32) (b : Fin 32) (n : Fin 512) (u : Fin 64) :
    addf (mulf U H) (mulf (subf (broadcastInDim S32x32768 ![] bcast_S_S32x32768 (constant (F := Ideal) S_ .f32 0x3F800000#32)) U)
        (Host.tanh (shapeCast S32x32768 Y shapeCasts_S16384x64_S32x32768))) (ix2 b (nu n u))
      = U (ix2 b (nu n u)) * H (ix2 b (nu n u)) + (one - U (ix2 b (nu n u))) * Ideal.tanh (Y (ix2 (rowR b n) u)) := by
  have hY : shapeCast S32x32768 Y shapeCasts_S16384x64_S32x32768 (ix2 b (nu n u)) = Y (ix2 (rowR b n) u) :=
    rows64_flat_apply Y b n u
  rw [addf_apply, mulf_apply, mulf_apply, subf_apply]
  show U (ix2 b (nu n u)) * H (ix2 b (nu n u)) + (one - U (ix2 b (nu n u)))
    * Ideal.tanh (shapeCast S32x32768 Y shapeCasts_S16384x64_S32x32768 (ix2 b (nu n u))) = _
  rw [hY]

/-! ## The first layer's arrays -/

variable (V0 : Valuation τ sig (Elt Ideal))

/-- The first layer's state, flattened. -/
theorem res_v1 (b : Fin 32) (n : Fin 512) (u : Fin 64) :
    res_main_v1 (F := Ideal) V0 (ix2 b (nu n u)) = hAt (argsOf V0) 0 b n u.val := by
  unfold res_main_v1
  refine (hid0_apply _ b (nu n u)).trans ?_
  unfold hAt
  rw [dif_pos u.isLt]
  rfl

/-- The feature table of the input and the state. -/
theorem res_v6 (n : Fin 512) (f : Fin 65) (b : Fin 32) :
    res_main_v6 (F := Ideal) V0 (ix2 n ⟨f.val * 32 + b.val, by omega⟩)
      = feat0 (argsOf V0) (hAt (argsOf V0) 0) b f.val n := by
  unfold res_main_v6
  exact feat_apply (argsOf V0) _ _ _ (fun b n => inp1_apply _ b n)
    (fun b n u => (unflat64_apply _ b n u).trans (res_v1 V0 b n u)) n f b

/-- Its first diffusion step. -/
theorem res_v7 (n : Fin 512) (f : Fin 65) (b : Fin 32) :
    res_main_v7 (F := Ideal) V0 (ix2 n ⟨f.val * 32 + b.val, by omega⟩)
      = d1 (argsOf V0).adj (feat0 (argsOf V0) (hAt (argsOf V0) 0) b f.val) n := by
  unfold res_main_v7
  exact d1_apply _ _ _ _ (fun k => res_v6 V0 k f b) n

/-- The gates: the logistic function of the convolution of the input and the state. -/
theorem res_v30 (b : Fin 32) (n : Fin 512) (o : Fin 128) :
    res_main_v30 (F := Ideal) V0 (ix3 b n o) = g0 (argsOf V0) b n o := by
  unfold res_main_v30
  refine (gate_apply _ b n o).trans ?_
  unfold g0
  refine congrArg Ideal.logistic ?_
  exact pre128_apply (argsOf V0).adj (feat0 (argsOf V0) (hAt (argsOf V0) 0)) _ _ _
    (rtable0_apply _ _ _ _ _ (res_v6 V0) (res_v7 V0)
      (fun n f b => d2_apply _ _ _ _ _ (fun k => res_v6 V0 k f b) (fun k => res_v7 V0 k f b) n)) b n o

/-- The update gate, flattened. -/
theorem res_v34 (b : Fin 32) (n : Fin 512) (u : Fin 64) :
    res_main_v34 (F := Ideal) V0 (ix2 b (nu n u)) = u0 (argsOf V0) b n u.val := by
  unfold res_main_v34
  refine (flat64_apply _ b n u).trans ?_
  refine (sliceHi_apply _ b n u).trans ?_
  refine (res_v30 V0 b n _).trans ?_
  unfold u0
  rw [dif_pos u.isLt]

/-- The reset gate, flattened. -/
theorem res_r0 (b : Fin 32) (n : Fin 512) (u : Fin 64) :
    shapeCast S32x32768 (extractStridedSlice S32x512x64 ![0, 0, 0] (res_main_v30 (F := Ideal) V0)
        slices_S32x512x128_S32x512x64_0_0_0) shapeCasts_S32x512x64_S32x32768 (ix2 b (nu n u))
      = r0 (argsOf V0) b n u.val := by
  refine (flat64_apply _ b n u).trans ?_
  refine (sliceLo_apply _ b n u).trans ?_
  refine (res_v30 V0 b n _).trans ?_
  unfold r0
  rw [dif_pos u.isLt]

/-- The feature table of the input and the reset state. -/
theorem res_v40 (n : Fin 512) (f : Fin 65) (b : Fin 32) :
    res_main_v40 (F := Ideal) V0 (ix2 n ⟨f.val * 32 + b.val, by omega⟩)
      = feat0 (argsOf V0) (fun b n u => r0 (argsOf V0) b n u * hAt (argsOf V0) 0 b n u) b f.val n := by
  unfold res_main_v40
  exact feat_apply (argsOf V0) _ _ _ (fun b n => inp1_apply _ b n)
    (fun b n u => (unflat64_apply _ b n u).trans ((mulf_apply _ _ _).trans
      (congrArg₂ (fun x y : EReal => x * y) (res_r0 V0 b n u) (res_v1 V0 b n u)))) n f b

/-- Its first diffusion step. -/
theorem res_v41 (n : Fin 512) (f : Fin 65) (b : Fin 32) :
    res_main_v41 (F := Ideal) V0 (ix2 n ⟨f.val * 32 + b.val, by omega⟩)
      = d1 (argsOf V0).adj (feat0 (argsOf V0) (fun b n u => r0 (argsOf V0) b n u * hAt (argsOf V0) 0 b n u) b f.val) n := by
  unfold res_main_v41
  exact d1_apply _ _ _ _ (fun k => res_v40 V0 k f b) n

/-- The new state: `u * h + (1 - u) * tanh (candidate convolution)`. -/
theorem res_v63 (b : Fin 32) (n : Fin 512) (u : Fin 64) :
    res_main_v63 (F := Ideal) V0 (ix2 b (nu n u)) = h0n (argsOf V0) b n u.val := by
  unfold res_main_v63
  refine (newstate_apply _ _ _ b n u).trans ?_
  unfold h0n c0
  rw [res_v34 V0 b n u, res_v1 V0 b n u, dif_pos u.isLt]
  refine congrArg (fun t => u0 (argsOf V0) b n u.val * hAt (argsOf V0) 0 b n u.val
    + (one - u0 (argsOf V0) b n u.val) * Ideal.tanh t) ?_
  exact pre64_apply (argsOf V0).adj (feat0 (argsOf V0) (fun b n u => r0 (argsOf V0) b n u * hAt (argsOf V0) 0 b n u)) _ _ _
    (rtable0_apply _ _ _ _ _ (res_v40 V0) (res_v41 V0)
      (fun n f b => d2_apply _ _ _ _ _ (fun k => res_v40 V0 k f b) (fun k => res_v41 V0 k f b) n)) b n u

end Cert.ReferenceIdeal.ValR

end
-- ==== Proof.RVal2.lean ====
/-
  The reference's second layer and its two results, read index by index.

  The reference keeps a per-batch, per-node, per-unit quantity in the state form `[32, 64·node + unit]`. For a graph
  convolution it lays the 128 features of every batch element out as a table `[512, 128·32]` (node; column
  `32·feature + batch`), applies the adjacency to the table once and twice (the second Chebyshev term is twice the second
  product less the table), stacks the three tables, and reorders them to rows `[512·batch + node, 3·feature + tap]`, which
  it contracts with the weight matrix and adds the bias to. Each step below reads one of these arrays at an index: the
  reshapes by row-major position, the transposes by their permutation, the concatenations by the piece that holds the
  axis coordinate, the products as sums over the contracted axis. The gates are the logistic function (spelt
  `1 / (1 + exp (-y))`) of the convolution of the state, the candidate the hyperbolic tangent of the convolution of the
  reset state, the new state `u·h + (1 - u)·c`; the first result projects the new state onto one column, the second
  stacks the two layers' new states. The first layer's new state enters as a hypothesis.
-/
import proofs.«108032_g44504451121623_cont_8to1_c_180_30_alg».proof.Proof.RefRun
import proofs.«108032_g44504451121623_cont_8to1_c_180_30_alg».proof.Proof.RArgs
import proofs.«108032_g44504451121623_cont_8to1_c_180_30_alg».proof.Proof.Spec
import proofs.«108032_g44504451121623_cont_8to1_c_180_30_alg».proof.Proof.Forms
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws
import Idealize.ShloMosaic.Lib.StackMember

noncomputable section

open scoped BigOperators

namespace Cert.ReferenceIdeal.ValR2

open Idealize.ShloMosaic Idealize.ShloMosaic.ValueIdx Idealize.ShloMosaic.StableHlo Cert.ReferenceIdeal Cert.ReferenceIdeal.Gen Cert.ReferenceIdeal.ValueP Cert.ReferenceIdeal.ValR Cert.Spec Cert.Forms

/-! ## Reshapes between the batch-major vector form and the three-axis and row forms -/

/-- A state array `[32, 32768]` read as `[32, 512, 64]`: entry (batch, node, unit) is entry (batch, 64·node + unit). -/
theorem split3_apply (X : FVec Ideal S32x32768 .f32) (h : S32x32768.ShapeCasts S32x512x64) (b : Fin 32) (n : Fin 512) (u : Fin 64) :
    shapeCast S32x512x64 X h (ix3 b n u) = X (ix2 b (nu n u)) := by
  refine shapeCast_apply X h (ix3 b n u) (ix2 b (nu n u)) ?_
  rw [Shape.rowMajor_val_two, Shape.rowMajor_val_three]
  show b.val * 32768 + (n.val * 64 + u.val) = (b.val * 512 + n.val) * 64 + u.val
  omega

/-- A three-axis array `[32, 512, 64]` flattened to `[32, 32768]`. -/
theorem flat3_apply (X : FVec Ideal S32x512x64 .f32) (h : S32x512x64.ShapeCasts S32x32768) (b : Fin 32) (n : Fin 512) (u : Fin 64) :
    shapeCast S32x32768 X h (ix2 b (nu n u)) = X (ix3 b n u) := by
  refine shapeCast_apply X h (ix2 b (nu n u)) (ix3 b n u) ?_
  rw [Shape.rowMajor_val_two, Shape.rowMajor_val_three]
  show (b.val * 512 + n.val) * 64 + u.val = b.val * 32768 + (n.val * 64 + u.val)
  omega

/-! ## The feature table -/

/-- The second layer's feature table `[512, 128·32]`: column `32·f + b` of node `n` is feature `f` of batch element `b`,
    the first 64 features the units of `X`, the last 64 the units of `Y`. -/
theorem featTable_apply (X Y : FVec Ideal S32x32768 .f32) (x st : Fin 32 → Fin 512 → ℕ → EReal)
    (hX : ∀ (b : Fin 32) (n : Fin 512) (u : Fin 64), X (ix2 b (nu n u)) = x b n u.val)
    (hY : ∀ (b : Fin 32) (n : Fin 512) (u : Fin 64), Y (ix2 b (nu n u)) = st b n u.val)
    (h1 : S32x32768.ShapeCasts S32x512x64) (hc : Shape.Concatenates [S32x512x64, S32x512x64] S32x512x128 2)
    (ht : S32x512x128.Transposes [1, 2, 0] S512x128x32) (h2 : S512x128x32.ShapeCasts S512x4096)
    (n : Fin 512) (f : Fin 128) (b : Fin 32) :
    shapeCast S512x4096 (transpose S512x128x32 [1, 2, 0]
        (concatenate S32x512x128 2 [⟨S32x512x64, shapeCast S32x512x64 X h1⟩, ⟨S32x512x64, shapeCast S32x512x64 Y h1⟩] hc) ht) h2
        (ix2 n ⟨f.val * 32 + b.val, by have := f.isLt; have := b.isLt; omega⟩)
      = feat1 x st b f.val n := by
  have hb := b.isLt
  have hf := f.isLt
  have hn := n.isLt
  refine (shapeCast_apply _ h2 _ (ix3 n f b) ?_).trans ?_
  · rw [Shape.rowMajor_val_two, Shape.rowMajor_val_three]
    show (n.val * 128 + f.val) * 32 + b.val = n.val * 4096 + (f.val * 32 + b.val)
    omega
  refine (transpose_apply _ _ ht (ix3 n f b) (ix3 b n f)
    (fun a => match a with | ⟨0, _⟩ => rfl | ⟨1, _⟩ => rfl | ⟨2, _⟩ => rfl)).trans ?_
  unfold feat1
  by_cases hlt : f.val < 64
  · rw [if_pos hlt]
    refine (concatenate_pair_apply_left (t := S32x512x128) (s₁ := S32x512x64) (s₂ := S32x512x64) (2 : Fin 3) _ _ hc (ix3 b n f) rfl (ix3 b n ⟨f.val, hlt⟩)
      (fun a => match a with | ⟨0, _⟩ => rfl | ⟨1, _⟩ => rfl | ⟨2, _⟩ => rfl)).trans ?_
    rw [split3_apply, hX]
  · rw [if_neg hlt]
    refine (concatenate_pair_apply_right (t := S32x512x128) (s₁ := S32x512x64) (s₂ := S32x512x64) (2 : Fin 3) _ _ hc (ix3 b n f) rfl rfl (ix3 b n ⟨f.val - 64, by omega⟩)
      (fun a ha => match a, ha with
        | ⟨0, _⟩, _ => rfl
        | ⟨1, _⟩, _ => rfl
        | ⟨2, _⟩, ha => absurd rfl ha) ?_).trans ?_
    · show (f.val - 64) + 64 = f.val
      omega
    rw [split3_apply, hY]

/-! ## The diffusion products -/

theorem dotA_eq_plain : dot_S512x512_S512x4096_S512x4096_1_0_0_1_n_n = DotDims.plain 512 512 4096 := rfl
theorem dotG_eq_plain : dot_S16384x384_S384x128_S16384x128_1_0_0_1_n_n = DotDims.plain 16384 384 128 := rfl
theorem dotC_eq_plain : dot_S16384x384_S384x64_S16384x64_1_0_0_1_n_n = DotDims.plain 16384 384 64 := rfl
theorem dotP_eq_plain : dot_S16384x64_S64x1_S16384x1_1_0_0_1_n_n = DotDims.plain 16384 64 1 := rfl

/-- The adjacency applied to a table: entry (node, column) is the sum over the nodes. -/
theorem diffuse_apply (A : FVec Ideal S512x512 .f32) (Tb : FVec Ideal S512x4096 .f32) (n : Fin 512) (c : Fin 4096) :
    Host.dotGeneral dot_S512x512_S512x4096_S512x4096_1_0_0_1_n_n none A Tb (ix2 n c)
      = ∑ k : Fin 512, A (ix2 n k) * Tb (ix2 k c) := by
  rw [dotA_eq_plain]
  exact StackMember.dotGeneral_plain_apply none A Tb n c

/-- The second Chebyshev table: twice the adjacency applied to the first-step table, less the table itself. -/
theorem tap2_apply (A : FVec Ideal S512x512 .f32) (T0 T1 : FVec Ideal S512x4096 .f32)
    (hbs : S_.BroadcastsInDim S512x4096 (![] : Fin 0 → Fin S512x4096.rank)) (n : Fin 512) (c : Fin 4096) :
    subf (mulf (broadcastInDim S512x4096 ![] hbs (constant (F := Ideal) S_ .f32 0x40000000#32))
        (Host.dotGeneral dot_S512x512_S512x4096_S512x4096_1_0_0_1_n_n none A T1)) T0 (ix2 n c)
      = two * (∑ k : Fin 512, A (ix2 n k) * T1 (ix2 k c)) - T0 (ix2 n c) := by
  rw [subf_apply, mulf_apply, broadcastInDim_scalar_apply, constant_apply, diffuse_apply]

/-- A table laid under a new leading unit axis. -/
theorem lead1_apply (Tb : FVec Ideal S512x4096 .f32)
    (hb : S512x4096.BroadcastsInDim S1x512x4096 (![1, 2] : Fin 2 → Fin S1x512x4096.rank)) (z : Fin 1) (n : Fin 512) (c : Fin 4096) :
    broadcastInDim S1x512x4096 ![1, 2] hb Tb (ix3 z n c) = Tb (ix2 n c) :=
  broadcastInDim_apply _ hb Tb _ (ix2 n c) (fun a => match a with | ⟨0, _⟩ => rfl | ⟨1, _⟩ => rfl)

/-! ## The rows table of a graph convolution -/

/-- The three tap tables stacked, split into (tap, node, feature, batch), transposed to (batch, node, feature, tap) and
    flattened to rows: row `512·b + n`, column `j` is tap `j % 3` of feature `j / 3` of batch element `b` at node `n`. -/
theorem rtable1_apply (adj : (⟨2, ![512, 512]⟩ : Shape).Idx → EReal) (feat : Fin 32 → ℕ → Fin 512 → EReal)
    (T0 T1 T2 : FVec Ideal S512x4096 .f32)
    (h0 : ∀ (n : Fin 512) (f : Fin 128) (b : Fin 32),
      T0 (ix2 n ⟨f.val * 32 + b.val, by have := f.isLt; have := b.isLt; omega⟩) = feat b f.val n)
    (h1 : ∀ (n : Fin 512) (f : Fin 128) (b : Fin 32),
      T1 (ix2 n ⟨f.val * 32 + b.val, by have := f.isLt; have := b.isLt; omega⟩) = d1 adj (feat b f.val) n)
    (h2 : ∀ (n : Fin 512) (f : Fin 128) (b : Fin 32),
      T2 (ix2 n ⟨f.val * 32 + b.val, by have := f.isLt; have := b.isLt; omega⟩) = d2 adj (feat b f.val) n)
    (hb : S512x4096.BroadcastsInDim S1x512x4096 (![1, 2] : Fin 2 → Fin S1x512x4096.rank))
    (hc : Shape.Concatenates [S1x512x4096, S1x512x4096, S1x512x4096] S3x512x4096 0)
    (hs1 : S3x512x4096.ShapeCasts S3x512x128x32)
    (ht : S3x512x128x32.Transposes [3, 1, 2, 0] S32x512x128x3)
    (hs2 : S32x512x128x3.ShapeCasts S16384x384)
    (b : Fin 32) (n : Fin 512) (j : Fin 384) :
    shapeCast S16384x384 (transpose S32x512x128x3 [3, 1, 2, 0] (shapeCast S3x512x128x32
        (concatenate S3x512x4096 0 [⟨S1x512x4096, broadcastInDim S1x512x4096 ![1, 2] hb T0⟩,
          ⟨S1x512x4096, broadcastInDim S1x512x4096 ![1, 2] hb T1⟩,
          ⟨S1x512x4096, broadcastInDim S1x512x4096 ![1, 2] hb T2⟩] hc) hs1) ht) hs2 (ix2 (rowR b n) j)
      = tap adj (j.val % 3) (feat b (j.val / 3)) n := by
  have hbl := b.isLt
  have hnl := n.isLt
  have hjl := j.isLt
  have hf : j.val / 3 < 128 := by omega
  have ht3 : j.val % 3 < 3 := by omega
  have hcol : (j.val / 3) * 32 + b.val < 4096 := by omega
  -- rows [16384, 384] from [32, 512, 128, 3]
  refine (shapeCast_apply _ hs2 _ (ix4 b n (⟨j.val / 3, hf⟩ : Fin 128) (⟨j.val % 3, ht3⟩ : Fin 3)) ?_).trans ?_
  · rw [Shape.rowMajor_val_two, Shape.rowMajor_val_four]
    show ((b.val * 512 + n.val) * 128 + j.val / 3) * 3 + j.val % 3 = (b.val * 512 + n.val) * 384 + j.val
    omega
  -- the transpose (tap, node, feature, batch) → (batch, node, feature, tap)
  refine (transpose_apply _ _ ht _ (ix4 (⟨j.val % 3, ht3⟩ : Fin 3) n (⟨j.val / 3, hf⟩ : Fin 128) b)
    (fun a => match a with | ⟨0, _⟩ => rfl | ⟨1, _⟩ => rfl | ⟨2, _⟩ => rfl | ⟨3, _⟩ => rfl)).trans ?_
  -- [3, 512, 4096] split into [3, 512, 128, 32]
  refine (shapeCast_apply _ hs1 _ (ix3 (⟨j.val % 3, ht3⟩ : Fin 3) n (⟨(j.val / 3) * 32 + b.val, hcol⟩ : Fin 4096)) ?_).trans ?_
  · rw [Shape.rowMajor_val_three, Shape.rowMajor_val_four]
    show ((j.val % 3 * 512 + n.val) * 4096 + ((j.val / 3) * 32 + b.val))
      = (((j.val % 3 * 512 + n.val) * 128 + j.val / 3) * 32 + b.val)
    omega
  -- the piece of the stack holding tap j % 3
  have hcases : j.val % 3 = 0 ∨ j.val % 3 = 1 ∨ j.val % 3 = 2 := by omega
  unfold tap
  rcases hcases with ht0 | ht1 | ht2
  · rw [if_pos ht0]
    refine (concatenate_apply_piece (t := S3x512x4096) (0 : Fin 3)
      [⟨S1x512x4096, broadcastInDim S1x512x4096 ![1, 2] hb T0⟩, ⟨S1x512x4096, broadcastInDim S1x512x4096 ![1, 2] hb T1⟩, ⟨S1x512x4096, broadcastInDim S1x512x4096 ![1, 2] hb T2⟩]
      hc _ 0 (by show (0 : ℕ) < 3; omega) S1x512x4096 _ rfl rfl 0 rfl
      (ix3 (0 : Fin 1) n (⟨(j.val / 3) * 32 + b.val, hcol⟩ : Fin 4096))
      (fun a ha => match a, ha with
        | ⟨0, _⟩, ha => absurd rfl ha
        | ⟨1, _⟩, _ => rfl
        | ⟨2, _⟩, _ => rfl) ?_).trans ?_
    · show 0 + 0 = j.val % 3
      omega
    rw [lead1_apply]
    exact h0 n ⟨j.val / 3, hf⟩ b
  · rw [if_neg (by omega), if_pos ht1]
    refine (concatenate_apply_piece (t := S3x512x4096) (0 : Fin 3)
      [⟨S1x512x4096, broadcastInDim S1x512x4096 ![1, 2] hb T0⟩, ⟨S1x512x4096, broadcastInDim S1x512x4096 ![1, 2] hb T1⟩, ⟨S1x512x4096, broadcastInDim S1x512x4096 ![1, 2] hb T2⟩]
      hc _ 1 (by show (1 : ℕ) < 3; omega) S1x512x4096 _ rfl rfl 1 rfl
      (ix3 (0 : Fin 1) n (⟨(j.val / 3) * 32 + b.val, hcol⟩ : Fin 4096))
      (fun a ha => match a, ha with
        | ⟨0, _⟩, ha => absurd rfl ha
        | ⟨1, _⟩, _ => rfl
        | ⟨2, _⟩, _ => rfl) ?_).trans ?_
    · show 1 + 0 = j.val % 3
      omega
    rw [lead1_apply]
    exact h1 n ⟨j.val / 3, hf⟩ b
  · rw [if_neg (by omega), if_neg (by omega)]
    refine (concatenate_apply_piece (t := S3x512x4096) (0 : Fin 3)
      [⟨S1x512x4096, broadcastInDim S1x512x4096 ![1, 2] hb T0⟩, ⟨S1x512x4096, broadcastInDim S1x512x4096 ![1, 2] hb T1⟩, ⟨S1x512x4096, broadcastInDim S1x512x4096 ![1, 2] hb T2⟩]
      hc _ 2 (by show (2 : ℕ) < 3; omega) S1x512x4096 _ rfl rfl 2 rfl
      (ix3 (0 : Fin 1) n (⟨(j.val / 3) * 32 + b.val, hcol⟩ : Fin 4096))
      (fun a ha => match a, ha with
        | ⟨0, _⟩, ha => absurd rfl ha
        | ⟨1, _⟩, _ => rfl
        | ⟨2, _⟩, _ => rfl) ?_).trans ?_
    · show 2 + 0 = j.val % 3
      omega
    rw [lead1_apply]
    exact h2 n ⟨j.val / 3, hf⟩ b

/-! ## A product of rows with a weight matrix, plus a bias row -/

/-- Rows times weights plus the bias laid under every row: entry (row, column). -/
theorem gemm_bias_apply {M K O : ℕ} (R : FVec Ideal ⟨2, ![M, K]⟩ .f32) (W : FVec Ideal ⟨2, ![K, O]⟩ .f32)
    (bias : FVec Ideal ⟨1, ![O]⟩ .f32)
    (hb1 : (⟨1, ![O]⟩ : Shape).BroadcastsInDim ⟨2, ![1, O]⟩ ![1])
    (hb2 : (⟨2, ![1, O]⟩ : Shape).BroadcastsInDim ⟨2, ![M, O]⟩ ![0, 1]) (r : Fin M) (o : Fin O) :
    addf (Host.dotGeneral (DotDims.plain M K O) none R W)
        (broadcastInDim ⟨2, ![M, O]⟩ ![0, 1] hb2 (broadcastInDim ⟨2, ![1, O]⟩ ![1] hb1 bias)) (ix2 r o)
      = (∑ k : Fin K, R (ix2 r k) * W (ix2 k o)) + bias (ix1 o) := by
  rw [addf_apply, StackMember.dotGeneral_plain_apply]
  congr 1
  refine (broadcastInDim_apply _ hb2 _ (ix2 r o) (ix2 (0 : Fin 1) o) (fun a => match a with
    | ⟨0, _⟩ => rfl
    | ⟨1, _⟩ => by
      show o.val = if O = 1 then 0 else o.val
      have := o.isLt
      split <;> omega)).trans ?_
  exact broadcastInDim_apply _ hb1 _ (ix2 (0 : Fin 1) o) (ix1 o) (fun a => match a with
    | ⟨0, _⟩ => by
      show o.val = if O = 1 then 0 else o.val
      have := o.isLt
      split <;> omega)

/-! ## The taps of a feature table, and the convolution before its activation -/

/-- The adjacency applied to a feature table holds every feature's one-step diffusion. -/
theorem tap1_feat (A : FVec Ideal S512x512 .f32) (feat : Fin 32 → ℕ → Fin 512 → EReal) (T0 : FVec Ideal S512x4096 .f32)
    (h0 : ∀ (n : Fin 512) (f : Fin 128) (b : Fin 32), T0 (ix2 n ⟨f.val * 32 + b.val, by have := f.isLt; have := b.isLt; omega⟩) = feat b f.val n)
    (n : Fin 512) (f : Fin 128) (b : Fin 32) :
    Host.dotGeneral dot_S512x512_S512x4096_S512x4096_1_0_0_1_n_n none A T0 (ix2 n ⟨f.val * 32 + b.val, by have := f.isLt; have := b.isLt; omega⟩)
      = d1 A (feat b f.val) n := by
  rw [diffuse_apply]
  unfold d1
  exact Finset.sum_congr rfl fun k _ => by rw [h0 k f b]

/-- The second Chebyshev table holds every feature's second Chebyshev term. -/
theorem tap2_feat (A : FVec Ideal S512x512 .f32) (feat : Fin 32 → ℕ → Fin 512 → EReal) (T0 T1 : FVec Ideal S512x4096 .f32)
    (h0 : ∀ (n : Fin 512) (f : Fin 128) (b : Fin 32), T0 (ix2 n ⟨f.val * 32 + b.val, by have := f.isLt; have := b.isLt; omega⟩) = feat b f.val n)
    (h1 : ∀ (n : Fin 512) (f : Fin 128) (b : Fin 32), T1 (ix2 n ⟨f.val * 32 + b.val, by have := f.isLt; have := b.isLt; omega⟩) = d1 A (feat b f.val) n)
    (hbs : S_.BroadcastsInDim S512x4096 (![] : Fin 0 → Fin S512x4096.rank))
    (n : Fin 512) (f : Fin 128) (b : Fin 32) :
    subf (mulf (broadcastInDim S512x4096 ![] hbs (constant (F := Ideal) S_ .f32 0x40000000#32))
        (Host.dotGeneral dot_S512x512_S512x4096_S512x4096_1_0_0_1_n_n none A T1)) T0
        (ix2 n ⟨f.val * 32 + b.val, by have := f.isLt; have := b.isLt; omega⟩)
      = d2 A (feat b f.val) n := by
  rw [tap2_apply, h0 n f b]
  unfold d2
  congr 2
  exact Finset.sum_congr rfl fun k _ => by rw [h1 k f b]

/-- The rows table contracted with a weight matrix of `O` columns, plus the bias: the convolution before its activation. -/
theorem conv_apply {O : ℕ} (D : DotDims S16384x384 ⟨2, ![384, O]⟩ ⟨2, ![16384, O]⟩) (hD : D = DotDims.plain 16384 384 O)
    (A : FVec Ideal S512x512 .f32) (feat : Fin 32 → ℕ → Fin 512 → EReal) (T0 T1 T2 : FVec Ideal S512x4096 .f32)
    (h0 : ∀ (n : Fin 512) (f : Fin 128) (b : Fin 32), T0 (ix2 n ⟨f.val * 32 + b.val, by have := f.isLt; have := b.isLt; omega⟩) = feat b f.val n)
    (h1 : ∀ (n : Fin 512) (f : Fin 128) (b : Fin 32), T1 (ix2 n ⟨f.val * 32 + b.val, by have := f.isLt; have := b.isLt; omega⟩) = d1 A (feat b f.val) n)
    (h2 : ∀ (n : Fin 512) (f : Fin 128) (b : Fin 32), T2 (ix2 n ⟨f.val * 32 + b.val, by have := f.isLt; have := b.isLt; omega⟩) = d2 A (feat b f.val) n)
    (W : FVec Ideal ⟨2, ![384, O]⟩ .f32) (bias : FVec Ideal ⟨1, ![O]⟩ .f32)
    (hb : S512x4096.BroadcastsInDim S1x512x4096 (![1, 2] : Fin 2 → Fin S1x512x4096.rank))
    (hc : Shape.Concatenates [S1x512x4096, S1x512x4096, S1x512x4096] S3x512x4096 0)
    (hs1 : S3x512x4096.ShapeCasts S3x512x128x32)
    (ht : S3x512x128x32.Transposes [3, 1, 2, 0] S32x512x128x3)
    (hs2 : S32x512x128x3.ShapeCasts S16384x384)
    (hb1 : (⟨1, ![O]⟩ : Shape).BroadcastsInDim ⟨2, ![1, O]⟩ ![1])
    (hb2 : (⟨2, ![1, O]⟩ : Shape).BroadcastsInDim ⟨2, ![16384, O]⟩ ![0, 1])
    (b : Fin 32) (n : Fin 512) (o : Fin O) :
    addf (Host.dotGeneral D none
        (shapeCast S16384x384 (transpose S32x512x128x3 [3, 1, 2, 0] (shapeCast S3x512x128x32
          (concatenate S3x512x4096 0 [⟨S1x512x4096, broadcastInDim S1x512x4096 ![1, 2] hb T0⟩,
            ⟨S1x512x4096, broadcastInDim S1x512x4096 ![1, 2] hb T1⟩,
            ⟨S1x512x4096, broadcastInDim S1x512x4096 ![1, 2] hb T2⟩] hc) hs1) ht) hs2) W)
        (broadcastInDim ⟨2, ![16384, O]⟩ ![0, 1] hb2 (broadcastInDim ⟨2, ![1, O]⟩ ![1] hb1 bias)) (ix2 (rowR b n) o)
      = pre A feat W bias b n o := by
  subst hD
  rw [gemm_bias_apply]
  unfold pre
  congr 1
  exact Finset.sum_congr rfl fun k _ => by rw [rtable1_apply A feat T0 T1 T2 h0 h1 h2]

/-! ## The activations -/

/-- The logistic function spelt `1 / (1 + exp (-y))` over the rows `[16384, 128]` taken as `[32, 65536]`, then as
    `[32, 512, 128]`: entry (batch, node, column) is the logistic function of the row's entry. -/
theorem logistic_apply (P : FVec Ideal S16384x128 .f32) (hs1 : S16384x128.ShapeCasts S32x65536)
    (hbs : S_.BroadcastsInDim S32x65536 (![] : Fin 0 → Fin S32x65536.rank)) (hs2 : S32x65536.ShapeCasts S32x512x128)
    (b : Fin 32) (n : Fin 512) (o : Fin 128) :
    shapeCast S32x512x128 (Host.divf (broadcastInDim S32x65536 ![] hbs (constant (F := Ideal) S_ .f32 0x3F800000#32))
        (addf (broadcastInDim S32x65536 ![] hbs (constant (F := Ideal) S_ .f32 0x3F800000#32))
          (Host.exp (Host.negf (shapeCast S32x65536 P hs1))))) hs2 (ix3 b n o)
      = Ideal.logistic (P (ix2 (rowR b n) o)) := by
  have hbl := b.isLt
  have hnl := n.isLt
  have hol := o.isLt
  have hcol : n.val * 128 + o.val < 65536 := by omega
  refine (shapeCast_apply _ hs2 _ (ix2 b (⟨n.val * 128 + o.val, hcol⟩ : Fin 65536)) ?_).trans ?_
  · rw [Shape.rowMajor_val_two, Shape.rowMajor_val_three]
    show b.val * 65536 + (n.val * 128 + o.val) = (b.val * 512 + n.val) * 128 + o.val
    omega
  rw [hostDivf_apply, addf_apply, broadcastInDim_scalar_apply, constant_apply, Ideal.ofBits_one_f32]
  have e : shapeCast S32x65536 P hs1 (ix2 b (⟨n.val * 128 + o.val, hcol⟩ : Fin 65536)) = P (ix2 (rowR b n) o) := by
    refine shapeCast_apply P hs1 _ (ix2 (rowR b n) o) ?_
    rw [Shape.rowMajor_val_two, Shape.rowMajor_val_two]
    show (b.val * 512 + n.val) * 128 + o.val = b.val * 65536 + (n.val * 128 + o.val)
    omega
  show Ideal.div 1 (1 + Ideal.exp (-(shapeCast S32x65536 P hs1 (ix2 b (⟨n.val * 128 + o.val, hcol⟩ : Fin 65536))))) = _
  rw [e]
  rfl

/-- Rows `[16384, 64]` taken as the state form `[32, 32768]`. -/
theorem rows64_flat_apply (P : FVec Ideal S16384x64 .f32) (hs : S16384x64.ShapeCasts S32x32768) (b : Fin 32) (n : Fin 512) (u : Fin 64) :
    shapeCast S32x32768 P hs (ix2 b (nu n u)) = P (ix2 (rowR b n) u) := by
  refine shapeCast_apply P hs _ (ix2 (rowR b n) u) ?_
  rw [Shape.rowMajor_val_two, Shape.rowMajor_val_two]
  show (b.val * 512 + n.val) * 64 + u.val = b.val * 32768 + (n.val * 64 + u.val)
  omega

/-- The state form `[32, 32768]` taken as rows `[16384, 64]`. -/
theorem flat_rows64_apply (X : FVec Ideal S32x32768 .f32) (hs : S32x32768.ShapeCasts S16384x64) (b : Fin 32) (n : Fin 512) (u : Fin 64) :
    shapeCast S16384x64 X hs (ix2 (rowR b n) u) = X (ix2 b (nu n u)) := by
  refine shapeCast_apply X hs _ (ix2 b (nu n u)) ?_
  rw [Shape.rowMajor_val_two, Shape.rowMajor_val_two]
  show b.val * 32768 + (n.val * 64 + u.val) = (b.val * 512 + n.val) * 64 + u.val
  omega

/-- The columns from `c` on of a gate array `[32, 512, 128]`, 64 of them, in the state form. -/
theorem gateHalf_apply (G : FVec Ideal S32x512x128 .f32) (c : ℕ) (hc : c + 64 ≤ 128) (hsl : S32x512x128.Slices ![0, 0, c] S32x512x64)
    (hs : S32x512x64.ShapeCasts S32x32768) (b : Fin 32) (n : Fin 512) (u : Fin 64) :
    shapeCast S32x32768 (extractStridedSlice S32x512x64 ![0, 0, c] G hsl) hs (ix2 b (nu n u))
      = G (ix3 b n ⟨c + u.val, by have := u.isLt; omega⟩) := by
  rw [flat3_apply]
  exact extractStridedSlice_apply _ G hsl _ _ (fun a => match a with
    | ⟨0, _⟩ => by show b.val = 0 + b.val; omega
    | ⟨1, _⟩ => by show n.val = 0 + n.val; omega
    | ⟨2, _⟩ => rfl)

/-- The host's hyperbolic tangent at an index. -/
theorem hostTanh_apply {s : Shape} {φ : FTy} (x : FVec Ideal s φ) (i : s.Idx) : Host.tanh x i = Ideal.tanh (x i) := rfl

/-- The new state depends on the candidate's argument alone, the gate and the old state being the same. -/
theorem gru_congr (g h x y : EReal) (hxy : x = y) :
    g * h + (one - g) * Ideal.tanh x = g * h + (one - g) * Ideal.tanh y := by rw [hxy]

/-! ## The second layer of the reference, term by term -/

section Reference

variable (V0 : Valuation τ sig (Elt Ideal))

/-- The second layer's state, in the state form. -/
theorem res_v65 (b : Fin 32) (n : Fin 512) (u : Fin 64) :
    res_main_v65 (F := Ideal) V0 (ix2 b (nu n u)) = hAt (argsOf V0) 1 b n u.val := by
  unfold res_main_v65
  refine (shapeCast_apply _ shapeCasts_S1x32x32768_S32x32768 _ (ix3 (0 : Fin 1) b (nu n u)) ?_).trans ?_
  · rw [Shape.rowMajor_val_two, Shape.rowMajor_val_three]
    show (0 * 32 + b.val) * 32768 + (nu n u).val = b.val * 32768 + (nu n u).val
    omega
  refine (extractStridedSlice_apply _ _ slices_S2x32x32768_S1x32x32768_1_0_0 _ (ix3 (1 : Fin 2) b (nu n u))
    (fun a => match a with
      | ⟨0, _⟩ => rfl
      | ⟨1, _⟩ => by show b.val = 0 + b.val; omega
      | ⟨2, _⟩ => by show (nu n u).val = 0 + (nu n u).val; omega)).trans ?_
  unfold hAt
  rw [dif_pos u.isLt]
  rfl

/-- The feature table of the gate convolution. -/
theorem res_v70 (h63 : ∀ (b : Fin 32) (n : Fin 512) (u : Fin 64), res_main_v63 (F := Ideal) V0 (ix2 b (nu n u)) = h0n (argsOf V0) b n u.val) (n : Fin 512) (f : Fin 128) (b : Fin 32) :
    res_main_v70 (F := Ideal) V0 (ix2 n ⟨f.val * 32 + b.val, by have := f.isLt; have := b.isLt; omega⟩)
      = feat1 (h0n (argsOf V0)) (hAt (argsOf V0) 1) b f.val n := by
  unfold res_main_v70
  exact featTable_apply _ _ _ _ h63 (res_v65 V0) _ _ _ _ n f b

/-- Its one-step diffusion. -/
theorem res_v71 (h63 : ∀ (b : Fin 32) (n : Fin 512) (u : Fin 64), res_main_v63 (F := Ideal) V0 (ix2 b (nu n u)) = h0n (argsOf V0) b n u.val) (n : Fin 512) (f : Fin 128) (b : Fin 32) :
    res_main_v71 (F := Ideal) V0 (ix2 n ⟨f.val * 32 + b.val, by have := f.isLt; have := b.isLt; omega⟩)
      = d1 (argsOf V0).adj (feat1 (h0n (argsOf V0)) (hAt (argsOf V0) 1) b f.val) n := by
  unfold res_main_v71
  exact tap1_feat _ _ _ (res_v70 V0 h63) n f b

/-- The gates. -/
theorem res_v94 (h63 : ∀ (b : Fin 32) (n : Fin 512) (u : Fin 64), res_main_v63 (F := Ideal) V0 (ix2 b (nu n u)) = h0n (argsOf V0) b n u.val) (b : Fin 32) (n : Fin 512) (o : Fin 128) :
    res_main_v94 (F := Ideal) V0 (ix3 b n o) = g1 (argsOf V0) b n o := by
  unfold res_main_v94
  refine (logistic_apply _ _ _ _ b n o).trans ?_
  unfold g1
  congr 1
  exact conv_apply _ dotG_eq_plain (argsOf V0).adj _ _ _ _ (res_v70 V0 h63) (res_v71 V0 h63)
    (tap2_feat _ _ _ _ (res_v70 V0 h63) (res_v71 V0 h63) _) (argsOf V0).Wg1 (argsOf V0).bg1 _ _ _ _ _ _ _ b n o

/-- The update gate, in the state form. -/
theorem res_v98 (h63 : ∀ (b : Fin 32) (n : Fin 512) (u : Fin 64), res_main_v63 (F := Ideal) V0 (ix2 b (nu n u)) = h0n (argsOf V0) b n u.val) (b : Fin 32) (n : Fin 512) (u : Fin 64) :
    res_main_v98 (F := Ideal) V0 (ix2 b (nu n u)) = u1 (argsOf V0) b n u.val := by
  unfold res_main_v98
  refine (gateHalf_apply _ 64 (by omega) _ _ b n u).trans ?_
  rw [res_v94 V0 h63]
  unfold u1
  rw [dif_pos u.isLt]

/-- The reset gate times the state, in the state form. -/
theorem resetState_apply (h63 : ∀ (b : Fin 32) (n : Fin 512) (u : Fin 64), res_main_v63 (F := Ideal) V0 (ix2 b (nu n u)) = h0n (argsOf V0) b n u.val) (b : Fin 32) (n : Fin 512) (u : Fin 64) :
    mulf (F := Ideal) (s := S32x32768) (φ := .f32)
        (shapeCast S32x32768 (extractStridedSlice (s := S32x512x128) S32x512x64 ![0, 0, 0] (res_main_v94 (F := Ideal) V0)
          slices_S32x512x128_S32x512x64_0_0_0) shapeCasts_S32x512x64_S32x32768) (res_main_v65 (F := Ideal) V0) (ix2 b (nu n u))
      = r1 (argsOf V0) b n u.val * hAt (argsOf V0) 1 b n u.val := by
  rw [mulf_apply, res_v65]
  congr 1
  refine (gateHalf_apply _ 0 (by omega) _ _ b n u).trans ?_
  rw [res_v94 V0 h63]
  unfold r1
  rw [dif_pos u.isLt]
  congr 1
  exact Fin.ext (by show 0 + u.val = u.val; omega)

/-- The feature table of the candidate convolution. -/
theorem res_v104 (h63 : ∀ (b : Fin 32) (n : Fin 512) (u : Fin 64), res_main_v63 (F := Ideal) V0 (ix2 b (nu n u)) = h0n (argsOf V0) b n u.val) (n : Fin 512) (f : Fin 128) (b : Fin 32) :
    res_main_v104 (F := Ideal) V0 (ix2 n ⟨f.val * 32 + b.val, by have := f.isLt; have := b.isLt; omega⟩)
      = feat1 (h0n (argsOf V0)) (fun b n u => r1 (argsOf V0) b n u * hAt (argsOf V0) 1 b n u) b f.val n := by
  unfold res_main_v104
  exact featTable_apply _ _ _ (fun b n u => r1 (argsOf V0) b n u * hAt (argsOf V0) 1 b n u) h63
    (resetState_apply V0 h63) _ _ _ _ n f b

/-- Its one-step diffusion. -/
theorem res_v105 (h63 : ∀ (b : Fin 32) (n : Fin 512) (u : Fin 64), res_main_v63 (F := Ideal) V0 (ix2 b (nu n u)) = h0n (argsOf V0) b n u.val) (n : Fin 512) (f : Fin 128) (b : Fin 32) :
    res_main_v105 (F := Ideal) V0 (ix2 n ⟨f.val * 32 + b.val, by have := f.isLt; have := b.isLt; omega⟩)
      = d1 (argsOf V0).adj (feat1 (h0n (argsOf V0)) (fun b n u => r1 (argsOf V0) b n u * hAt (argsOf V0) 1 b n u) b f.val) n := by
  unfold res_main_v105
  exact tap1_feat _ _ _ (res_v104 V0 h63) n f b

/-- The second layer's new state, in the state form. -/
theorem res_v127 (h63 : ∀ (b : Fin 32) (n : Fin 512) (u : Fin 64), res_main_v63 (F := Ideal) V0 (ix2 b (nu n u)) = h0n (argsOf V0) b n u.val) (b : Fin 32) (n : Fin 512) (u : Fin 64) :
    res_main_v127 (F := Ideal) V0 (ix2 b (nu n u)) = h1n (argsOf V0) b n u.val := by
  have hc : c1 (argsOf V0) b n u.val
      = Ideal.tanh (pre (argsOf V0).adj (feat1 (h0n (argsOf V0)) (fun b n u => r1 (argsOf V0) b n u * hAt (argsOf V0) 1 b n u))
          (argsOf V0).Wc1 (argsOf V0).bc1 b n u) := by
    unfold c1
    rw [dif_pos u.isLt]
  unfold h1n
  rw [hc, ← res_v98 V0 h63 b n u, ← res_v65 V0 b n u]
  unfold res_main_v127
  rw [addf_apply, mulf_apply, mulf_apply, subf_apply, broadcastInDim_scalar_apply, constant_apply, hostTanh_apply]
  refine gru_congr _ _ _ _ ?_
  refine (rows64_flat_apply _ _ b n u).trans ?_
  exact conv_apply _ dotC_eq_plain (argsOf V0).adj _ _ _ _ (res_v104 V0 h63) (res_v105 V0 h63)
    (tap2_feat _ _ _ _ (res_v104 V0 h63) (res_v105 V0 h63) _) (argsOf V0).Wc1 (argsOf V0).bc1 _ _ _ _ _ _ _ b n u

/-- The first result: the projection of the new state. -/
theorem out_eq (h63 : ∀ (b : Fin 32) (n : Fin 512) (u : Fin 64), res_main_v63 (F := Ideal) V0 (ix2 b (nu n u)) = h0n (argsOf V0) b n u.val) :
    (shapeCast _ (addf (Host.dotGeneral (φ₂ := .f32) dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512 : S32x512.Idx → EReal) = Gout (argsOf V0) := by
  funext j
  obtain ⟨b, n, rfl⟩ : ∃ (b : Fin 32) (n : Fin 512), j = ix2 b n := ⟨j 0, j 1, eq_ix2 j⟩
  refine (shapeCast_apply _ shapeCasts_S16384x1_S32x512 _ (ix2 (rowR b n) (0 : Fin 1)) ?_).trans ?_
  · rw [Shape.rowMajor_val_two, Shape.rowMajor_val_two]
    show (b.val * 512 + n.val) * 1 + 0 = b.val * 512 + n.val
    omega
  rw [dotP_eq_plain]
  refine (gemm_bias_apply _ _ _ _ _ (rowR b n) (0 : Fin 1)).trans ?_
  show _ = out (argsOf V0) b n
  unfold out
  congr 1
  exact Finset.sum_congr rfl fun k _ => by rw [flat_rows64_apply, res_v127 V0 h63]; rfl

/-- The second result: the two layers' new states. -/
theorem hs_eq (h63 : ∀ (b : Fin 32) (n : Fin 512) (u : Fin 64), res_main_v63 (F := Ideal) V0 (ix2 b (nu n u)) = h0n (argsOf V0) b n u.val) :
    (concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0 : S2x32x32768.Idx → EReal) = Ghs (argsOf V0) := by
  funext j
  obtain ⟨l, b, p, rfl⟩ : ∃ (l : Fin 2) (b : Fin 32) (p : Fin 32768), j = ix3 l b p := ⟨j 0, j 1, j 2, eq_ix3 j⟩
  have hpl := p.isLt
  have hp : p = nu ⟨p.val / 64, by omega⟩ ⟨p.val % 64, by omega⟩ := Fin.ext (by show p.val = p.val / 64 * 64 + p.val % 64; omega)
  have hG : Ghs (argsOf V0) (ix3 l b p)
      = if l.val = 0 then h0n (argsOf V0) b ⟨p.val / 64, by omega⟩ (p.val % 64)
        else h1n (argsOf V0) b ⟨p.val / 64, by omega⟩ (p.val % 64) := rfl
  rw [hG]
  by_cases hl : l.val = 0
  · rw [if_pos hl]
    refine (concatenate_pair_apply_left (t := S2x32x32768) (s₁ := S1x32x32768) (s₂ := S1x32x32768) (0 : Fin 3) _ _
      concatenates_S1x32x32768_S1x32x32768_S2x32x32768_d0 (ix3 l b p) rfl (ix3 (0 : Fin 1) b p)
      (fun a => match a with
        | ⟨0, _⟩ => hl.symm
        | ⟨1, _⟩ => rfl
        | ⟨2, _⟩ => rfl)).trans ?_
    refine (broadcastInDim_apply _ bcast_S32x32768_S1x32x32768_1_2 _ _ (ix2 b p)
      (fun a => match a with | ⟨0, _⟩ => rfl | ⟨1, _⟩ => rfl)).trans ?_
    refine (congrArg (fun q => res_main_v63 (F := Ideal) V0 (ix2 b q)) hp).trans ?_
    exact h63 b _ _
  · rw [if_neg hl]
    have hl1 : l.val = 1 := by have := l.isLt; omega
    refine (concatenate_pair_apply_right (t := S2x32x32768) (s₁ := S1x32x32768) (s₂ := S1x32x32768) (0 : Fin 3) _ _
      concatenates_S1x32x32768_S1x32x32768_S2x32x32768_d0 (ix3 l b p) rfl rfl (ix3 (0 : Fin 1) b p)
      (fun a ha => match a, ha with
        | ⟨0, _⟩, ha => absurd rfl ha
        | ⟨1, _⟩, _ => rfl
        | ⟨2, _⟩, _ => rfl) ?_).trans ?_
    · show 0 + 1 = l.val
      omega
    refine (broadcastInDim_apply _ bcast_S32x32768_S1x32x32768_1_2 _ _ (ix2 b p)
      (fun a => match a with | ⟨0, _⟩ => rfl | ⟨1, _⟩ => rfl)).trans ?_
    refine (congrArg (fun q => res_main_v127 (F := Ideal) V0 (ix2 b q)) hp).trans ?_
    exact res_v127 V0 h63 b _ _

end Reference

end Cert.ReferenceIdeal.ValR2

end
-- ==== Proof.RFinal.lean ====
/-
  The reference program's run, with its two results named by the specification.

  The reference is host operations only, so its run ends with each result buffer at the operations' composed term of the
  launch contents (proved stretch by stretch in Proof/RRunHand.lean). Read index by index (first layer, then second layer and the results), those two terms are the
  specification's projected output and stacked new states of the launch contents' argument arrays.
-/
import proofs.«108032_g44504451121623_cont_8to1_c_180_30_alg».proof.Proof.RRunHand
import proofs.«108032_g44504451121623_cont_8to1_c_180_30_alg».proof.Proof.RVal1
import proofs.«108032_g44504451121623_cont_8to1_c_180_30_alg».proof.Proof.RVal2

noncomputable section

namespace Cert.ReferenceIdeal.Final

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.ValR Cert.Spec Cert.Forms

variable (m : (ℓ : Loc nD τ sig) → Buf (Elt Ideal) ℓ) (ρ : Dev nD → PrngReg)

/-- The reference program's run: the two results at the specification's arrays of the launch contents, the arguments unchanged. -/
theorem run : θ_run defs (onTc (τ := τ) (main (F := Ideal))) ⟨m, fun _ => 0, ρ⟩ fun r => ∀ c : Dev nD,
      r.2.mem ((c.tc : Thread nD τ).loc main_v133) = Gout (argsOf (launchContents m c))
      ∧ r.2.mem ((c.tc : Thread nD τ).loc main_v136) = Ghs (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
      ⟨(h c).1.trans (ValR2.out_eq (launchContents m c) (fun b n u => res_v63 (launchContents m c) b n u)),
       (h c).2.1.trans (ValR2.hs_eq (launchContents m c) (fun b n u => res_v63 (launchContents m c) b n u)),
       (h c).2.2⟩)
    (Cert.ReferenceIdeal.ValueP.run (F := Ideal) m ρ)

end Cert.ReferenceIdeal.Final

end
-- ==== Proof.lean ====
/-
  Both programs compute one diffusion-convolution GRU decoder step (two graph-convolution GRU cells and a linear
  projection) of a batch of 32 graph signals on 512 nodes, and the claim is that the idealized kernel and the idealized
  reference end with the same two arrays: the projected output `[32, 512]` and the two layers' new states `[2, 32, 32768]`.

  The mathematics is stated once, on the extended reals, in Proof/Spec.lean. The kernel runs two batch chunks of 16
  through one pipelined region; its body diffuses the input and the state separately, keeps the taps in blocks, contracts
  them against weight matrices whose rows the host re-laid into that block order, and doubles the adjacency before the
  second diffusion product. The reference concatenates input and state, diffuses the concatenation, interleaves feature
  and tap, and doubles the product. Index by index both are the specification: the two row orders differ by a bijection
  of the rows (a finite sum does not depend on its order), doubling distributes over a finite sum of extended reals (2 is
  finite and positive), a format change is the identity at the ideal values, and the logistic function is one function
  however it is spelt. The frame statements are the runs with the results dropped; the word-level kernel's frame is the
  same proof at its own instance; the idealization rewrote nothing, so there is nothing to preserve.
-/
import proofs.«108032_g44504451121623_cont_8to1_c_180_30_alg».proof.Defs
import proofs.«108032_g44504451121623_cont_8to1_c_180_30_alg».proof.Proof.Gen.Kernel
import proofs.«108032_g44504451121623_cont_8to1_c_180_30_alg».proof.Proof.Gen.KernelIdeal
import proofs.«108032_g44504451121623_cont_8to1_c_180_30_alg».proof.Proof.Gen.ReferenceIdeal
import proofs.«108032_g44504451121623_cont_8to1_c_180_30_alg».proof.Proof.Gen.Pre_finite_inputs
import proofs.«108032_g44504451121623_cont_8to1_c_180_30_alg».proof.Proof.KFrame
import proofs.«108032_g44504451121623_cont_8to1_c_180_30_alg».proof.Proof.KFinal
import proofs.«108032_g44504451121623_cont_8to1_c_180_30_alg».proof.Proof.RFinal
import Idealize.ShloMosaic.Adequacy
import Idealize.ShloMosaic.Init

noncomputable section

namespace Cert.Proof

open Idealize.ShloMosaic Idealize.ShloMosaic.StableHlo Idealize.SL.Sem Cert.Spec

/-- The word-level kernel runs and leaves its arguments alone. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run with the results dropped. -/
theorem frame_ri : Cert.frame_ReferenceIdeal := fun m ρ _ =>
  (θ_run Cert.ReferenceIdeal.defs _ _).mono (fun _ h c => (h c).2.2) (Cert.ReferenceIdeal.Final.run m ρ)

/-- The idealization rewrote nothing. -/
theorem preserves : Cert.preserves_Kernel_KernelIdeal := trivial

/-- From memories agreeing on the arguments the two argument records are one, so both runs end at the specification's
    two arrays of that record. -/
theorem algebraic : Cert.algebraic_KernelIdeal_ReferenceIdeal := by
  intro m ρ m' ρ' _ hagree
  refine ⟨fun c => Gout (Cert.KernelIdeal.Final.argsK m c), fun c => Ghs (Cert.KernelIdeal.Final.argsK m c),
    Cert.KernelIdeal.Final.run m ρ, ?_⟩
  refine (θ_run Cert.ReferenceIdeal.defs _ _).mono (fun r h c => ?_) (Cert.ReferenceIdeal.Final.run m' ρ')
  have e : Cert.ReferenceIdeal.ValR.argsOf (launchContents m' c) = Cert.KernelIdeal.Final.argsK m c := by
    obtain ⟨h0, h1, h2, h3, h4, h5, h6, h7, h8, h9, h10, h11, h12⟩ := hagree c
    unfold Cert.ReferenceIdeal.ValR.argsOf Cert.KernelIdeal.Final.argsK
    rw [Args.mk.injEq]
    exact ⟨h0, h1, h2, h3, h4, h5, h6, h7, h8, h9, h10, h11, h12⟩
  obtain ⟨h1, h2, h3⟩ := h c
  exact ⟨h1.trans (congrArg Gout e), h2.trans (congrArg Ghs e), h3⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
